-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x768x64x64 : Shape := ⟨4, ![8, 768, 64, 64]⟩
abbrev S8x1024x2 : Shape := ⟨3, ![8, 1024, 2]⟩
abbrev S8x1024 : Shape := ⟨2, ![8, 1024]⟩
abbrev S_ : Shape := ⟨0, ![]⟩

class Facts : Prop where
  bcast_S_S8x768x64x64 : S_.BroadcastsInDim S8x768x64x64 (![] : Fin 0 → Fin S8x768x64x64.rank)
  reducesTo_S8x768x64x64_S_d0_1_2_3 : S8x768x64x64.ReducesTo [0, 1, 2, 3] S_
  h_S_ : 0 < S_.numel
  bcast_S_S8x1024x2 : S_.BroadcastsInDim S8x1024x2 (![] : Fin 0 → Fin S8x1024x2.rank)
  reducesTo_S8x1024x2_S_d0_1_2 : S8x1024x2.ReducesTo [0, 1, 2] S_

variable [Facts]

def fn_part1 {F : FTy → Type} [FloatOps F] (main_v13 : IVec S_ 1) (main_v16 : IVec S8x1024x2 1) : IVec S_ 1 :=
  let main_c_5 : IVec S_ 1 := constantI S_ 1 1#1
  let main_v17 : IVec S_ 1 := (fun x v => Host.reduce IntOp.andi x v reducesTo_S8x1024x2_S_d0_1_2 h_S_) main_v16 main_c_5
  let main_v18 : IVec S_ 1 := andi main_v13 main_v17
  main_v18

def fn {F : FTy → Type} [FloatOps F] (main_arg0 : FVec F S8x768x64x64 .f32) (main_arg1 : FVec F S8x768x64x64 .f32) (main_arg2 : FVec F S8x1024x2 .f32) (main_arg3 : FVec F S8x1024x2 .f32) (main_arg4 : IVec S8x1024 1) (main_arg5 : IVec S8x1024 1) : IVec S_ 1 :=
  let main_v0 : FVec F S8x768x64x64 .f32 := Host.absf main_arg0
  let main_cst : FVec F S_ .f32 := constant S_ .f32 0x7F800000#32
  let main_v1 : FVec F S8x768x64x64 .f32 := broadcastInDim S8x768x64x64 ![] bcast_S_S8x768x64x64 main_cst
  let main_v2 : IVec S8x768x64x64 1 := cmpf .olt main_v0 main_v1
  let main_c : IVec S_ 1 := constantI S_ 1 1#1
  let main_v3 : IVec S_ 1 := (fun x v => Host.reduce IntOp.andi x v reducesTo_S8x768x64x64_S_d0_1_2_3 h_S_) main_v2 main_c
  let main_v4 : FVec F S8x768x64x64 .f32 := Host.absf main_arg1
  let main_cst_0 : FVec F S_ .f32 := constant S_ .f32 0x7F800000#32
  let main_v5 : FVec F S8x768x64x64 .f32 := broadcastInDim S8x768x64x64 ![] bcast_S_S8x768x64x64 main_cst_0
  let main_v6 : IVec S8x768x64x64 1 := cmpf .olt main_v4 main_v5
  let main_c_1 : IVec S_ 1 := constantI S_ 1 1#1
  let main_v7 : IVec S_ 1 := (fun x v => Host.reduce IntOp.andi x v reducesTo_S8x768x64x64_S_d0_1_2_3 h_S_) main_v6 main_c_1
  let main_v8 : IVec S_ 1 := andi main_v3 main_v7
  let main_v9 : FVec F S8x1024x2 .f32 := Host.absf main_arg2
  let main_cst_2 : FVec F S_ .f32 := constant S_ .f32 0x7F800000#32
  let main_v10 : FVec F S8x1024x2 .f32 := broadcastInDim S8x1024x2 ![] bcast_S_S8x1024x2 main_cst_2
  let main_v11 : IVec S8x1024x2 1 := cmpf .olt main_v9 main_v10
  let main_c_3 : IVec S_ 1 := constantI S_ 1 1#1
  let main_v12 : IVec S_ 1 := (fun x v => Host.reduce IntOp.andi x v reducesTo_S8x1024x2_S_d0_1_2 h_S_) main_v11 main_c_3
  let main_v13 : IVec S_ 1 := andi main_v8 main_v12
  let main_v14 : FVec F S8x1024x2 .f32 := Host.absf main_arg3
  let main_cst_4 : FVec F S_ .f32 := constant S_ .f32 0x7F800000#32
  let main_v15 : FVec F S8x1024x2 .f32 := broadcastInDim S8x1024x2 ![] bcast_S_S8x1024x2 main_cst_4
  let main_v16 : IVec S8x1024x2 1 := cmpf .olt main_v14 main_v15
  fn_part1 (F := F) main_v13 main_v16
-- ==== Kernel.lean ====
abbrev S8x768x64x64 : Shape := ⟨4, ![8, 768, 64, 64]⟩
abbrev S8x1024x2 : Shape := ⟨3, ![8, 1024, 2]⟩
abbrev S8x1024 : Shape := ⟨2, ![8, 1024]⟩
abbrev S8x1024x1 : Shape := ⟨3, ![8, 1024, 1]⟩
abbrev S8x768x4096 : Shape := ⟨3, ![8, 768, 4096]⟩
abbrev S8x1x1024 : Shape := ⟨3, ![8, 1, 1024]⟩
abbrev S8x768x1024 : Shape := ⟨3, ![8, 768, 1024]⟩
abbrev S1x128x4096 : Shape := ⟨3, ![1, 128, 4096]⟩
abbrev S1x1x1024 : Shape := ⟨3, ![1, 1, 1024]⟩
abbrev S1x128x1024 : Shape := ⟨3, ![1, 128, 1024]⟩
abbrev S1024 : Shape := ⟨1, ![1024]⟩
abbrev S4096x1024 : Shape := ⟨2, ![4096, 1024]⟩
abbrev S1x1024 : Shape := ⟨2, ![1, 1024]⟩
abbrev S128x4096 : Shape := ⟨2, ![128, 4096]⟩
abbrev S128x1024 : Shape := ⟨2, ![128, 1024]⟩
abbrev S1x1 : Shape := ⟨2, ![1, 1]⟩
abbrev S1x768x1024 : Shape := ⟨3, ![1, 768, 1024]⟩
abbrev S768x1024 : Shape := ⟨2, ![768, 1024]⟩
abbrev S1 : Shape := ⟨1, ![1]⟩
abbrev S_ : Shape := ⟨0, ![]⟩

abbrev nBuf : Space → Nat
  | .hbm => 38
  | .vmem => 26
  | .smem => 0
  | _ => 0

abbrev bufTy : (tb : Table) → Fin (tcTables nBuf tb) → BufTy
  | .hbm, ⟨0, _⟩ => ⟨S8x768x64x64, .f32⟩
  | .hbm, ⟨1, _⟩ => ⟨S8x768x64x64, .f32⟩
  | .hbm, ⟨2, _⟩ => ⟨S8x1024x2, .f32⟩
  | .hbm, ⟨3, _⟩ => ⟨S8x1024x2, .f32⟩
  | .hbm, ⟨4, _⟩ => ⟨S8x1024, .i1⟩
  | .hbm, ⟨5, _⟩ => ⟨S8x1024, .i1⟩
  | .hbm, ⟨6, _⟩ => ⟨S8x1024x1, .f32⟩
  | .hbm, ⟨7, _⟩ => ⟨S8x1024, .f32⟩
  | .hbm, ⟨8, _⟩ => ⟨S8x1024x1, .f32⟩
  | .hbm, ⟨9, _⟩ => ⟨S8x1024, .f32⟩
  | .hbm, ⟨10, _⟩ => ⟨S8x1024x1, .f32⟩
  | .hbm, ⟨11, _⟩ => ⟨S8x1024, .f32⟩
  | .hbm, ⟨12, _⟩ => ⟨S8x1024x1, .f32⟩
  | .hbm, ⟨13, _⟩ => ⟨S8x1024, .f32⟩
  | .hbm, ⟨14, _⟩ => ⟨S8x768x4096, .f32⟩
  | .hbm, ⟨15, _⟩ => ⟨S8x1x1024, .f32⟩
  | .hbm, ⟨16, _⟩ => ⟨S8x1x1024, .f32⟩
  | .hbm, ⟨17, _⟩ => ⟨S8x768x1024, .f32⟩
  | .hbm, ⟨18, _⟩ => ⟨S8x768x4096, .f32⟩
  | .hbm, ⟨19, _⟩ => ⟨S8x1x1024, .f32⟩
  | .hbm, ⟨20, _⟩ => ⟨S8x1x1024, .f32⟩
  | .hbm, ⟨21, _⟩ => ⟨S8x768x1024, .f32⟩
  | .hbm, ⟨22, _⟩ => ⟨S8x1024, .f32⟩
  | .hbm, ⟨23, _⟩ => ⟨S8x1024, .f32⟩
  | .hbm, ⟨24, _⟩ => ⟨S8x1x1024, .f32⟩
  | .hbm, ⟨25, _⟩ => ⟨S8x1x1024, .f32⟩
  | .hbm, ⟨26, _⟩ => ⟨S1x1, .f32⟩
  | .hbm, ⟨27, _⟩ => ⟨S1x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1x128x4096, .f32⟩
  | .local _ .vmem, ⟨1, _⟩ => ⟨S1x128x4096, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x4096, .f32⟩
  | .local _ .vmem, ⟨9, _⟩ => ⟨S1x128x4096, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x768x1024, .f32⟩
  | .local _ .vmem, ⟨17, _⟩ => ⟨S1x768x1024, .f32⟩
  | .local _ .vmem, ⟨18, _⟩ => ⟨S1x768x1024, .f32⟩
  | .local _ .vmem, ⟨19, _⟩ => ⟨S1x768x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1, .f32⟩
  | .local _ .vmem, ⟨25, _⟩ => ⟨S1x1, .f32⟩
  | _, _ => ⟨S8x768x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_call0_v0 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25

abbrev nD : Nat := 1
abbrev τ : Topo := Topo.v7x

variable {F : FTy → Type} [FloatOps F]

abbrev grid0 : Pipeline.Grid := ⟨2, ![8, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 6], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x768x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x768x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S8x1024x2_S8x1024x1_0_0_0 : S8x1024x2.Slices ![0, 0, 0] S8x1024x1
  shapeCasts_S8x1024x1_S8x1024 : S8x1024x1.ShapeCasts S8x1024
  slices_S8x1024x2_S8x1024x1_0_0_1 : S8x1024x2.Slices ![0, 0, 1] S8x1024x1
  shapeCasts_S8x768x64x64_S8x768x4096 : S8x768x64x64.ShapeCasts S8x768x4096
  bcast_S8x1024_S8x1x1024_0_2 : S8x1024.BroadcastsInDim S8x1x1024 (![0, 2] : Fin 2 → Fin S8x1x1024.rank)
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  iota_S4096x1024_d0_w32 : S4096x1024.Iotas .tc 32 [0]
  shapeCasts_S1024_S1x1024 : S1024.ShapeCasts S1x1024
  broadcasts_S1x1024_S4096x1024 : S1x1024.Broadcasts S4096x1024
  bitsLt_bf16_f32 : FTy.bits .bf16 < FTy.bits .f32
  natLt_1_32 : 1 < 32
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  inb_S1x1_S1x1_0_0 : ∀ a, (![0, 0] : Fin 2 → Nat) a + S1x1.size a ≤ S1x1.size a
  h_S1x1 : 0 < S1x1.numel
  inb_S1x768x1024_S1x768x1024_0_0_0 : ∀ a, (![0, 0, 0] : Fin 3 → Nat) a + S1x768x1024.size a ≤ S1x768x1024.size a
  h_S1x768x1024 : 0 < S1x768x1024.numel
  shapeCasts_S1x768x1024_S768x1024 : S1x768x1024.ShapeCasts S768x1024
  reduces_S768x1024_S1024 : S768x1024.Reduces [0] S1024
  broadcasts_S1x1024_S768x1024 : S1x1024.Broadcasts S768x1024
  shapeCasts_S1x1x1024_S1x1024 : S1x1x1024.ShapeCasts S1x1024
  shapeCasts_S1x1_S1x1 : S1x1.ShapeCasts S1x1
  reduces_S1x1024_S1 : S1x1024.Reduces [1] S1
  shapeCasts_S1_S1x1 : S1.ShapeCasts S1x1
  shapeCasts_S1x1_S_ : S1x1.ShapeCasts S_
  dot_S128x4096_S4096x1024_S128x1024_1_0_0_1_n_n_wf : DotDims.WF S128x4096 S4096x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S8x768x4096.size a
  hwx0_0 : ∀ i : grid0.Coords, EltTy.bits .f32 = 32 ∨ (Rect.block (s := S8x768x4096) S1x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S8x1x1024.size a
  hwx0_1 : ∀ i : grid0.Coords, EltTy.bits .f32 = 32 ∨ (Rect.block (s := S8x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1024.size a ≤ S8x768x1024.size a
  hwx0_3 : ∀ i : grid0.Coords, EltTy.bits .f32 = 32 ∨ (Rect.block (s := S8x768x1024) S1x128x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x4096.size a ≤ S8x768x4096.size a
  hwx1_0 : ∀ i : grid1.Coords, EltTy.bits .f32 = 32 ∨ (Rect.block (s := S8x768x4096) S1x128x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024.size a ≤ S8x1x1024.size a
  hwx1_1 : ∀ i : grid1.Coords, EltTy.bits .f32 = 32 ∨ (Rect.block (s := S8x1x1024) S1x1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S8x1x1024.size a
  hwx1_2 : ∀ i : grid1.Coords, EltTy.bits .f32 = 32 ∨ (Rect.block (s := S8x1x1024) S1x1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x1024.size a ≤ S8x768x1024.size a
  hwx1_3 : ∀ i : grid1.Coords, EltTy.bits .f32 = 32 ∨ (Rect.block (s := S8x768x1024) S1x128x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x768x1024.size a ≤ S8x768x1024.size a
  hwx2_0 : ∀ i : grid2.Coords, EltTy.bits .f32 = 32 ∨ (Rect.block (s := S8x768x1024) S1x768x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x768x1024.size a ≤ S8x768x1024.size a
  hwx2_1 : ∀ i : grid2.Coords, EltTy.bits .f32 = 32 ∨ (Rect.block (s := S8x768x1024) S1x768x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1024.size a ≤ S8x1x1024.size a
  hwx2_2 : ∀ i : grid2.Coords, EltTy.bits .f32 = 32 ∨ (Rect.block (s := S8x1x1024) S1x1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x1024.size a ≤ S8x1x1024.size a
  hwx2_3 : ∀ i : grid2.Coords, EltTy.bits .f32 = 32 ∨ (Rect.block (s := S8x1x1024) S1x1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)

variable [Facts₀]

def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf

abbrev win0_0 : Pipeline.Window sig grid0 :=
  Pipeline.Window.ofSpec (Memref.whole main_v8) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S1x128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S1x768x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x768x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v20_0) S1x1.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20_1) S1x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8x768x64x64 : Shape := ⟨4, ![8, 768, 64, 64]⟩
abbrev S8x1024x2 : Shape := ⟨3, ![8, 1024, 2]⟩
abbrev S8x1024 : Shape := ⟨2, ![8, 1024]⟩
abbrev S8x1024x1 : Shape := ⟨3, ![8, 1024, 1]⟩
abbrev S_ : Shape := ⟨0, ![]⟩
abbrev S8x768x4096 : Shape := ⟨3, ![8, 768, 4096]⟩
abbrev S8x1x1024 : Shape := ⟨3, ![8, 1, 1024]⟩
abbrev S1 : Shape := ⟨1, ![1]⟩
abbrev S1x1x1 : Shape := ⟨3, ![1, 1, 1]⟩
abbrev S8x768x1024 : Shape := ⟨3, ![8, 768, 1024]⟩
abbrev S8x1024x768 : Shape := ⟨3, ![8, 1024, 768]⟩

abbrev nBuf : Space → Nat
  | .hbm => 647
  | .vmem => 0
  | .smem => 0
  | _ => 0

abbrev hbmTy0_0 (i : Nat) : BufTy := match i % 128 with
  | 0 => ⟨S8x768x64x64, .f32⟩
  | 1 => ⟨S8x768x64x64, .f32⟩
  | 2 => ⟨S8x1024x2, .f32⟩
  | 3 => ⟨S8x1024x2, .f32⟩
  | 4 => ⟨S8x1024, .i1⟩
  | 5 => ⟨S8x1024, .i1⟩
  | 6 => ⟨S8x1024x1, .f32⟩
  | 7 => ⟨S8x1024, .f32⟩
  | 8 => ⟨S8x1024x1, .f32⟩
  | 9 => ⟨S8x1024, .f32⟩
  | 10 => ⟨S8x1024, .f32⟩
  | 11 => ⟨S8x1024, .f32⟩
  | 12 => ⟨S8x1024, .f32⟩
  | 13 => ⟨S8x1024, .f32⟩
  | 14 => ⟨S8x1024, .i32⟩
  | 15 => ⟨S_, .i32⟩
  | 16 => ⟨S8x1024, .i32⟩
  | 17 => ⟨S8x1024, .i32⟩
  | 18 => ⟨S8x1024, .i32⟩
  | 19 => ⟨S_, .i32⟩
  | 20 => ⟨S8x1024, .i32⟩
  | 21 => ⟨S8x1024, .i32⟩
  | 22 => ⟨S8x768x4096, .f32⟩
  | 23 => ⟨S_, .i32⟩
  | 24 => ⟨S8x1024, .i32⟩
  | 25 => ⟨S8x1024, .i1⟩
  | 26 => ⟨S_, .i32⟩
  | 27 => ⟨S8x1024, .i32⟩
  | 28 => ⟨S8x1024, .i1⟩
  | 29 => ⟨S8x1024, .i1⟩
  | 30 => ⟨S_, .i32⟩
  | 31 => ⟨S8x1024, .i32⟩
  | 32 => ⟨S8x1024, .i1⟩
  | 33 => ⟨S8x1024, .i1⟩
  | 34 => ⟨S_, .i32⟩
  | 35 => ⟨S8x1024, .i32⟩
  | 36 => ⟨S8x1024, .i1⟩
  | 37 => ⟨S8x1024, .i1⟩
  | 38 => ⟨S8x1024, .f32⟩
  | 39 => ⟨S_, .i32⟩
  | 40 => ⟨S_, .i32⟩
  | 41 => ⟨S_, .i32⟩
  | 42 => ⟨S8x1024, .i32⟩
  | 43 => ⟨S8x1024, .i32⟩
  | 44 => ⟨S_, .i32⟩
  | 45 => ⟨S8x1024, .i32⟩
  | 46 => ⟨S8x1024, .i32⟩
  | 47 => ⟨S_, .i32⟩
  | 48 => ⟨S8x1024, .i32⟩
  | 49 => ⟨S8x1024, .i32⟩
  | 50 => ⟨S_, .i32⟩
  | 51 => ⟨S_, .i32⟩
  | 52 => ⟨S_, .i32⟩
  | 53 => ⟨S8x1024, .i32⟩
  | 54 => ⟨S8x1024, .i32⟩
  | 55 => ⟨S_, .i32⟩
  | 56 => ⟨S8x1024, .i32⟩
  | 57 => ⟨S8x1024, .i32⟩
  | 58 => ⟨S8x1024, .i32⟩
  | 59 => ⟨S8x1x1024, .i32⟩
  | 60 => ⟨S_, .i32⟩
  | 61 => ⟨S8x1x1024, .i32⟩
  | 62 => ⟨S8x1x1024, .i1⟩
  | 63 => ⟨S_, .i32⟩
  | 64 => ⟨S8x1x1024, .i32⟩
  | 65 => ⟨S8x1x1024, .i32⟩
  | 66 => ⟨S8x1x1024, .i32⟩
  | 67 => ⟨S8x1024x1, .i32⟩
  | 68 => ⟨S1, .i32⟩
  | 69 => ⟨S_, .i32⟩
  | 70 => ⟨S8x1024x1, .i32⟩
  | 71 => ⟨S8x1024x1, .i1⟩
  | 72 => ⟨S1x1x1, .i32⟩
  | 73 => ⟨S8x1024x1, .i32⟩
  | 74 => ⟨S8x1024x1, .i1⟩
  | 75 => ⟨S8x1024x1, .i1⟩
  | 76 => ⟨S_, .i1⟩
  | 77 => ⟨S8x1024, .i1⟩
  | 78 => ⟨S8x768x1024, .f32⟩
  | 79 => ⟨S8x768x1024, .i1⟩
  | 80 => ⟨S_, .f32⟩
  | 81 => ⟨S8x768x1024, .f32⟩
  | 82 => ⟨S8x768x1024, .f32⟩
  | 83 => ⟨S8x1x1024, .f32⟩
  | 84 => ⟨S8x768x1024, .f32⟩
  | 85 => ⟨S8x768x1024, .f32⟩
  | 86 => ⟨S_, .f32⟩
  | 87 => ⟨S8x1024, .f32⟩
  | 88 => ⟨S8x1024, .f32⟩
  | 89 => ⟨S_, .f32⟩
  | 90 => ⟨S8x1024, .f32⟩
  | 91 => ⟨S8x1024, .f32⟩
  | 92 => ⟨S8x1024, .f32⟩
  | 93 => ⟨S8x1x1024, .f32⟩
  | 94 => ⟨S8x768x1024, .f32⟩
  | 95 => ⟨S8x768x1024, .f32⟩
  | 96 => ⟨S_, .i32⟩
  | 97 => ⟨S8x1024, .i32⟩
  | 98 => ⟨S8x1024, .i1⟩
  | 99 => ⟨S_, .i32⟩
  | 100 => ⟨S8x1024, .i32⟩
  | 101 => ⟨S8x1024, .i1⟩
  | 102 => ⟨S8x1024, .i1⟩
  | 103 => ⟨S_, .i32⟩
  | 104 => ⟨S8x1024, .i32⟩
  | 105 => ⟨S8x1024, .i1⟩
  | 106 => ⟨S8x1024, .i1⟩
  | 107 => ⟨S_, .i32⟩
  | 108 => ⟨S8x1024, .i32⟩
  | 109 => ⟨S8x1024, .i1⟩
  | 110 => ⟨S8x1024, .i1⟩
  | 111 => ⟨S8x1024, .f32⟩
  | 112 => ⟨S_, .i32⟩
  | 113 => ⟨S_, .i32⟩
  | 114 => ⟨S_, .i32⟩
  | 115 => ⟨S8x1024, .i32⟩
  | 116 => ⟨S8x1024, .i32⟩
  | 117 => ⟨S_, .i32⟩
  | 118 => ⟨S8x1024, .i32⟩
  | 119 => ⟨S8x1024, .i32⟩
  | 120 => ⟨S_, .i32⟩
  | 121 => ⟨S8x1024, .i32⟩
  | 122 => ⟨S8x1024, .i32⟩
  | 123 => ⟨S_, .i32⟩
  | 124 => ⟨S_, .i32⟩
  | 125 => ⟨S_, .i32⟩
  | 126 => ⟨S8x1024, .i32⟩
  | 127 => ⟨S8x1024, .i32⟩
  | _ => ⟨S8x768x64x64, .f32⟩

abbrev hbmTy0_1 (i : Nat) : BufTy := match i % 128 with
  | 0 => ⟨S_, .i32⟩
  | 1 => ⟨S8x1024, .i32⟩
  | 2 => ⟨S8x1024, .i32⟩
  | 3 => ⟨S8x1024, .i32⟩
  | 4 => ⟨S8x1x1024, .i32⟩
  | 5 => ⟨S_, .i32⟩
  | 6 => ⟨S8x1x1024, .i32⟩
  | 7 => ⟨S8x1x1024, .i1⟩
  | 8 => ⟨S_, .i32⟩
  | 9 => ⟨S8x1x1024, .i32⟩
  | 10 => ⟨S8x1x1024, .i32⟩
  | 11 => ⟨S8x1x1024, .i32⟩
  | 12 => ⟨S8x1024x1, .i32⟩
  | 13 => ⟨S1, .i32⟩
  | 14 => ⟨S_, .i32⟩
  | 15 => ⟨S8x1024x1, .i32⟩
  | 16 => ⟨S8x1024x1, .i1⟩
  | 17 => ⟨S1x1x1, .i32⟩
  | 18 => ⟨S8x1024x1, .i32⟩
  | 19 => ⟨S8x1024x1, .i1⟩
  | 20 => ⟨S8x1024x1, .i1⟩
  | 21 => ⟨S_, .i1⟩
  | 22 => ⟨S8x1024, .i1⟩
  | 23 => ⟨S8x768x1024, .f32⟩
  | 24 => ⟨S8x768x1024, .i1⟩
  | 25 => ⟨S_, .f32⟩
  | 26 => ⟨S8x768x1024, .f32⟩
  | 27 => ⟨S8x768x1024, .f32⟩
  | 28 => ⟨S8x1x1024, .f32⟩
  | 29 => ⟨S8x768x1024, .f32⟩
  | 30 => ⟨S8x768x1024, .f32⟩
  | 31 => ⟨S_, .f32⟩
  | 32 => ⟨S8x1024, .f32⟩
  | 33 => ⟨S8x1024, .f32⟩
  | 34 => ⟨S8x1024, .f32⟩
  | 35 => ⟨S8x1x1024, .f32⟩
  | 36 => ⟨S8x768x1024, .f32⟩
  | 37 => ⟨S8x768x1024, .f32⟩
  | 38 => ⟨S8x768x1024, .f32⟩
  | 39 => ⟨S_, .i32⟩
  | 40 => ⟨S8x1024, .i32⟩
  | 41 => ⟨S8x1024, .i1⟩
  | 42 => ⟨S_, .i32⟩
  | 43 => ⟨S8x1024, .i32⟩
  | 44 => ⟨S8x1024, .i1⟩
  | 45 => ⟨S8x1024, .i1⟩
  | 46 => ⟨S_, .i32⟩
  | 47 => ⟨S8x1024, .i32⟩
  | 48 => ⟨S8x1024, .i1⟩
  | 49 => ⟨S8x1024, .i1⟩
  | 50 => ⟨S_, .i32⟩
  | 51 => ⟨S8x1024, .i32⟩
  | 52 => ⟨S8x1024, .i1⟩
  | 53 => ⟨S8x1024, .i1⟩
  | 54 => ⟨S8x1024, .f32⟩
  | 55 => ⟨S_, .i32⟩
  | 56 => ⟨S_, .i32⟩
  | 57 => ⟨S_, .i32⟩
  | 58 => ⟨S8x1024, .i32⟩
  | 59 => ⟨S8x1024, .i32⟩
  | 60 => ⟨S_, .i32⟩
  | 61 => ⟨S8x1024, .i32⟩
  | 62 => ⟨S8x1024, .i32⟩
  | 63 => ⟨S_, .i32⟩
  | 64 => ⟨S8x1024, .i32⟩
  | 65 => ⟨S8x1024, .i32⟩
  | 66 => ⟨S_, .i32⟩
  | 67 => ⟨S_, .i32⟩
  | 68 => ⟨S_, .i32⟩
  | 69 => ⟨S8x1024, .i32⟩
  | 70 => ⟨S8x1024, .i32⟩
  | 71 => ⟨S_, .i32⟩
  | 72 => ⟨S8x1024, .i32⟩
  | 73 => ⟨S8x1024, .i32⟩
  | 74 => ⟨S8x1024, .i32⟩
  | 75 => ⟨S8x1x1024, .i32⟩
  | 76 => ⟨S_, .i32⟩
  | 77 => ⟨S8x1x1024, .i32⟩
  | 78 => ⟨S8x1x1024, .i1⟩
  | 79 => ⟨S_, .i32⟩
  | 80 => ⟨S8x1x1024, .i32⟩
  | 81 => ⟨S8x1x1024, .i32⟩
  | 82 => ⟨S8x1x1024, .i32⟩
  | 83 => ⟨S8x1024x1, .i32⟩
  | 84 => ⟨S1, .i32⟩
  | 85 => ⟨S_, .i32⟩
  | 86 => ⟨S8x1024x1, .i32⟩
  | 87 => ⟨S8x1024x1, .i1⟩
  | 88 => ⟨S1x1x1, .i32⟩
  | 89 => ⟨S8x1024x1, .i32⟩
  | 90 => ⟨S8x1024x1, .i1⟩
  | 91 => ⟨S8x1024x1, .i1⟩
  | 92 => ⟨S_, .i1⟩
  | 93 => ⟨S8x1024, .i1⟩
  | 94 => ⟨S8x768x1024, .f32⟩
  | 95 => ⟨S8x768x1024, .i1⟩
  | 96 => ⟨S_, .f32⟩
  | 97 => ⟨S8x768x1024, .f32⟩
  | 98 => ⟨S8x768x1024, .f32⟩
  | 99 => ⟨S8x1x1024, .f32⟩
  | 100 => ⟨S8x768x1024, .f32⟩
  | 101 => ⟨S8x768x1024, .f32⟩
  | 102 => ⟨S_, .f32⟩
  | 103 => ⟨S8x1024, .f32⟩
  | 104 => ⟨S8x1024, .f32⟩
  | 105 => ⟨S8x1024, .f32⟩
  | 106 => ⟨S8x1x1024, .f32⟩
  | 107 => ⟨S8x768x1024, .f32⟩
  | 108 => ⟨S8x768x1024, .f32⟩
  | 109 => ⟨S8x768x1024, .f32⟩
  | 110 => ⟨S_, .i32⟩
  | 111 => ⟨S8x1024, .i32⟩
  | 112 => ⟨S8x1024, .i1⟩
  | 113 => ⟨S_, .i32⟩
  | 114 => ⟨S8x1024, .i32⟩
  | 115 => ⟨S8x1024, .i1⟩
  | 116 => ⟨S8x1024, .i1⟩
  | 117 => ⟨S_, .i32⟩
  | 118 => ⟨S8x1024, .i32⟩
  | 119 => ⟨S8x1024, .i1⟩
  | 120 => ⟨S8x1024, .i1⟩
  | 121 => ⟨S_, .i32⟩
  | 122 => ⟨S8x1024, .i32⟩
  | 123 => ⟨S8x1024, .i1⟩
  | 124 => ⟨S8x1024, .i1⟩
  | 125 => ⟨S8x1024, .f32⟩
  | 126 => ⟨S_, .i32⟩
  | 127 => ⟨S_, .i32⟩
  | _ => ⟨S8x768x64x64, .f32⟩

abbrev hbmTy0_2 (i : Nat) : BufTy := match i % 128 with
  | 0 => ⟨S_, .i32⟩
  | 1 => ⟨S8x1024, .i32⟩
  | 2 => ⟨S8x1024, .i32⟩
  | 3 => ⟨S_, .i32⟩
  | 4 => ⟨S8x1024, .i32⟩
  | 5 => ⟨S8x1024, .i32⟩
  | 6 => ⟨S_, .i32⟩
  | 7 => ⟨S8x1024, .i32⟩
  | 8 => ⟨S8x1024, .i32⟩
  | 9 => ⟨S_, .i32⟩
  | 10 => ⟨S_, .i32⟩
  | 11 => ⟨S_, .i32⟩
  | 12 => ⟨S8x1024, .i32⟩
  | 13 => ⟨S8x1024, .i32⟩
  | 14 => ⟨S_, .i32⟩
  | 15 => ⟨S8x1024, .i32⟩
  | 16 => ⟨S8x1024, .i32⟩
  | 17 => ⟨S8x1024, .i32⟩
  | 18 => ⟨S8x1x1024, .i32⟩
  | 19 => ⟨S_, .i32⟩
  | 20 => ⟨S8x1x1024, .i32⟩
  | 21 => ⟨S8x1x1024, .i1⟩
  | 22 => ⟨S_, .i32⟩
  | 23 => ⟨S8x1x1024, .i32⟩
  | 24 => ⟨S8x1x1024, .i32⟩
  | 25 => ⟨S8x1x1024, .i32⟩
  | 26 => ⟨S8x1024x1, .i32⟩
  | 27 => ⟨S1, .i32⟩
  | 28 => ⟨S_, .i32⟩
  | 29 => ⟨S8x1024x1, .i32⟩
  | 30 => ⟨S8x1024x1, .i1⟩
  | 31 => ⟨S1x1x1, .i32⟩
  | 32 => ⟨S8x1024x1, .i32⟩
  | 33 => ⟨S8x1024x1, .i1⟩
  | 34 => ⟨S8x1024x1, .i1⟩
  | 35 => ⟨S_, .i1⟩
  | 36 => ⟨S8x1024, .i1⟩
  | 37 => ⟨S8x768x1024, .f32⟩
  | 38 => ⟨S8x768x1024, .i1⟩
  | 39 => ⟨S_, .f32⟩
  | 40 => ⟨S8x768x1024, .f32⟩
  | 41 => ⟨S8x768x1024, .f32⟩
  | 42 => ⟨S8x1x1024, .f32⟩
  | 43 => ⟨S8x768x1024, .f32⟩
  | 44 => ⟨S8x768x1024, .f32⟩
  | 45 => ⟨S8x1024, .f32⟩
  | 46 => ⟨S8x1x1024, .f32⟩
  | 47 => ⟨S8x768x1024, .f32⟩
  | 48 => ⟨S8x768x1024, .f32⟩
  | 49 => ⟨S8x768x1024, .f32⟩
  | 50 => ⟨S8x1024x768, .f32⟩
  | 51 => ⟨S8x1024x1, .f32⟩
  | 52 => ⟨S8x1024, .f32⟩
  | 53 => ⟨S8x1024x1, .f32⟩
  | 54 => ⟨S8x1024, .f32⟩
  | 55 => ⟨S8x1024, .f32⟩
  | 56 => ⟨S8x1024, .f32⟩
  | 57 => ⟨S8x1024, .f32⟩
  | 58 => ⟨S8x1024, .f32⟩
  | 59 => ⟨S8x1024, .i32⟩
  | 60 => ⟨S_, .i32⟩
  | 61 => ⟨S8x1024, .i32⟩
  | 62 => ⟨S8x1024, .i32⟩
  | 63 => ⟨S8x1024, .i32⟩
  | 64 => ⟨S_, .i32⟩
  | 65 => ⟨S8x1024, .i32⟩
  | 66 => ⟨S8x1024, .i32⟩
  | 67 => ⟨S8x768x4096, .f32⟩
  | 68 => ⟨S_, .i32⟩
  | 69 => ⟨S8x1024, .i32⟩
  | 70 => ⟨S8x1024, .i1⟩
  | 71 => ⟨S_, .i32⟩
  | 72 => ⟨S8x1024, .i32⟩
  | 73 => ⟨S8x1024, .i1⟩
  | 74 => ⟨S8x1024, .i1⟩
  | 75 => ⟨S_, .i32⟩
  | 76 => ⟨S8x1024, .i32⟩
  | 77 => ⟨S8x1024, .i1⟩
  | 78 => ⟨S8x1024, .i1⟩
  | 79 => ⟨S_, .i32⟩
  | 80 => ⟨S8x1024, .i32⟩
  | 81 => ⟨S8x1024, .i1⟩
  | 82 => ⟨S8x1024, .i1⟩
  | 83 => ⟨S8x1024, .f32⟩
  | 84 => ⟨S_, .i32⟩
  | 85 => ⟨S_, .i32⟩
  | 86 => ⟨S_, .i32⟩
  | 87 => ⟨S8x1024, .i32⟩
  | 88 => ⟨S8x1024, .i32⟩
  | 89 => ⟨S_, .i32⟩
  | 90 => ⟨S8x1024, .i32⟩
  | 91 => ⟨S8x1024, .i32⟩
  | 92 => ⟨S_, .i32⟩
  | 93 => ⟨S8x1024, .i32⟩
  | 94 => ⟨S8x1024, .i32⟩
  | 95 => ⟨S_, .i32⟩
  | 96 => ⟨S_, .i32⟩
  | 97 => ⟨S_, .i32⟩
  | 98 => ⟨S8x1024, .i32⟩
  | 99 => ⟨S8x1024, .i32⟩
  | 100 => ⟨S_, .i32⟩
  | 101 => ⟨S8x1024, .i32⟩
  | 102 => ⟨S8x1024, .i32⟩
  | 103 => ⟨S8x1024, .i32⟩
  | 104 => ⟨S8x1x1024, .i32⟩
  | 105 => ⟨S_, .i32⟩
  | 106 => ⟨S8x1x1024, .i32⟩
  | 107 => ⟨S8x1x1024, .i1⟩
  | 108 => ⟨S_, .i32⟩
  | 109 => ⟨S8x1x1024, .i32⟩
  | 110 => ⟨S8x1x1024, .i32⟩
  | 111 => ⟨S8x1x1024, .i32⟩
  | 112 => ⟨S8x1024x1, .i32⟩
  | 113 => ⟨S1, .i32⟩
  | 114 => ⟨S_, .i32⟩
  | 115 => ⟨S8x1024x1, .i32⟩
  | 116 => ⟨S8x1024x1, .i1⟩
  | 117 => ⟨S1x1x1, .i32⟩
  | 118 => ⟨S8x1024x1, .i32⟩
  | 119 => ⟨S8x1024x1, .i1⟩
  | 120 => ⟨S8x1024x1, .i1⟩
  | 121 => ⟨S_, .i1⟩
  | 122 => ⟨S8x1024, .i1⟩
  | 123 => ⟨S8x768x1024, .f32⟩
  | 124 => ⟨S8x768x1024, .i1⟩
  | 125 => ⟨S_, .f32⟩
  | 126 => ⟨S8x768x1024, .f32⟩
  | 127 => ⟨S8x768x1024, .f32⟩
  | _ => ⟨S8x768x64x64, .f32⟩

abbrev hbmTy0_3 (i : Nat) : BufTy := match i % 128 with
  | 0 => ⟨S8x1x1024, .f32⟩
  | 1 => ⟨S8x768x1024, .f32⟩
  | 2 => ⟨S8x768x1024, .f32⟩
  | 3 => ⟨S_, .f32⟩
  | 4 => ⟨S8x1024, .f32⟩
  | 5 => ⟨S8x1024, .f32⟩
  | 6 => ⟨S_, .f32⟩
  | 7 => ⟨S8x1024, .f32⟩
  | 8 => ⟨S8x1024, .f32⟩
  | 9 => ⟨S8x1024, .f32⟩
  | 10 => ⟨S8x1x1024, .f32⟩
  | 11 => ⟨S8x768x1024, .f32⟩
  | 12 => ⟨S8x768x1024, .f32⟩
  | 13 => ⟨S_, .i32⟩
  | 14 => ⟨S8x1024, .i32⟩
  | 15 => ⟨S8x1024, .i1⟩
  | 16 => ⟨S_, .i32⟩
  | 17 => ⟨S8x1024, .i32⟩
  | 18 => ⟨S8x1024, .i1⟩
  | 19 => ⟨S8x1024, .i1⟩
  | 20 => ⟨S_, .i32⟩
  | 21 => ⟨S8x1024, .i32⟩
  | 22 => ⟨S8x1024, .i1⟩
  | 23 => ⟨S8x1024, .i1⟩
  | 24 => ⟨S_, .i32⟩
  | 25 => ⟨S8x1024, .i32⟩
  | 26 => ⟨S8x1024, .i1⟩
  | 27 => ⟨S8x1024, .i1⟩
  | 28 => ⟨S8x1024, .f32⟩
  | 29 => ⟨S_, .i32⟩
  | 30 => ⟨S_, .i32⟩
  | 31 => ⟨S_, .i32⟩
  | 32 => ⟨S8x1024, .i32⟩
  | 33 => ⟨S8x1024, .i32⟩
  | 34 => ⟨S_, .i32⟩
  | 35 => ⟨S8x1024, .i32⟩
  | 36 => ⟨S8x1024, .i32⟩
  | 37 => ⟨S_, .i32⟩
  | 38 => ⟨S8x1024, .i32⟩
  | 39 => ⟨S8x1024, .i32⟩
  | 40 => ⟨S_, .i32⟩
  | 41 => ⟨S_, .i32⟩
  | 42 => ⟨S_, .i32⟩
  | 43 => ⟨S8x1024, .i32⟩
  | 44 => ⟨S8x1024, .i32⟩
  | 45 => ⟨S_, .i32⟩
  | 46 => ⟨S8x1024, .i32⟩
  | 47 => ⟨S8x1024, .i32⟩
  | 48 => ⟨S8x1024, .i32⟩
  | 49 => ⟨S8x1x1024, .i32⟩
  | 50 => ⟨S_, .i32⟩
  | 51 => ⟨S8x1x1024, .i32⟩
  | 52 => ⟨S8x1x1024, .i1⟩
  | 53 => ⟨S_, .i32⟩
  | 54 => ⟨S8x1x1024, .i32⟩
  | 55 => ⟨S8x1x1024, .i32⟩
  | 56 => ⟨S8x1x1024, .i32⟩
  | 57 => ⟨S8x1024x1, .i32⟩
  | 58 => ⟨S1, .i32⟩
  | 59 => ⟨S_, .i32⟩
  | 60 => ⟨S8x1024x1, .i32⟩
  | 61 => ⟨S8x1024x1, .i1⟩
  | 62 => ⟨S1x1x1, .i32⟩
  | 63 => ⟨S8x1024x1, .i32⟩
  | 64 => ⟨S8x1024x1, .i1⟩
  | 65 => ⟨S8x1024x1, .i1⟩
  | 66 => ⟨S_, .i1⟩
  | 67 => ⟨S8x1024, .i1⟩
  | 68 => ⟨S8x768x1024, .f32⟩
  | 69 => ⟨S8x768x1024, .i1⟩
  | 70 => ⟨S_, .f32⟩
  | 71 => ⟨S8x768x1024, .f32⟩
  | 72 => ⟨S8x768x1024, .f32⟩
  | 73 => ⟨S8x1x1024, .f32⟩
  | 74 => ⟨S8x768x1024, .f32⟩
  | 75 => ⟨S8x768x1024, .f32⟩
  | 76 => ⟨S_, .f32⟩
  | 77 => ⟨S8x1024, .f32⟩
  | 78 => ⟨S8x1024, .f32⟩
  | 79 => ⟨S8x1024, .f32⟩
  | 80 => ⟨S8x1x1024, .f32⟩
  | 81 => ⟨S8x768x1024, .f32⟩
  | 82 => ⟨S8x768x1024, .f32⟩
  | 83 => ⟨S8x768x1024, .f32⟩
  | 84 => ⟨S_, .i32⟩
  | 85 => ⟨S8x1024, .i32⟩
  | 86 => ⟨S8x1024, .i1⟩
  | 87 => ⟨S_, .i32⟩
  | 88 => ⟨S8x1024, .i32⟩
  | 89 => ⟨S8x1024, .i1⟩
  | 90 => ⟨S8x1024, .i1⟩
  | 91 => ⟨S_, .i32⟩
  | 92 => ⟨S8x1024, .i32⟩
  | 93 => ⟨S8x1024, .i1⟩
  | 94 => ⟨S8x1024, .i1⟩
  | 95 => ⟨S_, .i32⟩
  | 96 => ⟨S8x1024, .i32⟩
  | 97 => ⟨S8x1024, .i1⟩
  | 98 => ⟨S8x1024, .i1⟩
  | 99 => ⟨S8x1024, .f32⟩
  | 100 => ⟨S_, .i32⟩
  | 101 => ⟨S_, .i32⟩
  | 102 => ⟨S_, .i32⟩
  | 103 => ⟨S8x1024, .i32⟩
  | 104 => ⟨S8x1024, .i32⟩
  | 105 => ⟨S_, .i32⟩
  | 106 => ⟨S8x1024, .i32⟩
  | 107 => ⟨S8x1024, .i32⟩
  | 108 => ⟨S_, .i32⟩
  | 109 => ⟨S8x1024, .i32⟩
  | 110 => ⟨S8x1024, .i32⟩
  | 111 => ⟨S_, .i32⟩
  | 112 => ⟨S_, .i32⟩
  | 113 => ⟨S_, .i32⟩
  | 114 => ⟨S8x1024, .i32⟩
  | 115 => ⟨S8x1024, .i32⟩
  | 116 => ⟨S_, .i32⟩
  | 117 => ⟨S8x1024, .i32⟩
  | 118 => ⟨S8x1024, .i32⟩
  | 119 => ⟨S8x1024, .i32⟩
  | 120 => ⟨S8x1x1024, .i32⟩
  | 121 => ⟨S_, .i32⟩
  | 122 => ⟨S8x1x1024, .i32⟩
  | 123 => ⟨S8x1x1024, .i1⟩
  | 124 => ⟨S_, .i32⟩
  | 125 => ⟨S8x1x1024, .i32⟩
  | 126 => ⟨S8x1x1024, .i32⟩
  | 127 => ⟨S8x1x1024, .i32⟩
  | _ => ⟨S8x768x64x64, .f32⟩

abbrev hbmTy0_4 (i : Nat) : BufTy := match i % 128 with
  | 0 => ⟨S8x1024x1, .i32⟩
  | 1 => ⟨S1, .i32⟩
  | 2 => ⟨S_, .i32⟩
  | 3 => ⟨S8x1024x1, .i32⟩
  | 4 => ⟨S8x1024x1, .i1⟩
  | 5 => ⟨S1x1x1, .i32⟩
  | 6 => ⟨S8x1024x1, .i32⟩
  | 7 => ⟨S8x1024x1, .i1⟩
  | 8 => ⟨S8x1024x1, .i1⟩
  | 9 => ⟨S_, .i1⟩
  | 10 => ⟨S8x1024, .i1⟩
  | 11 => ⟨S8x768x1024, .f32⟩
  | 12 => ⟨S8x768x1024, .i1⟩
  | 13 => ⟨S_, .f32⟩
  | 14 => ⟨S8x768x1024, .f32⟩
  | 15 => ⟨S8x768x1024, .f32⟩
  | 16 => ⟨S8x1x1024, .f32⟩
  | 17 => ⟨S8x768x1024, .f32⟩
  | 18 => ⟨S8x768x1024, .f32⟩
  | 19 => ⟨S_, .f32⟩
  | 20 => ⟨S8x1024, .f32⟩
  | 21 => ⟨S8x1024, .f32⟩
  | 22 => ⟨S8x1024, .f32⟩
  | 23 => ⟨S8x1x1024, .f32⟩
  | 24 => ⟨S8x768x1024, .f32⟩
  | 25 => ⟨S8x768x1024, .f32⟩
  | 26 => ⟨S8x768x1024, .f32⟩
  | 27 => ⟨S_, .i32⟩
  | 28 => ⟨S8x1024, .i32⟩
  | 29 => ⟨S8x1024, .i1⟩
  | 30 => ⟨S_, .i32⟩
  | 31 => ⟨S8x1024, .i32⟩
  | 32 => ⟨S8x1024, .i1⟩
  | 33 => ⟨S8x1024, .i1⟩
  | 34 => ⟨S_, .i32⟩
  | 35 => ⟨S8x1024, .i32⟩
  | 36 => ⟨S8x1024, .i1⟩
  | 37 => ⟨S8x1024, .i1⟩
  | 38 => ⟨S_, .i32⟩
  | 39 => ⟨S8x1024, .i32⟩
  | 40 => ⟨S8x1024, .i1⟩
  | 41 => ⟨S8x1024, .i1⟩
  | 42 => ⟨S8x1024, .f32⟩
  | 43 => ⟨S_, .i32⟩
  | 44 => ⟨S_, .i32⟩
  | 45 => ⟨S_, .i32⟩
  | 46 => ⟨S8x1024, .i32⟩
  | 47 => ⟨S8x1024, .i32⟩
  | 48 => ⟨S_, .i32⟩
  | 49 => ⟨S8x1024, .i32⟩
  | 50 => ⟨S8x1024, .i32⟩
  | 51 => ⟨S_, .i32⟩
  | 52 => ⟨S8x1024, .i32⟩
  | 53 => ⟨S8x1024, .i32⟩
  | 54 => ⟨S_, .i32⟩
  | 55 => ⟨S_, .i32⟩
  | 56 => ⟨S_, .i32⟩
  | 57 => ⟨S8x1024, .i32⟩
  | 58 => ⟨S8x1024, .i32⟩
  | 59 => ⟨S_, .i32⟩
  | 60 => ⟨S8x1024, .i32⟩
  | 61 => ⟨S8x1024, .i32⟩
  | 62 => ⟨S8x1024, .i32⟩
  | 63 => ⟨S8x1x1024, .i32⟩
  | 64 => ⟨S_, .i32⟩
  | 65 => ⟨S8x1x1024, .i32⟩
  | 66 => ⟨S8x1x1024, .i1⟩
  | 67 => ⟨S_, .i32⟩
  | 68 => ⟨S8x1x1024, .i32⟩
  | 69 => ⟨S8x1x1024, .i32⟩
  | 70 => ⟨S8x1x1024, .i32⟩
  | 71 => ⟨S8x1024x1, .i32⟩
  | 72 => ⟨S1, .i32⟩
  | 73 => ⟨S_, .i32⟩
  | 74 => ⟨S8x1024x1, .i32⟩
  | 75 => ⟨S8x1024x1, .i1⟩
  | 76 => ⟨S1x1x1, .i32⟩
  | 77 => ⟨S8x1024x1, .i32⟩
  | 78 => ⟨S8x1024x1, .i1⟩
  | 79 => ⟨S8x1024x1, .i1⟩
  | 80 => ⟨S_, .i1⟩
  | 81 => ⟨S8x1024, .i1⟩
  | 82 => ⟨S8x768x1024, .f32⟩
  | 83 => ⟨S8x768x1024, .i1⟩
  | 84 => ⟨S_, .f32⟩
  | 85 => ⟨S8x768x1024, .f32⟩
  | 86 => ⟨S8x768x1024, .f32⟩
  | 87 => ⟨S8x1x1024, .f32⟩
  | 88 => ⟨S8x768x1024, .f32⟩
  | 89 => ⟨S8x768x1024, .f32⟩
  | 90 => ⟨S8x1024, .f32⟩
  | 91 => ⟨S8x1x1024, .f32⟩
  | 92 => ⟨S8x768x1024, .f32⟩
  | 93 => ⟨S8x768x1024, .f32⟩
  | 94 => ⟨S8x768x1024, .f32⟩
  | 95 => ⟨S8x1024x768, .f32⟩
  | 96 => ⟨S8x1024, .i1⟩
  | 97 => ⟨S8x1024, .f32⟩
  | 98 => ⟨S8x1024x768, .f32⟩
  | 99 => ⟨S_, .f32⟩
  | 100 => ⟨S8x1024, .f32⟩
  | 101 => ⟨S8x1024x1, .f32⟩
  | 102 => ⟨S8x1024x1, .f32⟩
  | 103 => ⟨S_, .f32⟩
  | 104 => ⟨S8x1024x1, .f32⟩
  | 105 => ⟨S8x1024x1, .f32⟩
  | 106 => ⟨S8x1024x768, .f32⟩
  | 107 => ⟨S8x1024x768, .f32⟩
  | 108 => ⟨S8x1024x768, .f32⟩
  | 109 => ⟨S_, .f32⟩
  | 110 => ⟨S8x1024, .f32⟩
  | 111 => ⟨S8x1024x1, .f32⟩
  | 112 => ⟨S8x1024x1, .f32⟩
  | 113 => ⟨S_, .f32⟩
  | 114 => ⟨S8x1024x1, .f32⟩
  | 115 => ⟨S8x1024x1, .f32⟩
  | 116 => ⟨S8x1024x768, .f32⟩
  | 117 => ⟨S8x1024x768, .f32⟩
  | 118 => ⟨S8x1024x768, .f32⟩
  | 119 => ⟨S8x1024x768, .f32⟩
  | 120 => ⟨S_, .f32⟩
  | 121 => ⟨S8x1024, .f32⟩
  | 122 => ⟨S8x1024, .f32⟩
  | 123 => ⟨S_, .f32⟩
  | 124 => ⟨S_, .f32⟩
  | 125 => ⟨S_, .f32⟩
  | 126 => ⟨S_, .i1⟩
  | 127 => ⟨S_, .f32⟩
  | _ => ⟨S8x768x64x64, .f32⟩

abbrev hbmTy0_5 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | _ => ⟨S8x768x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x768x64x64, .f32⟩

abbrev bufTy : (tb : Table) → Fin (tcTables nBuf tb) → BufTy
  | .hbm, ⟨i, _⟩ => hbmTy i
  | _, _ => ⟨S8x768x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_c_6 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_c_9 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_cst : Ref sig .tc := ⟨.hbm, 86, rfl⟩
abbrev main_v37 : Ref sig .tc := ⟨.hbm, 87, rfl⟩
abbrev main_v38 : Ref sig .tc := ⟨.hbm, 88, rfl⟩
abbrev main_cst_10 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_c_11 : Ref sig .tc := ⟨.hbm, 96, rfl⟩
abbrev main_v45 : Ref sig .tc := ⟨.hbm, 97, rfl⟩
abbrev main_v46 : Ref sig .tc := ⟨.hbm, 98, rfl⟩
abbrev main_c_12 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_c_13 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_c_14 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_c_15 : Ref sig .tc := ⟨.hbm, 112, rfl⟩
abbrev main_c_16 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_v57 : Ref sig .tc := ⟨.hbm, 119, rfl⟩
abbrev main_c_17 : Ref sig .tc := ⟨.hbm, 120, rfl⟩
abbrev main_v58 : Ref sig .tc := ⟨.hbm, 121, rfl⟩
abbrev main_v59 : Ref sig .tc := ⟨.hbm, 122, rfl⟩
abbrev main_c_18 : Ref sig .tc := ⟨.hbm, 123, rfl⟩
abbrev main_c_19 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_call5_c : Ref sig .tc := ⟨.hbm, 133, rfl⟩
abbrev main_call5_v0 : Ref sig .tc := ⟨.hbm, 134, rfl⟩
abbrev main_call5_v1 : Ref sig .tc := ⟨.hbm, 135, rfl⟩
abbrev main_call5_c_0 : Ref sig .tc := ⟨.hbm, 136, rfl⟩
abbrev main_call5_v2 : Ref sig .tc := ⟨.hbm, 137, rfl⟩
abbrev main_call5_v3 : Ref sig .tc := ⟨.hbm, 138, rfl⟩
abbrev main_call5_v4 : Ref sig .tc := ⟨.hbm, 139, rfl⟩
abbrev main_call5_v5 : Ref sig .tc := ⟨.hbm, 140, rfl⟩
abbrev main_call5_c_1 : Ref sig .tc := ⟨.hbm, 141, rfl⟩
abbrev main_call5_c_2 : Ref sig .tc := ⟨.hbm, 142, rfl⟩
abbrev main_call5_v6 : Ref sig .tc := ⟨.hbm, 143, rfl⟩
abbrev main_call5_v7 : Ref sig .tc := ⟨.hbm, 144, rfl⟩
abbrev main_call5_v8 : Ref sig .tc := ⟨.hbm, 145, rfl⟩
abbrev main_call5_v9 : Ref sig .tc := ⟨.hbm, 146, rfl⟩
abbrev main_call5_v10 : Ref sig .tc := ⟨.hbm, 147, rfl⟩
abbrev main_call5_v11 : Ref sig .tc := ⟨.hbm, 148, rfl⟩
abbrev main_call5_c_3 : Ref sig .tc := ⟨.hbm, 149, rfl⟩
abbrev main_call5_v12 : Ref sig .tc := ⟨.hbm, 150, rfl⟩
abbrev main_call5_v13 : Ref sig .tc := ⟨.hbm, 151, rfl⟩
abbrev main_call5_v14 : Ref sig .tc := ⟨.hbm, 152, rfl⟩
abbrev main_call5_cst : Ref sig .tc := ⟨.hbm, 153, rfl⟩
abbrev main_call5_v15 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_cst_20 : Ref sig .tc := ⟨.hbm, 159, rfl⟩
abbrev main_v67 : Ref sig .tc := ⟨.hbm, 160, rfl⟩
abbrev main_v68 : Ref sig .tc := ⟨.hbm, 161, rfl⟩
abbrev main_v69 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_c_21 : Ref sig .tc := ⟨.hbm, 167, rfl⟩
abbrev main_v74 : Ref sig .tc := ⟨.hbm, 168, rfl⟩
abbrev main_v75 : Ref sig .tc := ⟨.hbm, 169, rfl⟩
abbrev main_c_22 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_c_23 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_c_24 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_c_25 : Ref sig .tc := ⟨.hbm, 183, rfl⟩
abbrev main_c_26 : Ref sig .tc := ⟨.hbm, 184, rfl⟩
abbrev main_call6_v0 : Ref sig .tc := ⟨.hbm, 185, rfl⟩
abbrev main_call6_v1 : Ref sig .tc := ⟨.hbm, 186, rfl⟩
abbrev main_call6_v2 : Ref sig .tc := ⟨.hbm, 187, rfl⟩
abbrev main_call6_v3 : Ref sig .tc := ⟨.hbm, 188, rfl⟩
abbrev main_call6_v4 : Ref sig .tc := ⟨.hbm, 189, rfl⟩
abbrev main_v86 : Ref sig .tc := ⟨.hbm, 190, rfl⟩
abbrev main_c_27 : Ref sig .tc := ⟨.hbm, 191, rfl⟩
abbrev main_v87 : Ref sig .tc := ⟨.hbm, 192, rfl⟩
abbrev main_v88 : Ref sig .tc := ⟨.hbm, 193, rfl⟩
abbrev main_c_28 : Ref sig .tc := ⟨.hbm, 194, rfl⟩
abbrev main_c_29 : Ref sig .tc := ⟨.hbm, 195, rfl⟩
abbrev main_call7_v0 : Ref sig .tc := ⟨.hbm, 196, rfl⟩
abbrev main_call7_v1 : Ref sig .tc := ⟨.hbm, 197, rfl⟩
abbrev main_call7_v2 : Ref sig .tc := ⟨.hbm, 198, rfl⟩
abbrev main_call7_v3 : Ref sig .tc := ⟨.hbm, 199, rfl⟩
abbrev main_call7_v4 : Ref sig .tc := ⟨.hbm, 200, rfl⟩
abbrev main_v89 : Ref sig .tc := ⟨.hbm, 201, rfl⟩
abbrev main_v90 : Ref sig .tc := ⟨.hbm, 202, rfl⟩
abbrev main_v91 : Ref sig .tc := ⟨.hbm, 203, rfl⟩
abbrev main_call8_c : Ref sig .tc := ⟨.hbm, 204, rfl⟩
abbrev main_call8_v0 : Ref sig .tc := ⟨.hbm, 205, rfl⟩
abbrev main_call8_v1 : Ref sig .tc := ⟨.hbm, 206, rfl⟩
abbrev main_call8_c_0 : Ref sig .tc := ⟨.hbm, 207, rfl⟩
abbrev main_call8_v2 : Ref sig .tc := ⟨.hbm, 208, rfl⟩
abbrev main_call8_v3 : Ref sig .tc := ⟨.hbm, 209, rfl⟩
abbrev main_call8_v4 : Ref sig .tc := ⟨.hbm, 210, rfl⟩
abbrev main_call8_v5 : Ref sig .tc := ⟨.hbm, 211, rfl⟩
abbrev main_call8_c_1 : Ref sig .tc := ⟨.hbm, 212, rfl⟩
abbrev main_call8_c_2 : Ref sig .tc := ⟨.hbm, 213, rfl⟩
abbrev main_call8_v6 : Ref sig .tc := ⟨.hbm, 214, rfl⟩
abbrev main_call8_v7 : Ref sig .tc := ⟨.hbm, 215, rfl⟩
abbrev main_call8_v8 : Ref sig .tc := ⟨.hbm, 216, rfl⟩
abbrev main_call8_v9 : Ref sig .tc := ⟨.hbm, 217, rfl⟩
abbrev main_call8_v10 : Ref sig .tc := ⟨.hbm, 218, rfl⟩
abbrev main_call8_v11 : Ref sig .tc := ⟨.hbm, 219, rfl⟩
abbrev main_call8_c_3 : Ref sig .tc := ⟨.hbm, 220, rfl⟩
abbrev main_call8_v12 : Ref sig .tc := ⟨.hbm, 221, rfl⟩
abbrev main_call8_v13 : Ref sig .tc := ⟨.hbm, 222, rfl⟩
abbrev main_call8_v14 : Ref sig .tc := ⟨.hbm, 223, rfl⟩
abbrev main_call8_cst : Ref sig .tc := ⟨.hbm, 224, rfl⟩
abbrev main_call8_v15 : Ref sig .tc := ⟨.hbm, 225, rfl⟩
abbrev main_v92 : Ref sig .tc := ⟨.hbm, 226, rfl⟩
abbrev main_v93 : Ref sig .tc := ⟨.hbm, 227, rfl⟩
abbrev main_v94 : Ref sig .tc := ⟨.hbm, 228, rfl⟩
abbrev main_v95 : Ref sig .tc := ⟨.hbm, 229, rfl⟩
abbrev main_cst_30 : Ref sig .tc := ⟨.hbm, 230, rfl⟩
abbrev main_v96 : Ref sig .tc := ⟨.hbm, 231, rfl⟩
abbrev main_v97 : Ref sig .tc := ⟨.hbm, 232, rfl⟩
abbrev main_v98 : Ref sig .tc := ⟨.hbm, 233, rfl⟩
abbrev main_v99 : Ref sig .tc := ⟨.hbm, 234, rfl⟩
abbrev main_v100 : Ref sig .tc := ⟨.hbm, 235, rfl⟩
abbrev main_v101 : Ref sig .tc := ⟨.hbm, 236, rfl⟩
abbrev main_v102 : Ref sig .tc := ⟨.hbm, 237, rfl⟩
abbrev main_c_31 : Ref sig .tc := ⟨.hbm, 238, rfl⟩
abbrev main_v103 : Ref sig .tc := ⟨.hbm, 239, rfl⟩
abbrev main_v104 : Ref sig .tc := ⟨.hbm, 240, rfl⟩
abbrev main_c_32 : Ref sig .tc := ⟨.hbm, 241, rfl⟩
abbrev main_v105 : Ref sig .tc := ⟨.hbm, 242, rfl⟩
abbrev main_v106 : Ref sig .tc := ⟨.hbm, 243, rfl⟩
abbrev main_v107 : Ref sig .tc := ⟨.hbm, 244, rfl⟩
abbrev main_c_33 : Ref sig .tc := ⟨.hbm, 245, rfl⟩
abbrev main_v108 : Ref sig .tc := ⟨.hbm, 246, rfl⟩
abbrev main_v109 : Ref sig .tc := ⟨.hbm, 247, rfl⟩
abbrev main_v110 : Ref sig .tc := ⟨.hbm, 248, rfl⟩
abbrev main_c_34 : Ref sig .tc := ⟨.hbm, 249, rfl⟩
abbrev main_v111 : Ref sig .tc := ⟨.hbm, 250, rfl⟩
abbrev main_v112 : Ref sig .tc := ⟨.hbm, 251, rfl⟩
abbrev main_v113 : Ref sig .tc := ⟨.hbm, 252, rfl⟩
abbrev main_v114 : Ref sig .tc := ⟨.hbm, 253, rfl⟩
abbrev main_c_35 : Ref sig .tc := ⟨.hbm, 254, rfl⟩
abbrev main_c_36 : Ref sig .tc := ⟨.hbm, 255, rfl⟩
abbrev main_call9_v0 : Ref sig .tc := ⟨.hbm, 256, rfl⟩
abbrev main_call9_v1 : Ref sig .tc := ⟨.hbm, 257, rfl⟩
abbrev main_call9_v2 : Ref sig .tc := ⟨.hbm, 258, rfl⟩
abbrev main_call9_v3 : Ref sig .tc := ⟨.hbm, 259, rfl⟩
abbrev main_call9_v4 : Ref sig .tc := ⟨.hbm, 260, rfl⟩
abbrev main_v115 : Ref sig .tc := ⟨.hbm, 261, rfl⟩
abbrev main_c_37 : Ref sig .tc := ⟨.hbm, 262, rfl⟩
abbrev main_v116 : Ref sig .tc := ⟨.hbm, 263, rfl⟩
abbrev main_v117 : Ref sig .tc := ⟨.hbm, 264, rfl⟩
abbrev main_c_38 : Ref sig .tc := ⟨.hbm, 265, rfl⟩
abbrev main_c_39 : Ref sig .tc := ⟨.hbm, 266, rfl⟩
abbrev main_call10_v0 : Ref sig .tc := ⟨.hbm, 267, rfl⟩
abbrev main_call10_v1 : Ref sig .tc := ⟨.hbm, 268, rfl⟩
abbrev main_call10_v2 : Ref sig .tc := ⟨.hbm, 269, rfl⟩
abbrev main_call10_v3 : Ref sig .tc := ⟨.hbm, 270, rfl⟩
abbrev main_call10_v4 : Ref sig .tc := ⟨.hbm, 271, rfl⟩
abbrev main_v118 : Ref sig .tc := ⟨.hbm, 272, rfl⟩
abbrev main_v119 : Ref sig .tc := ⟨.hbm, 273, rfl⟩
abbrev main_v120 : Ref sig .tc := ⟨.hbm, 274, rfl⟩
abbrev main_call11_c : Ref sig .tc := ⟨.hbm, 275, rfl⟩
abbrev main_call11_v0 : Ref sig .tc := ⟨.hbm, 276, rfl⟩
abbrev main_call11_v1 : Ref sig .tc := ⟨.hbm, 277, rfl⟩
abbrev main_call11_c_0 : Ref sig .tc := ⟨.hbm, 278, rfl⟩
abbrev main_call11_v2 : Ref sig .tc := ⟨.hbm, 279, rfl⟩
abbrev main_call11_v3 : Ref sig .tc := ⟨.hbm, 280, rfl⟩
abbrev main_call11_v4 : Ref sig .tc := ⟨.hbm, 281, rfl⟩
abbrev main_call11_v5 : Ref sig .tc := ⟨.hbm, 282, rfl⟩
abbrev main_call11_c_1 : Ref sig .tc := ⟨.hbm, 283, rfl⟩
abbrev main_call11_c_2 : Ref sig .tc := ⟨.hbm, 284, rfl⟩
abbrev main_call11_v6 : Ref sig .tc := ⟨.hbm, 285, rfl⟩
abbrev main_call11_v7 : Ref sig .tc := ⟨.hbm, 286, rfl⟩
abbrev main_call11_v8 : Ref sig .tc := ⟨.hbm, 287, rfl⟩
abbrev main_call11_v9 : Ref sig .tc := ⟨.hbm, 288, rfl⟩
abbrev main_call11_v10 : Ref sig .tc := ⟨.hbm, 289, rfl⟩
abbrev main_call11_v11 : Ref sig .tc := ⟨.hbm, 290, rfl⟩
abbrev main_call11_c_3 : Ref sig .tc := ⟨.hbm, 291, rfl⟩
abbrev main_call11_v12 : Ref sig .tc := ⟨.hbm, 292, rfl⟩
abbrev main_call11_v13 : Ref sig .tc := ⟨.hbm, 293, rfl⟩
abbrev main_call11_v14 : Ref sig .tc := ⟨.hbm, 294, rfl⟩
abbrev main_call11_cst : Ref sig .tc := ⟨.hbm, 295, rfl⟩
abbrev main_call11_v15 : Ref sig .tc := ⟨.hbm, 296, rfl⟩
abbrev main_v121 : Ref sig .tc := ⟨.hbm, 297, rfl⟩
abbrev main_v122 : Ref sig .tc := ⟨.hbm, 298, rfl⟩
abbrev main_v123 : Ref sig .tc := ⟨.hbm, 299, rfl⟩
abbrev main_v124 : Ref sig .tc := ⟨.hbm, 300, rfl⟩
abbrev main_v125 : Ref sig .tc := ⟨.hbm, 301, rfl⟩
abbrev main_v126 : Ref sig .tc := ⟨.hbm, 302, rfl⟩
abbrev main_v127 : Ref sig .tc := ⟨.hbm, 303, rfl⟩
abbrev main_v128 : Ref sig .tc := ⟨.hbm, 304, rfl⟩
abbrev main_v129 : Ref sig .tc := ⟨.hbm, 305, rfl⟩
abbrev main_v130 : Ref sig .tc := ⟨.hbm, 306, rfl⟩
abbrev main_v131 : Ref sig .tc := ⟨.hbm, 307, rfl⟩
abbrev main_v132 : Ref sig .tc := ⟨.hbm, 308, rfl⟩
abbrev main_v133 : Ref sig .tc := ⟨.hbm, 309, rfl⟩
abbrev main_v134 : Ref sig .tc := ⟨.hbm, 310, rfl⟩
abbrev main_v135 : Ref sig .tc := ⟨.hbm, 311, rfl⟩
abbrev main_v136 : Ref sig .tc := ⟨.hbm, 312, rfl⟩
abbrev main_v137 : Ref sig .tc := ⟨.hbm, 313, rfl⟩
abbrev main_v138 : Ref sig .tc := ⟨.hbm, 314, rfl⟩
abbrev main_v139 : Ref sig .tc := ⟨.hbm, 315, rfl⟩
abbrev main_c_40 : Ref sig .tc := ⟨.hbm, 316, rfl⟩
abbrev main_v140 : Ref sig .tc := ⟨.hbm, 317, rfl⟩
abbrev main_v141 : Ref sig .tc := ⟨.hbm, 318, rfl⟩
abbrev main_v142 : Ref sig .tc := ⟨.hbm, 319, rfl⟩
abbrev main_c_41 : Ref sig .tc := ⟨.hbm, 320, rfl⟩
abbrev main_v143 : Ref sig .tc := ⟨.hbm, 321, rfl⟩
abbrev main_v144 : Ref sig .tc := ⟨.hbm, 322, rfl⟩
abbrev main_v145 : Ref sig .tc := ⟨.hbm, 323, rfl⟩
abbrev main_c_42 : Ref sig .tc := ⟨.hbm, 324, rfl⟩
abbrev main_v146 : Ref sig .tc := ⟨.hbm, 325, rfl⟩
abbrev main_v147 : Ref sig .tc := ⟨.hbm, 326, rfl⟩
abbrev main_c_43 : Ref sig .tc := ⟨.hbm, 327, rfl⟩
abbrev main_v148 : Ref sig .tc := ⟨.hbm, 328, rfl⟩
abbrev main_v149 : Ref sig .tc := ⟨.hbm, 329, rfl⟩
abbrev main_v150 : Ref sig .tc := ⟨.hbm, 330, rfl⟩
abbrev main_c_44 : Ref sig .tc := ⟨.hbm, 331, rfl⟩
abbrev main_v151 : Ref sig .tc := ⟨.hbm, 332, rfl⟩
abbrev main_v152 : Ref sig .tc := ⟨.hbm, 333, rfl⟩
abbrev main_v153 : Ref sig .tc := ⟨.hbm, 334, rfl⟩
abbrev main_c_45 : Ref sig .tc := ⟨.hbm, 335, rfl⟩
abbrev main_v154 : Ref sig .tc := ⟨.hbm, 336, rfl⟩
abbrev main_v155 : Ref sig .tc := ⟨.hbm, 337, rfl⟩
abbrev main_v156 : Ref sig .tc := ⟨.hbm, 338, rfl⟩
abbrev main_v157 : Ref sig .tc := ⟨.hbm, 339, rfl⟩
abbrev main_c_46 : Ref sig .tc := ⟨.hbm, 340, rfl⟩
abbrev main_c_47 : Ref sig .tc := ⟨.hbm, 341, rfl⟩
abbrev main_call12_v0 : Ref sig .tc := ⟨.hbm, 342, rfl⟩
abbrev main_call12_v1 : Ref sig .tc := ⟨.hbm, 343, rfl⟩
abbrev main_call12_v2 : Ref sig .tc := ⟨.hbm, 344, rfl⟩
abbrev main_call12_v3 : Ref sig .tc := ⟨.hbm, 345, rfl⟩
abbrev main_call12_v4 : Ref sig .tc := ⟨.hbm, 346, rfl⟩
abbrev main_v158 : Ref sig .tc := ⟨.hbm, 347, rfl⟩
abbrev main_c_48 : Ref sig .tc := ⟨.hbm, 348, rfl⟩
abbrev main_v159 : Ref sig .tc := ⟨.hbm, 349, rfl⟩
abbrev main_v160 : Ref sig .tc := ⟨.hbm, 350, rfl⟩
abbrev main_c_49 : Ref sig .tc := ⟨.hbm, 351, rfl⟩
abbrev main_c_50 : Ref sig .tc := ⟨.hbm, 352, rfl⟩
abbrev main_call13_v0 : Ref sig .tc := ⟨.hbm, 353, rfl⟩
abbrev main_call13_v1 : Ref sig .tc := ⟨.hbm, 354, rfl⟩
abbrev main_call13_v2 : Ref sig .tc := ⟨.hbm, 355, rfl⟩
abbrev main_call13_v3 : Ref sig .tc := ⟨.hbm, 356, rfl⟩
abbrev main_call13_v4 : Ref sig .tc := ⟨.hbm, 357, rfl⟩
abbrev main_v161 : Ref sig .tc := ⟨.hbm, 358, rfl⟩
abbrev main_v162 : Ref sig .tc := ⟨.hbm, 359, rfl⟩
abbrev main_v163 : Ref sig .tc := ⟨.hbm, 360, rfl⟩
abbrev main_call14_c : Ref sig .tc := ⟨.hbm, 361, rfl⟩
abbrev main_call14_v0 : Ref sig .tc := ⟨.hbm, 362, rfl⟩
abbrev main_call14_v1 : Ref sig .tc := ⟨.hbm, 363, rfl⟩
abbrev main_call14_c_0 : Ref sig .tc := ⟨.hbm, 364, rfl⟩
abbrev main_call14_v2 : Ref sig .tc := ⟨.hbm, 365, rfl⟩
abbrev main_call14_v3 : Ref sig .tc := ⟨.hbm, 366, rfl⟩
abbrev main_call14_v4 : Ref sig .tc := ⟨.hbm, 367, rfl⟩
abbrev main_call14_v5 : Ref sig .tc := ⟨.hbm, 368, rfl⟩
abbrev main_call14_c_1 : Ref sig .tc := ⟨.hbm, 369, rfl⟩
abbrev main_call14_c_2 : Ref sig .tc := ⟨.hbm, 370, rfl⟩
abbrev main_call14_v6 : Ref sig .tc := ⟨.hbm, 371, rfl⟩
abbrev main_call14_v7 : Ref sig .tc := ⟨.hbm, 372, rfl⟩
abbrev main_call14_v8 : Ref sig .tc := ⟨.hbm, 373, rfl⟩
abbrev main_call14_v9 : Ref sig .tc := ⟨.hbm, 374, rfl⟩
abbrev main_call14_v10 : Ref sig .tc := ⟨.hbm, 375, rfl⟩
abbrev main_call14_v11 : Ref sig .tc := ⟨.hbm, 376, rfl⟩
abbrev main_call14_c_3 : Ref sig .tc := ⟨.hbm, 377, rfl⟩
abbrev main_call14_v12 : Ref sig .tc := ⟨.hbm, 378, rfl⟩
abbrev main_call14_v13 : Ref sig .tc := ⟨.hbm, 379, rfl⟩
abbrev main_call14_v14 : Ref sig .tc := ⟨.hbm, 380, rfl⟩
abbrev main_call14_cst : Ref sig .tc := ⟨.hbm, 381, rfl⟩
abbrev main_call14_v15 : Ref sig .tc := ⟨.hbm, 382, rfl⟩
abbrev main_v164 : Ref sig .tc := ⟨.hbm, 383, rfl⟩
abbrev main_v165 : Ref sig .tc := ⟨.hbm, 384, rfl⟩
abbrev main_v166 : Ref sig .tc := ⟨.hbm, 385, rfl⟩
abbrev main_v167 : Ref sig .tc := ⟨.hbm, 386, rfl⟩
abbrev main_cst_51 : Ref sig .tc := ⟨.hbm, 387, rfl⟩
abbrev main_v168 : Ref sig .tc := ⟨.hbm, 388, rfl⟩
abbrev main_v169 : Ref sig .tc := ⟨.hbm, 389, rfl⟩
abbrev main_cst_52 : Ref sig .tc := ⟨.hbm, 390, rfl⟩
abbrev main_v170 : Ref sig .tc := ⟨.hbm, 391, rfl⟩
abbrev main_v171 : Ref sig .tc := ⟨.hbm, 392, rfl⟩
abbrev main_v172 : Ref sig .tc := ⟨.hbm, 393, rfl⟩
abbrev main_v173 : Ref sig .tc := ⟨.hbm, 394, rfl⟩
abbrev main_v174 : Ref sig .tc := ⟨.hbm, 395, rfl⟩
abbrev main_v175 : Ref sig .tc := ⟨.hbm, 396, rfl⟩
abbrev main_c_53 : Ref sig .tc := ⟨.hbm, 397, rfl⟩
abbrev main_v176 : Ref sig .tc := ⟨.hbm, 398, rfl⟩
abbrev main_v177 : Ref sig .tc := ⟨.hbm, 399, rfl⟩
abbrev main_c_54 : Ref sig .tc := ⟨.hbm, 400, rfl⟩
abbrev main_v178 : Ref sig .tc := ⟨.hbm, 401, rfl⟩
abbrev main_v179 : Ref sig .tc := ⟨.hbm, 402, rfl⟩
abbrev main_v180 : Ref sig .tc := ⟨.hbm, 403, rfl⟩
abbrev main_c_55 : Ref sig .tc := ⟨.hbm, 404, rfl⟩
abbrev main_v181 : Ref sig .tc := ⟨.hbm, 405, rfl⟩
abbrev main_v182 : Ref sig .tc := ⟨.hbm, 406, rfl⟩
abbrev main_v183 : Ref sig .tc := ⟨.hbm, 407, rfl⟩
abbrev main_c_56 : Ref sig .tc := ⟨.hbm, 408, rfl⟩
abbrev main_v184 : Ref sig .tc := ⟨.hbm, 409, rfl⟩
abbrev main_v185 : Ref sig .tc := ⟨.hbm, 410, rfl⟩
abbrev main_v186 : Ref sig .tc := ⟨.hbm, 411, rfl⟩
abbrev main_v187 : Ref sig .tc := ⟨.hbm, 412, rfl⟩
abbrev main_c_57 : Ref sig .tc := ⟨.hbm, 413, rfl⟩
abbrev main_c_58 : Ref sig .tc := ⟨.hbm, 414, rfl⟩
abbrev main_call15_v0 : Ref sig .tc := ⟨.hbm, 415, rfl⟩
abbrev main_call15_v1 : Ref sig .tc := ⟨.hbm, 416, rfl⟩
abbrev main_call15_v2 : Ref sig .tc := ⟨.hbm, 417, rfl⟩
abbrev main_call15_v3 : Ref sig .tc := ⟨.hbm, 418, rfl⟩
abbrev main_call15_v4 : Ref sig .tc := ⟨.hbm, 419, rfl⟩
abbrev main_v188 : Ref sig .tc := ⟨.hbm, 420, rfl⟩
abbrev main_c_59 : Ref sig .tc := ⟨.hbm, 421, rfl⟩
abbrev main_v189 : Ref sig .tc := ⟨.hbm, 422, rfl⟩
abbrev main_v190 : Ref sig .tc := ⟨.hbm, 423, rfl⟩
abbrev main_c_60 : Ref sig .tc := ⟨.hbm, 424, rfl⟩
abbrev main_c_61 : Ref sig .tc := ⟨.hbm, 425, rfl⟩
abbrev main_call16_v0 : Ref sig .tc := ⟨.hbm, 426, rfl⟩
abbrev main_call16_v1 : Ref sig .tc := ⟨.hbm, 427, rfl⟩
abbrev main_call16_v2 : Ref sig .tc := ⟨.hbm, 428, rfl⟩
abbrev main_call16_v3 : Ref sig .tc := ⟨.hbm, 429, rfl⟩
abbrev main_call16_v4 : Ref sig .tc := ⟨.hbm, 430, rfl⟩
abbrev main_v191 : Ref sig .tc := ⟨.hbm, 431, rfl⟩
abbrev main_v192 : Ref sig .tc := ⟨.hbm, 432, rfl⟩
abbrev main_v193 : Ref sig .tc := ⟨.hbm, 433, rfl⟩
abbrev main_call17_c : Ref sig .tc := ⟨.hbm, 434, rfl⟩
abbrev main_call17_v0 : Ref sig .tc := ⟨.hbm, 435, rfl⟩
abbrev main_call17_v1 : Ref sig .tc := ⟨.hbm, 436, rfl⟩
abbrev main_call17_c_0 : Ref sig .tc := ⟨.hbm, 437, rfl⟩
abbrev main_call17_v2 : Ref sig .tc := ⟨.hbm, 438, rfl⟩
abbrev main_call17_v3 : Ref sig .tc := ⟨.hbm, 439, rfl⟩
abbrev main_call17_v4 : Ref sig .tc := ⟨.hbm, 440, rfl⟩
abbrev main_call17_v5 : Ref sig .tc := ⟨.hbm, 441, rfl⟩
abbrev main_call17_c_1 : Ref sig .tc := ⟨.hbm, 442, rfl⟩
abbrev main_call17_c_2 : Ref sig .tc := ⟨.hbm, 443, rfl⟩
abbrev main_call17_v6 : Ref sig .tc := ⟨.hbm, 444, rfl⟩
abbrev main_call17_v7 : Ref sig .tc := ⟨.hbm, 445, rfl⟩
abbrev main_call17_v8 : Ref sig .tc := ⟨.hbm, 446, rfl⟩
abbrev main_call17_v9 : Ref sig .tc := ⟨.hbm, 447, rfl⟩
abbrev main_call17_v10 : Ref sig .tc := ⟨.hbm, 448, rfl⟩
abbrev main_call17_v11 : Ref sig .tc := ⟨.hbm, 449, rfl⟩
abbrev main_call17_c_3 : Ref sig .tc := ⟨.hbm, 450, rfl⟩
abbrev main_call17_v12 : Ref sig .tc := ⟨.hbm, 451, rfl⟩
abbrev main_call17_v13 : Ref sig .tc := ⟨.hbm, 452, rfl⟩
abbrev main_call17_v14 : Ref sig .tc := ⟨.hbm, 453, rfl⟩
abbrev main_call17_cst : Ref sig .tc := ⟨.hbm, 454, rfl⟩
abbrev main_call17_v15 : Ref sig .tc := ⟨.hbm, 455, rfl⟩
abbrev main_v194 : Ref sig .tc := ⟨.hbm, 456, rfl⟩
abbrev main_v195 : Ref sig .tc := ⟨.hbm, 457, rfl⟩
abbrev main_v196 : Ref sig .tc := ⟨.hbm, 458, rfl⟩
abbrev main_v197 : Ref sig .tc := ⟨.hbm, 459, rfl⟩
abbrev main_cst_62 : Ref sig .tc := ⟨.hbm, 460, rfl⟩
abbrev main_v198 : Ref sig .tc := ⟨.hbm, 461, rfl⟩
abbrev main_v199 : Ref sig .tc := ⟨.hbm, 462, rfl⟩
abbrev main_v200 : Ref sig .tc := ⟨.hbm, 463, rfl⟩
abbrev main_v201 : Ref sig .tc := ⟨.hbm, 464, rfl⟩
abbrev main_v202 : Ref sig .tc := ⟨.hbm, 465, rfl⟩
abbrev main_v203 : Ref sig .tc := ⟨.hbm, 466, rfl⟩
abbrev main_v204 : Ref sig .tc := ⟨.hbm, 467, rfl⟩
abbrev main_c_63 : Ref sig .tc := ⟨.hbm, 468, rfl⟩
abbrev main_v205 : Ref sig .tc := ⟨.hbm, 469, rfl⟩
abbrev main_v206 : Ref sig .tc := ⟨.hbm, 470, rfl⟩
abbrev main_c_64 : Ref sig .tc := ⟨.hbm, 471, rfl⟩
abbrev main_v207 : Ref sig .tc := ⟨.hbm, 472, rfl⟩
abbrev main_v208 : Ref sig .tc := ⟨.hbm, 473, rfl⟩
abbrev main_v209 : Ref sig .tc := ⟨.hbm, 474, rfl⟩
abbrev main_c_65 : Ref sig .tc := ⟨.hbm, 475, rfl⟩
abbrev main_v210 : Ref sig .tc := ⟨.hbm, 476, rfl⟩
abbrev main_v211 : Ref sig .tc := ⟨.hbm, 477, rfl⟩
abbrev main_v212 : Ref sig .tc := ⟨.hbm, 478, rfl⟩
abbrev main_c_66 : Ref sig .tc := ⟨.hbm, 479, rfl⟩
abbrev main_v213 : Ref sig .tc := ⟨.hbm, 480, rfl⟩
abbrev main_v214 : Ref sig .tc := ⟨.hbm, 481, rfl⟩
abbrev main_v215 : Ref sig .tc := ⟨.hbm, 482, rfl⟩
abbrev main_v216 : Ref sig .tc := ⟨.hbm, 483, rfl⟩
abbrev main_c_67 : Ref sig .tc := ⟨.hbm, 484, rfl⟩
abbrev main_c_68 : Ref sig .tc := ⟨.hbm, 485, rfl⟩
abbrev main_call18_v0 : Ref sig .tc := ⟨.hbm, 486, rfl⟩
abbrev main_call18_v1 : Ref sig .tc := ⟨.hbm, 487, rfl⟩
abbrev main_call18_v2 : Ref sig .tc := ⟨.hbm, 488, rfl⟩
abbrev main_call18_v3 : Ref sig .tc := ⟨.hbm, 489, rfl⟩
abbrev main_call18_v4 : Ref sig .tc := ⟨.hbm, 490, rfl⟩
abbrev main_v217 : Ref sig .tc := ⟨.hbm, 491, rfl⟩
abbrev main_c_69 : Ref sig .tc := ⟨.hbm, 492, rfl⟩
abbrev main_v218 : Ref sig .tc := ⟨.hbm, 493, rfl⟩
abbrev main_v219 : Ref sig .tc := ⟨.hbm, 494, rfl⟩
abbrev main_c_70 : Ref sig .tc := ⟨.hbm, 495, rfl⟩
abbrev main_c_71 : Ref sig .tc := ⟨.hbm, 496, rfl⟩
abbrev main_call19_v0 : Ref sig .tc := ⟨.hbm, 497, rfl⟩
abbrev main_call19_v1 : Ref sig .tc := ⟨.hbm, 498, rfl⟩
abbrev main_call19_v2 : Ref sig .tc := ⟨.hbm, 499, rfl⟩
abbrev main_call19_v3 : Ref sig .tc := ⟨.hbm, 500, rfl⟩
abbrev main_call19_v4 : Ref sig .tc := ⟨.hbm, 501, rfl⟩
abbrev main_v220 : Ref sig .tc := ⟨.hbm, 502, rfl⟩
abbrev main_v221 : Ref sig .tc := ⟨.hbm, 503, rfl⟩
abbrev main_v222 : Ref sig .tc := ⟨.hbm, 504, rfl⟩
abbrev main_call20_c : Ref sig .tc := ⟨.hbm, 505, rfl⟩
abbrev main_call20_v0 : Ref sig .tc := ⟨.hbm, 506, rfl⟩
abbrev main_call20_v1 : Ref sig .tc := ⟨.hbm, 507, rfl⟩
abbrev main_call20_c_0 : Ref sig .tc := ⟨.hbm, 508, rfl⟩
abbrev main_call20_v2 : Ref sig .tc := ⟨.hbm, 509, rfl⟩
abbrev main_call20_v3 : Ref sig .tc := ⟨.hbm, 510, rfl⟩
abbrev main_call20_v4 : Ref sig .tc := ⟨.hbm, 511, rfl⟩
abbrev main_call20_v5 : Ref sig .tc := ⟨.hbm, 512, rfl⟩
abbrev main_call20_c_1 : Ref sig .tc := ⟨.hbm, 513, rfl⟩
abbrev main_call20_c_2 : Ref sig .tc := ⟨.hbm, 514, rfl⟩
abbrev main_call20_v6 : Ref sig .tc := ⟨.hbm, 515, rfl⟩
abbrev main_call20_v7 : Ref sig .tc := ⟨.hbm, 516, rfl⟩
abbrev main_call20_v8 : Ref sig .tc := ⟨.hbm, 517, rfl⟩
abbrev main_call20_v9 : Ref sig .tc := ⟨.hbm, 518, rfl⟩
abbrev main_call20_v10 : Ref sig .tc := ⟨.hbm, 519, rfl⟩
abbrev main_call20_v11 : Ref sig .tc := ⟨.hbm, 520, rfl⟩
abbrev main_call20_c_3 : Ref sig .tc := ⟨.hbm, 521, rfl⟩
abbrev main_call20_v12 : Ref sig .tc := ⟨.hbm, 522, rfl⟩
abbrev main_call20_v13 : Ref sig .tc := ⟨.hbm, 523, rfl⟩
abbrev main_call20_v14 : Ref sig .tc := ⟨.hbm, 524, rfl⟩
abbrev main_call20_cst : Ref sig .tc := ⟨.hbm, 525, rfl⟩
abbrev main_call20_v15 : Ref sig .tc := ⟨.hbm, 526, rfl⟩
abbrev main_v223 : Ref sig .tc := ⟨.hbm, 527, rfl⟩
abbrev main_v224 : Ref sig .tc := ⟨.hbm, 528, rfl⟩
abbrev main_v225 : Ref sig .tc := ⟨.hbm, 529, rfl⟩
abbrev main_v226 : Ref sig .tc := ⟨.hbm, 530, rfl⟩
abbrev main_cst_72 : Ref sig .tc := ⟨.hbm, 531, rfl⟩
abbrev main_v227 : Ref sig .tc := ⟨.hbm, 532, rfl⟩
abbrev main_v228 : Ref sig .tc := ⟨.hbm, 533, rfl⟩
abbrev main_v229 : Ref sig .tc := ⟨.hbm, 534, rfl⟩
abbrev main_v230 : Ref sig .tc := ⟨.hbm, 535, rfl⟩
abbrev main_v231 : Ref sig .tc := ⟨.hbm, 536, rfl⟩
abbrev main_v232 : Ref sig .tc := ⟨.hbm, 537, rfl⟩
abbrev main_v233 : Ref sig .tc := ⟨.hbm, 538, rfl⟩
abbrev main_c_73 : Ref sig .tc := ⟨.hbm, 539, rfl⟩
abbrev main_v234 : Ref sig .tc := ⟨.hbm, 540, rfl⟩
abbrev main_v235 : Ref sig .tc := ⟨.hbm, 541, rfl⟩
abbrev main_c_74 : Ref sig .tc := ⟨.hbm, 542, rfl⟩
abbrev main_v236 : Ref sig .tc := ⟨.hbm, 543, rfl⟩
abbrev main_v237 : Ref sig .tc := ⟨.hbm, 544, rfl⟩
abbrev main_v238 : Ref sig .tc := ⟨.hbm, 545, rfl⟩
abbrev main_c_75 : Ref sig .tc := ⟨.hbm, 546, rfl⟩
abbrev main_v239 : Ref sig .tc := ⟨.hbm, 547, rfl⟩
abbrev main_v240 : Ref sig .tc := ⟨.hbm, 548, rfl⟩
abbrev main_v241 : Ref sig .tc := ⟨.hbm, 549, rfl⟩
abbrev main_c_76 : Ref sig .tc := ⟨.hbm, 550, rfl⟩
abbrev main_v242 : Ref sig .tc := ⟨.hbm, 551, rfl⟩
abbrev main_v243 : Ref sig .tc := ⟨.hbm, 552, rfl⟩
abbrev main_v244 : Ref sig .tc := ⟨.hbm, 553, rfl⟩
abbrev main_v245 : Ref sig .tc := ⟨.hbm, 554, rfl⟩
abbrev main_c_77 : Ref sig .tc := ⟨.hbm, 555, rfl⟩
abbrev main_c_78 : Ref sig .tc := ⟨.hbm, 556, rfl⟩
abbrev main_call21_v0 : Ref sig .tc := ⟨.hbm, 557, rfl⟩
abbrev main_call21_v1 : Ref sig .tc := ⟨.hbm, 558, rfl⟩
abbrev main_call21_v2 : Ref sig .tc := ⟨.hbm, 559, rfl⟩
abbrev main_call21_v3 : Ref sig .tc := ⟨.hbm, 560, rfl⟩
abbrev main_call21_v4 : Ref sig .tc := ⟨.hbm, 561, rfl⟩
abbrev main_v246 : Ref sig .tc := ⟨.hbm, 562, rfl⟩
abbrev main_c_79 : Ref sig .tc := ⟨.hbm, 563, rfl⟩
abbrev main_v247 : Ref sig .tc := ⟨.hbm, 564, rfl⟩
abbrev main_v248 : Ref sig .tc := ⟨.hbm, 565, rfl⟩
abbrev main_c_80 : Ref sig .tc := ⟨.hbm, 566, rfl⟩
abbrev main_c_81 : Ref sig .tc := ⟨.hbm, 567, rfl⟩
abbrev main_call22_v0 : Ref sig .tc := ⟨.hbm, 568, rfl⟩
abbrev main_call22_v1 : Ref sig .tc := ⟨.hbm, 569, rfl⟩
abbrev main_call22_v2 : Ref sig .tc := ⟨.hbm, 570, rfl⟩
abbrev main_call22_v3 : Ref sig .tc := ⟨.hbm, 571, rfl⟩
abbrev main_call22_v4 : Ref sig .tc := ⟨.hbm, 572, rfl⟩
abbrev main_v249 : Ref sig .tc := ⟨.hbm, 573, rfl⟩
abbrev main_v250 : Ref sig .tc := ⟨.hbm, 574, rfl⟩
abbrev main_v251 : Ref sig .tc := ⟨.hbm, 575, rfl⟩
abbrev main_call23_c : Ref sig .tc := ⟨.hbm, 576, rfl⟩
abbrev main_call23_v0 : Ref sig .tc := ⟨.hbm, 577, rfl⟩
abbrev main_call23_v1 : Ref sig .tc := ⟨.hbm, 578, rfl⟩
abbrev main_call23_c_0 : Ref sig .tc := ⟨.hbm, 579, rfl⟩
abbrev main_call23_v2 : Ref sig .tc := ⟨.hbm, 580, rfl⟩
abbrev main_call23_v3 : Ref sig .tc := ⟨.hbm, 581, rfl⟩
abbrev main_call23_v4 : Ref sig .tc := ⟨.hbm, 582, rfl⟩
abbrev main_call23_v5 : Ref sig .tc := ⟨.hbm, 583, rfl⟩
abbrev main_call23_c_1 : Ref sig .tc := ⟨.hbm, 584, rfl⟩
abbrev main_call23_c_2 : Ref sig .tc := ⟨.hbm, 585, rfl⟩
abbrev main_call23_v6 : Ref sig .tc := ⟨.hbm, 586, rfl⟩
abbrev main_call23_v7 : Ref sig .tc := ⟨.hbm, 587, rfl⟩
abbrev main_call23_v8 : Ref sig .tc := ⟨.hbm, 588, rfl⟩
abbrev main_call23_v9 : Ref sig .tc := ⟨.hbm, 589, rfl⟩
abbrev main_call23_v10 : Ref sig .tc := ⟨.hbm, 590, rfl⟩
abbrev main_call23_v11 : Ref sig .tc := ⟨.hbm, 591, rfl⟩
abbrev main_call23_c_3 : Ref sig .tc := ⟨.hbm, 592, rfl⟩
abbrev main_call23_v12 : Ref sig .tc := ⟨.hbm, 593, rfl⟩
abbrev main_call23_v13 : Ref sig .tc := ⟨.hbm, 594, rfl⟩
abbrev main_call23_v14 : Ref sig .tc := ⟨.hbm, 595, rfl⟩
abbrev main_call23_cst : Ref sig .tc := ⟨.hbm, 596, rfl⟩
abbrev main_call23_v15 : Ref sig .tc := ⟨.hbm, 597, rfl⟩
abbrev main_v252 : Ref sig .tc := ⟨.hbm, 598, rfl⟩
abbrev main_v253 : Ref sig .tc := ⟨.hbm, 599, rfl⟩
abbrev main_v254 : Ref sig .tc := ⟨.hbm, 600, rfl⟩
abbrev main_v255 : Ref sig .tc := ⟨.hbm, 601, rfl⟩
abbrev main_v256 : Ref sig .tc := ⟨.hbm, 602, rfl⟩
abbrev main_v257 : Ref sig .tc := ⟨.hbm, 603, rfl⟩
abbrev main_v258 : Ref sig .tc := ⟨.hbm, 604, rfl⟩
abbrev main_v259 : Ref sig .tc := ⟨.hbm, 605, rfl⟩
abbrev main_v260 : Ref sig .tc := ⟨.hbm, 606, rfl⟩
abbrev main_v261 : Ref sig .tc := ⟨.hbm, 607, rfl⟩
abbrev main_v262 : Ref sig .tc := ⟨.hbm, 608, rfl⟩
abbrev main_v263 : Ref sig .tc := ⟨.hbm, 609, rfl⟩
abbrev main_v264 : Ref sig .tc := ⟨.hbm, 610, rfl⟩
abbrev main_cst_82 : Ref sig .tc := ⟨.hbm, 611, rfl⟩
abbrev main_v265 : Ref sig .tc := ⟨.hbm, 612, rfl⟩
abbrev main_v266 : Ref sig .tc := ⟨.hbm, 613, rfl⟩
abbrev main_v267 : Ref sig .tc := ⟨.hbm, 614, rfl⟩
abbrev main_cst_83 : Ref sig .tc := ⟨.hbm, 615, rfl⟩
abbrev main_v268 : Ref sig .tc := ⟨.hbm, 616, rfl⟩
abbrev main_v269 : Ref sig .tc := ⟨.hbm, 617, rfl⟩
abbrev main_v270 : Ref sig .tc := ⟨.hbm, 618, rfl⟩
abbrev main_v271 : Ref sig .tc := ⟨.hbm, 619, rfl⟩
abbrev main_v272 : Ref sig .tc := ⟨.hbm, 620, rfl⟩
abbrev main_cst_84 : Ref sig .tc := ⟨.hbm, 621, rfl⟩
abbrev main_v273 : Ref sig .tc := ⟨.hbm, 622, rfl⟩
abbrev main_v274 : Ref sig .tc := ⟨.hbm, 623, rfl⟩
abbrev main_v275 : Ref sig .tc := ⟨.hbm, 624, rfl⟩
abbrev main_cst_85 : Ref sig .tc := ⟨.hbm, 625, rfl⟩
abbrev main_v276 : Ref sig .tc := ⟨.hbm, 626, rfl⟩
abbrev main_v277 : Ref sig .tc := ⟨.hbm, 627, rfl⟩
abbrev main_v278 : Ref sig .tc := ⟨.hbm, 628, rfl⟩
abbrev main_v279 : Ref sig .tc := ⟨.hbm, 629, rfl⟩
abbrev main_v280 : Ref sig .tc := ⟨.hbm, 630, rfl⟩
abbrev main_v281 : Ref sig .tc := ⟨.hbm, 631, rfl⟩
abbrev main_cst_86 : Ref sig .tc := ⟨.hbm, 632, rfl⟩
abbrev main_v282 : Ref sig .tc := ⟨.hbm, 633, rfl⟩
abbrev main_v283 : Ref sig .tc := ⟨.hbm, 634, rfl⟩
abbrev main_cst_87 : Ref sig .tc := ⟨.hbm, 635, rfl⟩
abbrev main_v284 : Ref sig .tc := ⟨.hbm, 636, rfl⟩
abbrev main_cst_88 : Ref sig .tc := ⟨.hbm, 637, rfl⟩
abbrev main_v285 : Ref sig .tc := ⟨.hbm, 638, rfl⟩
abbrev main_cst_89 : Ref sig .tc := ⟨.hbm, 639, rfl⟩
abbrev main_v286 : Ref sig .tc := ⟨.hbm, 640, rfl⟩
abbrev main_cst_90 : Ref sig .tc := ⟨.hbm, 641, rfl⟩
abbrev main_v287 : Ref sig .tc := ⟨.hbm, 642, rfl⟩
abbrev main_v288 : Ref sig .tc := ⟨.hbm, 643, rfl⟩
abbrev main_cst_91 : Ref sig .tc := ⟨.hbm, 644, rfl⟩
abbrev main_call24_v0 : Ref sig .tc := ⟨.hbm, 645, rfl⟩
abbrev main_v289 : Ref sig .tc := ⟨.hbm, 646, rfl⟩

abbrev nD : Nat := 1
abbrev τ : Topo := Topo.v7x

variable {F : FTy → Type} [FloatOps F]

class Facts₀ : Prop where
  slices_S8x1024x2_S8x1024x1_0_0_0 : S8x1024x2.Slices ![0, 0, 0] S8x1024x1
  shapeCasts_S8x1024x1_S8x1024 : S8x1024x1.ShapeCasts S8x1024
  slices_S8x1024x2_S8x1024x1_0_0_1 : S8x1024x2.Slices ![0, 0, 1] S8x1024x1
  bcast_S_S8x1024 : S_.BroadcastsInDim S8x1024 (![] : Fin 0 → Fin S8x1024.rank)
  shapeCasts_S8x768x64x64_S8x768x4096 : S8x768x64x64.ShapeCasts S8x768x4096
  bcast_S8x1024_S8x1x1024_0_2 : S8x1024.BroadcastsInDim S8x1x1024 (![0, 2] : Fin 2 → Fin S8x1x1024.rank)
  bcast_S_S8x1x1024 : S_.BroadcastsInDim S8x1x1024 (![] : Fin 0 → Fin S8x1x1024.rank)
  shapeCasts_S8x1x1024_S8x1024x1 : S8x1x1024.ShapeCasts S8x1024x1
  bcast_S_S8x1024x1 : S_.BroadcastsInDim S8x1024x1 (![] : Fin 0 → Fin S8x1024x1.rank)
  bcast_S1_S1x1x1_2 : S1.BroadcastsInDim S1x1x1 (![2] : Fin 1 → Fin S1x1x1.rank)
  bcast_S1x1x1_S8x1024x1_0_1_2 : S1x1x1.BroadcastsInDim S8x1024x1 (![0, 1, 2] : Fin 3 → Fin S8x1024x1.rank)
  reducesTo_S8x1024x1_S8x1024_d2 : S8x1024x1.ReducesTo [2] S8x1024
  h_S_ : 0 < S_.numel
  bcast_S8x1024_S8x768x1024_0_2 : S8x1024.BroadcastsInDim S8x768x1024 (![0, 2] : Fin 2 → Fin S8x768x1024.rank)
  bcast_S_S8x768x1024 : S_.BroadcastsInDim S8x768x1024 (![] : Fin 0 → Fin S8x768x1024.rank)
  bcast_S8x1x1024_S8x768x1024_0_1_2 : S8x1x1024.BroadcastsInDim S8x768x1024 (![0, 1, 2] : Fin 3 → Fin S8x768x1024.rank)
  transposes_S8x768x1024_S8x1024x768_0_2_1 : S8x768x1024.Transposes [0, 2, 1] S8x1024x768
  reducesTo_S8x1024x768_S8x1024_d2 : S8x1024x768.ReducesTo [2] S8x1024
  bcast_S8x1024_S8x1024x1_0_1 : S8x1024.BroadcastsInDim S8x1024x1 (![0, 1] : Fin 2 → Fin S8x1024x1.rank)
  bcast_S8x1024x1_S8x1024x768_0_1_2 : S8x1024x1.BroadcastsInDim S8x1024x768 (![0, 1, 2] : Fin 3 → Fin S8x1024x768.rank)
  reducesTo_S8x1024_S_d0_1 : S8x1024.ReducesTo [0, 1] S_
  gather_S8x768x4096_S8x1024x1_S8x768x1024_1_2_0_0_2_2_17681_wf : GatherDims.WF S8x768x4096 S8x1024x1 S8x768x1024 [1] [2] [0] [2] [0] 2 ![1, 768, 1]

variable [Facts₀]

def gather_S8x768x4096_S8x1024x1_S8x768x1024_1_2_0_0_2_2_17681 : GatherDims S8x768x4096 S8x1024x1 S8x768x1024 where
  offsetDims := [1]
  collapsedSliceDims := [2]
  operandBatchingDims := [0]
  startIndicesBatchingDims := [0]
  startIndexMap := [2]
  indexVectorDim := 2
  sliceSizes := ![1, 768, 1]
  wf := gather_S8x768x4096_S8x1024x1_S8x768x1024_1_2_0_0_2_2_17681_wf

class Facts : Prop extends Facts₀ where

variable [Facts]
-- ==== Proof.Spec.lean ====
/-
  The common specification of the keypoint alignment loss, on the extended reals.

  A keypoint (x, y) falls in the pixel cell (⌊x⌋, ⌊y⌋) with fractional parts wx, wy. Its bilinear sample of a
  feature row (the 64 × 64 image of one batch element and one channel, flattened to 4096 entries) is the sum over
  the cell's four corners of  row[pixel] · [corner inside the image] · weight,  the pixel number taken after
  clipping both cell coordinates into [0, 63], the weights (1 − wx)(1 − wy), wx (1 − wy), (1 − wx) wy, wx wy.
  The sampled features of the two images are normalised along the channel axis by max(‖·‖₂, ε), the squared
  distances of the normalised features are summed over the channels and over all keypoints valid in BOTH masks,
  and the loss is that total over max(count, 1), or 0 when no keypoint is valid.

  Float literals stay the words the programs print; nothing here evaluates one.
-/
import Idealize.ShloMosaic.PureOps.Ideal
import Idealize.ShloMosaic.Lib.ValueIdx

noncomputable section

namespace Cert.Spec

open Idealize.ShloMosaic Idealize.ShloMosaic.ValueIdx

/-- The words of 1.0, 0.0 and the normalisation's ε = 1e-12 as f32. -/
abbrev one : EReal := Ideal.ofBits .f32 0x3F800000#32
abbrev zero : EReal := Ideal.ofBits .f32 0x00000000#32
abbrev eps : EReal := Ideal.ofBits .f32 0x2B8CBCCC#32

/-- An extended real that is a real number. -/
def IsReal (x : EReal) : Prop := ∃ r : ℝ, x = (r : EReal)

/-! ## One keypoint coordinate -/

/-- ⌊x⌋ as an extended real. -/
def flo (x : EReal) : EReal := Ideal.liftRound Int.floor x
/-- The cell coordinate ⌊x⌋ as a 32-bit signed word. -/
def cell (x : EReal) : BitVec 32 := Ideal.fptosi 32 (flo x)
/-- The fractional part x − ⌊x⌋. -/
def frac (x : EReal) : EReal := x - flo x

/-! ## One corner of the cell -/

/-- The corner (xc, yc) lies inside the 64 × 64 image: 0 ≤ xc < 64 and 0 ≤ yc < 64, signed. -/
def inside (xc yc : BitVec 32) : BitVec 1 :=
  IntOp.andi (IntOp.andi (IntOp.andi (IntOp.cmpi .sge xc 0#32) (IntOp.cmpi .slt xc 64#32)) (IntOp.cmpi .sge yc 0#32))
    (IntOp.cmpi .slt yc 64#32)
/-- A coordinate clipped into [0, 63]. -/
def clip63 (v : BitVec 32) : BitVec 32 := IntOp.minsi 63#32 (IntOp.maxsi 0#32 v)
/-- The flat pixel number 64 · clip(yc) + clip(xc) of the corner, as a word. -/
def pix (xc yc : BitVec 32) : BitVec 32 := IntOp.addi (IntOp.muli (clip63 yc) 64#32) (clip63 xc)

/-- The corner's term of the reference: the row at the clipped pixel, times the inside flag as 0 or 1, times the
    weight; `p` is the pixel the row is read at. -/
def cornerAt (row : Fin 4096 → EReal) (p : Fin 4096) (xc yc : BitVec 32) (w : EReal) : EReal :=
  (row p * (((inside xc yc).toNat : ℝ) : EReal)) * w

/-! ## The kernel's selection matrix: one column, entry by entry -/

/-- 1 where the row number `p` is the corner's pixel number, else 0 (a word compare, widened, read signed). -/
def onehot (p : Fin 4096) (xc yc : BitVec 32) : EReal :=
  ((((IntOp.cmpi .eq (BitVec.ofNat 32 p.val) (pix xc yc)).setWidth 32).toInt : ℝ) : EReal)
/-- The corner's weight where the corner is inside the image, else the zero word. -/
def wsel (xc yc : BitVec 32) (w : EReal) : EReal := Scalar.select (inside xc yc) w zero

/-- The four weights and four corners of the keypoint (x, y), in the order both programs add them. -/
def w00 (x y : EReal) : EReal := (one - frac x) * (one - frac y)
def w10 (x y : EReal) : EReal := frac x * (one - frac y)
def w01 (x y : EReal) : EReal := (one - frac x) * frac y
def w11 (x y : EReal) : EReal := frac x * frac y
def x0 (x : EReal) : BitVec 32 := cell x
def x1 (x : EReal) : BitVec 32 := IntOp.addi (cell x) 1#32

/-- Entry `p` of the selection column of the keypoint (x, y): the four one-hot rows times their masked weights. -/
def smat (x y : EReal) (p : Fin 4096) : EReal :=
  ((onehot p (x0 x) (x0 y) * wsel (x0 x) (x0 y) (w00 x y) + onehot p (x1 x) (x0 y) * wsel (x1 x) (x0 y) (w10 x y))
    + onehot p (x0 x) (x1 y) * wsel (x0 x) (x1 y) (w01 x y)) + onehot p (x1 x) (x1 y) * wsel (x1 x) (x1 y) (w11 x y)

/-- The kernel's sample: the row against the selection column. -/
def sampleDot (row : Fin 4096 → EReal) (x y : EReal) : EReal := ∑ p : Fin 4096, row p * smat x y p

/-! ## The reference's sample -/

/-- The pixel number of a corner is below 4096 (both coordinates are clipped into [0, 63]). -/
theorem pix_lt (xc yc : BitVec 32) : (pix xc yc).toNat < 4096 := by
  have hc : ∀ v : BitVec 32, (clip63 v).toNat ≤ 63 := by
    intro v
    unfold clip63 IntOp.minsi IntOp.maxsi
    by_cases h1 : v.slt 0#32 = true
    · rw [if_pos h1]; decide
    · rw [if_neg h1]
      by_cases h2 : (63#32).slt v = true
      · rw [if_pos h2]; decide
      · rw [if_neg h2]
        have e0 : (0#32).toInt = 0 := by decide
        have e63 : (63#32).toInt = 63 := by decide
        simp only [BitVec.slt, decide_eq_true_eq, e0, e63] at h1 h2
        rw [BitVec.toInt_eq_toNat_cond] at h1 h2
        split at h1 <;> omega
  have hx := hc xc
  have hy := hc yc
  unfold pix IntOp.addi IntOp.muli
  bv_omega

/-- The corner's pixel as an index of the row. -/
def pixFin (xc yc : BitVec 32) : Fin 4096 := ⟨(pix xc yc).toNat, pix_lt xc yc⟩

/-- The bilinear sample of a row at the keypoint (x, y): the four corner terms, added left to right. -/
def sampleAt (row : Fin 4096 → EReal) (x y : EReal) : EReal :=
  ((cornerAt row (pixFin (x0 x) (x0 y)) (x0 x) (x0 y) (w00 x y) + cornerAt row (pixFin (x1 x) (x0 y)) (x1 x) (x0 y) (w10 x y))
    + cornerAt row (pixFin (x0 x) (x1 y)) (x0 x) (x1 y) (w01 x y)) + cornerAt row (pixFin (x1 x) (x1 y)) (x1 x) (x1 y) (w11 x y)

/-! ## The loss of two sampled feature arrays G₁, G₂ : batch → channel → keypoint → value -/

section Loss
variable (G1 G2 : Fin 8 → Fin 768 → Fin 1024 → EReal) (m1 m2 : (⟨2, ![8, 1024]⟩ : Shape).Idx → BitVec 1)

/-- The sum of squares of a keypoint's feature over the channels. -/
def sumSq (G : Fin 8 → Fin 768 → Fin 1024 → EReal) (b : Fin 8) (n : Fin 1024) : EReal := ∑ c : Fin 768, G b c n * G b c n
/-- The normaliser max(‖feature‖₂, ε). -/
def nrm (G : Fin 8 → Fin 768 → Fin 1024 → EReal) (b : Fin 8) (n : Fin 1024) : EReal := max (Ideal.sqrt (sumSq G b n)) eps
/-- One channel's difference of the normalised features. -/
def diff (b : Fin 8) (c : Fin 768) (n : Fin 1024) : EReal :=
  Ideal.div (G1 b c n) (nrm G1 b n) - Ideal.div (G2 b c n) (nrm G2 b n)
/-- The squared distance of the two normalised features of a keypoint. -/
def dist (b : Fin 8) (n : Fin 1024) : EReal := ∑ c : Fin 768, diff G1 G2 b c n * diff G1 G2 b c n
/-- 1 where the keypoint is valid in both masks, else 0. -/
def valid (b : Fin 8) (n : Fin 1024) : EReal := (((IntOp.andi (m1 (ix2 b n)) (m2 (ix2 b n))).toNat : ℝ) : EReal)
/-- The masked total of the squared distances. -/
def total : EReal := ∑ b : Fin 8, ∑ n : Fin 1024, dist G1 G2 b n * valid m1 m2 b n
/-- The number of keypoints valid in both masks. -/
def count : EReal := ∑ b : Fin 8, ∑ n : Fin 1024, valid m1 m2 b n
/-- total / max(count, 1), or the zero word where the count is the zero word. -/
def finish (tl tv : EReal) : EReal := Scalar.select (Ideal.cmp .oeq tv zero) zero (Ideal.div tl (max tv one))
/-- The loss. -/
def loss : EReal := finish (total G1 G2 m1 m2) (count m1 m2)

end Loss

end Cert.Spec

end
-- ==== Proof.KGatherPay.lean ====
/-
  The gather kernel's output block at an index: entry (p, n) of the 128 × 1024 block is the feature row p of the
  input block against the selection column of keypoint n.

  The body builds the 4096 × 1024 selection block as the sum of four corner terms, each the rows whose counter equals
  the corner's pixel number (a 0/1 block) times the corner's masked weight spread down the rows, and multiplies the
  128 × 4096 feature block by it into a zero block. Read at (p, n) that product is the sum over the 4096 pixels q of
  feature (p, q) times entry (q, n) of the selection block, and entry (q, n) is `Cert.Spec.smat` of keypoint n at q,
  term by term. No finiteness is used: only the definitions, and the product into zero as a plain sum.
-/
import proofs.«416857_j37855841747427_3_alg».proof.Proof.Gen.KernelIdeal.Frame
import proofs.«416857_j37855841747427_3_alg».proof.Proof.Spec
import Idealize.ShloMosaic.Lib.Pipeline.Value
import Idealize.ShloMosaic.PureOps.Ideal.Laws

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.Pipeline (Dat Cfg Window)

namespace GatherPay

/-- The offsets of a whole-block access are all zero. -/
theorem zero_offsets : (![0, 0, 0] : Fin 3 → Nat) = fun _ => 0 := funext fun a => by fin_cases a <;> rfl

/-! ## The body's re-layouts, read at an index -/

section Layout
variable {α : Type}

/-- A [1, 1, 1024] block viewed as a vector of 1024 entries reads (0, 0, n) at n. -/
theorem row_apply (v : S1x1x1024.Idx → α) (n : Fin 1024) :
    shapeCast S1024 v shapeCasts_S1x1x1024_S1024 (ix1 n) = v (ix3 (0 : Fin 1) (0 : Fin 1) n) := by
  refine shapeCast_apply v _ (ix1 n) (ix3 (0 : Fin 1) (0 : Fin 1) n) ?_
  rw [Shape.rowMajor_val_three, Shape.rowMajor_val_one]
  show (0 * 1 + 0) * 1024 + n.val = n.val
  omega

/-- A vector of 1024 entries spread down 4096 rows reads its entry n at (q, n). -/
theorem spread_apply (v : S1024.Idx → α) (q : Fin 4096) (n : Fin 1024) :
    broadcastTo S4096x1024 (shapeCast S1x1024 v shapeCasts_S1024_S1x1024) broadcasts_S1x1024_S4096x1024 (ix2 q n) = v (ix1 n) := by
  refine (broadcastTo_apply _ _ (ix2 q n) (ix2 (0 : Fin 1) n) ?_).trans ?_
  · intro a
    match a with
    | ⟨0, _⟩ => rfl
    | ⟨1, _⟩ => rfl
  · refine shapeCast_apply v _ _ (ix1 n) ?_
    rw [Shape.rowMajor_val_one, Shape.rowMajor_val_two]
    show n.val = 0 * 1024 + n.val
    omega

/-- A 128 × 1024 block stored as a [1, 128, 1024] block reads (p, n) at (0, p, n). -/
theorem lift_apply (v : S128x1024.Idx → α) (p : Fin 128) (n : Fin 1024) :
    shapeCast S1x128x1024 v shapeCasts_S128x1024_S1x128x1024 (ix3 (0 : Fin 1) p n) = v (ix2 p n) := by
  refine shapeCast_apply v _ (ix3 (0 : Fin 1) p n) (ix2 p n) ?_
  rw [Shape.rowMajor_val_two, Shape.rowMajor_val_three]
  show p.val * 1024 + n.val = (0 * 128 + p.val) * 1024 + n.val
  omega

/-- A [1, 128, 4096] block viewed as a 128 × 4096 block reads (0, p, q) at (p, q). -/
theorem drop_apply (v : S1x128x4096.Idx → α) (p : Fin 128) (q : Fin 4096) :
    shapeCast S128x4096 v shapeCasts_S1x128x4096_S128x4096 (ix2 p q) = v (ix3 (0 : Fin 1) p q) := by
  refine shapeCast_apply v _ (ix2 p q) (ix3 (0 : Fin 1) p q) ?_
  rw [Shape.rowMajor_val_two, Shape.rowMajor_val_three]
  show (0 * 128 + p.val) * 4096 + q.val = p.val * 4096 + q.val
  omega

end Layout

/-- The row counter of the 4096 × 1024 block reads the row number q at (q, n). -/
theorem counter_apply (q : Fin 4096) (n : Fin 1024) :
    iota .tc S4096x1024 32 [0] iota_S4096x1024_d0_w32 (ix2 q n) = BitVec.ofNat 32 q.val :=
  iota_single_apply .tc S4096x1024 32 0 _ (ix2 q n)

/-! ## The block product at an index

The product contracts the left factor's column axis with the right factor's row axis, so at output (p, n) and
contraction position q the left factor is read at (p, q) and the right factor at (q, n). -/

/-- The left factor's row is the output's row. -/
theorem lhs_axis0 (j : S128x1024.Idx) (k : dot_S128x4096_S4096x1024_S128x1024_1_0_0_1_n_n.contr.Idx) :
    (dot_S128x4096_S4096x1024_S128x1024_1_0_0_1_n_n.lhsIdx j k (0 : Fin 2)).val = (j 0).val := by
  unfold DotDims.lhsIdx
  rw [dif_neg (show ¬(0 : Fin S128x4096.rank) ∈ dot_S128x4096_S4096x1024_S128x1024_1_0_0_1_n_n.lhsBatch by decide),
    dif_pos (show (0 : Fin S128x4096.rank) ∈ dot_S128x4096_S4096x1024_S128x1024_1_0_0_1_n_n.lhsNonContracting by decide)]
  rfl

/-- The left factor's column is the contraction position. -/
theorem lhs_axis1 (j : S128x1024.Idx) (k : dot_S128x4096_S4096x1024_S128x1024_1_0_0_1_n_n.contr.Idx) :
    (dot_S128x4096_S4096x1024_S128x1024_1_0_0_1_n_n.lhsIdx j k (1 : Fin 2)).val = (k ⟨0, by decide⟩).val :=
  dot_S128x4096_S4096x1024_S128x1024_1_0_0_1_n_n.lhsIdx_val_of_single (cl := (1 : Fin 2)) rfl j k

/-- The right factor's row is the contraction position. -/
theorem rhs_axis0 (j : S128x1024.Idx) (k : dot_S128x4096_S4096x1024_S128x1024_1_0_0_1_n_n.contr.Idx) :
    (dot_S128x4096_S4096x1024_S128x1024_1_0_0_1_n_n.rhsIdx j k (0 : Fin 2)).val = (k ⟨0, by decide⟩).val :=
  dot_S128x4096_S4096x1024_S128x1024_1_0_0_1_n_n.rhsIdx_val_of_single (cr := (0 : Fin 2)) rfl j k

/-- The right factor's column is the output's column. -/
theorem rhs_axis1 (j : S128x1024.Idx) (k : dot_S128x4096_S4096x1024_S128x1024_1_0_0_1_n_n.contr.Idx) :
    (dot_S128x4096_S4096x1024_S128x1024_1_0_0_1_n_n.rhsIdx j k (1 : Fin 2)).val = (j 1).val := by
  unfold DotDims.rhsIdx
  rw [dif_neg (show ¬(1 : Fin S4096x1024.rank) ∈ dot_S128x4096_S4096x1024_S128x1024_1_0_0_1_n_n.rhsBatch by decide),
    dif_pos (show (1 : Fin S4096x1024.rank) ∈ dot_S128x4096_S4096x1024_S128x1024_1_0_0_1_n_n.rhsNonContracting by decide)]
  rfl

/-- The product of a 128 × 4096 block with a 4096 × 1024 block into the zero block, at (p, n): the sum over the 4096
    contraction positions of the products of the entries (the zero block adds nothing, and the sum over the
    one-axis contraction index is re-indexed by its coordinate). -/
theorem product_apply (A : FVec Ideal S128x4096 .bf16) (B : FVec Ideal S4096x1024 .bf16) (p : Fin 128) (n : Fin 1024) :
    matmul dot_S128x4096_S4096x1024_S128x1024_1_0_0_1_n_n none A B (constant S128x1024 .f32 0x00000000#32) (ix2 p n)
      = ∑ q : Fin 4096, A (ix2 p q) * B (ix2 q n) := by
  refine (Ideal.matmul_constant_zero_apply dot_S128x4096_S4096x1024_S128x1024_1_0_0_1_n_n none A B (ix2 p n)).trans ?_
  rw [← Equiv.sum_comp (contrEquiv1 dot_S128x4096_S4096x1024_S128x1024_1_0_0_1_n_n 4096 rfl rfl).symm]
  refine Finset.sum_congr rfl fun q _ => ?_
  have hk := contrEquiv1_symm_val dot_S128x4096_S4096x1024_S128x1024_1_0_0_1_n_n 4096 rfl rfl q
  have hl : dot_S128x4096_S4096x1024_S128x1024_1_0_0_1_n_n.lhsIdx (ix2 p n)
      ((contrEquiv1 dot_S128x4096_S4096x1024_S128x1024_1_0_0_1_n_n 4096 rfl rfl).symm q) = ix2 p q := by
    funext a; refine Fin.ext ?_
    match a with
    | ⟨0, _⟩ => exact lhs_axis0 _ _
    | ⟨1, _⟩ => exact (lhs_axis1 _ _).trans hk
  have hr : dot_S128x4096_S4096x1024_S128x1024_1_0_0_1_n_n.rhsIdx (ix2 p n)
      ((contrEquiv1 dot_S128x4096_S4096x1024_S128x1024_1_0_0_1_n_n 4096 rfl rfl).symm q) = ix2 q n := by
    funext a; refine Fin.ext ?_
    match a with
    | ⟨0, _⟩ => exact (rhs_axis0 _ _).trans hk
    | ⟨1, _⟩ => exact rhs_axis1 _ _
  rw [hl, hr]

/-! ## One corner's term of the selection block -/

/-- The rows whose counter `R` equals a pixel number `P` (the compare widened to a word and converted, a 0/1 block)
    times a weight `W` kept where the flag `M` is set and replaced by `Z` elsewhere, spread down the rows: at (q, n)
    the compare of row q's counter with keypoint n's pixel number, read signed, times keypoint n's masked weight.
    The changes of float format are the identity on the extended reals. -/
theorem term_apply (R : IVec S4096x1024 32) (P : IVec S1024 32) (M : IVec S1024 1) (W : FVec Ideal S1024 .f32) (Z : Ideal .f32)
    (q : Fin 4096) (n : Fin 1024) :
    mulf (truncf .bf16 (sitofp .f32 (extui 32 (cmpi .eq R (broadcastTo S4096x1024 (shapeCast S1x1024 P shapeCasts_S1024_S1x1024) broadcasts_S1x1024_S4096x1024)) natLt_1_32)) bitsLt_bf16_f32)
        (broadcastTo S4096x1024 (shapeCast S1x1024 (truncf .bf16 (select M W (broadcast S1024 Z)) bitsLt_bf16_f32) shapeCasts_S1024_S1x1024) broadcasts_S1x1024_S4096x1024)
        (ix2 q n)
      = ((((IntOp.cmpi .eq (R (ix2 q n)) (P (ix1 n))).setWidth 32).toInt : ℝ) : EReal)
          * Scalar.select (M (ix1 n)) (W (ix1 n)) Z := by
  show ((((IntOp.cmpi .eq (R (ix2 q n)) (broadcastTo S4096x1024 (shapeCast S1x1024 P shapeCasts_S1024_S1x1024) broadcasts_S1x1024_S4096x1024 (ix2 q n))).setWidth 32).toInt : ℝ) : EReal)
      * (broadcastTo S4096x1024 (shapeCast S1x1024 (truncf .bf16 (select M W (broadcast S1024 Z)) bitsLt_bf16_f32) shapeCasts_S1024_S1x1024) broadcasts_S1x1024_S4096x1024 (ix2 q n)) = _
  rw [spread_apply, spread_apply]
  rfl

end GatherPay

open GatherPay

/-! ## The output block

One store of the whole block, whose payload is the lifted product. Its left factor at (p, q) is the input block at
(0, p, q). Its right factor is the sum of the four corner terms in the order (x0, y0), (x1, y0), (x0, y1), (x1, y1);
with the row counter read as the row number and the two keypoint rows read at (0, 0, n), each term's pixel number,
inside flag and weight are those of `Cert.Spec.smat` by definition. -/

/-- Region 0 (the first image): the body's output block at (0, p, n). -/
theorem pay0 (x0 : Vec Ideal S1x128x4096 .f32) (x1 x2 : Vec Ideal S1x1x1024 .f32) (p : Fin 128) (n : Fin 1024) :
    out0_3 (F := Ideal) x0 x1 x2 (ix3 (0 : Fin 1) p n)
      = Cert.Spec.sampleDot (fun q => x0 (ix3 (0 : Fin 1) p q)) (x1 (ix3 (0 : Fin 1) (0 : Fin 1) n)) (x2 (ix3 (0 : Fin 1) (0 : Fin 1) n)) := by
  unfold out0_3
  rw [View.canon_unit_zero zero_offsets]
  simp only [View.ld_unit_zero (S := S1x1x1024) zero_offsets, View.ld_unit_zero (S := S1x128x4096) zero_offsets]
  unfold k0_pay1
  refine (lift_apply _ p n).trans ?_
  refine (product_apply _ _ p n).trans ?_
  unfold Cert.Spec.sampleDot
  refine Finset.sum_congr rfl fun q _ => ?_
  refine congrArg₂ (· * ·) (drop_apply x0 p q) ?_
  simp only [k0_pay19, k0_pay16, k0_pay17, k0_pay18, addf_apply, term_apply]
  rw [counter_apply q n, ← row_apply x1 n, ← row_apply x2 n]
  rfl

/-- Region 1 (the second image): the same body. -/
theorem pay1 (x0 : Vec Ideal S1x128x4096 .f32) (x1 x2 : Vec Ideal S1x1x1024 .f32) (p : Fin 128) (n : Fin 1024) :
    out1_3 (F := Ideal) x0 x1 x2 (ix3 (0 : Fin 1) p n)
      = Cert.Spec.sampleDot (fun q => x0 (ix3 (0 : Fin 1) p q)) (x1 (ix3 (0 : Fin 1) (0 : Fin 1) n)) (x2 (ix3 (0 : Fin 1) (0 : Fin 1) n)) := by
  unfold out1_3
  rw [View.canon_unit_zero zero_offsets]
  simp only [View.ld_unit_zero (S := S1x1x1024) zero_offsets, View.ld_unit_zero (S := S1x128x4096) zero_offsets]
  unfold k1_pay1
  refine (lift_apply _ p n).trans ?_
  refine (product_apply _ _ p n).trans ?_
  unfold Cert.Spec.sampleDot
  refine Finset.sum_congr rfl fun q _ => ?_
  refine congrArg₂ (· * ·) (drop_apply x0 p q) ?_
  simp only [k1_pay19, k1_pay16, k1_pay17, k1_pay18, addf_apply, term_apply]
  rw [counter_apply q n, ← row_apply x1 n, ← row_apply x2 n]
  rfl

end Cert.KernelIdeal.KV

end
-- ==== Proof.SampleAlg.lean ====
/-
  The kernel's sample is the reference's: a feature row against the selection column of a keypoint is the sum of
  the four corner terms, when the row and both coordinates are real numbers.
-/
import proofs.«416857_j37855841747427_3_alg».proof.Proof.Spec
import Idealize.ShloMosaic.PureOps.Ideal.Laws

noncomputable section

namespace Cert.Spec

open Idealize.ShloMosaic

/-! ## The pixel number as a signed integer -/

/-- The pixel number read signed is not negative: it is below 4096 < 2³¹. -/
theorem pix_toInt_nonneg (xc yc : BitVec 32) : 0 ≤ (pix xc yc).toInt := by
  have h := pix_lt xc yc
  rw [BitVec.toInt_eq_toNat_cond]
  split <;> omega

/-- The pixel number read signed and read unsigned are the same natural number. -/
theorem pix_toInt_toNat (xc yc : BitVec 32) : (pix xc yc).toInt.toNat = (pix xc yc).toNat := by
  have h := pix_lt xc yc
  rw [BitVec.toInt_eq_toNat_cond]
  split <;> omega

/-! ## Real numbers among the extended reals -/

theorem isReal_coe (r : ℝ) : IsReal (r : EReal) := ⟨r, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- The word of 1.0 is a real number: its exponent field is neither all ones nor zero. -/
theorem one_isReal : IsReal one := by
  show IsReal (Ideal.ofBits .f32 0x3F800000#32)
  unfold Ideal.ofBits Ideal.ieee
  simp only []
  rw [if_neg (by decide), if_neg (by decide)]
  exact ⟨_, rfl⟩

/-- The floor of a real number is a real number. -/
theorem flo_isReal {x : EReal} (hx : IsReal x) : IsReal (flo x) := by
  obtain ⟨r, rfl⟩ := hx; exact ⟨((⌊r⌋ : ℤ) : ℝ), rfl⟩

theorem frac_isReal {x : EReal} (hx : IsReal x) : IsReal (frac x) := hx.sub (flo_isReal hx)

theorem w00_isReal {x y : EReal} (hx : IsReal x) (hy : IsReal y) : IsReal (w00 x y) :=
  (one_isReal.sub (frac_isReal hx)).mul (one_isReal.sub (frac_isReal hy))
theorem w10_isReal {x y : EReal} (hx : IsReal x) (hy : IsReal y) : IsReal (w10 x y) :=
  (frac_isReal hx).mul (one_isReal.sub (frac_isReal hy))
theorem w01_isReal {x y : EReal} (hx : IsReal x) (hy : IsReal y) : IsReal (w01 x y) :=
  (one_isReal.sub (frac_isReal hx)).mul (frac_isReal hy)
theorem w11_isReal {x y : EReal} (hx : IsReal x) (hy : IsReal y) : IsReal (w11 x y) :=
  (frac_isReal hx).mul (frac_isReal hy)

/-- The coercion of the reals commutes with finite sums. -/
theorem coe_sum {ι : Type} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-! ## The selection column, entry by entry -/

/-- A one-bit word is 0 or 1. -/
theorem bit_cases (c : BitVec 1) : c = 0#1 ∨ c = 1#1 := by
  have h := c.isLt
  have h' : c.toNat = 0 ∨ c.toNat = 1 := by omega
  rcases h' with h' | h'
  · left; exact BitVec.eq_of_toNat_eq h'
  · right; exact BitVec.eq_of_toNat_eq h'

/-- The one-hot entry is 1 at the corner's pixel and 0 elsewhere: two words below 2³² are equal exactly when
    their numbers are, and a row number is below 4096. -/
theorem onehot_eq (p : Fin 4096) (xc yc : BitVec 32) :
    onehot p xc yc = if p = pixFin xc yc then (1 : EReal) else 0 := by
  unfold onehot IntOp.cmpi
  by_cases h : p = pixFin xc yc
  · have hb : BitVec.ofNat 32 p.val = pix xc yc := by
      subst h; simp [pixFin]
    rw [if_pos h]
    simp [hb]
  · have hb : ¬ BitVec.ofNat 32 p.val = pix xc yc := by
      intro e
      apply h
      apply Fin.ext
      have e' := congrArg BitVec.toNat e
      have hp := p.isLt
      simp only [BitVec.toNat_ofNat] at e'
      show p.val = (pix xc yc).toNat
      omega
    have hb' : (BitVec.ofNat 32 p.val == pix xc yc) = false := beq_eq_false_iff_ne.mpr hb
    rw [if_neg h]
    simp [hb']

/-- The masked weight is the inside flag, as 0 or 1, times the weight: the zero word is 0. -/
theorem wsel_eq (xc yc : BitVec 32) (w : EReal) :
    wsel xc yc w = (((inside xc yc).toNat : ℝ) : EReal) * w := by
  unfold wsel Scalar.select
  rcases bit_cases (inside xc yc) with h | h
  · rw [h]; simp [Ideal.ofBits_zero_f32]
  · rw [h]; simp

/-- The inside flag as 0 or 1 is a real number. -/
theorem ins_isReal (xc yc : BitVec 32) : IsReal (((inside xc yc).toNat : ℝ) : EReal) := ⟨_, rfl⟩

/-! ## The selection sum over the reals -/

/-- Over the reals: a row against a column that is four one-hot columns, each scaled, is the four selected
    entries, each scaled. -/
theorem real_sel_sum {n : ℕ} (r : Fin n → ℝ) (i0 i1 i2 i3 : Fin n) (b0 b1 b2 b3 : ℝ) :
    ∑ p : Fin n, r p * ((((if p = i0 then (1 : ℝ) else 0) * b0 + (if p = i1 then (1 : ℝ) else 0) * b1)
      + (if p = i2 then (1 : ℝ) else 0) * b2) + (if p = i3 then (1 : ℝ) else 0) * b3)
      = ((r i0 * b0 + r i1 * b1) + r i2 * b2) + r i3 * b3 := by
  simp only [mul_add, Finset.sum_add_distrib, ite_mul, one_mul, zero_mul, mul_ite, mul_zero,
    Finset.sum_ite_eq', Finset.mem_univ, if_true]

/-- The same over the extended reals, for a real row and real scales: choose the real witnesses, push the
    coercion through the sum, and use the identity over the reals. -/
theorem sel_sum {n : ℕ} (row : Fin n → EReal) (hrow : ∀ p, IsReal (row p)) (i0 i1 i2 i3 : Fin n)
    (a0 a1 a2 a3 : EReal) (h0 : IsReal a0) (h1 : IsReal a1) (h2 : IsReal a2) (h3 : IsReal a3) :
    ∑ p : Fin n, row p * ((((if p = i0 then (1 : EReal) else 0) * a0 + (if p = i1 then (1 : EReal) else 0) * a1)
      + (if p = i2 then (1 : EReal) else 0) * a2) + (if p = i3 then (1 : EReal) else 0) * a3)
      = ((row i0 * a0 + row i1 * a1) + row i2 * a2) + row i3 * a3 := by
  choose r hr using hrow
  obtain ⟨b0, rfl⟩ := h0
  obtain ⟨b1, rfl⟩ := h1
  obtain ⟨b2, rfl⟩ := h2
  obtain ⟨b3, rfl⟩ := h3
  have hite : ∀ (p i : Fin n), (if p = i then (1 : EReal) else 0) = (((if p = i then (1 : ℝ) else 0) : ℝ) : EReal) := by
    intro p i; split <;> simp
  simp only [hr, hite, ← EReal.coe_mul, ← EReal.coe_add]
  rw [coe_sum, real_sel_sum]

/-! ## The kernel's sample is the reference's -/

/-- Σ_p row p · S(p) = the four corner terms: each one-hot row picks the row's entry at its corner's pixel, and the
    product distributes over the four summands because every quantity is a real number. -/
theorem sampleDot_eq_sampleAt (row : Fin 4096 → EReal) (x y : EReal) (hrow : ∀ p, IsReal (row p)) (hx : IsReal x) (hy : IsReal y) :
    sampleDot row x y = sampleAt row x y := by
  unfold sampleDot sampleAt smat cornerAt
  simp only [onehot_eq, wsel_eq]
  rw [sel_sum row hrow _ _ _ _ _ _ _ _
    ((ins_isReal _ _).mul (w00_isReal hx hy)) ((ins_isReal _ _).mul (w10_isReal hx hy))
    ((ins_isReal _ _).mul (w01_isReal hx hy)) ((ins_isReal _ _).mul (w11_isReal hx hy))]
  simp only [mul_assoc]

/-- The bilinear sample of a real row at real coordinates is a real number. -/
theorem sampleAt_isReal (row : Fin 4096 → EReal) (x y : EReal) (hrow : ∀ p, IsReal (row p)) (hx : IsReal x) (hy : IsReal y) :
    IsReal (sampleAt row x y) := by
  unfold sampleAt cornerAt
  exact (((((hrow _).mul (ins_isReal _ _)).mul (w00_isReal hx hy)).add (((hrow _).mul (ins_isReal _ _)).mul (w10_isReal hx hy))).add
    (((hrow _).mul (ins_isReal _ _)).mul (w01_isReal hx hy))).add (((hrow _).mul (ins_isReal _ _)).mul (w11_isReal hx hy))

/-- The product of two one-bit flags read as 0 or 1 is their conjunction read as 0 or 1. -/
theorem valid_mul (a b : BitVec 1) :
    (((a.toNat : ℝ)) : EReal) * (((b.toNat : ℝ)) : EReal) = (((IntOp.andi a b).toNat : ℝ) : EReal) := by
  unfold IntOp.andi
  rcases bit_cases a with rfl | rfl <;> rcases bit_cases b with rfl | rfl <;> simp

end Cert.Spec

end
-- ==== Proof.KGatherArr.lean ====
/-
  The gather regions' output arrays: after the region the sampled-feature array holds, at (b, c, n), the bilinear
  sample of row (b, c) of the flattened image at keypoint (b, n).
-/
import proofs.«416857_j37855841747427_3_alg».proof.Proof.Gen.KernelIdeal.Frame
import proofs.«416857_j37855841747427_3_alg».proof.Proof.Spec
import proofs.«416857_j37855841747427_3_alg».proof.Proof.KGatherPay
import proofs.«416857_j37855841747427_3_alg».proof.Proof.SampleAlg
import Idealize.ShloMosaic.Lib.Pipeline.Value

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The sample of one (batch, channel) row at one keypoint, from the feature array and the two keypoint-coordinate arrays. -/
def sampArr (feat : S8x768x4096.Idx → EReal) (kx ky : S8x1x1024.Idx → EReal) (b : Fin 8) (ch : Fin 768) (n : Fin 1024) : EReal :=
  Cert.Spec.sampleAt (fun q => feat (ix3 b ch q)) (kx (ix3 b (0 : Fin 1) n)) (ky (ix3 b (0 : Fin 1) n))

/-! ## Region 0: the first image -/

/-- What the output array ends holding: at (b, ch, n) the sample of row (b, ch) at keypoint (b, n). -/
def G0 (c : Dev nD) : S8x768x1024.Idx → EReal := fun i =>
  sampArr (V c main_v8) (V c main_v9) (V c main_v10) (i 0) (i 1) (i 2)

/-- The block indices over the grid: the feature window moves with the output on the batch and channel-block axes,
    the keypoint windows on the batch axis; every other block index is 0. -/
theorem idx_facts0 : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ win0_3.index t (0 : Fin 3) ≤ 7
    ∧ win0_3.index t (1 : Fin 3) ≤ 5
    ∧ win0_3.index t (2 : Fin 3) = 0 :=
  (by decide +kernel : ∀ t : Fin grid0.N, _)

/-- Every (batch, channel-block) pair is some grid point's output block index. -/
theorem idx_onto0 : ∀ (q0 : Fin 8) (q1 : Fin 6), ∃ t : Fin cfg0.N, win0_3.index t = ![q0.val, q1.val, 0] :=
  (by decide +kernel : ∀ (q0 : Fin 8) (q1 : Fin 6), ∃ t : Fin grid0.N, win0_3.index t = ![q0.val, q1.val, 0])

/-- One entry of the body's output block is the sample of the block's row at the block's keypoint. -/
theorem out0_point (x0 : Vec Ideal S1x128x4096 .f32) (x1 x2 : Vec Ideal S1x1x1024 .f32)
    (hx0 : ∀ i, Cert.Spec.IsReal (x0 i)) (hx1 : ∀ i, Cert.Spec.IsReal (x1 i)) (hx2 : ∀ i, Cert.Spec.IsReal (x2 i))
    (y : S1x128x1024.Idx) :
    out0_3 (F := Ideal) x0 x1 x2 y
      = Cert.Spec.sampleAt (fun q => x0 (ix3 (0 : Fin 1) (y 1) q)) (x1 (ix3 (0 : Fin 1) (0 : Fin 1) (y 2))) (x2 (ix3 (0 : Fin 1) (0 : Fin 1) (y 2))) := by
  obtain ⟨a, p, n, rfl⟩ : ∃ (a : Fin 1) (p : Fin 128) (n : Fin 1024), y = ix3 a p n := ⟨y 0, y 1, y 2, eq_ix3 y⟩
  obtain rfl : a = 0 := Subsingleton.elim _ _
  rw [pay0]
  exact Cert.Spec.sampleDot_eq_sampleAt _ _ _ (fun q => hx0 _) (hx1 _) (hx2 _)

/-- The feature window's block at a point, entry by entry: the array at block index × block size + the coordinate inside. -/
theorem iblk0_0_apply (c : Dev nD) (t : Fin cfg0.N) (x : S1x128x4096.Idx) (k : S8x768x4096.Idx)
    (hk0 : (k 0).val = win0_0.index t (0 : Fin 3) * 1 + (x 0).val)
    (hk1 : (k 1).val = win0_0.index t (1 : Fin 3) * 128 + (x 1).val)
    (hk2 : (k 2).val = win0_0.index t (2 : Fin 3) * 4096 + (x 2).val) :
    (iblk0 (F := Ideal) V c 0 t : Vec Ideal S1x128x4096 .f32) x = (V c main_v8 : S8x768x4096.Idx → EReal) k := by
  unfold iblk0
  rw [View.read_apply]
  show V c main_v8 _ = V c main_v8 _
  congr 1
  funext a
  apply Fin.ext
  match a with
  | ⟨0, _⟩ => show win0_0.index t (0 : Fin 3) * 1 + 1 * (x 0).val = (k 0).val; omega
  | ⟨1, _⟩ => show win0_0.index t (1 : Fin 3) * 128 + 1 * (x 1).val = (k 1).val; omega
  | ⟨2, _⟩ => show win0_0.index t (2 : Fin 3) * 4096 + 1 * (x 2).val = (k 2).val; omega

/-- The two keypoint-coordinate windows' blocks, entry by entry. -/
theorem iblk0_1_apply (c : Dev nD) (t : Fin cfg0.N) (x : S1x1x1024.Idx) (k : S8x1x1024.Idx)
    (hk0 : (k 0).val = win0_1.index t (0 : Fin 3) * 1 + (x 0).val)
    (hk1 : (k 1).val = win0_1.index t (1 : Fin 3) * 1 + (x 1).val)
    (hk2 : (k 2).val = win0_1.index t (2 : Fin 3) * 1024 + (x 2).val) :
    (iblk0 (F := Ideal) V c 1 t : Vec Ideal S1x1x1024 .f32) x = (V c main_v9 : S8x1x1024.Idx → EReal) k := by
  unfold iblk0
  rw [View.read_apply]
  show V c main_v9 _ = V c main_v9 _
  congr 1
  funext a
  apply Fin.ext
  match a with
  | ⟨0, _⟩ => show win0_1.index t (0 : Fin 3) * 1 + 1 * (x 0).val = (k 0).val; omega
  | ⟨1, _⟩ => show win0_1.index t (1 : Fin 3) * 1 + 1 * (x 1).val = (k 1).val; omega
  | ⟨2, _⟩ => show win0_1.index t (2 : Fin 3) * 1024 + 1 * (x 2).val = (k 2).val; omega

theorem iblk0_2_apply (c : Dev nD) (t : Fin cfg0.N) (x : S1x1x1024.Idx) (k : S8x1x1024.Idx)
    (hk0 : (k 0).val = win0_2.index t (0 : Fin 3) * 1 + (x 0).val)
    (hk1 : (k 1).val = win0_2.index t (1 : Fin 3) * 1 + (x 1).val)
    (hk2 : (k 2).val = win0_2.index t (2 : Fin 3) * 1024 + (x 2).val) :
    (iblk0 (F := Ideal) V c 2 t : Vec Ideal S1x1x1024 .f32) x = (V c main_v10 : S8x1x1024.Idx → EReal) k := by
  unfold iblk0
  rw [View.read_apply]
  show V c main_v10 _ = V c main_v10 _
  congr 1
  funext a
  apply Fin.ext
  match a with
  | ⟨0, _⟩ => show win0_2.index t (0 : Fin 3) * 1 + 1 * (x 0).val = (k 0).val; omega
  | ⟨1, _⟩ => show win0_2.index t (1 : Fin 3) * 1 + 1 * (x 1).val = (k 1).val; omega
  | ⟨2, _⟩ => show win0_2.index t (2 : Fin 3) * 1024 + 1 * (x 2).val = (k 2).val; omega

/-- A block's entries are entries of the array, so they are real where the array's are. -/
theorem iblk0_0_real (c : Dev nD) (h8 : ∀ i, Cert.Spec.IsReal (V c main_v8 i)) (t : Fin cfg0.N) (x : S1x128x4096.Idx) :
    Cert.Spec.IsReal ((iblk0 (F := Ideal) V c 0 t : Vec Ideal S1x128x4096 .f32) x) := by
  unfold iblk0; rw [View.read_apply]; exact h8 _
theorem iblk0_1_real (c : Dev nD) (h9 : ∀ i, Cert.Spec.IsReal (V c main_v9 i)) (t : Fin cfg0.N) (x : S1x1x1024.Idx) :
    Cert.Spec.IsReal ((iblk0 (F := Ideal) V c 1 t : Vec Ideal S1x1x1024 .f32) x) := by
  unfold iblk0; rw [View.read_apply]; exact h9 _
theorem iblk0_2_real (c : Dev nD) (h10 : ∀ i, Cert.Spec.IsReal (V c main_v10 i)) (t : Fin cfg0.N) (x : S1x1x1024.Idx) :
    Cert.Spec.IsReal ((iblk0 (F := Ideal) V c 2 t : Vec Ideal S1x1x1024 .f32) x) := by
  unfold iblk0; rw [View.read_apply]; exact h10 _

/-- The sample of a block's row at a block's keypoint is the whole-array sample at the entry's place in the array. -/
theorem block_sample0 (c : Dev nD) (t : Fin cfg0.N) (p : Fin 128) (n : Fin 1024) (k : S8x768x1024.Idx)
    (hk0 : (k 0).val = win0_3.index t (0 : Fin 3))
    (hk1 : (k 1).val = win0_3.index t (1 : Fin 3) * 128 + p.val)
    (hk2 : (k 2).val = n.val) :
    Cert.Spec.sampleAt (fun q => (iblk0 (F := Ideal) V c 0 t : Vec Ideal S1x128x4096 .f32) (ix3 (0 : Fin 1) p q))
        ((iblk0 (F := Ideal) V c 1 t : Vec Ideal S1x1x1024 .f32) (ix3 (0 : Fin 1) (0 : Fin 1) n))
        ((iblk0 (F := Ideal) V c 2 t : Vec Ideal S1x1x1024 .f32) (ix3 (0 : Fin 1) (0 : Fin 1) n))
      = G0 V c k := by
  obtain ⟨e0, e1, e2, e3, e4, e5, e6, e7, e8, e9, e10, e11⟩ := idx_facts0 t
  obtain ⟨b, ch, m, rfl⟩ : ∃ (b : Fin 8) (ch : Fin 768) (m : Fin 1024), k = ix3 b ch m := ⟨k 0, k 1, k 2, eq_ix3 k⟩
  have hb : b.val = win0_3.index t (0 : Fin 3) := hk0
  have hch : ch.val = win0_3.index t (1 : Fin 3) * 128 + p.val := hk1
  have hm : m.val = n.val := hk2
  have r0 : ∀ q : Fin 4096, (iblk0 (F := Ideal) V c 0 t : Vec Ideal S1x128x4096 .f32) (ix3 (0 : Fin 1) p q)
      = (V c main_v8 : S8x768x4096.Idx → EReal) (ix3 b ch q) := fun q =>
    iblk0_0_apply V c t (ix3 (0 : Fin 1) p q) (ix3 b ch q)
      (by show b.val = win0_0.index t (0 : Fin 3) * 1 + 0; omega)
      (by show ch.val = win0_0.index t (1 : Fin 3) * 128 + p.val; omega)
      (by show q.val = win0_0.index t (2 : Fin 3) * 4096 + q.val; omega)
  have r1 : (iblk0 (F := Ideal) V c 1 t : Vec Ideal S1x1x1024 .f32) (ix3 (0 : Fin 1) (0 : Fin 1) n)
      = (V c main_v9 : S8x1x1024.Idx → EReal) (ix3 b (0 : Fin 1) m) :=
    iblk0_1_apply V c t (ix3 (0 : Fin 1) (0 : Fin 1) n) (ix3 b (0 : Fin 1) m)
      (by show b.val = win0_1.index t (0 : Fin 3) * 1 + 0; omega)
      (by show 0 = win0_1.index t (1 : Fin 3) * 1 + 0; omega)
      (by show m.val = win0_1.index t (2 : Fin 3) * 1024 + n.val; omega)
  have r2 : (iblk0 (F := Ideal) V c 2 t : Vec Ideal S1x1x1024 .f32) (ix3 (0 : Fin 1) (0 : Fin 1) n)
      = (V c main_v10 : S8x1x1024.Idx → EReal) (ix3 b (0 : Fin 1) m) :=
    iblk0_2_apply V c t (ix3 (0 : Fin 1) (0 : Fin 1) n) (ix3 b (0 : Fin 1) m)
      (by show b.val = win0_2.index t (0 : Fin 3) * 1 + 0; omega)
      (by show 0 = win0_2.index t (1 : Fin 3) * 1 + 0; omega)
      (by show m.val = win0_2.index t (2 : Fin 3) * 1024 + n.val; omega)
  show _ = Cert.Spec.sampleAt (fun q => (V c main_v8 : S8x768x4096.Idx → EReal) (ix3 b ch q))
      ((V c main_v9 : S8x1x1024.Idx → EReal) (ix3 b (0 : Fin 1) m)) ((V c main_v10 : S8x1x1024.Idx → EReal) (ix3 b (0 : Fin 1) m))
  exact congr (congr (congrArg Cert.Spec.sampleAt (funext r0)) r1) r2

/-- What a grid point writes back is its block of the whole-array sample. -/
theorem flushed0_eq (c : Dev nD)
    (h8 : ∀ i, Cert.Spec.IsReal (V c main_v8 i)) (h9 : ∀ i, Cert.Spec.IsReal (V c main_v9 i)) (h10 : ∀ i, Cert.Spec.IsReal (V c main_v10 i))
    (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  obtain ⟨e0, e1, e2, e3, e4, e5, e6, e7, e8, e9, e10, e11⟩ := idx_facts0 t
  funext j
  have hj0 : (j 0).val < 1 := (j 0).isLt
  have hj1 : (j 1).val < 128 := (j 1).isLt
  have hj2 : (j 2).val < 1024 := (j 2).isLt
  refine (out0_point (iblk0 V c 0 t) (iblk0 V c 1 t) (iblk0 V c 2 t) (iblk0_0_real V c h8 t) (iblk0_1_real V c h9 t) (iblk0_2_real V c h10 t)
    ((cfg0.win 3).xinj (grid0.coords t) j)).trans ?_
  show _ = G0 V c (((cfg0.win 3).blk t).view.emb j)
  refine block_sample0 V c t ((cfg0.win 3).xinj (grid0.coords t) j 1) ((cfg0.win 3).xinj (grid0.coords t) j 2) (((cfg0.win 3).blk t).view.emb j) ?_ ?_ ?_
  · show win0_3.index t (0 : Fin 3) * 1 + 1 * (j 0).val = win0_3.index t (0 : Fin 3); omega
  · show win0_3.index t (1 : Fin 3) * 128 + 1 * (j 1).val = win0_3.index t (1 : Fin 3) * 128 + (j 1).val; omega
  · show win0_3.index t (2 : Fin 3) * 1024 + 1 * (j 2).val = (j 2).val; omega

/-- An index of the array is in a point's block iff each coordinate is in the block's range on its axis. -/
theorem mem_blk0 (t : Fin cfg0.N) (i : S8x768x1024.Idx) :
    i ∈ ((cfg0.win 3).blk t).view.set ↔ ∀ a : Fin 3, win0_3.index t a * S1x128x1024.size a ≤ (i a).val ∧ (i a).val < win0_3.index t a * S1x128x1024.size a + S1x128x1024.size a := by
  show i ∈ ((View.whole main_v11).slice (win0_3.rect t)).set ↔ _
  rw [View.set_slice_whole, Rect.mem_set_unit]
  exact Iff.rfl

/-- Every index of the array is in some point's block: batch b, channel ch lies in the block of point (b, ch / 128). -/
theorem cover0 (i : S8x768x1024.Idx) : ∃ t : Fin cfg0.N, (cfg0.win 3).flush t = true ∧ i ∈ ((cfg0.win 3).blk t).view.set := by
  have hi0 : (i 0).val < 8 := (i 0).isLt
  have hi1 : (i 1).val < 768 := (i 1).isLt
  have hi2 : (i 2).val < 1024 := (i 2).isLt
  obtain ⟨t, ht⟩ := idx_onto0 ⟨(i 0).val, by omega⟩ ⟨(i 1).val / 128, by omega⟩
  have q0 : win0_3.index t (0 : Fin 3) = (i 0).val := congrFun ht 0
  have q1 : win0_3.index t (1 : Fin 3) = (i 1).val / 128 := congrFun ht 1
  have q2 : win0_3.index t (2 : Fin 3) = 0 := congrFun ht 2
  refine ⟨t, flush0_3 t, ?_⟩
  rw [mem_blk0]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 1024 ≤ (i 2).val ∧ (i 2).val < win0_3.index t (2 : Fin 3) * 1024 + 1024; omega

/-- Region 0: the output array after the last grid point, from the region's entry contents `V`. -/
theorem gather0 (c : Dev nD)
    (h8 : ∀ i, Cert.Spec.IsReal (V c main_v8 i)) (h9 : ∀ i, Cert.Spec.IsReal (V c main_v9 i)) (h10 : ∀ i, Cert.Spec.IsReal (V c main_v10 i))
    (b : Fin 8) (ch : Fin 768) (n : Fin 1024) :
    (dat0 (F := Ideal) V c).arrAt 3 cfg0.N (ix3 b ch n)
      = Cert.Spec.sampleAt (fun q => V c main_v8 (ix3 b ch q)) (V c main_v9 (ix3 b (0 : Fin 1) n)) (V c main_v10 (ix3 b (0 : Fin 1) n)) := by
  have h := (dat0 (F := Ideal) V c).arrAt_eq_of_cover 3 (G0 V c) (fun t _ => flushed0_eq V c h8 h9 h10 t) cover0
  exact (congrFun h (ix3 b ch n)).trans rfl

/-! ## Region 1: the second image -/

/-- What the output array ends holding: at (b, ch, n) the sample of row (b, ch) at keypoint (b, n). -/
def G1 (c : Dev nD) : S8x768x1024.Idx → EReal := fun i =>
  sampArr (V c main_v12) (V c main_v13) (V c main_v14) (i 0) (i 1) (i 2)

/-- The block indices over the grid: the feature window moves with the output on the batch and channel-block axes,
    the keypoint windows on the batch axis; every other block index is 0. -/
theorem idx_facts1 : ∀ t : Fin cfg1.N,
    win1_0.index t (0 : Fin 3) = win1_3.index t (0 : Fin 3)
    ∧ win1_0.index t (1 : Fin 3) = win1_3.index t (1 : Fin 3)
    ∧ win1_0.index t (2 : Fin 3) = 0
    ∧ win1_1.index t (0 : Fin 3) = win1_3.index t (0 : Fin 3)
    ∧ win1_1.index t (1 : Fin 3) = 0
    ∧ win1_1.index t (2 : Fin 3) = 0
    ∧ win1_2.index t (0 : Fin 3) = win1_3.index t (0 : Fin 3)
    ∧ win1_2.index t (1 : Fin 3) = 0
    ∧ win1_2.index t (2 : Fin 3) = 0
    ∧ win1_3.index t (0 : Fin 3) ≤ 7
    ∧ win1_3.index t (1 : Fin 3) ≤ 5
    ∧ win1_3.index t (2 : Fin 3) = 0 :=
  (by decide +kernel : ∀ t : Fin grid1.N, _)

/-- Every (batch, channel-block) pair is some grid point's output block index. -/
theorem idx_onto1 : ∀ (q0 : Fin 8) (q1 : Fin 6), ∃ t : Fin cfg1.N, win1_3.index t = ![q0.val, q1.val, 0] :=
  (by decide +kernel : ∀ (q0 : Fin 8) (q1 : Fin 6), ∃ t : Fin grid1.N, win1_3.index t = ![q0.val, q1.val, 0])

/-- One entry of the body's output block is the sample of the block's row at the block's keypoint. -/
theorem out1_point (x0 : Vec Ideal S1x128x4096 .f32) (x1 x2 : Vec Ideal S1x1x1024 .f32)
    (hx0 : ∀ i, Cert.Spec.IsReal (x0 i)) (hx1 : ∀ i, Cert.Spec.IsReal (x1 i)) (hx2 : ∀ i, Cert.Spec.IsReal (x2 i))
    (y : S1x128x1024.Idx) :
    out1_3 (F := Ideal) x0 x1 x2 y
      = Cert.Spec.sampleAt (fun q => x0 (ix3 (0 : Fin 1) (y 1) q)) (x1 (ix3 (0 : Fin 1) (0 : Fin 1) (y 2))) (x2 (ix3 (0 : Fin 1) (0 : Fin 1) (y 2))) := by
  obtain ⟨a, p, n, rfl⟩ : ∃ (a : Fin 1) (p : Fin 128) (n : Fin 1024), y = ix3 a p n := ⟨y 0, y 1, y 2, eq_ix3 y⟩
  obtain rfl : a = 0 := Subsingleton.elim _ _
  rw [pay1]
  exact Cert.Spec.sampleDot_eq_sampleAt _ _ _ (fun q => hx0 _) (hx1 _) (hx2 _)

/-- The feature window's block at a point, entry by entry: the array at block index × block size + the coordinate inside. -/
theorem iblk1_0_apply (c : Dev nD) (t : Fin cfg1.N) (x : S1x128x4096.Idx) (k : S8x768x4096.Idx)
    (hk0 : (k 0).val = win1_0.index t (0 : Fin 3) * 1 + (x 0).val)
    (hk1 : (k 1).val = win1_0.index t (1 : Fin 3) * 128 + (x 1).val)
    (hk2 : (k 2).val = win1_0.index t (2 : Fin 3) * 4096 + (x 2).val) :
    (iblk1 (F := Ideal) V c 0 t : Vec Ideal S1x128x4096 .f32) x = (V c main_v12 : S8x768x4096.Idx → EReal) k := by
  unfold iblk1
  rw [View.read_apply]
  show V c main_v12 _ = V c main_v12 _
  congr 1
  funext a
  apply Fin.ext
  match a with
  | ⟨0, _⟩ => show win1_0.index t (0 : Fin 3) * 1 + 1 * (x 0).val = (k 0).val; omega
  | ⟨1, _⟩ => show win1_0.index t (1 : Fin 3) * 128 + 1 * (x 1).val = (k 1).val; omega
  | ⟨2, _⟩ => show win1_0.index t (2 : Fin 3) * 4096 + 1 * (x 2).val = (k 2).val; omega

/-- The two keypoint-coordinate windows' blocks, entry by entry. -/
theorem iblk1_1_apply (c : Dev nD) (t : Fin cfg1.N) (x : S1x1x1024.Idx) (k : S8x1x1024.Idx)
    (hk0 : (k 0).val = win1_1.index t (0 : Fin 3) * 1 + (x 0).val)
    (hk1 : (k 1).val = win1_1.index t (1 : Fin 3) * 1 + (x 1).val)
    (hk2 : (k 2).val = win1_1.index t (2 : Fin 3) * 1024 + (x 2).val) :
    (iblk1 (F := Ideal) V c 1 t : Vec Ideal S1x1x1024 .f32) x = (V c main_v13 : S8x1x1024.Idx → EReal) k := by
  unfold iblk1
  rw [View.read_apply]
  show V c main_v13 _ = V c main_v13 _
  congr 1
  funext a
  apply Fin.ext
  match a with
  | ⟨0, _⟩ => show win1_1.index t (0 : Fin 3) * 1 + 1 * (x 0).val = (k 0).val; omega
  | ⟨1, _⟩ => show win1_1.index t (1 : Fin 3) * 1 + 1 * (x 1).val = (k 1).val; omega
  | ⟨2, _⟩ => show win1_1.index t (2 : Fin 3) * 1024 + 1 * (x 2).val = (k 2).val; omega

theorem iblk1_2_apply (c : Dev nD) (t : Fin cfg1.N) (x : S1x1x1024.Idx) (k : S8x1x1024.Idx)
    (hk0 : (k 0).val = win1_2.index t (0 : Fin 3) * 1 + (x 0).val)
    (hk1 : (k 1).val = win1_2.index t (1 : Fin 3) * 1 + (x 1).val)
    (hk2 : (k 2).val = win1_2.index t (2 : Fin 3) * 1024 + (x 2).val) :
    (iblk1 (F := Ideal) V c 2 t : Vec Ideal S1x1x1024 .f32) x = (V c main_v14 : S8x1x1024.Idx → EReal) k := by
  unfold iblk1
  rw [View.read_apply]
  show V c main_v14 _ = V c main_v14 _
  congr 1
  funext a
  apply Fin.ext
  match a with
  | ⟨0, _⟩ => show win1_2.index t (0 : Fin 3) * 1 + 1 * (x 0).val = (k 0).val; omega
  | ⟨1, _⟩ => show win1_2.index t (1 : Fin 3) * 1 + 1 * (x 1).val = (k 1).val; omega
  | ⟨2, _⟩ => show win1_2.index t (2 : Fin 3) * 1024 + 1 * (x 2).val = (k 2).val; omega

/-- A block's entries are entries of the array, so they are real where the array's are. -/
theorem iblk1_0_real (c : Dev nD) (h12 : ∀ i, Cert.Spec.IsReal (V c main_v12 i)) (t : Fin cfg1.N) (x : S1x128x4096.Idx) :
    Cert.Spec.IsReal ((iblk1 (F := Ideal) V c 0 t : Vec Ideal S1x128x4096 .f32) x) := by
  unfold iblk1; rw [View.read_apply]; exact h12 _
theorem iblk1_1_real (c : Dev nD) (h13 : ∀ i, Cert.Spec.IsReal (V c main_v13 i)) (t : Fin cfg1.N) (x : S1x1x1024.Idx) :
    Cert.Spec.IsReal ((iblk1 (F := Ideal) V c 1 t : Vec Ideal S1x1x1024 .f32) x) := by
  unfold iblk1; rw [View.read_apply]; exact h13 _
theorem iblk1_2_real (c : Dev nD) (h14 : ∀ i, Cert.Spec.IsReal (V c main_v14 i)) (t : Fin cfg1.N) (x : S1x1x1024.Idx) :
    Cert.Spec.IsReal ((iblk1 (F := Ideal) V c 2 t : Vec Ideal S1x1x1024 .f32) x) := by
  unfold iblk1; rw [View.read_apply]; exact h14 _

/-- The sample of a block's row at a block's keypoint is the whole-array sample at the entry's place in the array. -/
theorem block_sample1 (c : Dev nD) (t : Fin cfg1.N) (p : Fin 128) (n : Fin 1024) (k : S8x768x1024.Idx)
    (hk0 : (k 0).val = win1_3.index t (0 : Fin 3))
    (hk1 : (k 1).val = win1_3.index t (1 : Fin 3) * 128 + p.val)
    (hk2 : (k 2).val = n.val) :
    Cert.Spec.sampleAt (fun q => (iblk1 (F := Ideal) V c 0 t : Vec Ideal S1x128x4096 .f32) (ix3 (0 : Fin 1) p q))
        ((iblk1 (F := Ideal) V c 1 t : Vec Ideal S1x1x1024 .f32) (ix3 (0 : Fin 1) (0 : Fin 1) n))
        ((iblk1 (F := Ideal) V c 2 t : Vec Ideal S1x1x1024 .f32) (ix3 (0 : Fin 1) (0 : Fin 1) n))
      = G1 V c k := by
  obtain ⟨e0, e1, e2, e3, e4, e5, e6, e7, e8, e9, e10, e11⟩ := idx_facts1 t
  obtain ⟨b, ch, m, rfl⟩ : ∃ (b : Fin 8) (ch : Fin 768) (m : Fin 1024), k = ix3 b ch m := ⟨k 0, k 1, k 2, eq_ix3 k⟩
  have hb : b.val = win1_3.index t (0 : Fin 3) := hk0
  have hch : ch.val = win1_3.index t (1 : Fin 3) * 128 + p.val := hk1
  have hm : m.val = n.val := hk2
  have r0 : ∀ q : Fin 4096, (iblk1 (F := Ideal) V c 0 t : Vec Ideal S1x128x4096 .f32) (ix3 (0 : Fin 1) p q)
      = (V c main_v12 : S8x768x4096.Idx → EReal) (ix3 b ch q) := fun q =>
    iblk1_0_apply V c t (ix3 (0 : Fin 1) p q) (ix3 b ch q)
      (by show b.val = win1_0.index t (0 : Fin 3) * 1 + 0; omega)
      (by show ch.val = win1_0.index t (1 : Fin 3) * 128 + p.val; omega)
      (by show q.val = win1_0.index t (2 : Fin 3) * 4096 + q.val; omega)
  have r1 : (iblk1 (F := Ideal) V c 1 t : Vec Ideal S1x1x1024 .f32) (ix3 (0 : Fin 1) (0 : Fin 1) n)
      = (V c main_v13 : S8x1x1024.Idx → EReal) (ix3 b (0 : Fin 1) m) :=
    iblk1_1_apply V c t (ix3 (0 : Fin 1) (0 : Fin 1) n) (ix3 b (0 : Fin 1) m)
      (by show b.val = win1_1.index t (0 : Fin 3) * 1 + 0; omega)
      (by show 0 = win1_1.index t (1 : Fin 3) * 1 + 0; omega)
      (by show m.val = win1_1.index t (2 : Fin 3) * 1024 + n.val; omega)
  have r2 : (iblk1 (F := Ideal) V c 2 t : Vec Ideal S1x1x1024 .f32) (ix3 (0 : Fin 1) (0 : Fin 1) n)
      = (V c main_v14 : S8x1x1024.Idx → EReal) (ix3 b (0 : Fin 1) m) :=
    iblk1_2_apply V c t (ix3 (0 : Fin 1) (0 : Fin 1) n) (ix3 b (0 : Fin 1) m)
      (by show b.val = win1_2.index t (0 : Fin 3) * 1 + 0; omega)
      (by show 0 = win1_2.index t (1 : Fin 3) * 1 + 0; omega)
      (by show m.val = win1_2.index t (2 : Fin 3) * 1024 + n.val; omega)
  show _ = Cert.Spec.sampleAt (fun q => (V c main_v12 : S8x768x4096.Idx → EReal) (ix3 b ch q))
      ((V c main_v13 : S8x1x1024.Idx → EReal) (ix3 b (0 : Fin 1) m)) ((V c main_v14 : S8x1x1024.Idx → EReal) (ix3 b (0 : Fin 1) m))
  exact congr (congr (congrArg Cert.Spec.sampleAt (funext r0)) r1) r2

/-- What a grid point writes back is its block of the whole-array sample. -/
theorem flushed1_eq (c : Dev nD)
    (h12 : ∀ i, Cert.Spec.IsReal (V c main_v12 i)) (h13 : ∀ i, Cert.Spec.IsReal (V c main_v13 i)) (h14 : ∀ i, Cert.Spec.IsReal (V c main_v14 i))
    (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  obtain ⟨e0, e1, e2, e3, e4, e5, e6, e7, e8, e9, e10, e11⟩ := idx_facts1 t
  funext j
  have hj0 : (j 0).val < 1 := (j 0).isLt
  have hj1 : (j 1).val < 128 := (j 1).isLt
  have hj2 : (j 2).val < 1024 := (j 2).isLt
  refine (out1_point (iblk1 V c 0 t) (iblk1 V c 1 t) (iblk1 V c 2 t) (iblk1_0_real V c h12 t) (iblk1_1_real V c h13 t) (iblk1_2_real V c h14 t)
    ((cfg1.win 3).xinj (grid1.coords t) j)).trans ?_
  show _ = G1 V c (((cfg1.win 3).blk t).view.emb j)
  refine block_sample1 V c t ((cfg1.win 3).xinj (grid1.coords t) j 1) ((cfg1.win 3).xinj (grid1.coords t) j 2) (((cfg1.win 3).blk t).view.emb j) ?_ ?_ ?_
  · show win1_3.index t (0 : Fin 3) * 1 + 1 * (j 0).val = win1_3.index t (0 : Fin 3); omega
  · show win1_3.index t (1 : Fin 3) * 128 + 1 * (j 1).val = win1_3.index t (1 : Fin 3) * 128 + (j 1).val; omega
  · show win1_3.index t (2 : Fin 3) * 1024 + 1 * (j 2).val = (j 2).val; omega

/-- An index of the array is in a point's block iff each coordinate is in the block's range on its axis. -/
theorem mem_blk1 (t : Fin cfg1.N) (i : S8x768x1024.Idx) :
    i ∈ ((cfg1.win 3).blk t).view.set ↔ ∀ a : Fin 3, win1_3.index t a * S1x128x1024.size a ≤ (i a).val ∧ (i a).val < win1_3.index t a * S1x128x1024.size a + S1x128x1024.size a := by
  show i ∈ ((View.whole main_v15).slice (win1_3.rect t)).set ↔ _
  rw [View.set_slice_whole, Rect.mem_set_unit]
  exact Iff.rfl

/-- Every index of the array is in some point's block: batch b, channel ch lies in the block of point (b, ch / 128). -/
theorem cover1 (i : S8x768x1024.Idx) : ∃ t : Fin cfg1.N, (cfg1.win 3).flush t = true ∧ i ∈ ((cfg1.win 3).blk t).view.set := by
  have hi0 : (i 0).val < 8 := (i 0).isLt
  have hi1 : (i 1).val < 768 := (i 1).isLt
  have hi2 : (i 2).val < 1024 := (i 2).isLt
  obtain ⟨t, ht⟩ := idx_onto1 ⟨(i 0).val, by omega⟩ ⟨(i 1).val / 128, by omega⟩
  have q0 : win1_3.index t (0 : Fin 3) = (i 0).val := congrFun ht 0
  have q1 : win1_3.index t (1 : Fin 3) = (i 1).val / 128 := congrFun ht 1
  have q2 : win1_3.index t (2 : Fin 3) = 0 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 128 ≤ (i 1).val ∧ (i 1).val < win1_3.index t (1 : Fin 3) * 128 + 128; omega
  | ⟨2, _⟩ => show win1_3.index t (2 : Fin 3) * 1024 ≤ (i 2).val ∧ (i 2).val < win1_3.index t (2 : Fin 3) * 1024 + 1024; omega

/-- Region 1: the same for the second image. -/
theorem gather1 (c : Dev nD)
    (h12 : ∀ i, Cert.Spec.IsReal (V c main_v12 i)) (h13 : ∀ i, Cert.Spec.IsReal (V c main_v13 i)) (h14 : ∀ i, Cert.Spec.IsReal (V c main_v14 i))
    (b : Fin 8) (ch : Fin 768) (n : Fin 1024) :
    (dat1 (F := Ideal) V c).arrAt 3 cfg1.N (ix3 b ch n)
      = Cert.Spec.sampleAt (fun q => V c main_v12 (ix3 b ch q)) (V c main_v13 (ix3 b (0 : Fin 1) n)) (V c main_v14 (ix3 b (0 : Fin 1) n)) := by
  have h := (dat1 (F := Ideal) V c).arrAt_eq_of_cover 3 (G1 V c) (fun t _ => flushed1_eq V c h12 h13 h14 t) cover1
  exact (congrFun h (ix3 b ch n)).trans rfl

end Cert.KernelIdeal.KV

end
-- ==== Proof.KLoss.lean ====
/-
  The loss region: over its eight grid points (one per batch element) the two 1 × 1 outputs accumulate the masked
  total of squared distances and the count of valid keypoints.

  At point b the body normalises the two [768, 1024] feature blocks of batch element b along the channel axis by
  max(sqrt(Σ_c f²), ε), sums the squared differences over the channels, multiplies by the product of the two mask
  rows, and adds the sum over the 1024 keypoints to the first output; the second output takes the sum of the mask
  products. Point 0 first resets both outputs to the zero word; the outputs' block never moves, so what a point
  leaves is what the next point finds, and the last point's contents are written to the arrays. Hence after the
  last point the outputs hold  Σ_b Σ_n dist b n · valid b n  and  Σ_b Σ_n valid b n:  an induction over the points,
  each step one addition on the extended reals (sums regroup freely there; no product is distributed).
-/
import proofs.«416857_j37855841747427_3_alg».proof.Proof.Gen.KernelIdeal.Frame
import proofs.«416857_j37855841747427_3_alg».proof.Proof.Spec
import proofs.«416857_j37855841747427_3_alg».proof.Proof.SampleAlg
import Idealize.ShloMosaic.Lib.Pipeline.Value
import Idealize.ShloMosaic.Lib.ValueLayout
import Idealize.ShloMosaic.PureOps.Ideal.Laws

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.Pipeline (Dat Cfg Window)
open Idealize.ShloMosaic.Tactic

/-! ## What each control case leaves in the two outputs, as the body's arithmetic of what it loaded -/

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point leaves in the first output what it found there plus the point's masked row total. -/
theorem later_total (c : Dev nD) (i : grid2.Coords) (a1 : Memref sig .tc .vmem S1x768x1024 .f32) (h1 : a1.IsWhole)
    (a2 : Memref sig .tc .vmem S1x768x1024 .f32) (h2 : a2.IsWhole) (a3 : Memref sig .tc .vmem S1x1x1024 .f32) (h3 : a3.IsWhole)
    (a4 : Memref sig .tc .vmem S1x1x1024 .f32) (h4 : a4.IsWhole) (a5 : Memref sig .tc .vmem S1x1 .f32) (h5 : a5.IsWhole)
    (a6 : Memref sig .tc .vmem S1x1 .f32) (h6 : a6.IsWhole) (hc : ¬cond2_0 i)
    (x0 x1 : Vec F S1x768x1024 .f32) (x2 x3 : Vec F S1x1x1024 .f32) (xo4 xo5 : Vec F S1x1 .f32) :
    out2_B_4 c i a1 h1 a2 h2 a3 h3 a4 h4 a5 h5 a6 h6 hc x0 x1 x2 x3 xo4 xo5 = k2_pay1 (k2_pay6 xo4) (k2_pay7 x0 x1 x2 x3) := by
  unfold out2_B_4
  rw [View.read_writes_eq_canon _ _ _ (cover2_B_4 c i a1 h1 a2 h2 a3 h3 a4 h4 a5 h5 a6 h6 hc x0 x1 x2 x3 xo4 xo5)]
  unfold kernelRun2_B
  dsimp only
  sl_unfold_words
  rw [View.canon_unit_zero hz2]
  simp only [View.readAt_eq_ld, h1.read_unread, h2.read_unread, h3.read_unread, h4.read_unread, h5.read_unread, h6.read_unread,
    View.ld_unit_zero (S := S1x1) hz2, View.ld_unit_zero (S := S1x768x1024) hz3, View.ld_unit_zero (S := S1x1x1024) hz3]

/-- A later point leaves in the second output what it found there plus the point's count of valid keypoints. -/
theorem later_count (c : Dev nD) (i : grid2.Coords) (a1 : Memref sig .tc .vmem S1x768x1024 .f32) (h1 : a1.IsWhole)
    (a2 : Memref sig .tc .vmem S1x768x1024 .f32) (h2 : a2.IsWhole) (a3 : Memref sig .tc .vmem S1x1x1024 .f32) (h3 : a3.IsWhole)
    (a4 : Memref sig .tc .vmem S1x1x1024 .f32) (h4 : a4.IsWhole) (a5 : Memref sig .tc .vmem S1x1 .f32) (h5 : a5.IsWhole)
    (a6 : Memref sig .tc .vmem S1x1 .f32) (h6 : a6.IsWhole) (hc : ¬cond2_0 i)
    (x0 x1 : Vec F S1x768x1024 .f32) (x2 x3 : Vec F S1x1x1024 .f32) (xo4 xo5 : Vec F S1x1 .f32) :
    out2_B_5 c i a1 h1 a2 h2 a3 h3 a4 h4 a5 h5 a6 h6 hc x0 x1 x2 x3 xo4 xo5 = k2_pay2 (k2_pay5 x2 x3) xo5 := by
  unfold out2_B_5
  rw [View.read_writes_eq_canon _ _ _ (cover2_B_5 c i a1 h1 a2 h2 a3 h3 a4 h4 a5 h5 a6 h6 hc x0 x1 x2 x3 xo4 xo5)]
  unfold kernelRun2_B
  dsimp only
  sl_unfold_words
  rw [View.canon_unit_zero hz2]
  simp only [View.readAt_eq_ld, h1.read_unread, h2.read_unread, h3.read_unread, h4.read_unread, h5.read_unread, h6.read_unread,
    View.ld_unit_zero (S := S1x1) hz2, View.ld_unit_zero (S := S1x768x1024) hz3, View.ld_unit_zero (S := S1x1x1024) hz3]

/-- The first point resets the first output to the zero block, reads it back, and adds its masked row total. -/
theorem first_total (c : Dev nD) (i : grid2.Coords) (a1 : Memref sig .tc .vmem S1x768x1024 .f32) (h1 : a1.IsWhole)
    (a2 : Memref sig .tc .vmem S1x768x1024 .f32) (h2 : a2.IsWhole) (a3 : Memref sig .tc .vmem S1x1x1024 .f32) (h3 : a3.IsWhole)
    (a4 : Memref sig .tc .vmem S1x1x1024 .f32) (h4 : a4.IsWhole) (a5 : Memref sig .tc .vmem S1x1 .f32) (h5 : a5.IsWhole)
    (a6 : Memref sig .tc .vmem S1x1 .f32) (h6 : a6.IsWhole) (hc : cond2_0 i)
    (x0 x1 : Vec F S1x768x1024 .f32) (x2 x3 : Vec F S1x1x1024 .f32) :
    out2_A_4 c i a1 h1 a2 h2 a3 h3 a4 h4 a5 h5 a6 h6 hc x0 x1 x2 x3 = k2_pay1 (k2_pay6 (k2_pay3 (F := F))) (k2_pay7 x0 x1 x2 x3) := by
  unfold out2_A_4
  rw [View.read_writes_eq_canon _ _ _ (cover2_A_4 c i a1 h1 a2 h2 a3 h3 a4 h4 a5 h5 a6 h6 hc x0 x1 x2 x3)]
  unfold kernelRun2_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread, h6.read_unread,
    View.ld_unit_zero (S := S1x1) hz2, View.ld_unit_zero (S := S1x768x1024) hz3, View.ld_unit_zero (S := S1x1x1024) hz3]

/-- The first point resets the second output to the zero block, reads it back, and adds its count of valid keypoints. -/
theorem first_count (c : Dev nD) (i : grid2.Coords) (a1 : Memref sig .tc .vmem S1x768x1024 .f32) (h1 : a1.IsWhole)
    (a2 : Memref sig .tc .vmem S1x768x1024 .f32) (h2 : a2.IsWhole) (a3 : Memref sig .tc .vmem S1x1x1024 .f32) (h3 : a3.IsWhole)
    (a4 : Memref sig .tc .vmem S1x1x1024 .f32) (h4 : a4.IsWhole) (a5 : Memref sig .tc .vmem S1x1 .f32) (h5 : a5.IsWhole)
    (a6 : Memref sig .tc .vmem S1x1 .f32) (h6 : a6.IsWhole) (hc : cond2_0 i)
    (x0 x1 : Vec F S1x768x1024 .f32) (x2 x3 : Vec F S1x1x1024 .f32) :
    out2_A_5 c i a1 h1 a2 h2 a3 h3 a4 h4 a5 h5 a6 h6 hc x0 x1 x2 x3 = k2_pay2 (k2_pay5 x2 x3) (k2_pay4 (F := F)) := by
  unfold out2_A_5
  rw [View.read_writes_eq_canon _ _ _ (cover2_A_5 c i a1 h1 a2 h2 a3 h3 a4 h4 a5 h5 a6 h6 hc x0 x1 x2 x3)]
  unfold kernelRun2_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread, h6.read_unread,
    View.ld_unit_zero (S := S1x1) hz2, View.ld_unit_zero (S := S1x768x1024) hz3, View.ld_unit_zero (S := S1x1x1024) hz3]

end Pieces

/-! ## The body's arithmetic at an index, at the ideal values -/

section AtIdeal

/-- A sum over the channel axis of a [768, 1024] block, read at lane `n`: the sum of the lane's 768 entries. -/
theorem chanSum_apply (v : FVec Ideal S768x1024 .f32) (h : S768x1024.Reduces [0] S1024) (hφ : FKind.Formats .f32)
    (hacc : (0x00000000#32 : BitVec 32) = FKind.add.neutral .f32 hφ) (n : Fin 1024) :
    multiReduction .add [0] S1024 v 0x00000000#32 h hφ hacc (ix1 n) = ∑ ch : Fin 768, v (ix2 ch n) := by
  refine (Ideal.multiReduction_add_single v 0x00000000#32 h hφ hacc (ix1 n)).trans ?_
  refine Finset.sum_congr rfl fun ch _ => congrArg v ?_
  funext a
  match a with
  | ⟨0, _⟩ => rfl
  | ⟨1, _⟩ => rfl

/-- A sum over the lanes of a [1, 1024] row: the sum of its 1024 entries. -/
theorem laneSum_apply (v : FVec Ideal S1x1024 .f32) (h : S1x1024.Reduces [1] S1) (hφ : FKind.Formats .f32)
    (hacc : (0x00000000#32 : BitVec 32) = FKind.add.neutral .f32 hφ) :
    multiReduction .add [1] S1 v 0x00000000#32 h hφ hacc (ix1 (0 : Fin 1)) = ∑ n : Fin 1024, v (ix2 (0 : Fin 1) n) := by
  refine (Ideal.multiReduction_add_single v 0x00000000#32 h hφ hacc (ix1 (0 : Fin 1))).trans ?_
  refine Finset.sum_congr rfl fun n _ => congrArg v ?_
  funext a
  match a with
  | ⟨0, _⟩ => rfl
  | ⟨1, _⟩ => rfl

/-- The normaliser row of a [768, 1024] block `f` at lane `n`: max(sqrt(Σ_c f²), ε). -/
theorem nrmRow_apply (f : FVec Ideal S768x1024 .f32) (hr : S768x1024.Reduces [0] S1024) (hφ : FKind.Formats .f32)
    (hacc : (0x00000000#32 : BitVec 32) = FKind.add.neutral .f32 hφ) (hc : S1024.ShapeCasts S1x1024) (n : Fin 1024) :
    maximumf (sqrt (shapeCast S1x1024 (multiReduction .add [0] S1024 (mulf f f) 0x00000000#32 hr hφ hacc) hc))
        (broadcast S1x1024 (Scalar.ofBits (F := Ideal) .f32 0x2B8CBCCC#32)) (ix2 (0 : Fin 1) n)
      = max (Ideal.sqrt (∑ ch : Fin 768, f (ix2 ch n) * f (ix2 ch n))) Cert.Spec.eps := by
  refine (maximumf_apply _ _ _).trans ?_
  refine congrArg₂ max ?_ rfl
  show Ideal.sqrt (shapeCast S1x1024 _ hc (ix2 (0 : Fin 1) n)) = _
  refine congrArg Ideal.sqrt ?_
  refine (shapeCast_a_1a_apply _ hc (0 : Fin 1) n).trans ?_
  exact chanSum_apply (mulf f f) hr hφ hacc n

/-- A block `f` divided by its normaliser row, at channel `ch` and lane `n`. -/
theorem normed_apply (f : FVec Ideal S768x1024 .f32) (hr : S768x1024.Reduces [0] S1024) (hφ : FKind.Formats .f32)
    (hacc : (0x00000000#32 : BitVec 32) = FKind.add.neutral .f32 hφ) (hc : S1024.ShapeCasts S1x1024)
    (hb : S1x1024.Broadcasts S768x1024) (ch : Fin 768) (n : Fin 1024) :
    divf f (broadcastTo S768x1024
        (maximumf (sqrt (shapeCast S1x1024 (multiReduction .add [0] S1024 (mulf f f) 0x00000000#32 hr hφ hacc) hc))
          (broadcast S1x1024 (Scalar.ofBits (F := Ideal) .f32 0x2B8CBCCC#32))) hb) (ix2 ch n)
      = Ideal.div (f (ix2 ch n)) (max (Ideal.sqrt (∑ ch' : Fin 768, f (ix2 ch' n) * f (ix2 ch' n))) Cert.Spec.eps) := by
  refine (divf_apply _ _ _).trans ?_
  refine congrArg (Ideal.div (f (ix2 ch n))) ?_
  refine (broadcastTo_1b_ab_apply _ hb ch n).trans ?_
  exact nrmRow_apply f hr hφ hacc hc n

/-- The product of the two mask rows at lane `n`. -/
theorem pay5_apply (x2 x3 : Vec Ideal S1x1x1024 .f32) (n : Fin 1024) :
    k2_pay5 (F := Ideal) x2 x3 (ix2 (0 : Fin 1) n)
      = x2 (ix3 (0 : Fin 1) (0 : Fin 1) n) * x3 (ix3 (0 : Fin 1) (0 : Fin 1) n) := by
  unfold k2_pay5
  refine (mulf_apply _ _ _).trans ?_
  exact congrArg₂ (fun a b : EReal => a * b) (shapeCast_1ab_ab_apply x2 shapeCasts_S1x1x1024_S1x1024 (0 : Fin 1) n)
    (shapeCast_1ab_ab_apply x3 shapeCasts_S1x1x1024_S1x1024 (0 : Fin 1) n)

/-- The body's masked row total, for blocks that hold batch element `b` of the two sampled arrays and of the two masks'
    0 / 1 values: the sum over the keypoints of the squared distance of the normalised features times the validity. -/
theorem pay7_spec (x0 x1 : Vec Ideal S1x768x1024 .f32) (x2 x3 : Vec Ideal S1x1x1024 .f32)
    (featA featB : Fin 8 → Fin 768 → Fin 1024 → EReal) (m1 m2 : (⟨2, ![8, 1024]⟩ : Shape).Idx → BitVec 1) (b : Fin 8)
    (hx0 : ∀ ch n, x0 (ix3 (0 : Fin 1) ch n) = featA b ch n) (hx1 : ∀ ch n, x1 (ix3 (0 : Fin 1) ch n) = featB b ch n)
    (hx2 : ∀ n, x2 (ix3 (0 : Fin 1) (0 : Fin 1) n) = ((((m1 (ix2 b n)).toNat : ℝ)) : EReal))
    (hx3 : ∀ n, x3 (ix3 (0 : Fin 1) (0 : Fin 1) n) = ((((m2 (ix2 b n)).toNat : ℝ)) : EReal)) :
    k2_pay7 (F := Ideal) x0 x1 x2 x3 (ix1 (0 : Fin 1))
      = ∑ n : Fin 1024, Cert.Spec.dist featA featB b n * Cert.Spec.valid m1 m2 b n := by
  unfold k2_pay7
  refine (laneSum_apply _ reduces_S1x1024_S1 (.inl rfl) rfl).trans ?_
  refine Finset.sum_congr rfl fun n _ => ?_
  refine (mulf_apply _ _ _).trans ?_
  refine congrArg₂ (fun a b : EReal => a * b) ?_ ?_
  · refine (shapeCast_a_1a_apply _ shapeCasts_S1024_S1x1024 (0 : Fin 1) n).trans ?_
    refine (chanSum_apply _ reduces_S768x1024_S1024 (.inl rfl) rfl n).trans ?_
    unfold Cert.Spec.dist
    refine Finset.sum_congr rfl fun ch _ => ?_
    refine (mulf_apply _ _ _).trans ?_
    have e : ∀ d : FVec Ideal S768x1024 .f32, d (ix2 ch n) = Cert.Spec.diff featA featB b ch n →
        d (ix2 ch n) * d (ix2 ch n) = Cert.Spec.diff featA featB b ch n * Cert.Spec.diff featA featB b ch n := fun d h => by rw [h]
    refine e _ ?_
    refine (subf_apply _ _ _).trans ?_
    unfold Cert.Spec.diff Cert.Spec.nrm Cert.Spec.sumSq
    refine congrArg₂ (fun a b : EReal => a - b) ?_ ?_
    · refine (normed_apply _ reduces_S768x1024_S1024 (.inl rfl) rfl shapeCasts_S1024_S1x1024 broadcasts_S1x1024_S768x1024 ch n).trans ?_
      simp only [shapeCast_1ab_ab_apply, hx0]
    · refine (normed_apply _ reduces_S768x1024_S1024 (.inl rfl) rfl shapeCasts_S1024_S1x1024 broadcasts_S1x1024_S768x1024 ch n).trans ?_
      simp only [shapeCast_1ab_ab_apply, hx1]
  · refine (pay5_apply x2 x3 n).trans ?_
    rw [hx2, hx3]
    exact Cert.Spec.valid_mul _ _

/-- The first output's update at its one entry: what was there plus the row total's one entry. -/
theorem pay1_apply (v34 : FVec Ideal S1x1 .f32) (v35 : FVec Ideal S1 .f32) :
    k2_pay1 (F := Ideal) v34 v35 (ix2 (0 : Fin 1) (0 : Fin 1)) = v34 (ix2 (0 : Fin 1) (0 : Fin 1)) + v35 (ix1 (0 : Fin 1)) := by
  unfold k2_pay1
  refine (addf_apply _ _ _).trans ?_
  exact congrArg (fun a : EReal => v34 (ix2 (0 : Fin 1) (0 : Fin 1)) + a)
    (shapeCast_a_1a_apply v35 shapeCasts_S1_S1x1 (0 : Fin 1) (0 : Fin 1))

/-- A [1, 1] block cast to its own shape is itself. -/
theorem pay6_eq (v33 : Vec Ideal S1x1 .f32) : k2_pay6 (F := Ideal) v33 = v33 := by
  unfold k2_pay6
  exact shapeCast_self _ _

/-- The second output's update at its one entry: what was there plus the sum of the mask-product row. -/
theorem pay2_apply (v31 : FVec Ideal S1x1024 .f32) (v39 : Vec Ideal S1x1 .f32) :
    k2_pay2 (F := Ideal) v31 v39 (ix2 (0 : Fin 1) (0 : Fin 1))
      = v39 (ix2 (0 : Fin 1) (0 : Fin 1)) + ∑ n : Fin 1024, v31 (ix2 (0 : Fin 1) n) := by
  unfold k2_pay2
  refine (addf_apply _ _ _).trans ?_
  refine congrArg₂ (fun a b : EReal => a + b) ?_ ?_
  · exact congrFun (shapeCast_self v39 shapeCasts_S1x1_S1x1) _
  · refine (shapeCast_a_1a_apply _ shapeCasts_S1_S1x1 (0 : Fin 1) (0 : Fin 1)).trans ?_
    exact laneSum_apply v31 reduces_S1x1024_S1 (.inl rfl) rfl

/-- The two reset blocks hold the zero word, which is the extended real 0. -/
theorem pay3_apply (j : S1x1.Idx) : k2_pay3 (F := Ideal) j = 0 := by
  unfold k2_pay3
  exact Ideal.ofBits_zero_f32
theorem pay4_apply (j : S1x1.Idx) : k2_pay4 (F := Ideal) j = 0 := by
  unfold k2_pay4
  exact Ideal.ofBits_zero_f32

/-- The body's count of valid keypoints, for blocks that hold batch element `b` of the two masks' 0 / 1 values. -/
theorem pay5_sum (x2 x3 : Vec Ideal S1x1x1024 .f32) (m1 m2 : (⟨2, ![8, 1024]⟩ : Shape).Idx → BitVec 1) (b : Fin 8)
    (hx2 : ∀ n, x2 (ix3 (0 : Fin 1) (0 : Fin 1) n) = ((((m1 (ix2 b n)).toNat : ℝ)) : EReal))
    (hx3 : ∀ n, x3 (ix3 (0 : Fin 1) (0 : Fin 1) n) = ((((m2 (ix2 b n)).toNat : ℝ)) : EReal)) :
    ∑ n : Fin 1024, k2_pay5 (F := Ideal) x2 x3 (ix2 (0 : Fin 1) n) = ∑ n : Fin 1024, Cert.Spec.valid m1 m2 b n := by
  refine Finset.sum_congr rfl fun n _ => ?_
  refine (pay5_apply x2 x3 n).trans ?_
  rw [hx2, hx3]
  exact Cert.Spec.valid_mul _ _

end AtIdeal

/-! ## The four input blocks at a point: batch element `t` of their arrays -/

section Blocks

variable (V : (c : Dev nD) → (b : Ref sig .tc) → Buf (Elt Ideal) ((c : Thread nD τ).loc b))

/-- Where the four input windows' blocks lie at point `t`: block `t` along the batch axis, block 0 along the others. -/
theorem idx_in : ∀ t : Fin cfg2.N,
    (win2_0.index t (0 : Fin 3) = t.val ∧ win2_0.index t (1 : Fin 3) = 0 ∧ win2_0.index t (2 : Fin 3) = 0)
    ∧ (win2_1.index t (0 : Fin 3) = t.val ∧ win2_1.index t (1 : Fin 3) = 0 ∧ win2_1.index t (2 : Fin 3) = 0)
    ∧ (win2_2.index t (0 : Fin 3) = t.val ∧ win2_2.index t (1 : Fin 3) = 0 ∧ win2_2.index t (2 : Fin 3) = 0)
    ∧ (win2_3.index t (0 : Fin 3) = t.val ∧ win2_3.index t (1 : Fin 3) = 0 ∧ win2_3.index t (2 : Fin 3) = 0) :=
  (by decide +kernel : ∀ t : Fin grid2.N, _)

/-- The four input blocks at point `t`, by their literal types. -/
abbrev blk0 (c : Dev nD) (t : Fin cfg2.N) : Vec Ideal S1x768x1024 .f32 := iblk2 V c 0 t
abbrev blk1 (c : Dev nD) (t : Fin cfg2.N) : Vec Ideal S1x768x1024 .f32 := iblk2 V c 1 t
abbrev blk2 (c : Dev nD) (t : Fin cfg2.N) : Vec Ideal S1x1x1024 .f32 := iblk2 V c 2 t
abbrev blk3 (c : Dev nD) (t : Fin cfg2.N) : Vec Ideal S1x1x1024 .f32 := iblk2 V c 3 t

/-- The batch element a point works on. -/
abbrev bat (t : Fin cfg2.N) : Fin 8 := ⟨t.val, lt_of_lt_of_eq t.isLt N_2⟩

/-- Block `t` of the first sampled array is its batch element `t`. -/
theorem blk0_apply (c : Dev nD) (t : Fin cfg2.N) (ch : Fin 768) (n : Fin 1024) :
    blk0 V c t (ix3 (0 : Fin 1) ch n) = V c main_v11 (ix3 (bat t) ch n) := by
  have hi := (idx_in t).1
  unfold blk0 iblk2
  rw [View.read_apply]
  show V c main_v11 _ = V c main_v11 _
  congr 1
  funext a
  apply Fin.ext
  match a with
  | ⟨0, _⟩ => show win2_0.index t 0 * 1 + 1 * 0 = t.val; rw [hi.1]; omega
  | ⟨1, _⟩ => show win2_0.index t 1 * 768 + 1 * ch.val = ch.val; rw [hi.2.1]; omega
  | ⟨2, _⟩ => show win2_0.index t 2 * 1024 + 1 * n.val = n.val; rw [hi.2.2]; omega

/-- Block `t` of the second sampled array is its batch element `t`. -/
theorem blk1_apply (c : Dev nD) (t : Fin cfg2.N) (ch : Fin 768) (n : Fin 1024) :
    blk1 V c t (ix3 (0 : Fin 1) ch n) = V c main_v15 (ix3 (bat t) ch n) := by
  have hi := (idx_in t).2.1
  unfold blk1 iblk2
  rw [View.read_apply]
  show V c main_v15 _ = V c main_v15 _
  congr 1
  funext a
  apply Fin.ext
  match a with
  | ⟨0, _⟩ => show win2_1.index t 0 * 1 + 1 * 0 = t.val; rw [hi.1]; omega
  | ⟨1, _⟩ => show win2_1.index t 1 * 768 + 1 * ch.val = ch.val; rw [hi.2.1]; omega
  | ⟨2, _⟩ => show win2_1.index t 2 * 1024 + 1 * n.val = n.val; rw [hi.2.2]; omega

/-- Block `t` of the first mask operand is its row `t`. -/
theorem blk2_apply (c : Dev nD) (t : Fin cfg2.N) (n : Fin 1024) :
    blk2 V c t (ix3 (0 : Fin 1) (0 : Fin 1) n) = V c main_v18 (ix3 (bat t) (0 : Fin 1) n) := by
  have hi := (idx_in t).2.2.1
  unfold blk2 iblk2
  rw [View.read_apply]
  show V c main_v18 _ = V c main_v18 _
  congr 1
  funext a
  apply Fin.ext
  match a with
  | ⟨0, _⟩ => show win2_2.index t 0 * 1 + 1 * 0 = t.val; rw [hi.1]; omega
  | ⟨1, _⟩ => show win2_2.index t 1 * 1 + 1 * 0 = 0; rw [hi.2.1]
  | ⟨2, _⟩ => show win2_2.index t 2 * 1024 + 1 * n.val = n.val; rw [hi.2.2]; omega

/-- Block `t` of the second mask operand is its row `t`. -/
theorem blk3_apply (c : Dev nD) (t : Fin cfg2.N) (n : Fin 1024) :
    blk3 V c t (ix3 (0 : Fin 1) (0 : Fin 1) n) = V c main_v19 (ix3 (bat t) (0 : Fin 1) n) := by
  have hi := (idx_in t).2.2.2
  unfold blk3 iblk2
  rw [View.read_apply]
  show V c main_v19 _ = V c main_v19 _
  congr 1
  funext a
  apply Fin.ext
  match a with
  | ⟨0, _⟩ => show win2_3.index t 0 * 1 + 1 * 0 = t.val; rw [hi.1]; omega
  | ⟨1, _⟩ => show win2_3.index t 1 * 1 + 1 * 0 = 0; rw [hi.2.1]
  | ⟨2, _⟩ => show win2_3.index t 2 * 1024 + 1 * n.val = n.val; rw [hi.2.2]; omega

end Blocks

/-! ## The run: what the two outputs hold after each point, and at the end -/

section Run

variable (V : (c : Dev nD) → (b : Ref sig .tc) → Buf (Elt Ideal) ((c : Thread nD τ).loc b))
variable (c : Dev nD) (m1 m2 : (⟨2, ![8, 1024]⟩ : Shape).Idx → BitVec 1)

/-- The two sampled arrays as the specification reads them: batch element, channel, keypoint. -/
abbrev featA : Fin 8 → Fin 768 → Fin 1024 → EReal := fun b ch n => V c main_v11 (ix3 b ch n)
abbrev featB : Fin 8 → Fin 768 → Fin 1024 → EReal := fun b ch n => V c main_v15 (ix3 b ch n)

/-- One batch element's share of the total: its masked sum of squared distances over the keypoints. -/
def rowTotal (b : Fin 8) : EReal := ∑ n : Fin 1024, Cert.Spec.dist (featA V c) (featB V c) b n * Cert.Spec.valid m1 m2 b n
/-- One batch element's share of the count: its number of keypoints valid in both masks. -/
def rowCount (b : Fin 8) : EReal := ∑ n : Fin 1024, Cert.Spec.valid m1 m2 b n

/-- The shares of the batch elements 0 … n, added (an element past the batch would add nothing). -/
def accTotal (n : ℕ) : EReal := ∑ s ∈ Finset.range (n + 1), if h : s < 8 then rowTotal V c m1 m2 ⟨s, h⟩ else 0
def accCount (n : ℕ) : EReal := ∑ s ∈ Finset.range (n + 1), if h : s < 8 then rowCount m1 m2 ⟨s, h⟩ else 0

variable (h18 : ∀ (b : Fin 8) (n : Fin 1024), V c main_v18 (ix3 b (0 : Fin 1) n) = ((((m1 (ix2 b n)).toNat : ℝ)) : EReal))
variable (h19 : ∀ (b : Fin 8) (n : Fin 1024), V c main_v19 (ix3 b (0 : Fin 1) n) = ((((m2 (ix2 b n)).toNat : ℝ)) : EReal))

include h18 h19 in
/-- One point's update of the first output, on the point's blocks: what was there plus the batch element's share of the total. -/
theorem total_step (t : Fin cfg2.N) (xo4 : Vec Ideal S1x1 .f32) :
    k2_pay1 (F := Ideal) (k2_pay6 xo4) (k2_pay7 (blk0 V c t) (blk1 V c t) (blk2 V c t) (blk3 V c t)) (ix2 (0 : Fin 1) (0 : Fin 1))
      = xo4 (ix2 (0 : Fin 1) (0 : Fin 1)) + rowTotal V c m1 m2 (bat t) := by
  refine (pay1_apply _ _).trans ?_
  rw [pay6_eq]
  refine congrArg (fun a : EReal => xo4 (ix2 (0 : Fin 1) (0 : Fin 1)) + a) ?_
  exact pay7_spec (blk0 V c t) (blk1 V c t) (blk2 V c t) (blk3 V c t) (featA V c) (featB V c) m1 m2 (bat t)
    (fun ch n => blk0_apply V c t ch n) (fun ch n => blk1_apply V c t ch n)
    (fun n => (blk2_apply V c t n).trans (h18 (bat t) n)) (fun n => (blk3_apply V c t n).trans (h19 (bat t) n))

include h18 h19 in
/-- One point's update of the second output: what was there plus the batch element's share of the count. -/
theorem count_step (t : Fin cfg2.N) (xo5 : Vec Ideal S1x1 .f32) :
    k2_pay2 (F := Ideal) (k2_pay5 (blk2 V c t) (blk3 V c t)) xo5 (ix2 (0 : Fin 1) (0 : Fin 1))
      = xo5 (ix2 (0 : Fin 1) (0 : Fin 1)) + rowCount m1 m2 (bat t) := by
  refine (pay2_apply _ _).trans ?_
  refine congrArg (fun a : EReal => xo5 (ix2 (0 : Fin 1) (0 : Fin 1)) + a) ?_
  exact pay5_sum (blk2 V c t) (blk3 V c t) m1 m2 (bat t)
    (fun n => (blk2_apply V c t n).trans (h18 (bat t) n)) (fun n => (blk3_apply V c t n).trans (h19 (bat t) n))

include h18 h19 in
/-- THE INVARIANT: after point `n` the outputs hold the shares of the batch elements 0 … n, added. By induction on the
    point: point 0 resets to 0 and adds its share, every later point adds its share to what the point before left. -/
theorem outs_eq : ∀ (n : ℕ) (h : n < cfg2.N),
    (outsAt2 (F := Ideal) V c n h).1 (ix2 (0 : Fin 1) (0 : Fin 1)) = accTotal V c m1 m2 n
      ∧ (outsAt2 (F := Ideal) V c n h).2 (ix2 (0 : Fin 1) (0 : Fin 1)) = accCount m1 m2 n
  | 0, h => by
    have h0 : (⟨0, h⟩ : Fin cfg2.N).val % 8 = 0 := rfl
    rw [outsAt2_A V c ⟨0, h⟩ h0]
    dsimp only
    constructor
    · refine (congrFun (first_total (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) ((hcond2_0 ⟨0, h⟩).mpr h0) (blk0 V c ⟨0, h⟩) (blk1 V c ⟨0, h⟩) (blk2 V c ⟨0, h⟩) (blk3 V c ⟨0, h⟩)) (ix2 (0 : Fin 1) (0 : Fin 1))).trans ?_
      refine (total_step V c m1 m2 h18 h19 ⟨0, h⟩ (k2_pay3 (F := Ideal))).trans ?_
      rw [pay3_apply, zero_add]
      unfold accTotal
      rw [Finset.sum_range_one, dif_pos (by decide : 0 < 8)]
    · refine (congrFun (first_count (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) ((hcond2_0 ⟨0, h⟩).mpr h0) (blk0 V c ⟨0, h⟩) (blk1 V c ⟨0, h⟩) (blk2 V c ⟨0, h⟩) (blk3 V c ⟨0, h⟩)) (ix2 (0 : Fin 1) (0 : Fin 1))).trans ?_
      refine (count_step V c m1 m2 h18 h19 ⟨0, h⟩ (k2_pay4 (F := Ideal))).trans ?_
      rw [pay4_apply, zero_add]
      unfold accCount
      rw [Finset.sum_range_one, dif_pos (by decide : 0 < 8)]
  | n + 1, h => by
    have h8 : n + 1 < 8 := lt_of_lt_of_eq h (show cfg2.N = 8 from N_2)
    have hB : ¬(⟨n + 1, h⟩ : Fin cfg2.N).val % 8 = 0 := by dsimp only; omega
    obtain ⟨ih1, ih2⟩ := outs_eq n (Nat.lt_of_succ_lt h)
    rw [outsAt2_B V c ⟨n + 1, h⟩ hB]
    dsimp only
    constructor
    · refine (congrFun (later_total (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (fun hh => hB ((hcond2_0 ⟨n + 1, h⟩).mp hh)) (blk0 V c ⟨n + 1, h⟩) (blk1 V c ⟨n + 1, h⟩) (blk2 V c ⟨n + 1, h⟩) (blk3 V c ⟨n + 1, h⟩)
        (outsAt2 (F := Ideal) V c n (Nat.lt_of_succ_lt h)).1 (outsAt2 (F := Ideal) V c n (Nat.lt_of_succ_lt h)).2) (ix2 (0 : Fin 1) (0 : Fin 1))).trans ?_
      refine (total_step V c m1 m2 h18 h19 ⟨n + 1, h⟩ _).trans ?_
      rw [ih1]
      unfold accTotal
      rw [Finset.sum_range_succ _ (n + 1), dif_pos h8]
    · refine (congrFun (later_count (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (fun hh => hB ((hcond2_0 ⟨n + 1, h⟩).mp hh)) (blk0 V c ⟨n + 1, h⟩) (blk1 V c ⟨n + 1, h⟩) (blk2 V c ⟨n + 1, h⟩) (blk3 V c ⟨n + 1, h⟩)
        (outsAt2 (F := Ideal) V c n (Nat.lt_of_succ_lt h)).1 (outsAt2 (F := Ideal) V c n (Nat.lt_of_succ_lt h)).2) (ix2 (0 : Fin 1) (0 : Fin 1))).trans ?_
      refine (count_step V c m1 m2 h18 h19 ⟨n + 1, h⟩ _).trans ?_
      rw [ih2]
      unfold accCount
      rw [Finset.sum_range_succ _ (n + 1), dif_pos h8]

end Run

/-! ## The arrays after the last point: the outputs' one block is written back there, and it is the whole array -/

section Final

variable (V : (c : Dev nD) → (b : Ref sig .tc) → Buf (Elt Ideal) ((c : Thread nD τ).loc b))
variable (c : Dev nD)

theorem last_lt : 7 < cfg2.N := by rw [show cfg2.N = 8 from N_2]; decide

/-- What the two outputs' staging buffers hold after the last point, as contents of the two result arrays. -/
abbrev result4 : Buf (Elt Ideal) ((c : Thread nD τ).loc main_v20_0) := (outsAt2 (F := Ideal) V c 7 last_lt).1
abbrev result5 : Buf (Elt Ideal) ((c : Thread nD τ).loc main_v20_1) := (outsAt2 (F := Ideal) V c 7 last_lt).2

/-- The one write-back of the first output, at the last point, writes them: block (0, 0) of a 1 × 1 array is the array. -/
theorem flushed4_eq (t : Fin cfg2.N) (hf : (cfg2.win 4).flush t = true) :
    (dat2 (F := Ideal) V c).flushed 4 t = ((cfg2.win 4).blk t).view.read (Elt Ideal) (result4 V c) := by
  have hN : cfg2.N = 8 := N_2
  have h7 : t.val = 7 := by have := (flush2_4 t).mp hf; have := t.isLt; omega
  obtain rfl : t = t2_7 := Fin.ext h7
  show (cfg2.win 4).cut (grid2.coords t2_7) ((dat2 (F := Ideal) V c).after 4 t2_7) = _
  rw [after2_4]
  have hz' : (fun a => win2_4.index t2_7 a * main_v20_0.ty.shape.size a) = fun _ => 0 := funext fun a => by fin_cases a <;> decide
  exact (Memref.read_access_unit_zero (Elt Ideal) main_v20_0 hz' (fun a => by rw [congrFun hz' a]; simp) (result4 V c)).symm

/-- The same for the second output. -/
theorem flushed5_eq (t : Fin cfg2.N) (hf : (cfg2.win 5).flush t = true) :
    (dat2 (F := Ideal) V c).flushed 5 t = ((cfg2.win 5).blk t).view.read (Elt Ideal) (result5 V c) := by
  have hN : cfg2.N = 8 := N_2
  have h7 : t.val = 7 := by have := (flush2_5 t).mp hf; have := t.isLt; omega
  obtain rfl : t = t2_7 := Fin.ext h7
  show (cfg2.win 5).cut (grid2.coords t2_7) ((dat2 (F := Ideal) V c).after 5 t2_7) = _
  rw [after2_5]
  have hz' : (fun a => win2_5.index t2_7 a * main_v20_1.ty.shape.size a) = fun _ => 0 := funext fun a => by fin_cases a <;> decide
  exact (Memref.read_access_unit_zero (Elt Ideal) main_v20_1 hz' (fun a => by rw [congrFun hz' a]; simp) (result5 V c)).symm

/-- So the first result array ends holding the first output's contents after the last point. -/
theorem final4 : (dat2 (F := Ideal) V c).arrAt 4 cfg2.N = result4 V c :=
  (dat2 (F := Ideal) V c).arrAt_eq_of_cover 4 (result4 V c) (flushed4_eq V c) fun i =>
    ⟨t2_7, (flush2_4 t2_7).mpr rfl, by
      show i ∈ ((View.whole main_v20_0).slice (win2_4.rect t2_7)).set
      rw [View.set_slice_whole, Rect.mem_set_unit]
      intro a
      have h0 : (i 0 : Nat) < 1 := (i 0).isLt
      have h1 : (i 1 : Nat) < 1 := (i 1).isLt
      match a with
      | ⟨0, _⟩ => show win2_4.index t2_7 0 * win2_4.size 0 ≤ (i 0 : Nat) ∧ (i 0 : Nat) < win2_4.index t2_7 0 * win2_4.size 0 + win2_4.xsize (grid2.coords t2_7) 0
                  rw [show win2_4.index t2_7 0 * win2_4.size 0 = 0 from by decide +kernel, show win2_4.xsize (grid2.coords t2_7) 0 = 1 from by decide +kernel]; omega
      | ⟨1, _⟩ => show win2_4.index t2_7 1 * win2_4.size 1 ≤ (i 1 : Nat) ∧ (i 1 : Nat) < win2_4.index t2_7 1 * win2_4.size 1 + win2_4.xsize (grid2.coords t2_7) 1
                  rw [show win2_4.index t2_7 1 * win2_4.size 1 = 0 from by decide +kernel, show win2_4.xsize (grid2.coords t2_7) 1 = 1 from by decide +kernel]; omega⟩

/-- And the second result array the second output's. -/
theorem final5 : (dat2 (F := Ideal) V c).arrAt 5 cfg2.N = result5 V c :=
  (dat2 (F := Ideal) V c).arrAt_eq_of_cover 5 (result5 V c) (flushed5_eq V c) fun i =>
    ⟨t2_7, (flush2_5 t2_7).mpr rfl, by
      show i ∈ ((View.whole main_v20_1).slice (win2_5.rect t2_7)).set
      rw [View.set_slice_whole, Rect.mem_set_unit]
      intro a
      have h0 : (i 0 : Nat) < 1 := (i 0).isLt
      have h1 : (i 1 : Nat) < 1 := (i 1).isLt
      match a with
      | ⟨0, _⟩ => show win2_5.index t2_7 0 * win2_5.size 0 ≤ (i 0 : Nat) ∧ (i 0 : Nat) < win2_5.index t2_7 0 * win2_5.size 0 + win2_5.xsize (grid2.coords t2_7) 0
                  rw [show win2_5.index t2_7 0 * win2_5.size 0 = 0 from by decide +kernel, show win2_5.xsize (grid2.coords t2_7) 0 = 1 from by decide +kernel]; omega
      | ⟨1, _⟩ => show win2_5.index t2_7 1 * win2_5.size 1 ≤ (i 1 : Nat) ∧ (i 1 : Nat) < win2_5.index t2_7 1 * win2_5.size 1 + win2_5.xsize (grid2.coords t2_7) 1
                  rw [show win2_5.index t2_7 1 * win2_5.size 1 = 0 from by decide +kernel, show win2_5.xsize (grid2.coords t2_7) 1 = 1 from by decide +kernel]; omega⟩

variable (m1 m2 : (⟨2, ![8, 1024]⟩ : Shape).Idx → BitVec 1)

/-- All eight shares added are the specification's total … -/
theorem accTotal_last : accTotal V c m1 m2 7 = Cert.Spec.total (featA V c) (featB V c) m1 m2 := by
  unfold accTotal Cert.Spec.total
  show ∑ s ∈ Finset.range 8, _ = _
  rw [Finset.sum_range]
  exact Finset.sum_congr rfl fun b _ => dif_pos b.isLt

/-- … and its count. -/
theorem accCount_last : accCount m1 m2 7 = Cert.Spec.count m1 m2 := by
  unfold accCount Cert.Spec.count
  show ∑ s ∈ Finset.range 8, _ = _
  rw [Finset.sum_range]
  exact Finset.sum_congr rfl fun b _ => dif_pos b.isLt

end Final

variable (V : (c : Dev nD) → (b : Ref sig .tc) → Buf (Elt Ideal) ((c : Thread nD τ).loc b))

/-- After the last grid point the two outputs hold the total and the count, when the two mask operands are the
    0 / 1 values of word masks `m1`, `m2`. -/
theorem loss2 (c : Dev nD) (m1 m2 : (⟨2, ![8, 1024]⟩ : Shape).Idx → BitVec 1)
    (h18 : ∀ (b : Fin 8) (n : Fin 1024), V c main_v18 (ix3 b (0 : Fin 1) n) = ((((m1 (ix2 b n)).toNat : ℝ)) : EReal))
    (h19 : ∀ (b : Fin 8) (n : Fin 1024), V c main_v19 (ix3 b (0 : Fin 1) n) = ((((m2 (ix2 b n)).toNat : ℝ)) : EReal)) :
    (dat2 (F := Ideal) V c).arrAt 4 cfg2.N (ix2 (0 : Fin 1) (0 : Fin 1))
        = Cert.Spec.total (fun b ch n => V c main_v11 (ix3 b ch n)) (fun b ch n => V c main_v15 (ix3 b ch n)) m1 m2
    ∧ (dat2 (F := Ideal) V c).arrAt 5 cfg2.N (ix2 (0 : Fin 1) (0 : Fin 1)) = Cert.Spec.count m1 m2 := by
  obtain ⟨e1, e2⟩ := outs_eq V c m1 m2 h18 h19 7 last_lt
  constructor
  · rw [final4]
    exact e1.trans (accTotal_last V c m1 m2)
  · rw [final5]
    exact e2.trans (accCount_last m1 m2)

end Cert.KernelIdeal.KV

end
-- ==== Proof.KChain.lean ====
/-
  The kernel program's result as a function of its arguments: the host operations before, between and after the three
  regions are read one boundary at a time, the two gather regions leave the bilinear samples of the two flattened
  images, the loss region their masked total and the count of valid keypoints, and the last host operations divide.
-/
import proofs.«416857_j37855841747427_3_alg».proof.Proof.KRun
import proofs.«416857_j37855841747427_3_alg».proof.Proof.KGatherArr
import proofs.«416857_j37855841747427_3_alg».proof.Proof.KLoss
import Idealize.ShloMosaic.Lib.StableHlo.Run
import Idealize.ShloMosaic.Lib.Pipeline.Value

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat Cfg Window)

/-! ## The arguments' derived arrays -/

/-- An image [8,768,64,64] flattened to [8,768,4096]. -/
def flat (a : FVec Ideal S8x768x64x64 .f32) : FVec Ideal S8x768x4096 .f32 :=
  shapeCast S8x768x4096 a shapeCasts_S8x768x64x64_S8x768x4096
/-- The x coordinates [8,1024] of a keypoint array [8,1024,2]. -/
def coordX (k : FVec Ideal S8x1024x2 .f32) : FVec Ideal S8x1024 .f32 :=
  shapeCast S8x1024 (extractStridedSlice S8x1024x1 ![0, 0, 0] k slices_S8x1024x2_S8x1024x1_0_0_0) shapeCasts_S8x1024x1_S8x1024
/-- The y coordinates. -/
def coordY (k : FVec Ideal S8x1024x2 .f32) : FVec Ideal S8x1024 .f32 :=
  shapeCast S8x1024 (extractStridedSlice S8x1024x1 ![0, 0, 1] k slices_S8x1024x2_S8x1024x1_0_0_1) shapeCasts_S8x1024x1_S8x1024
/-- A [8,1024] array as [8,1,1024]. -/
def mid (k : FVec Ideal S8x1024 .f32) : FVec Ideal S8x1x1024 .f32 :=
  broadcastInDim S8x1x1024 ![0, 2] bcast_S8x1024_S8x1x1024_0_2 k

variable (m : (ℓ : Loc nD τ sig) → Buf (Elt Ideal) ℓ) (ρ : Dev nD → PrngReg) (c : Dev nD)

/-! ## Before region 0 -/

theorem W1_v8 : W1 m ρ c (Proc.devRef .tc main_v8) = flat (m ((c.tc : Thread nD τ).loc main_arg0)) := by
  show StableHlo.after hostOps0 (W0 m ρ c) (Proc.devRef .tc main_v8) = _
  after_results
  rfl

theorem W1_v9 : W1 m ρ c (Proc.devRef .tc main_v9) = mid (coordX (m ((c.tc : Thread nD τ).loc main_arg2))) := by
  show StableHlo.after hostOps0 (W0 m ρ c) (Proc.devRef .tc main_v9) = _
  after_results
  rfl

theorem W1_v10 : W1 m ρ c (Proc.devRef .tc main_v10) = mid (coordY (m ((c.tc : Thread nD τ).loc main_arg2))) := by
  show StableHlo.after hostOps0 (W0 m ρ c) (Proc.devRef .tc main_v10) = _
  after_results
  rfl

theorem W1_v5 : W1 m ρ c (Proc.devRef .tc main_v5) = coordX (m ((c.tc : Thread nD τ).loc main_arg3)) := by
  show StableHlo.after hostOps0 (W0 m ρ c) (Proc.devRef .tc main_v5) = _
  after_results
  rfl

theorem W1_v7 : W1 m ρ c (Proc.devRef .tc main_v7) = coordY (m ((c.tc : Thread nD τ).loc main_arg3)) := by
  show StableHlo.after hostOps0 (W0 m ρ c) (Proc.devRef .tc main_v7) = _
  after_results
  rfl

theorem W1_arg1 : W1 m ρ c (Proc.devRef .tc main_arg1) = m ((c.tc : Thread nD τ).loc main_arg1) := by
  show StableHlo.after hostOps0 (W0 m ρ c) (Proc.devRef .tc main_arg1) = _
  after_results

theorem W1_arg4 : W1 m ρ c (Proc.devRef .tc main_arg4) = m ((c.tc : Thread nD τ).loc main_arg4) := by
  show StableHlo.after hostOps0 (W0 m ρ c) (Proc.devRef .tc main_arg4) = _
  after_results

theorem W1_arg5 : W1 m ρ c (Proc.devRef .tc main_arg5) = m ((c.tc : Thread nD τ).loc main_arg5) := by
  show StableHlo.after hostOps0 (W0 m ρ c) (Proc.devRef .tc main_arg5) = _
  after_results

/-! ## Reading the derived arrays at an index -/

theorem mid_apply (k : FVec Ideal S8x1024 .f32) (b : Fin 8) (n : Fin 1024) : mid k (ix3 b (0 : Fin 1) n) = k (ix2 b n) := by
  unfold mid
  exact broadcastInDim_apply _ bcast_S8x1024_S8x1x1024_0_2 k (ix3 b (0 : Fin 1) n) (ix2 b n) (fun a => match a with
    | ⟨0, _⟩ => by show b.val = if (8 : Nat) = 1 then 0 else b.val; rw [if_neg (by decide)]
    | ⟨1, _⟩ => by show n.val = if (1024 : Nat) = 1 then 0 else n.val; rw [if_neg (by decide)])

theorem flat_real (a : FVec Ideal S8x768x64x64 .f32) (h : ∀ i, Cert.Spec.IsReal (a i)) (i) : Cert.Spec.IsReal (flat a i) := by
  unfold flat shapeCast; exact h _

theorem midX_real (k : FVec Ideal S8x1024x2 .f32) (h : ∀ i, Cert.Spec.IsReal (k i)) (i) : Cert.Spec.IsReal (mid (coordX k) i) := by
  unfold mid broadcastInDim coordX shapeCast extractStridedSlice; exact h _

theorem midY_real (k : FVec Ideal S8x1024x2 .f32) (h : ∀ i, Cert.Spec.IsReal (k i)) (i) : Cert.Spec.IsReal (mid (coordY k) i) := by
  unfold mid broadcastInDim coordY shapeCast extractStridedSlice; exact h _

/-! ## The sampled features -/

/-- The bilinear samples of an image at a keypoint array, as the specification states them. -/
def sampled (a : FVec Ideal S8x768x64x64 .f32) (k : FVec Ideal S8x1024x2 .f32) : Fin 8 → Fin 768 → Fin 1024 → EReal :=
  fun b ch n => Cert.Spec.sampleAt (fun q => flat a (ix3 b ch q)) (coordX k (ix2 b n)) (coordY k (ix2 b n))

/-- After region 0 the first sampled-feature array holds the samples of the first image. -/
theorem W2_v11 (hr0 : ∀ i, Cert.Spec.IsReal (m ((c.tc : Thread nD τ).loc main_arg0) i))
    (hr2 : ∀ i, Cert.Spec.IsReal (m ((c.tc : Thread nD τ).loc main_arg2) i)) (b : Fin 8) (ch : Fin 768) (n : Fin 1024) :
    W2 m ρ c (Proc.devRef .tc main_v11) (ix3 b ch n)
      = sampled (m ((c.tc : Thread nD τ).loc main_arg0)) (m ((c.tc : Thread nD τ).loc main_arg2)) b ch n := by
  have e8 : V1 m ρ c main_v8 = flat (m ((c.tc : Thread nD τ).loc main_arg0)) := W1_v8 m ρ c
  have e9 : V1 m ρ c main_v9 = mid (coordX (m ((c.tc : Thread nD τ).loc main_arg2))) := W1_v9 m ρ c
  have e10 : V1 m ρ c main_v10 = mid (coordY (m ((c.tc : Thread nD τ).loc main_arg2))) := W1_v10 m ρ c
  have h := gather0 (V1 m ρ) c (fun i => by rw [e8]; exact flat_real _ hr0 i) (fun i => by rw [e9]; exact midX_real _ hr2 i)
    (fun i => by rw [e10]; exact midY_real _ hr2 i) b ch n
  rw [e8, e9, e10, mid_apply, mid_apply] at h
  exact (congrFun (W2_arr m ρ c 3) (ix3 b ch n)).trans h

/-! ## Between region 0 and region 1 -/

theorem W2_arg1 : W2 m ρ c (Proc.devRef .tc main_arg1) = m ((c.tc : Thread nD τ).loc main_arg1) :=
  (W2_of_ne m ρ c main_arg1 (by decide)).trans (W1_arg1 m ρ c)
theorem W2_v5 : W2 m ρ c (Proc.devRef .tc main_v5) = coordX (m ((c.tc : Thread nD τ).loc main_arg3)) :=
  (W2_of_ne m ρ c main_v5 (by decide)).trans (W1_v5 m ρ c)
theorem W2_v7 : W2 m ρ c (Proc.devRef .tc main_v7) = coordY (m ((c.tc : Thread nD τ).loc main_arg3)) :=
  (W2_of_ne m ρ c main_v7 (by decide)).trans (W1_v7 m ρ c)
theorem W2_arg4 : W2 m ρ c (Proc.devRef .tc main_arg4) = m ((c.tc : Thread nD τ).loc main_arg4) :=
  (W2_of_ne m ρ c main_arg4 (by decide)).trans (W1_arg4 m ρ c)
theorem W2_arg5 : W2 m ρ c (Proc.devRef .tc main_arg5) = m ((c.tc : Thread nD τ).loc main_arg5) :=
  (W2_of_ne m ρ c main_arg5 (by decide)).trans (W1_arg5 m ρ c)

theorem W3_v12 : W3 m ρ c (Proc.devRef .tc main_v12) = flat (m ((c.tc : Thread nD τ).loc main_arg1)) := by
  show StableHlo.after hostOps1 (W2 m ρ c) (Proc.devRef .tc main_v12) = _
  after_results
  rw [W2_arg1]; rfl
theorem W3_v13 : W3 m ρ c (Proc.devRef .tc main_v13) = mid (coordX (m ((c.tc : Thread nD τ).loc main_arg3))) := by
  show StableHlo.after hostOps1 (W2 m ρ c) (Proc.devRef .tc main_v13) = _
  after_results
  rw [W2_v5]; rfl
theorem W3_v14 : W3 m ρ c (Proc.devRef .tc main_v14) = mid (coordY (m ((c.tc : Thread nD τ).loc main_arg3))) := by
  show StableHlo.after hostOps1 (W2 m ρ c) (Proc.devRef .tc main_v14) = _
  after_results
  rw [W2_v7]; rfl
theorem W3_v11 : W3 m ρ c (Proc.devRef .tc main_v11) = W2 m ρ c (Proc.devRef .tc main_v11) := by
  show StableHlo.after hostOps1 (W2 m ρ c) (Proc.devRef .tc main_v11) = _
  after_results
theorem W3_arg4 : W3 m ρ c (Proc.devRef .tc main_arg4) = m ((c.tc : Thread nD τ).loc main_arg4) := by
  show StableHlo.after hostOps1 (W2 m ρ c) (Proc.devRef .tc main_arg4) = _
  after_results
  exact W2_arg4 m ρ c
theorem W3_arg5 : W3 m ρ c (Proc.devRef .tc main_arg5) = m ((c.tc : Thread nD τ).loc main_arg5) := by
  show StableHlo.after hostOps1 (W2 m ρ c) (Proc.devRef .tc main_arg5) = _
  after_results
  exact W2_arg5 m ρ c

/-- After region 1 the second sampled-feature array holds the samples of the second image. -/
theorem W4_v15 (hr1 : ∀ i, Cert.Spec.IsReal (m ((c.tc : Thread nD τ).loc main_arg1) i))
    (hr3 : ∀ i, Cert.Spec.IsReal (m ((c.tc : Thread nD τ).loc main_arg3) i)) (b : Fin 8) (ch : Fin 768) (n : Fin 1024) :
    W4 m ρ c (Proc.devRef .tc main_v15) (ix3 b ch n)
      = sampled (m ((c.tc : Thread nD τ).loc main_arg1)) (m ((c.tc : Thread nD τ).loc main_arg3)) b ch n := by
  have e12 : V3 m ρ c main_v12 = flat (m ((c.tc : Thread nD τ).loc main_arg1)) := W3_v12 m ρ c
  have e13 : V3 m ρ c main_v13 = mid (coordX (m ((c.tc : Thread nD τ).loc main_arg3))) := W3_v13 m ρ c
  have e14 : V3 m ρ c main_v14 = mid (coordY (m ((c.tc : Thread nD τ).loc main_arg3))) := W3_v14 m ρ c
  have h := gather1 (V3 m ρ) c (fun i => by rw [e12]; exact flat_real _ hr1 i) (fun i => by rw [e13]; exact midX_real _ hr3 i)
    (fun i => by rw [e14]; exact midY_real _ hr3 i) b ch n
  rw [e12, e13, e14, mid_apply, mid_apply] at h
  exact (congrFun (W4_arr m ρ c 3) (ix3 b ch n)).trans h

theorem W4_v11 : W4 m ρ c (Proc.devRef .tc main_v11) = W2 m ρ c (Proc.devRef .tc main_v11) :=
  (W4_of_ne m ρ c main_v11 (by decide)).trans (W3_v11 m ρ c)
theorem W4_arg4 : W4 m ρ c (Proc.devRef .tc main_arg4) = m ((c.tc : Thread nD τ).loc main_arg4) :=
  (W4_of_ne m ρ c main_arg4 (by decide)).trans (W3_arg4 m ρ c)
theorem W4_arg5 : W4 m ρ c (Proc.devRef .tc main_arg5) = m ((c.tc : Thread nD τ).loc main_arg5) :=
  (W4_of_ne m ρ c main_arg5 (by decide)).trans (W3_arg5 m ρ c)

/-! ## Before the loss region -/

/-- A word mask as 0 / 1 values, as [8,1,1024]. -/
def maskMid (k : IVec S8x1024 1) : FVec Ideal S8x1x1024 .f32 := mid (uitofp .f32 k)

theorem W5_v18 : W5 m ρ c (Proc.devRef .tc main_v18) = maskMid (m ((c.tc : Thread nD τ).loc main_arg4)) := by
  show StableHlo.after hostOps2 (W4 m ρ c) (Proc.devRef .tc main_v18) = _
  after_results
  rw [W4_arg4]; rfl
theorem W5_v19 : W5 m ρ c (Proc.devRef .tc main_v19) = maskMid (m ((c.tc : Thread nD τ).loc main_arg5)) := by
  show StableHlo.after hostOps2 (W4 m ρ c) (Proc.devRef .tc main_v19) = _
  after_results
  rw [W4_arg5]; rfl
theorem W5_v11 : W5 m ρ c (Proc.devRef .tc main_v11) = W2 m ρ c (Proc.devRef .tc main_v11) := by
  show StableHlo.after hostOps2 (W4 m ρ c) (Proc.devRef .tc main_v11) = _
  after_results
  exact W4_v11 m ρ c
theorem W5_v15 : W5 m ρ c (Proc.devRef .tc main_v15) = W4 m ρ c (Proc.devRef .tc main_v15) := by
  show StableHlo.after hostOps2 (W4 m ρ c) (Proc.devRef .tc main_v15) = _
  after_results

theorem maskMid_apply (k : IVec S8x1024 1) (b : Fin 8) (n : Fin 1024) :
    maskMid k (ix3 b (0 : Fin 1) n) = ((((k (ix2 b n)).toNat : ℝ)) : EReal) := by
  unfold maskMid; rw [mid_apply]; rfl

/-! ## The loss region and the last host operations -/

/-- After the loss region its two outputs hold the masked total and the count. -/
theorem W6_outputs (hr0 : ∀ i, Cert.Spec.IsReal (m ((c.tc : Thread nD τ).loc main_arg0) i))
    (hr1 : ∀ i, Cert.Spec.IsReal (m ((c.tc : Thread nD τ).loc main_arg1) i))
    (hr2 : ∀ i, Cert.Spec.IsReal (m ((c.tc : Thread nD τ).loc main_arg2) i))
    (hr3 : ∀ i, Cert.Spec.IsReal (m ((c.tc : Thread nD τ).loc main_arg3) i)) :
    W6 m ρ c (Proc.devRef .tc main_v20_0) (ix2 (0 : Fin 1) (0 : Fin 1))
        = Cert.Spec.total (sampled (m ((c.tc : Thread nD τ).loc main_arg0)) (m ((c.tc : Thread nD τ).loc main_arg2)))
            (sampled (m ((c.tc : Thread nD τ).loc main_arg1)) (m ((c.tc : Thread nD τ).loc main_arg3)))
            (m ((c.tc : Thread nD τ).loc main_arg4)) (m ((c.tc : Thread nD τ).loc main_arg5))
    ∧ W6 m ρ c (Proc.devRef .tc main_v20_1) (ix2 (0 : Fin 1) (0 : Fin 1))
        = Cert.Spec.count (m ((c.tc : Thread nD τ).loc main_arg4)) (m ((c.tc : Thread nD τ).loc main_arg5)) := by
  have e18 : V5 m ρ c main_v18 = maskMid (m ((c.tc : Thread nD τ).loc main_arg4)) := W5_v18 m ρ c
  have e19 : V5 m ρ c main_v19 = maskMid (m ((c.tc : Thread nD τ).loc main_arg5)) := W5_v19 m ρ c
  have h := loss2 (V5 m ρ) c (m ((c.tc : Thread nD τ).loc main_arg4)) (m ((c.tc : Thread nD τ).loc main_arg5))
    (fun b n => by rw [e18]; exact maskMid_apply _ b n) (fun b n => by rw [e19]; exact maskMid_apply _ b n)
  have g1 : (fun (b : Fin 8) (ch : Fin 768) (n : Fin 1024) => V5 m ρ c main_v11 (ix3 b ch n))
      = sampled (m ((c.tc : Thread nD τ).loc main_arg0)) (m ((c.tc : Thread nD τ).loc main_arg2)) := by
    funext b ch n
    exact (congrFun (W5_v11 m ρ c) (ix3 b ch n)).trans (W2_v11 m ρ c hr0 hr2 b ch n)
  have g2 : (fun (b : Fin 8) (ch : Fin 768) (n : Fin 1024) => V5 m ρ c main_v15 (ix3 b ch n))
      = sampled (m ((c.tc : Thread nD τ).loc main_arg1)) (m ((c.tc : Thread nD τ).loc main_arg3)) := by
    funext b ch n
    exact (congrFun (W5_v15 m ρ c) (ix3 b ch n)).trans (W4_v15 m ρ c hr1 hr3 b ch n)
  rw [g1, g2] at h
  exact ⟨(congrFun (W6_arr m ρ c 4) _).trans h.1, (congrFun (W6_arr m ρ c 5) _).trans h.2⟩

/-- A 1 × 1 array has one index. -/
theorem idx_S1x1 (j : S1x1.Idx) : j = ix2 (0 : Fin 1) (0 : Fin 1) := by
  funext a
  match a with
  | ⟨0, _⟩ => exact Fin.ext (by show (j 0).val = 0; have : (j 0).val < 1 := (j 0).isLt; omega)
  | ⟨1, _⟩ => exact Fin.ext (by show (j 1).val = 0; have : (j 1).val < 1 := (j 1).isLt; omega)

/-- The result buffer after the last host operations: the two outputs, divided. -/
theorem W8_v26 : W8 m ρ c (Proc.devRef .tc main_v26)
    = fun _ => Cert.Spec.finish (W6 m ρ c (Proc.devRef .tc main_v20_0) (ix2 (0 : Fin 1) (0 : Fin 1)))
        (W6 m ρ c (Proc.devRef .tc main_v20_1) (ix2 (0 : Fin 1) (0 : Fin 1))) := by
  show StableHlo.after hostOps3_1 (StableHlo.after hostOps3 (W6 m ρ c)) (Proc.devRef .tc main_v26) = _
  after_results
  funext i
  simp only [TRef.ofBuf, TRef.toBuf, cast_eq]
  have e : ∀ (x : S1x1.Idx → EReal) (j : S_.Idx),
      shapeCast S_ x shapeCasts_S1x1_S_ j = x (ix2 (0 : Fin 1) (0 : Fin 1)) := by
    intro x j; unfold shapeCast; exact congrArg x (idx_S1x1 _)
  show Scalar.select
      (Ideal.cmp .oeq (shapeCast S_ (W6 m ρ c (Proc.devRef .tc main_v20_1) : S1x1.Idx → EReal) shapeCasts_S1x1_S_ i) Cert.Spec.zero)
      Cert.Spec.zero
      (Ideal.div (shapeCast S_ (W6 m ρ c (Proc.devRef .tc main_v20_0) : S1x1.Idx → EReal) shapeCasts_S1x1_S_ i)
        (max (shapeCast S_ (W6 m ρ c (Proc.devRef .tc main_v20_1) : S1x1.Idx → EReal) shapeCasts_S1x1_S_ i) Cert.Spec.one)) = _
  rw [e, e]
  rfl

/-- THE KERNEL PROGRAM'S RESULT: the specification's loss of the two images' samples and the two masks. -/
theorem result (hr0 : ∀ i, Cert.Spec.IsReal (m ((c.tc : Thread nD τ).loc main_arg0) i))
    (hr1 : ∀ i, Cert.Spec.IsReal (m ((c.tc : Thread nD τ).loc main_arg1) i))
    (hr2 : ∀ i, Cert.Spec.IsReal (m ((c.tc : Thread nD τ).loc main_arg2) i))
    (hr3 : ∀ i, Cert.Spec.IsReal (m ((c.tc : Thread nD τ).loc main_arg3) i)) :
    W8 m ρ c (Proc.devRef .tc main_v26)
      = fun _ => Cert.Spec.loss (sampled (m ((c.tc : Thread nD τ).loc main_arg0)) (m ((c.tc : Thread nD τ).loc main_arg2)))
          (sampled (m ((c.tc : Thread nD τ).loc main_arg1)) (m ((c.tc : Thread nD τ).loc main_arg3)))
          (m ((c.tc : Thread nD τ).loc main_arg4)) (m ((c.tc : Thread nD τ).loc main_arg5)) := by
  rw [W8_v26, (W6_outputs m ρ c hr0 hr1 hr2 hr3).1, (W6_outputs m ρ c hr0 hr1 hr2 hr3).2]
  rfl

end Cert.KernelIdeal.KV

end
-- ==== Proof.Finite.lean ====
/-
  The precondition read back: every entry of the four float arguments is a real number.

  The precondition is the AND of four `all(|a| < +∞)`; an AND of flags that is 1 has every flag 1, an `all` that is 1
  has every entry's compare 1, and an extended real whose absolute value is below +∞ is neither infinity.
-/
import proofs.«416857_j37855841747427_3_alg».proof.Pre_finite_inputs
import proofs.«416857_j37855841747427_3_alg».proof.Proof.Gen.Pre_finite_inputs
import proofs.«416857_j37855841747427_3_alg».proof.Proof.Spec
import Idealize.ShloMosaic.Lib.ReduceAll

noncomputable section

namespace Cert.Finite

open Idealize.ShloMosaic Cert.Pre_finite_inputs

instance : Subsingleton S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value max(x, −x) compares below the +∞ word is a real number. -/
theorem isReal_of_abs_lt (x : EReal)
    (h : Ideal.cmp .olt (max x (-x)) (Ideal.ofBits .f32 0x7F800000#32) = 1#1) : Cert.Spec.IsReal x := by
  rw [inf_word] at h
  induction x using EReal.rec with
  | bot => exact absurd h (by simp [Ideal.cmp])
  | top => exact absurd h (by simp [Ideal.cmp])
  | coe r => exact ⟨r, rfl⟩

/-- The precondition, all ones, gives every entry of the four float arguments as a real number. -/
theorem reals_of_pre [Facts] (a0 a1 : FVec Ideal S8x768x64x64 .f32) (a2 a3 : FVec Ideal S8x1024x2 .f32) (a4 a5 : IVec S8x1024 1)
    (h : fn (F := Ideal) a0 a1 a2 a3 a4 a5 = fun _ => 1#1) :
    (∀ i, Cert.Spec.IsReal (a0 i)) ∧ (∀ i, Cert.Spec.IsReal (a1 i)) ∧ (∀ i, Cert.Spec.IsReal (a2 i)) ∧ (∀ i, Cert.Spec.IsReal (a3 i)) := by
  have e := congrFun h ValueIdx.ix0
  dsimp only [fn, fn_part1] at e
  obtain ⟨e012, e3⟩ := IntOp.andi_eq_one.mp e
  obtain ⟨e01, e2⟩ := IntOp.andi_eq_one.mp e012
  obtain ⟨e0, e1⟩ := IntOp.andi_eq_one.mp e01
  exact ⟨fun i => isReal_of_abs_lt _ (Host.reduce_andi_all _ _ _ _ _ e0 i),
    fun i => isReal_of_abs_lt _ (Host.reduce_andi_all _ _ _ _ _ e1 i),
    fun i => isReal_of_abs_lt _ (Host.reduce_andi_all _ _ _ _ _ e2 i),
    fun i => isReal_of_abs_lt _ (Host.reduce_andi_all _ _ _ _ _ e3 i)⟩

end Cert.Finite

end
-- ==== Proof.RefRunI.lean ====
/-
  The reference program's run, window by window: what the buffers hold where a window starts.
  For K = 0 … 7, `InvK x0 … x5 W` says of contents `W` of the device's buffers that every buffer written before window K and
  read from window K on holds its stage `val_‹buffer›` of the six argument values x0 … x5, and that the six argument
  buffers hold x0 … x5. `Inv0` is the launch (nothing written yet) and `Inv7` the end (the result buffer alone is kept).
-/
import proofs.«416857_j37855841747427_3_alg».proof.Proof.RefRead

noncomputable section

namespace Cert.ReferenceIdeal.RV

open Cert.ReferenceIdeal Cert.ReferenceIdeal.ReadP Idealize.ShloMosaic Idealize.ShloMosaic.TcCoe Idealize.SL.Sem Idealize.ShloMosaic.StableHlo

variable {F : FTy → Type} [FloatOps F]
variable (x0 x1 : (⟨S8x768x64x64, .f32⟩ : BufTy).Contents (Elt F)) (x2 x3 : (⟨S8x1024x2, .f32⟩ : BufTy).Contents (Elt F))
  (x4 x5 : (⟨S8x1024, .i1⟩ : BufTy).Contents (Elt F))

/-- At the launch: the arguments. -/
structure Inv0 (W : Valuation τ sig (Elt F)) : Prop where
  a0 : W (no_index (Proc.devRef .tc main_arg0)) = x0
  a1 : W (no_index (Proc.devRef .tc main_arg1)) = x1
  a2 : W (no_index (Proc.devRef .tc main_arg2)) = x2
  a3 : W (no_index (Proc.devRef .tc main_arg3)) = x3
  a4 : W (no_index (Proc.devRef .tc main_arg4)) = x4
  a5 : W (no_index (Proc.devRef .tc main_arg5)) = x5

/-- Before window 1: the first feature map's corner coordinates and fractions, its flattened map, and the first corner's weighted sample. -/
structure Inv1 (W : Valuation τ sig (Elt F)) : Prop where
  a0 : W (no_index (Proc.devRef .tc main_arg0)) = x0
  a1 : W (no_index (Proc.devRef .tc main_arg1)) = x1
  a2 : W (no_index (Proc.devRef .tc main_arg2)) = x2
  a3 : W (no_index (Proc.devRef .tc main_arg3)) = x3
  a4 : W (no_index (Proc.devRef .tc main_arg4)) = x4
  a5 : W (no_index (Proc.devRef .tc main_arg5)) = x5
  v6 : W (no_index (Proc.devRef .tc main_v6)) = val_main_v6 (F := F) x2
  v7 : W (no_index (Proc.devRef .tc main_v7)) = val_main_v7 (F := F) x2
  v8 : W (no_index (Proc.devRef .tc main_v8)) = val_main_v8 (F := F) x2
  v10 : W (no_index (Proc.devRef .tc main_v10)) = val_main_v10 (F := F) x2
  v11 : W (no_index (Proc.devRef .tc main_v11)) = val_main_v11 (F := F) x2
  v13 : W (no_index (Proc.devRef .tc main_v13)) = val_main_v13 (F := F) x2
  v14 : W (no_index (Proc.devRef .tc main_v14)) = val_main_v14 (F := F) x0
  v44 : W (no_index (Proc.devRef .tc main_v44)) = val_main_v44 (F := F) x0 x2
  v45 : W (no_index (Proc.devRef .tc main_v45)) = val_main_v45 (F := F)

/-- Before window 2. -/
structure Inv2 (W : Valuation τ sig (Elt F)) : Prop where
  a0 : W (no_index (Proc.devRef .tc main_arg0)) = x0
  a1 : W (no_index (Proc.devRef .tc main_arg1)) = x1
  a2 : W (no_index (Proc.devRef .tc main_arg2)) = x2
  a3 : W (no_index (Proc.devRef .tc main_arg3)) = x3
  a4 : W (no_index (Proc.devRef .tc main_arg4)) = x4
  a5 : W (no_index (Proc.devRef .tc main_arg5)) = x5
  v6 : W (no_index (Proc.devRef .tc main_v6)) = val_main_v6 (F := F) x2
  v7 : W (no_index (Proc.devRef .tc main_v7)) = val_main_v7 (F := F) x2
  v8 : W (no_index (Proc.devRef .tc main_v8)) = val_main_v8 (F := F) x2
  v10 : W (no_index (Proc.devRef .tc main_v10)) = val_main_v10 (F := F) x2
  v13 : W (no_index (Proc.devRef .tc main_v13)) = val_main_v13 (F := F) x2
  v14 : W (no_index (Proc.devRef .tc main_v14)) = val_main_v14 (F := F) x0
  v73 : W (no_index (Proc.devRef .tc main_v73)) = val_main_v73 (F := F) x0 x2
  v85 : W (no_index (Proc.devRef .tc main_v85)) = val_main_v85 (F := F) x2
  v88 : W (no_index (Proc.devRef .tc main_v88)) = val_main_v88 (F := F) x2
  c_28 : W (no_index (Proc.devRef .tc main_c_28)) = val_main_c_28 (F := F)

/-- Before window 3: the first map's sampled features, transposed, and the second keypoints' coordinates, floors and one fraction. -/
structure Inv3 (W : Valuation τ sig (Elt F)) : Prop where
  a0 : W (no_index (Proc.devRef .tc main_arg0)) = x0
  a1 : W (no_index (Proc.devRef .tc main_arg1)) = x1
  a2 : W (no_index (Proc.devRef .tc main_arg2)) = x2
  a3 : W (no_index (Proc.devRef .tc main_arg3)) = x3
  a4 : W (no_index (Proc.devRef .tc main_arg4)) = x4
  a5 : W (no_index (Proc.devRef .tc main_arg5)) = x5
  v130 : W (no_index (Proc.devRef .tc main_v130)) = val_main_v130 (F := F) x0 x2
  v134 : W (no_index (Proc.devRef .tc main_v134)) = val_main_v134 (F := F) x3
  v135 : W (no_index (Proc.devRef .tc main_v135)) = val_main_v135 (F := F) x3
  v136 : W (no_index (Proc.devRef .tc main_v136)) = val_main_v136 (F := F) x3
  v137 : W (no_index (Proc.devRef .tc main_v137)) = val_main_v137 (F := F) x3

/-- Before window 4. -/
structure Inv4 (W : Valuation τ sig (Elt F)) : Prop where
  a0 : W (no_index (Proc.devRef .tc main_arg0)) = x0
  a1 : W (no_index (Proc.devRef .tc main_arg1)) = x1
  a2 : W (no_index (Proc.devRef .tc main_arg2)) = x2
  a3 : W (no_index (Proc.devRef .tc main_arg3)) = x3
  a4 : W (no_index (Proc.devRef .tc main_arg4)) = x4
  a5 : W (no_index (Proc.devRef .tc main_arg5)) = x5
  v130 : W (no_index (Proc.devRef .tc main_v130)) = val_main_v130 (F := F) x0 x2
  v137 : W (no_index (Proc.devRef .tc main_v137)) = val_main_v137 (F := F) x3
  v138 : W (no_index (Proc.devRef .tc main_v138)) = val_main_v138 (F := F) x3
  v139 : W (no_index (Proc.devRef .tc main_v139)) = val_main_v139 (F := F) x3
  v141 : W (no_index (Proc.devRef .tc main_v141)) = val_main_v141 (F := F) x3
  v142 : W (no_index (Proc.devRef .tc main_v142)) = val_main_v142 (F := F) x3
  v144 : W (no_index (Proc.devRef .tc main_v144)) = val_main_v144 (F := F) x3
  v145 : W (no_index (Proc.devRef .tc main_v145)) = val_main_v145 (F := F) x1
  v175 : W (no_index (Proc.devRef .tc main_v175)) = val_main_v175 (F := F) x1 x3
  v180 : W (no_index (Proc.devRef .tc main_v180)) = val_main_v180 (F := F) x3
  v181 : W (no_index (Proc.devRef .tc main_v181)) = val_main_v181 (F := F)

/-- Before window 5. -/
structure Inv5 (W : Valuation τ sig (Elt F)) : Prop where
  a0 : W (no_index (Proc.devRef .tc main_arg0)) = x0
  a1 : W (no_index (Proc.devRef .tc main_arg1)) = x1
  a2 : W (no_index (Proc.devRef .tc main_arg2)) = x2
  a3 : W (no_index (Proc.devRef .tc main_arg3)) = x3
  a4 : W (no_index (Proc.devRef .tc main_arg4)) = x4
  a5 : W (no_index (Proc.devRef .tc main_arg5)) = x5
  v130 : W (no_index (Proc.devRef .tc main_v130)) = val_main_v130 (F := F) x0 x2
  v137 : W (no_index (Proc.devRef .tc main_v137)) = val_main_v137 (F := F) x3
  v138 : W (no_index (Proc.devRef .tc main_v138)) = val_main_v138 (F := F) x3
  v141 : W (no_index (Proc.devRef .tc main_v141)) = val_main_v141 (F := F) x3
  v144 : W (no_index (Proc.devRef .tc main_v144)) = val_main_v144 (F := F) x3
  v145 : W (no_index (Proc.devRef .tc main_v145)) = val_main_v145 (F := F) x1
  v204 : W (no_index (Proc.devRef .tc main_v204)) = val_main_v204 (F := F) x1 x3
  v223 : W (no_index (Proc.devRef .tc main_v223)) = val_main_v223 (F := F) x1 x3
  v225 : W (no_index (Proc.devRef .tc main_v225)) = val_main_v225 (F := F) x3

/-- Before window 6: the first sampled feature array normalised, the second and its square, the validity mask as a float, and a sum's initial value. -/
structure Inv6 (W : Valuation τ sig (Elt F)) : Prop where
  a0 : W (no_index (Proc.devRef .tc main_arg0)) = x0
  a1 : W (no_index (Proc.devRef .tc main_arg1)) = x1
  a2 : W (no_index (Proc.devRef .tc main_arg2)) = x2
  a3 : W (no_index (Proc.devRef .tc main_arg3)) = x3
  a4 : W (no_index (Proc.devRef .tc main_arg4)) = x4
  a5 : W (no_index (Proc.devRef .tc main_arg5)) = x5
  v261 : W (no_index (Proc.devRef .tc main_v261)) = val_main_v261 (F := F) x1 x3
  v263 : W (no_index (Proc.devRef .tc main_v263)) = val_main_v263 (F := F) x4 x5
  v271 : W (no_index (Proc.devRef .tc main_v271)) = val_main_v271 (F := F) x0 x2
  v272 : W (no_index (Proc.devRef .tc main_v272)) = val_main_v272 (F := F) x1 x3
  cst_84 : W (no_index (Proc.devRef .tc main_cst_84)) = val_main_cst_84 (F := F)

/-- At the end: the result at its last stage, the arguments as they were. -/
structure Inv7 (W : Valuation τ sig (Elt F)) : Prop where
  a0 : W (no_index (Proc.devRef .tc main_arg0)) = x0
  a1 : W (no_index (Proc.devRef .tc main_arg1)) = x1
  a2 : W (no_index (Proc.devRef .tc main_arg2)) = x2
  a3 : W (no_index (Proc.devRef .tc main_arg3)) = x3
  a4 : W (no_index (Proc.devRef .tc main_arg4)) = x4
  a5 : W (no_index (Proc.devRef .tc main_arg5)) = x5
  v289 : W (no_index (Proc.devRef .tc main_v289)) = val_main_v289 (F := F) x0 x1 x2 x3 x4 x5

end Cert.ReferenceIdeal.RV

end
-- ==== Proof.RefRunT0.lean ====
import proofs.«416857_j37855841747427_3_alg».proof.Proof.Gen.ReferenceIdeal
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The operations of the window main_part0, in order (a called function's operations stand in its call's place). -/
abbrev ops0 : List (HloOp τ sig (Elt F)) :=
  [ unary main_arg2 main_v0 ((extractStridedSlice S8x1024x1 ![0, 0, 0] · slices_S8x1024x2_S8x1024x1_0_0_0) : (⟨S8x1024x2, .f32⟩ : BufTy).Contents (Elt F) → (⟨S8x1024x1, .f32⟩ : BufTy).Contents (Elt F)),
    reshape main_v0 main_v1 rfl shapeCasts_S8x1024x1_S8x1024,
    unary main_arg2 main_v2 ((extractStridedSlice S8x1024x1 ![0, 0, 1] · slices_S8x1024x2_S8x1024x1_0_0_1) : (⟨S8x1024x2, .f32⟩ : BufTy).Contents (Elt F) → (⟨S8x1024x1, .f32⟩ : BufTy).Contents (Elt F)),
    reshape main_v2 main_v3 rfl shapeCasts_S8x1024x1_S8x1024,
    unary main_v1 main_v4 (Host.floor : (⟨S8x1024, .f32⟩ : BufTy).Contents (Elt F) → (⟨S8x1024, .f32⟩ : BufTy).Contents (Elt F)),
    unary main_v3 main_v5 (Host.floor : (⟨S8x1024, .f32⟩ : BufTy).Contents (Elt F) → (⟨S8x1024, .f32⟩ : BufTy).Contents (Elt F)),
    binary main_v1 main_v4 main_v6 (subf : (⟨S8x1024, .f32⟩ : BufTy).Contents (Elt F) → (⟨S8x1024, .f32⟩ : BufTy).Contents (Elt F) → (⟨S8x1024, .f32⟩ : BufTy).Contents (Elt F)),
    binary main_v3 main_v5 main_v7 (subf : (⟨S8x1024, .f32⟩ : BufTy).Contents (Elt F) → (⟨S8x1024, .f32⟩ : BufTy).Contents (Elt F) → (⟨S8x1024, .f32⟩ : BufTy).Contents (Elt F)),
    unary main_v4 main_v8 (fptosi 32 : (⟨S8x1024, .f32⟩ : BufTy).Contents (Elt F) → (⟨S8x1024, .i32⟩ : BufTy).Contents (Elt F)),
    nullary main_c (constantI S_ 32 1#32),
    unary main_c main_v9 (broadcastInDim S8x1024 ![] bcast_S_S8x1024 : (⟨S_, .i32⟩ : BufTy).Contents (Elt F) → (⟨S8x1024, .i32⟩ : BufTy).Contents (Elt F)),
    binary main_v8 main_v9 main_v10 (addi : (⟨S8x1024, .i32⟩ : BufTy).Contents (Elt F) → (⟨S8x1024, .i32⟩ : BufTy).Contents (Elt F) → (⟨S8x1024, .i32⟩ : BufTy).Contents (Elt F)),
    unary main_v5 main_v11 (fptosi 32 : (⟨S8x1024, .f32⟩ : BufTy).Contents (Elt F) → (⟨S8x1024, .i32⟩ : BufTy).Contents (Elt F)),
    nullary main_c_0 (constantI S_ 32 1#32),
    unary main_c_0 main_v12 (broadcastInDim S8x1024 ![] bcast_S_S8x1024 : (⟨S_, .i32⟩ : BufTy).Contents (Elt F) → (⟨S8x1024, .i32⟩ : BufTy).Contents (Elt F)),
    binary main_v11 main_v12 main_v13 (addi : (⟨S8x1024, .i32⟩ : BufTy).Contents (Elt F) → (⟨S8x1024, .i32⟩ : BufTy).Contents (Elt F) → (⟨S8x1024, .i32⟩ : BufTy).Contents (Elt F)),
    reshape main_arg0 main_v14 rfl shapeCasts_S8x768x64x64_S8x768x4096,
    nullary main_c_1 (constantI S_ 32 0#32),
    unary main_c_1 main_v15 (broadcastInDim S8x1024 ![] bcast_S_S8x1024 : (⟨S_, .i32⟩ : BufTy).Contents (Elt F) → (⟨S8x1024, .i32⟩ : BufTy).Contents (Elt F)),
    binary main_v8 main_v15 main_v16 (cmpi .sge : (⟨S8x1024, .i32⟩ : BufTy).Contents (Elt F) → (⟨S8x1024, .i32⟩ : BufTy).Contents (Elt F) → (⟨S8x1024, .i1⟩ : BufTy).Contents (Elt F)),
    nullary main_c_2 (constantI S_ 32 64#32),
    unary main_c_2 main_v17 (broadcastInDim S8x1024 ![] bcast_S_S8x1024 : (⟨S_, .i32⟩ : BufTy).Contents (Elt F) → (⟨S8x1024, .i32⟩ : BufTy).Contents (Elt F)),
    binary main_v8 main_v17 main_v18 (cmpi .slt : (⟨S8x1024, .i32⟩ : BufTy).Contents (Elt F) → (⟨S8x1024, .i32⟩ : BufTy).Contents (Elt F) → (⟨S8x1024, .i1⟩ : BufTy).Contents (Elt F)),
    binary main_v16 main_v18 main_v19 (andi : (⟨S8x1024, .i1⟩ : BufTy).Contents (Elt F) → (⟨S8x1024, .i1⟩ : BufTy).Contents (Elt F) → (⟨S8x1024, .i1⟩ : BufTy).Contents (Elt F)),
    nullary main_c_3 (constantI S_ 32 0#32),
    unary main_c_3 main_v20 (broadcastInDim S8x1024 ![] bcast_S_S8x1024 : (⟨S_, .i32⟩ : BufTy).Contents (Elt F) → (⟨S8x1024, .i32⟩ : BufTy).Contents (Elt F)),
    binary main_v11 main_v20 main_v21 (cmpi .sge : (⟨S8x1024, .i32⟩ : BufTy).Contents (Elt F) → (⟨S8x1024, .i32⟩ : BufTy).Contents (Elt F) → (⟨S8x1024, .i1⟩ : BufTy).Contents (Elt F)),
    binary main_v19 main_v21 main_v22 (andi : (⟨S8x1024, .i1⟩ : BufTy).Contents (Elt F) → (⟨S8x1024, .i1⟩ : BufTy).Contents (Elt F) → (⟨S8x1024, .i1⟩ : BufTy).Contents (Elt F)),
    nullary main_c_4 (constantI S_ 32 64#32),
    unary main_c_4 main_v23 (broadcastInDim S8x1024 ![] bcast_S_S8x1024 : (⟨S_, .i32⟩ : BufTy).Contents (Elt F) → (⟨S8x1024, .i32⟩ : BufTy).Contents (Elt F)),
    binary main_v11 main_v23 main_v24 (cmpi .slt : (⟨S8x1024, .i32⟩ : BufTy).Contents (Elt F) → (⟨S8x1024, .i32⟩ : BufTy).Contents (Elt F) → (⟨S8x1024, .i1⟩ : BufTy).Contents (Elt F)),
    binary main_v22 main_v24 main_v25 (andi : (⟨S8x1024, .i1⟩ : BufTy).Contents (Elt F) → (⟨S8x1024, .i1⟩ : BufTy).Contents (Elt F) → (⟨S8x1024, .i1⟩ : BufTy).Contents (Elt F)),
    unary main_v25 main_v26 (uitofp .f32 : (⟨S8x1024, .i1⟩ : BufTy).Contents (Elt F) → (⟨S8x1024, .f32⟩ : BufTy).Contents (Elt F)),
    nullary main_c_5 (constantI S_ 32 0#32),
    nullary main_c_6 (constantI S_ 32 63#32),
    TRef.unary (TRef.of (T := ⟨S_, .i32⟩) main_c_5) (TRef.of (T := ⟨S_, .i32⟩) main_call0_v0) id,
    TRef.unary (TRef.of (T := ⟨S_, .i32⟩) main_call0_v0) (TRef.of (T := ⟨S8x1024, .i32⟩) main_call0_v1) (broadcastInDim S8x1024 ![] bcast_S_S8x1024),
    TRef.binary (TRef.of (T := ⟨S8x1024, .i32⟩) main_call0_v1) (TRef.of (T := ⟨S8x1024, .i32⟩) main_v11) (TRef.of (T := ⟨S8x1024, .i32⟩) main_call0_v2) maxsi,
    TRef.unary (TRef.of (T := ⟨S_, .i32⟩) main_c_6) (TRef.of (T := ⟨S_, .i32⟩) main_call0_v3) id,
    TRef.unary (TRef.of (T := ⟨S_, .i32⟩) main_call0_v3) (TRef.of (T := ⟨S8x1024, .i32⟩) main_call0_v4) (broadcastInDim S8x1024 ![] bcast_S_S8x1024),
    TRef.binary (TRef.of (T := ⟨S8x1024, .i32⟩) main_call0_v4) (TRef.of (T := ⟨S8x1024, .i32⟩) main_call0_v2) (TRef.of (T := ⟨S8x1024, .i32⟩) main_v27) minsi,
    nullary main_c_7 (constantI S_ 32 64#32),
    unary main_c_7 main_v28 (broadcastInDim S8x1024 ![] bcast_S_S8x1024 : (⟨S_, .i32⟩ : BufTy).Contents (Elt F) → (⟨S8x1024, .i32⟩ : BufTy).Contents (Elt F)),
    binary main_v27 main_v28 main_v29 (muli : (⟨S8x1024, .i32⟩ : BufTy).Contents (Elt F) → (⟨S8x1024, .i32⟩ : BufTy).Contents (Elt F) → (⟨S8x1024, .i32⟩ : BufTy).Contents (Elt F)),
    nullary main_c_8 (constantI S_ 32 0#32),
    nullary main_c_9 (constantI S_ 32 63#32),
    TRef.unary (TRef.of (T := ⟨S_, .i32⟩) main_c_8) (TRef.of (T := ⟨S_, .i32⟩) main_call1_v0) id,
    TRef.unary (TRef.of (T := ⟨S_, .i32⟩) main_call1_v0) (TRef.of (T := ⟨S8x1024, .i32⟩) main_call1_v1) (broadcastInDim S8x1024 ![] bcast_S_S8x1024),
    TRef.binary (TRef.of (T := ⟨S8x1024, .i32⟩) main_call1_v1) (TRef.of (T := ⟨S8x1024, .i32⟩) main_v8) (TRef.of (T := ⟨S8x1024, .i32⟩) main_call1_v2) maxsi,
    TRef.unary (TRef.of (T := ⟨S_, .i32⟩) main_c_9) (TRef.of (T := ⟨S_, .i32⟩) main_call1_v3) id,
    TRef.unary (TRef.of (T := ⟨S_, .i32⟩) main_call1_v3) (TRef.of (T := ⟨S8x1024, .i32⟩) main_call1_v4) (broadcastInDim S8x1024 ![] bcast_S_S8x1024),
    TRef.binary (TRef.of (T := ⟨S8x1024, .i32⟩) main_call1_v4) (TRef.of (T := ⟨S8x1024, .i32⟩) main_call1_v2) (TRef.of (T := ⟨S8x1024, .i32⟩) main_v30) minsi,
    binary main_v29 main_v30 main_v31 (addi : (⟨S8x1024, .i32⟩ : BufTy).Contents (Elt F) → (⟨S8x1024, .i32⟩ : BufTy).Contents (Elt F) → (⟨S8x1024, .i32⟩ : BufTy).Contents (Elt F)),
    unary main_v31 main_v32 (broadcastInDim S8x1x1024 ![0, 2] bcast_S8x1024_S8x1x1024_0_2 : (⟨S8x1024, .i32⟩ : BufTy).Contents (Elt F) → (⟨S8x1x1024, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S8x1x1024, .i32⟩) main_call2_v0) (broadcastInDim S8x1x1024 ![] bcast_S_S8x1x1024),
    TRef.binary (TRef.of (T := ⟨S8x1x1024, .i32⟩) main_v32) (TRef.of (T := ⟨S8x1x1024, .i32⟩) main_call2_v0) (TRef.of (T := ⟨S8x1x1024, .i1⟩) main_call2_v1) (cmpi .slt),
    TRef.nullary (TRef.of (T := ⟨S_, .i32⟩) main_call2_c_0) (constantI S_ 32 4096#32),
    TRef.unary (TRef.of (T := ⟨S_, .i32⟩) main_call2_c_0) (TRef.of (T := ⟨S8x1x1024, .i32⟩) main_call2_v2) (broadcastInDim S8x1x1024 ![] bcast_S_S8x1x1024),
    TRef.binary (TRef.of (T := ⟨S8x1x1024, .i32⟩) main_v32) (TRef.of (T := ⟨S8x1x1024, .i32⟩) main_call2_v2) (TRef.of (T := ⟨S8x1x1024, .i32⟩) main_call2_v3) addi,
    TRef.ternary (TRef.of (T := ⟨S8x1x1024, .i1⟩) main_call2_v1) (TRef.of (T := ⟨S8x1x1024, .i32⟩) main_call2_v3) (TRef.of (T := ⟨S8x1x1024, .i32⟩) main_v32) (TRef.of (T := ⟨S8x1x1024, .i32⟩) main_call2_v4) select,
    TRef.reshape (TRef.of (T := ⟨S8x1x1024, .i32⟩) main_call2_v4) (TRef.of (T := ⟨S8x1024x1, .i32⟩) main_call2_v5) rfl shapeCasts_S8x1x1024_S8x1024x1,
    TRef.nullary (TRef.of (T := ⟨S1, .i32⟩) main_call2_c_1) (constantI S1 32 4095#32),
    TRef.nullary (TRef.of (T := ⟨S_, .i32⟩) main_call2_c_2) (constantI S_ 32 0#32),
    TRef.unary (TRef.of (T := ⟨S_, .i32⟩) main_call2_c_2) (TRef.of (T := ⟨S8x1024x1, .i32⟩) main_call2_v6) (broadcastInDim S8x1024x1 ![] bcast_S_S8x1024x1),
    TRef.binary (TRef.of (T := ⟨S8x1024x1, .i32⟩) main_call2_v5) (TRef.of (T := ⟨S8x1024x1, .i32⟩) main_call2_v6) (TRef.of (T := ⟨S8x1024x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S8x1024x1, .i32⟩) main_call2_v9) (broadcastInDim S8x1024x1 ![0, 1, 2] bcast_S1x1x1_S8x1024x1_0_1_2),
    TRef.binary (TRef.of (T := ⟨S8x1024x1, .i32⟩) main_call2_v5) (TRef.of (T := ⟨S8x1024x1, .i32⟩) main_call2_v9) (TRef.of (T := ⟨S8x1024x1, .i1⟩) main_call2_v10) (cmpi .sle),
    TRef.binary (TRef.of (T := ⟨S8x1024x1, .i1⟩) main_call2_v7) (TRef.of (T := ⟨S8x1024x1, .i1⟩) main_call2_v10) (TRef.of (T := ⟨S8x1024x1, .i1⟩) main_call2_v11) andi,
    TRef.nullary (TRef.of (T := ⟨S_, .i1⟩) main_call2_c_3) (constantI S_ 1 1#1),
    TRef.binary (TRef.of (T := ⟨S8x1024x1, .i1⟩) main_call2_v11) (TRef.of (T := ⟨S_, .i1⟩) main_call2_c_3) (TRef.of (T := ⟨S8x1024, .i1⟩) main_call2_v12) (fun x v => Host.reduce IntOp.andi x v reducesTo_S8x1024x1_S8x1024_d2 h_S_),
    TRef.binary (TRef.of (T := ⟨S8x768x4096, .f32⟩) main_v14) (TRef.of (T := ⟨S8x1024x1, .i32⟩) main_call2_v5) (TRef.of (T := ⟨S8x768x1024, .f32⟩) main_call2_v13) (fun x i => Host.gather gather_S8x768x4096_S8x1024x1_S8x768x1024_1_2_0_0_2_2_17681 x i),
    TRef.unary (TRef.of (T := ⟨S8x1024, .i1⟩) main_call2_v12) (TRef.of (T := ⟨S8x768x1024, .i1⟩) main_call2_v14) (broadcastInDim S8x768x1024 ![0, 2] bcast_S8x1024_S8x768x1024_0_2),
    TRef.nullary (TRef.of (T := ⟨S_, .f32⟩) main_call2_cst) (constant S_ .f32 0x7FC00000#32),
    TRef.unary (TRef.of (T := ⟨S_, .f32⟩) main_call2_cst) (TRef.of (T := ⟨S8x768x1024, .f32⟩) main_call2_v15) (broadcastInDim S8x768x1024 ![] bcast_S_S8x768x1024),
    TRef.ternary (TRef.of (T := ⟨S8x768x1024, .i1⟩) main_call2_v14) (TRef.of (T := ⟨S8x768x1024, .f32⟩) main_call2_v13) (TRef.of (T := ⟨S8x768x1024, .f32⟩) main_call2_v15) (TRef.of (T := ⟨S8x768x1024, .f32⟩) main_v33) select,
    unary main_v26 main_v34 (broadcastInDim S8x1x1024 ![0, 2] bcast_S8x1024_S8x1x1024_0_2 : (⟨S8x1024, .f32⟩ : BufTy).Contents (Elt F) → (⟨S8x1x1024, .f32⟩ : BufTy).Contents (Elt F)),
    unary main_v34 main_v35 (broadcastInDim S8x768x1024 ![0, 1, 2] bcast_S8x1x1024_S8x768x1024_0_1_2 : (⟨S8x1x1024, .f32⟩ : BufTy).Contents (Elt F) → (⟨S8x768x1024, .f32⟩ : BufTy).Contents (Elt F)),
    binary main_v33 main_v35 main_v36 (mulf : (⟨S8x768x1024, .f32⟩ : BufTy).Contents (Elt F) → (⟨S8x768x1024, .f32⟩ : BufTy).Contents (Elt F) → (⟨S8x768x1024, .f32⟩ : BufTy).Contents (Elt F)),
    nullary main_cst (constant S_ .f32 0x3F800000#32),
    unary main_cst main_v37 (broadcastInDim S8x1024 ![] bcast_S_S8x1024 : (⟨S_, .f32⟩ : BufTy).Contents (Elt F) → (⟨S8x1024, .f32⟩ : BufTy).Contents (Elt F)),
    binary main_v37 main_v6 main_v38 (subf : (⟨S8x1024, .f32⟩ : BufTy).Contents (Elt F) → (⟨S8x1024, .f32⟩ : BufTy).Contents (Elt F) → (⟨S8x1024, .f32⟩ : BufTy).Contents (Elt F)),
    nullary main_cst_10 (constant S_ .f32 0x3F800000#32),
    unary main_cst_10 main_v39 (broadcastInDim S8x1024 ![] bcast_S_S8x1024 : (⟨S_, .f32⟩ : BufTy).Contents (Elt F) → (⟨S8x1024, .f32⟩ : BufTy).Contents (Elt F)),
    binary main_v39 main_v7 main_v40 (subf : (⟨S8x1024, .f32⟩ : BufTy).Contents (Elt F) → (⟨S8x1024, .f32⟩ : BufTy).Contents (Elt F) → (⟨S8x1024, .f32⟩ : BufTy).Contents (Elt F)),
    binary main_v38 main_v40 main_v41 (mulf : (⟨S8x1024, .f32⟩ : BufTy).Contents (Elt F) → (⟨S8x1024, .f32⟩ : BufTy).Contents (Elt F) → (⟨S8x1024, .f32⟩ : BufTy).Contents (Elt F)),
    unary main_v41 main_v42 (broadcastInDim S8x1x1024 ![0, 2] bcast_S8x1024_S8x1x1024_0_2 : (⟨S8x1024, .f32⟩ : BufTy).Contents (Elt F) → (⟨S8x1x1024, .f32⟩ : BufTy).Contents (Elt F)),
    unary main_v42 main_v43 (broadcastInDim S8x768x1024 ![0, 1, 2] bcast_S8x1x1024_S8x768x1024_0_1_2 : (⟨S8x1x1024, .f32⟩ : BufTy).Contents (Elt F) → (⟨S8x768x1024, .f32⟩ : BufTy).Contents (Elt F)),
    binary main_v36 main_v43 main_v44 (mulf : (⟨S8x768x1024, .f32⟩ : BufTy).Contents (Elt F) → (⟨S8x768x1024, .f32⟩ : BufTy).Contents (Elt F) → (⟨S8x768x1024, .f32⟩ : BufTy).Contents (Elt F)),
    nullary main_c_11 (constantI S_ 32 0#32),
    unary main_c_11 main_v45 (broadcastInDim S8x1024 ![] bcast_S_S8x1024 : (⟨S_, .i32⟩ : BufTy).Contents (Elt F) → (⟨S8x1024, .i32⟩ : BufTy).Contents (Elt F)) ]

/-- The references those operations write, in order. -/
abbrev ops0_W : List (Ref sig .tc) := [main_v0, main_v1, main_v2, main_v3, main_v4, main_v5, main_v6, main_v7, main_v8, main_c, main_v9, main_v10, main_v11, main_c_0, main_v12, main_v13, main_v14, main_c_1, main_v15, main_v16, main_c_2, main_v17, main_v18, main_v19, main_c_3, main_v20, main_v21, main_v22, main_c_4, main_v23, main_v24, main_v25, main_v26, main_c_5, main_c_6, main_call0_v0, main_call0_v1, main_call0_v2, main_call0_v3, main_call0_v4, main_v27, main_c_7, main_v28, main_v29, main_c_8, main_c_9, main_call1_v0, main_call1_v1, main_call1_v2, main_call1_v3, main_call1_v4, main_v30, main_v31, main_v32, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v33, main_v34, main_v35, main_v36, main_cst, main_v37, main_v38, main_cst_10, main_v39, main_v40, main_v41, main_v42, main_v43, main_v44, main_c_11, main_v45]

set_option maxRecDepth 8192 in
set_option maxHeartbeats 4000000 in
/-- Every operation of the window touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., binary_bufs_sub .., unary_bufs_sub .., nullary_bufs_sub .., unary_bufs_sub .., binary_bufs_sub .., unary_bufs_sub .., nullary_bufs_sub .., unary_bufs_sub .., binary_bufs_sub .., reshape_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub ..⟩

end Cert.ReferenceIdeal.RV

end
-- ==== Proof.RefRunV0.lean ====
/-
  Window 0 of the reference program (operations 1 … 92): the window is the straight line of its operations, each of
  which determines its result, and running it takes the launch's invariant to the one before window 1.
-/
import proofs.«416857_j37855841747427_3_alg».proof.Proof.RefRunI
import proofs.«416857_j37855841747427_3_alg».proof.Proof.RefRunT0

noncomputable section

namespace Cert.ReferenceIdeal.RV

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
/-- The window is the straight line of its operations. -/
theorem main_part0_eq (c : Dev nD) : main_part0 (F := F) c = seq ops0 := rfl

set_option maxRecDepth 8192 in
set_option maxHeartbeats 4000000 in
/-- Every operation of the window determines its result. -/
theorem ops0_fresh : ∀ op ∈ (ops0 : List (HloOp τ sig (Elt F))), op.fresh = ∅ :=
  List.forall_iff_forall_mem.1 (by simp only [List.Forall]; repeat' constructor)

variable (x0 x1 : (⟨S8x768x64x64, .f32⟩ : BufTy).Contents (Elt F)) (x2 x3 : (⟨S8x1024x2, .f32⟩ : BufTy).Contents (Elt F))
  (x4 x5 : (⟨S8x1024, .i1⟩ : BufTy).Contents (Elt F))

set_option maxRecDepth 8192 in
set_option maxHeartbeats 4000000 in
/-- Running the window: each buffer still read afterwards is read off the operations' results, the arguments are at
    their values by the invariant, and the composed term is the buffer's stage by unfolding the stages of the
    window's own operations, the typed references' transports being the identity; an argument is left alone by every operation. -/
theorem step0 (W : Valuation τ sig (Elt F)) (h : Inv0 x0 x1 x2 x3 x4 x5 W) : Inv1 x0 x1 x2 x3 x4 x5 (after ops0 W) := by
  obtain ⟨a0, a1, a2, a3, a4, a5⟩ := h
  constructor <;> (simp only [ops0]; after_results_simp) <;>
    (try simp only [a0, a1, a2, a3, a4, a5]) <;> (try simp only [TRef.ofBuf, TRef.toBuf, cast_eq]) <;> rfl

end Cert.ReferenceIdeal.RV

end
-- ==== Proof.RefRunT1.lean ====
import proofs.«416857_j37855841747427_3_alg».proof.Proof.Gen.ReferenceIdeal
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The operations of the window main_part1, in order (a called function's operations stand in its call's place). -/
abbrev ops1 : List (HloOp τ sig (Elt F)) :=
  [ binary main_v10 main_v45 main_v46 (cmpi .sge : (⟨S8x1024, .i32⟩ : BufTy).Contents (Elt F) → (⟨S8x1024, .i32⟩ : BufTy).Contents (Elt F) → (⟨S8x1024, .i1⟩ : BufTy).Contents (Elt F)),
    nullary main_c_12 (constantI S_ 32 64#32),
    unary main_c_12 main_v47 (broadcastInDim S8x1024 ![] bcast_S_S8x1024 : (⟨S_, .i32⟩ : BufTy).Contents (Elt F) → (⟨S8x1024, .i32⟩ : BufTy).Contents (Elt F)),
    binary main_v10 main_v47 main_v48 (cmpi .slt : (⟨S8x1024, .i32⟩ : BufTy).Contents (Elt F) → (⟨S8x1024, .i32⟩ : BufTy).Contents (Elt F) → (⟨S8x1024, .i1⟩ : BufTy).Contents (Elt F)),
    binary main_v46 main_v48 main_v49 (andi : (⟨S8x1024, .i1⟩ : BufTy).Contents (Elt F) → (⟨S8x1024, .i1⟩ : BufTy).Contents (Elt F) → (⟨S8x1024, .i1⟩ : BufTy).Contents (Elt F)),
    nullary main_c_13 (constantI S_ 32 0#32),
    unary main_c_13 main_v50 (broadcastInDim S8x1024 ![] bcast_S_S8x1024 : (⟨S_, .i32⟩ : BufTy).Contents (Elt F) → (⟨S8x1024, .i32⟩ : BufTy).Contents (Elt F)),
    binary main_v11 main_v50 main_v51 (cmpi .sge : (⟨S8x1024, .i32⟩ : BufTy).Contents (Elt F) → (⟨S8x1024, .i32⟩ : BufTy).Contents (Elt F) → (⟨S8x1024, .i1⟩ : BufTy).Contents (Elt F)),
    binary main_v49 main_v51 main_v52 (andi : (⟨S8x1024, .i1⟩ : BufTy).Contents (Elt F) → (⟨S8x1024, .i1⟩ : BufTy).Contents (Elt F) → (⟨S8x1024, .i1⟩ : BufTy).Contents (Elt F)),
    nullary main_c_14 (constantI S_ 32 64#32),
    unary main_c_14 main_v53 (broadcastInDim S8x1024 ![] bcast_S_S8x1024 : (⟨S_, .i32⟩ : BufTy).Contents (Elt F) → (⟨S8x1024, .i32⟩ : BufTy).Contents (Elt F)),
    binary main_v11 main_v53 main_v54 (cmpi .slt : (⟨S8x1024, .i32⟩ : BufTy).Contents (Elt F) → (⟨S8x1024, .i32⟩ : BufTy).Contents (Elt F) → (⟨S8x1024, .i1⟩ : BufTy).Contents (Elt F)),
    binary main_v52 main_v54 main_v55 (andi : (⟨S8x1024, .i1⟩ : BufTy).Contents (Elt F) → (⟨S8x1024, .i1⟩ : BufTy).Contents (Elt F) → (⟨S8x1024, .i1⟩ : BufTy).Contents (Elt F)),
    unary main_v55 main_v56 (uitofp .f32 : (⟨S8x1024, .i1⟩ : BufTy).Contents (Elt F) → (⟨S8x1024, .f32⟩ : BufTy).Contents (Elt F)),
    nullary main_c_15 (constantI S_ 32 0#32),
    nullary main_c_16 (constantI S_ 32 63#32),
    TRef.unary (TRef.of (T := ⟨S_, .i32⟩) main_c_15) (TRef.of (T := ⟨S_, .i32⟩) main_call3_v0) id,
    TRef.unary (TRef.of (T := ⟨S_, .i32⟩) main_call3_v0) (TRef.of (T := ⟨S8x1024, .i32⟩) main_call3_v1) (broadcastInDim S8x1024 ![] bcast_S_S8x1024),
    TRef.binary (TRef.of (T := ⟨S8x1024, .i32⟩) main_call3_v1) (TRef.of (T := ⟨S8x1024, .i32⟩) main_v11) (TRef.of (T := ⟨S8x1024, .i32⟩) main_call3_v2) maxsi,
    TRef.unary (TRef.of (T := ⟨S_, .i32⟩) main_c_16) (TRef.of (T := ⟨S_, .i32⟩) main_call3_v3) id,
    TRef.unary (TRef.of (T := ⟨S_, .i32⟩) main_call3_v3) (TRef.of (T := ⟨S8x1024, .i32⟩) main_call3_v4) (broadcastInDim S8x1024 ![] bcast_S_S8x1024),
    TRef.binary (TRef.of (T := ⟨S8x1024, .i32⟩) main_call3_v4) (TRef.of (T := ⟨S8x1024, .i32⟩) main_call3_v2) (TRef.of (T := ⟨S8x1024, .i32⟩) main_v57) minsi,
    nullary main_c_17 (constantI S_ 32 64#32),
    unary main_c_17 main_v58 (broadcastInDim S8x1024 ![] bcast_S_S8x1024 : (⟨S_, .i32⟩ : BufTy).Contents (Elt F) → (⟨S8x1024, .i32⟩ : BufTy).Contents (Elt F)),
    binary main_v57 main_v58 main_v59 (muli : (⟨S8x1024, .i32⟩ : BufTy).Contents (Elt F) → (⟨S8x1024, .i32⟩ : BufTy).Contents (Elt F) → (⟨S8x1024, .i32⟩ : BufTy).Contents (Elt F)),
    nullary main_c_18 (constantI S_ 32 0#32),
    nullary main_c_19 (constantI S_ 32 63#32),
    TRef.unary (TRef.of (T := ⟨S_, .i32⟩) main_c_18) (TRef.of (T := ⟨S_, .i32⟩) main_call4_v0) id,
    TRef.unary (TRef.of (T := ⟨S_, .i32⟩) main_call4_v0) (TRef.of (T := ⟨S8x1024, .i32⟩) main_call4_v1) (broadcastInDim S8x1024 ![] bcast_S_S8x1024),
    TRef.binary (TRef.of (T := ⟨S8x1024, .i32⟩) main_call4_v1) (TRef.of (T := ⟨S8x1024, .i32⟩) main_v10) (TRef.of (T := ⟨S8x1024, .i32⟩) main_call4_v2) maxsi,
    TRef.unary (TRef.of (T := ⟨S_, .i32⟩) main_c_19) (TRef.of (T := ⟨S_, .i32⟩) main_call4_v3) id,
    TRef.unary (TRef.of (T := ⟨S_, .i32⟩) main_call4_v3) (TRef.of (T := ⟨S8x1024, .i32⟩) main_call4_v4) (broadcastInDim S8x1024 ![] bcast_S_S8x1024),
    TRef.binary (TRef.of (T := ⟨S8x1024, .i32⟩) main_call4_v4) (TRef.of (T := ⟨S8x1024, .i32⟩) main_call4_v2) (TRef.of (T := ⟨S8x1024, .i32⟩) main_v60) minsi,
    binary main_v59 main_v60 main_v61 (addi : (⟨S8x1024, .i32⟩ : BufTy).Contents (Elt F) → (⟨S8x1024, .i32⟩ : BufTy).Contents (Elt F) → (⟨S8x1024, .i32⟩ : BufTy).Contents (Elt F)),
    unary main_v61 main_v62 (broadcastInDim S8x1x1024 ![0, 2] bcast_S8x1024_S8x1x1024_0_2 : (⟨S8x1024, .i32⟩ : BufTy).Contents (Elt F) → (⟨S8x1x1024, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S8x1x1024, .i32⟩) main_call5_v0) (broadcastInDim S8x1x1024 ![] bcast_S_S8x1x1024),
    TRef.binary (TRef.of (T := ⟨S8x1x1024, .i32⟩) main_v62) (TRef.of (T := ⟨S8x1x1024, .i32⟩) main_call5_v0) (TRef.of (T := ⟨S8x1x1024, .i1⟩) main_call5_v1) (cmpi .slt),
    TRef.nullary (TRef.of (T := ⟨S_, .i32⟩) main_call5_c_0) (constantI S_ 32 4096#32),
    TRef.unary (TRef.of (T := ⟨S_, .i32⟩) main_call5_c_0) (TRef.of (T := ⟨S8x1x1024, .i32⟩) main_call5_v2) (broadcastInDim S8x1x1024 ![] bcast_S_S8x1x1024),
    TRef.binary (TRef.of (T := ⟨S8x1x1024, .i32⟩) main_v62) (TRef.of (T := ⟨S8x1x1024, .i32⟩) main_call5_v2) (TRef.of (T := ⟨S8x1x1024, .i32⟩) main_call5_v3) addi,
    TRef.ternary (TRef.of (T := ⟨S8x1x1024, .i1⟩) main_call5_v1) (TRef.of (T := ⟨S8x1x1024, .i32⟩) main_call5_v3) (TRef.of (T := ⟨S8x1x1024, .i32⟩) main_v62) (TRef.of (T := ⟨S8x1x1024, .i32⟩) main_call5_v4) select,
    TRef.reshape (TRef.of (T := ⟨S8x1x1024, .i32⟩) main_call5_v4) (TRef.of (T := ⟨S8x1024x1, .i32⟩) main_call5_v5) rfl shapeCasts_S8x1x1024_S8x1024x1,
    TRef.nullary (TRef.of (T := ⟨S1, .i32⟩) main_call5_c_1) (constantI S1 32 4095#32),
    TRef.nullary (TRef.of (T := ⟨S_, .i32⟩) main_call5_c_2) (constantI S_ 32 0#32),
    TRef.unary (TRef.of (T := ⟨S_, .i32⟩) main_call5_c_2) (TRef.of (T := ⟨S8x1024x1, .i32⟩) main_call5_v6) (broadcastInDim S8x1024x1 ![] bcast_S_S8x1024x1),
    TRef.binary (TRef.of (T := ⟨S8x1024x1, .i32⟩) main_call5_v5) (TRef.of (T := ⟨S8x1024x1, .i32⟩) main_call5_v6) (TRef.of (T := ⟨S8x1024x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S8x1024x1, .i32⟩) main_call5_v9) (broadcastInDim S8x1024x1 ![0, 1, 2] bcast_S1x1x1_S8x1024x1_0_1_2),
    TRef.binary (TRef.of (T := ⟨S8x1024x1, .i32⟩) main_call5_v5) (TRef.of (T := ⟨S8x1024x1, .i32⟩) main_call5_v9) (TRef.of (T := ⟨S8x1024x1, .i1⟩) main_call5_v10) (cmpi .sle),
    TRef.binary (TRef.of (T := ⟨S8x1024x1, .i1⟩) main_call5_v7) (TRef.of (T := ⟨S8x1024x1, .i1⟩) main_call5_v10) (TRef.of (T := ⟨S8x1024x1, .i1⟩) main_call5_v11) andi,
    TRef.nullary (TRef.of (T := ⟨S_, .i1⟩) main_call5_c_3) (constantI S_ 1 1#1),
    TRef.binary (TRef.of (T := ⟨S8x1024x1, .i1⟩) main_call5_v11) (TRef.of (T := ⟨S_, .i1⟩) main_call5_c_3) (TRef.of (T := ⟨S8x1024, .i1⟩) main_call5_v12) (fun x v => Host.reduce IntOp.andi x v reducesTo_S8x1024x1_S8x1024_d2 h_S_),
    TRef.binary (TRef.of (T := ⟨S8x768x4096, .f32⟩) main_v14) (TRef.of (T := ⟨S8x1024x1, .i32⟩) main_call5_v5) (TRef.of (T := ⟨S8x768x1024, .f32⟩) main_call5_v13) (fun x i => Host.gather gather_S8x768x4096_S8x1024x1_S8x768x1024_1_2_0_0_2_2_17681 x i),
    TRef.unary (TRef.of (T := ⟨S8x1024, .i1⟩) main_call5_v12) (TRef.of (T := ⟨S8x768x1024, .i1⟩) main_call5_v14) (broadcastInDim S8x768x1024 ![0, 2] bcast_S8x1024_S8x768x1024_0_2),
    TRef.nullary (TRef.of (T := ⟨S_, .f32⟩) main_call5_cst) (constant S_ .f32 0x7FC00000#32),
    TRef.unary (TRef.of (T := ⟨S_, .f32⟩) main_call5_cst) (TRef.of (T := ⟨S8x768x1024, .f32⟩) main_call5_v15) (broadcastInDim S8x768x1024 ![] bcast_S_S8x768x1024),
    TRef.ternary (TRef.of (T := ⟨S8x768x1024, .i1⟩) main_call5_v14) (TRef.of (T := ⟨S8x768x1024, .f32⟩) main_call5_v13) (TRef.of (T := ⟨S8x768x1024, .f32⟩) main_call5_v15) (TRef.of (T := ⟨S8x768x1024, .f32⟩) main_v63) select,
    unary main_v56 main_v64 (broadcastInDim S8x1x1024 ![0, 2] bcast_S8x1024_S8x1x1024_0_2 : (⟨S8x1024, .f32⟩ : BufTy).Contents (Elt F) → (⟨S8x1x1024, .f32⟩ : BufTy).Contents (Elt F)),
    unary main_v64 main_v65 (broadcastInDim S8x768x1024 ![0, 1, 2] bcast_S8x1x1024_S8x768x1024_0_1_2 : (⟨S8x1x1024, .f32⟩ : BufTy).Contents (Elt F) → (⟨S8x768x1024, .f32⟩ : BufTy).Contents (Elt F)),
    binary main_v63 main_v65 main_v66 (mulf : (⟨S8x768x1024, .f32⟩ : BufTy).Contents (Elt F) → (⟨S8x768x1024, .f32⟩ : BufTy).Contents (Elt F) → (⟨S8x768x1024, .f32⟩ : BufTy).Contents (Elt F)),
    nullary main_cst_20 (constant S_ .f32 0x3F800000#32),
    unary main_cst_20 main_v67 (broadcastInDim S8x1024 ![] bcast_S_S8x1024 : (⟨S_, .f32⟩ : BufTy).Contents (Elt F) → (⟨S8x1024, .f32⟩ : BufTy).Contents (Elt F)),
    binary main_v67 main_v7 main_v68 (subf : (⟨S8x1024, .f32⟩ : BufTy).Contents (Elt F) → (⟨S8x1024, .f32⟩ : BufTy).Contents (Elt F) → (⟨S8x1024, .f32⟩ : BufTy).Contents (Elt F)),
    binary main_v6 main_v68 main_v69 (mulf : (⟨S8x1024, .f32⟩ : BufTy).Contents (Elt F) → (⟨S8x1024, .f32⟩ : BufTy).Contents (Elt F) → (⟨S8x1024, .f32⟩ : BufTy).Contents (Elt F)),
    unary main_v69 main_v70 (broadcastInDim S8x1x1024 ![0, 2] bcast_S8x1024_S8x1x1024_0_2 : (⟨S8x1024, .f32⟩ : BufTy).Contents (Elt F) → (⟨S8x1x1024, .f32⟩ : BufTy).Contents (Elt F)),
    unary main_v70 main_v71 (broadcastInDim S8x768x1024 ![0, 1, 2] bcast_S8x1x1024_S8x768x1024_0_1_2 : (⟨S8x1x1024, .f32⟩ : BufTy).Contents (Elt F) → (⟨S8x768x1024, .f32⟩ : BufTy).Contents (Elt F)),
    binary main_v66 main_v71 main_v72 (mulf : (⟨S8x768x1024, .f32⟩ : BufTy).Contents (Elt F) → (⟨S8x768x1024, .f32⟩ : BufTy).Contents (Elt F) → (⟨S8x768x1024, .f32⟩ : BufTy).Contents (Elt F)),
    binary main_v44 main_v72 main_v73 (addf : (⟨S8x768x1024, .f32⟩ : BufTy).Contents (Elt F) → (⟨S8x768x1024, .f32⟩ : BufTy).Contents (Elt F) → (⟨S8x768x1024, .f32⟩ : BufTy).Contents (Elt F)),
    nullary main_c_21 (constantI S_ 32 0#32),
    unary main_c_21 main_v74 (broadcastInDim S8x1024 ![] bcast_S_S8x1024 : (⟨S_, .i32⟩ : BufTy).Contents (Elt F) → (⟨S8x1024, .i32⟩ : BufTy).Contents (Elt F)),
    binary main_v8 main_v74 main_v75 (cmpi .sge : (⟨S8x1024, .i32⟩ : BufTy).Contents (Elt F) → (⟨S8x1024, .i32⟩ : BufTy).Contents (Elt F) → (⟨S8x1024, .i1⟩ : BufTy).Contents (Elt F)),
    nullary main_c_22 (constantI S_ 32 64#32),
    unary main_c_22 main_v76 (broadcastInDim S8x1024 ![] bcast_S_S8x1024 : (⟨S_, .i32⟩ : BufTy).Contents (Elt F) → (⟨S8x1024, .i32⟩ : BufTy).Contents (Elt F)),
    binary main_v8 main_v76 main_v77 (cmpi .slt : (⟨S8x1024, .i32⟩ : BufTy).Contents (Elt F) → (⟨S8x1024, .i32⟩ : BufTy).Contents (Elt F) → (⟨S8x1024, .i1⟩ : BufTy).Contents (Elt F)),
    binary main_v75 main_v77 main_v78 (andi : (⟨S8x1024, .i1⟩ : BufTy).Contents (Elt F) → (⟨S8x1024, .i1⟩ : BufTy).Contents (Elt F) → (⟨S8x1024, .i1⟩ : BufTy).Contents (Elt F)),
    nullary main_c_23 (constantI S_ 32 0#32),
    unary main_c_23 main_v79 (broadcastInDim S8x1024 ![] bcast_S_S8x1024 : (⟨S_, .i32⟩ : BufTy).Contents (Elt F) → (⟨S8x1024, .i32⟩ : BufTy).Contents (Elt F)),
    binary main_v13 main_v79 main_v80 (cmpi .sge : (⟨S8x1024, .i32⟩ : BufTy).Contents (Elt F) → (⟨S8x1024, .i32⟩ : BufTy).Contents (Elt F) → (⟨S8x1024, .i1⟩ : BufTy).Contents (Elt F)),
    binary main_v78 main_v80 main_v81 (andi : (⟨S8x1024, .i1⟩ : BufTy).Contents (Elt F) → (⟨S8x1024, .i1⟩ : BufTy).Contents (Elt F) → (⟨S8x1024, .i1⟩ : BufTy).Contents (Elt F)),
    nullary main_c_24 (constantI S_ 32 64#32),
    unary main_c_24 main_v82 (broadcastInDim S8x1024 ![] bcast_S_S8x1024 : (⟨S_, .i32⟩ : BufTy).Contents (Elt F) → (⟨S8x1024, .i32⟩ : BufTy).Contents (Elt F)),
    binary main_v13 main_v82 main_v83 (cmpi .slt : (⟨S8x1024, .i32⟩ : BufTy).Contents (Elt F) → (⟨S8x1024, .i32⟩ : BufTy).Contents (Elt F) → (⟨S8x1024, .i1⟩ : BufTy).Contents (Elt F)),
    binary main_v81 main_v83 main_v84 (andi : (⟨S8x1024, .i1⟩ : BufTy).Contents (Elt F) → (⟨S8x1024, .i1⟩ : BufTy).Contents (Elt F) → (⟨S8x1024, .i1⟩ : BufTy).Contents (Elt F)),
    unary main_v84 main_v85 (uitofp .f32 : (⟨S8x1024, .i1⟩ : BufTy).Contents (Elt F) → (⟨S8x1024, .f32⟩ : BufTy).Contents (Elt F)),
    nullary main_c_25 (constantI S_ 32 0#32),
    nullary main_c_26 (constantI S_ 32 63#32),
    TRef.unary (TRef.of (T := ⟨S_, .i32⟩) main_c_25) (TRef.of (T := ⟨S_, .i32⟩) main_call6_v0) id,
    TRef.unary (TRef.of (T := ⟨S_, .i32⟩) main_call6_v0) (TRef.of (T := ⟨S8x1024, .i32⟩) main_call6_v1) (broadcastInDim S8x1024 ![] bcast_S_S8x1024),
    TRef.binary (TRef.of (T := ⟨S8x1024, .i32⟩) main_call6_v1) (TRef.of (T := ⟨S8x1024, .i32⟩) main_v13) (TRef.of (T := ⟨S8x1024, .i32⟩) main_call6_v2) maxsi,
    TRef.unary (TRef.of (T := ⟨S_, .i32⟩) main_c_26) (TRef.of (T := ⟨S_, .i32⟩) main_call6_v3) id,
    TRef.unary (TRef.of (T := ⟨S_, .i32⟩) main_call6_v3) (TRef.of (T := ⟨S8x1024, .i32⟩) main_call6_v4) (broadcastInDim S8x1024 ![] bcast_S_S8x1024),
    TRef.binary (TRef.of (T := ⟨S8x1024, .i32⟩) main_call6_v4) (TRef.of (T := ⟨S8x1024, .i32⟩) main_call6_v2) (TRef.of (T := ⟨S8x1024, .i32⟩) main_v86) minsi,
    nullary main_c_27 (constantI S_ 32 64#32),
    unary main_c_27 main_v87 (broadcastInDim S8x1024 ![] bcast_S_S8x1024 : (⟨S_, .i32⟩ : BufTy).Contents (Elt F) → (⟨S8x1024, .i32⟩ : BufTy).Contents (Elt F)),
    binary main_v86 main_v87 main_v88 (muli : (⟨S8x1024, .i32⟩ : BufTy).Contents (Elt F) → (⟨S8x1024, .i32⟩ : BufTy).Contents (Elt F) → (⟨S8x1024, .i32⟩ : BufTy).Contents (Elt F)),
    nullary main_c_28 (constantI S_ 32 0#32) ]

/-- The references those operations write, in order. -/
abbrev ops1_W : List (Ref sig .tc) := [main_v46, main_c_12, main_v47, main_v48, main_v49, main_c_13, main_v50, main_v51, main_v52, main_c_14, main_v53, main_v54, main_v55, main_v56, main_c_15, main_c_16, main_call3_v0, main_call3_v1, main_call3_v2, main_call3_v3, main_call3_v4, main_v57, main_c_17, main_v58, main_v59, main_c_18, main_c_19, main_call4_v0, main_call4_v1, main_call4_v2, main_call4_v3, main_call4_v4, main_v60, main_v61, main_v62, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v63, main_v64, main_v65, main_v66, main_cst_20, main_v67, main_v68, main_v69, main_v70, main_v71, main_v72, main_v73, main_c_21, main_v74, main_v75, main_c_22, main_v76, main_v77, main_v78, main_c_23, main_v79, main_v80, main_v81, main_c_24, main_v82, main_v83, main_v84, main_v85, main_c_25, main_c_26, main_call6_v0, main_call6_v1, main_call6_v2, main_call6_v3, main_call6_v4, main_v86, main_c_27, main_v87, main_v88, main_c_28]

set_option maxRecDepth 8192 in
set_option maxHeartbeats 4000000 in
/-- Every operation of the window touches TensorCore references only. -/
theorem ops1_sub : (ops1 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub ..⟩

end Cert.ReferenceIdeal.RV

end
-- ==== Proof.RefRunV1.lean ====
/-
  Window 1 of the reference program (operations 93 … 189): the window is the straight line of its operations, each of
  which determines its result, and running it takes the invariant before window 1 to the one before window 2.
-/
import proofs.«416857_j37855841747427_3_alg».proof.Proof.RefRunI
import proofs.«416857_j37855841747427_3_alg».proof.Proof.RefRunT1

noncomputable section

namespace Cert.ReferenceIdeal.RV

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
/-- The window is the straight line of its operations. -/
theorem main_part1_eq (c : Dev nD) : main_part1 (F := F) c = seq ops1 := rfl

set_option maxRecDepth 8192 in
set_option maxHeartbeats 4000000 in
/-- Every operation of the window determines its result. -/
theorem ops1_fresh : ∀ op ∈ (ops1 : List (HloOp τ sig (Elt F))), op.fresh = ∅ :=
  List.forall_iff_forall_mem.1 (by simp only [List.Forall]; repeat' constructor)

variable (x0 x1 : (⟨S8x768x64x64, .f32⟩ : BufTy).Contents (Elt F)) (x2 x3 : (⟨S8x1024x2, .f32⟩ : BufTy).Contents (Elt F))
  (x4 x5 : (⟨S8x1024, .i1⟩ : BufTy).Contents (Elt F))

set_option maxRecDepth 8192 in
set_option maxHeartbeats 4000000 in
/-- Running the window: a buffer the window writes is read off the operations' results, its operands from before the
    window at their stages by the invariant, and the composed term is its stage by unfolding the stages of the window's
    own operations, the typed references' transports being the identity; a buffer written earlier, or an argument, is left alone by every operation of the window. -/
theorem step1 (W : Valuation τ sig (Elt F)) (h : Inv1 x0 x1 x2 x3 x4 x5 W) : Inv2 x0 x1 x2 x3 x4 x5 (after ops1 W) := by
  obtain ⟨a0, a1, a2, a3, a4, a5, h6, h7, h8, h10, h11, h13, h14, h44, h45⟩ := h
  constructor <;> (simp only [ops1]; after_results_simp) <;>
    (try simp only [a0, a1, a2, a3, a4, a5, h6, h7, h8, h10, h11, h13, h14, h44, h45]) <;> (try simp only [TRef.ofBuf, TRef.toBuf, cast_eq]) <;> rfl

end Cert.ReferenceIdeal.RV

end
-- ==== Proof.RefRunT2.lean ====
import proofs.«416857_j37855841747427_3_alg».proof.Proof.Gen.ReferenceIdeal
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The operations of the window main_part2, in order (a called function's operations stand in its call's place). -/
abbrev ops2 : List (HloOp τ sig (Elt F)) :=
  [ nullary main_c_29 (constantI S_ 32 63#32),
    TRef.unary (TRef.of (T := ⟨S_, .i32⟩) main_c_28) (TRef.of (T := ⟨S_, .i32⟩) main_call7_v0) id,
    TRef.unary (TRef.of (T := ⟨S_, .i32⟩) main_call7_v0) (TRef.of (T := ⟨S8x1024, .i32⟩) main_call7_v1) (broadcastInDim S8x1024 ![] bcast_S_S8x1024),
    TRef.binary (TRef.of (T := ⟨S8x1024, .i32⟩) main_call7_v1) (TRef.of (T := ⟨S8x1024, .i32⟩) main_v8) (TRef.of (T := ⟨S8x1024, .i32⟩) main_call7_v2) maxsi,
    TRef.unary (TRef.of (T := ⟨S_, .i32⟩) main_c_29) (TRef.of (T := ⟨S_, .i32⟩) main_call7_v3) id,
    TRef.unary (TRef.of (T := ⟨S_, .i32⟩) main_call7_v3) (TRef.of (T := ⟨S8x1024, .i32⟩) main_call7_v4) (broadcastInDim S8x1024 ![] bcast_S_S8x1024),
    TRef.binary (TRef.of (T := ⟨S8x1024, .i32⟩) main_call7_v4) (TRef.of (T := ⟨S8x1024, .i32⟩) main_call7_v2) (TRef.of (T := ⟨S8x1024, .i32⟩) main_v89) minsi,
    binary main_v88 main_v89 main_v90 (addi : (⟨S8x1024, .i32⟩ : BufTy).Contents (Elt F) → (⟨S8x1024, .i32⟩ : BufTy).Contents (Elt F) → (⟨S8x1024, .i32⟩ : BufTy).Contents (Elt F)),
    unary main_v90 main_v91 (broadcastInDim S8x1x1024 ![0, 2] bcast_S8x1024_S8x1x1024_0_2 : (⟨S8x1024, .i32⟩ : BufTy).Contents (Elt F) → (⟨S8x1x1024, .i32⟩ : BufTy).Contents (Elt F)),
    TRef.nullary (TRef.of (T := ⟨S_, .i32⟩) main_call8_c) (constantI S_ 32 0#32),
    TRef.unary (TRef.of (T := ⟨S_, .i32⟩) main_call8_c) (TRef.of (T := ⟨S8x1x1024, .i32⟩) main_call8_v0) (broadcastInDim S8x1x1024 ![] bcast_S_S8x1x1024),
    TRef.binary (TRef.of (T := ⟨S8x1x1024, .i32⟩) main_v91) (TRef.of (T := ⟨S8x1x1024, .i32⟩) main_call8_v0) (TRef.of (T := ⟨S8x1x1024, .i1⟩) main_call8_v1) (cmpi .slt),
    TRef.nullary (TRef.of (T := ⟨S_, .i32⟩) main_call8_c_0) (constantI S_ 32 4096#32),
    TRef.unary (TRef.of (T := ⟨S_, .i32⟩) main_call8_c_0) (TRef.of (T := ⟨S8x1x1024, .i32⟩) main_call8_v2) (broadcastInDim S8x1x1024 ![] bcast_S_S8x1x1024),
    TRef.binary (TRef.of (T := ⟨S8x1x1024, .i32⟩) main_v91) (TRef.of (T := ⟨S8x1x1024, .i32⟩) main_call8_v2) (TRef.of (T := ⟨S8x1x1024, .i32⟩) main_call8_v3) addi,
    TRef.ternary (TRef.of (T := ⟨S8x1x1024, .i1⟩) main_call8_v1) (TRef.of (T := ⟨S8x1x1024, .i32⟩) main_call8_v3) (TRef.of (T := ⟨S8x1x1024, .i32⟩) main_v91) (TRef.of (T := ⟨S8x1x1024, .i32⟩) main_call8_v4) select,
    TRef.reshape (TRef.of (T := ⟨S8x1x1024, .i32⟩) main_call8_v4) (TRef.of (T := ⟨S8x1024x1, .i32⟩) main_call8_v5) rfl shapeCasts_S8x1x1024_S8x1024x1,
    TRef.nullary (TRef.of (T := ⟨S1, .i32⟩) main_call8_c_1) (constantI S1 32 4095#32),
    TRef.nullary (TRef.of (T := ⟨S_, .i32⟩) main_call8_c_2) (constantI S_ 32 0#32),
    TRef.unary (TRef.of (T := ⟨S_, .i32⟩) main_call8_c_2) (TRef.of (T := ⟨S8x1024x1, .i32⟩) main_call8_v6) (broadcastInDim S8x1024x1 ![] bcast_S_S8x1024x1),
    TRef.binary (TRef.of (T := ⟨S8x1024x1, .i32⟩) main_call8_v5) (TRef.of (T := ⟨S8x1024x1, .i32⟩) main_call8_v6) (TRef.of (T := ⟨S8x1024x1, .i1⟩) main_call8_v7) (cmpi .sge),
    TRef.unary (TRef.of (T := ⟨S1, .i32⟩) main_call8_c_1) (TRef.of (T := ⟨S1x1x1, .i32⟩) main_call8_v8) (broadcastInDim S1x1x1 ![2] bcast_S1_S1x1x1_2),
    TRef.unary (TRef.of (T := ⟨S1x1x1, .i32⟩) main_call8_v8) (TRef.of (T := ⟨S8x1024x1, .i32⟩) main_call8_v9) (broadcastInDim S8x1024x1 ![0, 1, 2] bcast_S1x1x1_S8x1024x1_0_1_2),
    TRef.binary (TRef.of (T := ⟨S8x1024x1, .i32⟩) main_call8_v5) (TRef.of (T := ⟨S8x1024x1, .i32⟩) main_call8_v9) (TRef.of (T := ⟨S8x1024x1, .i1⟩) main_call8_v10) (cmpi .sle),
    TRef.binary (TRef.of (T := ⟨S8x1024x1, .i1⟩) main_call8_v7) (TRef.of (T := ⟨S8x1024x1, .i1⟩) main_call8_v10) (TRef.of (T := ⟨S8x1024x1, .i1⟩) main_call8_v11) andi,
    TRef.nullary (TRef.of (T := ⟨S_, .i1⟩) main_call8_c_3) (constantI S_ 1 1#1),
    TRef.binary (TRef.of (T := ⟨S8x1024x1, .i1⟩) main_call8_v11) (TRef.of (T := ⟨S_, .i1⟩) main_call8_c_3) (TRef.of (T := ⟨S8x1024, .i1⟩) main_call8_v12) (fun x v => Host.reduce IntOp.andi x v reducesTo_S8x1024x1_S8x1024_d2 h_S_),
    TRef.binary (TRef.of (T := ⟨S8x768x4096, .f32⟩) main_v14) (TRef.of (T := ⟨S8x1024x1, .i32⟩) main_call8_v5) (TRef.of (T := ⟨S8x768x1024, .f32⟩) main_call8_v13) (fun x i => Host.gather gather_S8x768x4096_S8x1024x1_S8x768x1024_1_2_0_0_2_2_17681 x i),
    TRef.unary (TRef.of (T := ⟨S8x1024, .i1⟩) main_call8_v12) (TRef.of (T := ⟨S8x768x1024, .i1⟩) main_call8_v14) (broadcastInDim S8x768x1024 ![0, 2] bcast_S8x1024_S8x768x1024_0_2),
    TRef.nullary (TRef.of (T := ⟨S_, .f32⟩) main_call8_cst) (constant S_ .f32 0x7FC00000#32),
    TRef.unary (TRef.of (T := ⟨S_, .f32⟩) main_call8_cst) (TRef.of (T := ⟨S8x768x1024, .f32⟩) main_call8_v15) (broadcastInDim S8x768x1024 ![] bcast_S_S8x768x1024),
    TRef.ternary (TRef.of (T := ⟨S8x768x1024, .i1⟩) main_call8_v14) (TRef.of (T := ⟨S8x768x1024, .f32⟩) main_call8_v13) (TRef.of (T := ⟨S8x768x1024, .f32⟩) main_call8_v15) (TRef.of (T := ⟨S8x768x1024, .f32⟩) main_v92) select,
    unary main_v85 main_v93 (broadcastInDim S8x1x1024 ![0, 2] bcast_S8x1024_S8x1x1024_0_2 : (⟨S8x1024, .f32⟩ : BufTy).Contents (Elt F) → (⟨S8x1x1024, .f32⟩ : BufTy).Contents (Elt F)),
    unary main_v93 main_v94 (broadcastInDim S8x768x1024 ![0, 1, 2] bcast_S8x1x1024_S8x768x1024_0_1_2 : (⟨S8x1x1024, .f32⟩ : BufTy).Contents (Elt F) → (⟨S8x768x1024, .f32⟩ : BufTy).Contents (Elt F)),
    binary main_v92 main_v94 main_v95 (mulf : (⟨S8x768x1024, .f32⟩ : BufTy).Contents (Elt F) → (⟨S8x768x1024, .f32⟩ : BufTy).Contents (Elt F) → (⟨S8x768x1024, .f32⟩ : BufTy).Contents (Elt F)),
    nullary main_cst_30 (constant S_ .f32 0x3F800000#32),
    unary main_cst_30 main_v96 (broadcastInDim S8x1024 ![] bcast_S_S8x1024 : (⟨S_, .f32⟩ : BufTy).Contents (Elt F) → (⟨S8x1024, .f32⟩ : BufTy).Contents (Elt F)),
    binary main_v96 main_v6 main_v97 (subf : (⟨S8x1024, .f32⟩ : BufTy).Contents (Elt F) → (⟨S8x1024, .f32⟩ : BufTy).Contents (Elt F) → (⟨S8x1024, .f32⟩ : BufTy).Contents (Elt F)),
    binary main_v97 main_v7 main_v98 (mulf : (⟨S8x1024, .f32⟩ : BufTy).Contents (Elt F) → (⟨S8x1024, .f32⟩ : BufTy).Contents (Elt F) → (⟨S8x1024, .f32⟩ : BufTy).Contents (Elt F)),
    unary main_v98 main_v99 (broadcastInDim S8x1x1024 ![0, 2] bcast_S8x1024_S8x1x1024_0_2 : (⟨S8x1024, .f32⟩ : BufTy).Contents (Elt F) → (⟨S8x1x1024, .f32⟩ : BufTy).Contents (Elt F)),
    unary main_v99 main_v100 (broadcastInDim S8x768x1024 ![0, 1, 2] bcast_S8x1x1024_S8x768x1024_0_1_2 : (⟨S8x1x1024, .f32⟩ : BufTy).Contents (Elt F) → (⟨S8x768x1024, .f32⟩ : BufTy).Contents (Elt F)),
    binary main_v95 main_v100 main_v101 (mulf : (⟨S8x768x1024, .f32⟩ : BufTy).Contents (Elt F) → (⟨S8x768x1024, .f32⟩ : BufTy).Contents (Elt F) → (⟨S8x768x1024, .f32⟩ : BufTy).Contents (Elt F)),
    binary main_v73 main_v101 main_v102 (addf : (⟨S8x768x1024, .f32⟩ : BufTy).Contents (Elt F) → (⟨S8x768x1024, .f32⟩ : BufTy).Contents (Elt F) → (⟨S8x768x1024, .f32⟩ : BufTy).Contents (Elt F)),
    nullary main_c_31 (constantI S_ 32 0#32),
    unary main_c_31 main_v103 (broadcastInDim S8x1024 ![] bcast_S_S8x1024 : (⟨S_, .i32⟩ : BufTy).Contents (Elt F) → (⟨S8x1024, .i32⟩ : BufTy).Contents (Elt F)),
    binary main_v10 main_v103 main_v104 (cmpi .sge : (⟨S8x1024, .i32⟩ : BufTy).Contents (Elt F) → (⟨S8x1024, .i32⟩ : BufTy).Contents (Elt F) → (⟨S8x1024, .i1⟩ : BufTy).Contents (Elt F)),
    nullary main_c_32 (constantI S_ 32 64#32),
    unary main_c_32 main_v105 (broadcastInDim S8x1024 ![] bcast_S_S8x1024 : (⟨S_, .i32⟩ : BufTy).Contents (Elt F) → (⟨S8x1024, .i32⟩ : BufTy).Contents (Elt F)),
    binary main_v10 main_v105 main_v106 (cmpi .slt : (⟨S8x1024, .i32⟩ : BufTy).Contents (Elt F) → (⟨S8x1024, .i32⟩ : BufTy).Contents (Elt F) → (⟨S8x1024, .i1⟩ : BufTy).Contents (Elt F)),
    binary main_v104 main_v106 main_v107 (andi : (⟨S8x1024, .i1⟩ : BufTy).Contents (Elt F) → (⟨S8x1024, .i1⟩ : BufTy).Contents (Elt F) → (⟨S8x1024, .i1⟩ : BufTy).Contents (Elt F)),
    nullary main_c_33 (constantI S_ 32 0#32),
    unary main_c_33 main_v108 (broadcastInDim S8x1024 ![] bcast_S_S8x1024 : (⟨S_, .i32⟩ : BufTy).Contents (Elt F) → (⟨S8x1024, .i32⟩ : BufTy).Contents (Elt F)),
    binary main_v13 main_v108 main_v109 (cmpi .sge : (⟨S8x1024, .i32⟩ : BufTy).Contents (Elt F) → (⟨S8x1024, .i32⟩ : BufTy).Contents (Elt F) → (⟨S8x1024, .i1⟩ : BufTy).Contents (Elt F)),
    binary main_v107 main_v109 main_v110 (andi : (⟨S8x1024, .i1⟩ : BufTy).Contents (Elt F) → (⟨S8x1024, .i1⟩ : BufTy).Contents (Elt F) → (⟨S8x1024, .i1⟩ : BufTy).Contents (Elt F)),
    nullary main_c_34 (constantI S_ 32 64#32),
    unary main_c_34 main_v111 (broadcastInDim S8x1024 ![] bcast_S_S8x1024 : (⟨S_, .i32⟩ : BufTy).Contents (Elt F) → (⟨S8x1024, .i32⟩ : BufTy).Contents (Elt F)),
    binary main_v13 main_v111 main_v112 (cmpi .slt : (⟨S8x1024, .i32⟩ : BufTy).Contents (Elt F) → (⟨S8x1024, .i32⟩ : BufTy).Contents (Elt F) → (⟨S8x1024, .i1⟩ : BufTy).Contents (Elt F)),
    binary main_v110 main_v112 main_v113 (andi : (⟨S8x1024, .i1⟩ : BufTy).Contents (Elt F) → (⟨S8x1024, .i1⟩ : BufTy).Contents (Elt F) → (⟨S8x1024, .i1⟩ : BufTy).Contents (Elt F)),
    unary main_v113 main_v114 (uitofp .f32 : (⟨S8x1024, .i1⟩ : BufTy).Contents (Elt F) → (⟨S8x1024, .f32⟩ : BufTy).Contents (Elt F)),
    nullary main_c_35 (constantI S_ 32 0#32),
    nullary main_c_36 (constantI S_ 32 63#32),
    TRef.unary (TRef.of (T := ⟨S_, .i32⟩) main_c_35) (TRef.of (T := ⟨S_, .i32⟩) main_call9_v0) id,
    TRef.unary (TRef.of (T := ⟨S_, .i32⟩) main_call9_v0) (TRef.of (T := ⟨S8x1024, .i32⟩) main_call9_v1) (broadcastInDim S8x1024 ![] bcast_S_S8x1024),
    TRef.binary (TRef.of (T := ⟨S8x1024, .i32⟩) main_call9_v1) (TRef.of (T := ⟨S8x1024, .i32⟩) main_v13) (TRef.of (T := ⟨S8x1024, .i32⟩) main_call9_v2) maxsi,
    TRef.unary (TRef.of (T := ⟨S_, .i32⟩) main_c_36) (TRef.of (T := ⟨S_, .i32⟩) main_call9_v3) id,
    TRef.unary (TRef.of (T := ⟨S_, .i32⟩) main_call9_v3) (TRef.of (T := ⟨S8x1024, .i32⟩) main_call9_v4) (broadcastInDim S8x1024 ![] bcast_S_S8x1024),
    TRef.binary (TRef.of (T := ⟨S8x1024, .i32⟩) main_call9_v4) (TRef.of (T := ⟨S8x1024, .i32⟩) main_call9_v2) (TRef.of (T := ⟨S8x1024, .i32⟩) main_v115) minsi,
    nullary main_c_37 (constantI S_ 32 64#32),
    unary main_c_37 main_v116 (broadcastInDim S8x1024 ![] bcast_S_S8x1024 : (⟨S_, .i32⟩ : BufTy).Contents (Elt F) → (⟨S8x1024, .i32⟩ : BufTy).Contents (Elt F)),
    binary main_v115 main_v116 main_v117 (muli : (⟨S8x1024, .i32⟩ : BufTy).Contents (Elt F) → (⟨S8x1024, .i32⟩ : BufTy).Contents (Elt F) → (⟨S8x1024, .i32⟩ : BufTy).Contents (Elt F)),
    nullary main_c_38 (constantI S_ 32 0#32),
    nullary main_c_39 (constantI S_ 32 63#32),
    TRef.unary (TRef.of (T := ⟨S_, .i32⟩) main_c_38) (TRef.of (T := ⟨S_, .i32⟩) main_call10_v0) id,
    TRef.unary (TRef.of (T := ⟨S_, .i32⟩) main_call10_v0) (TRef.of (T := ⟨S8x1024, .i32⟩) main_call10_v1) (broadcastInDim S8x1024 ![] bcast_S_S8x1024),
    TRef.binary (TRef.of (T := ⟨S8x1024, .i32⟩) main_call10_v1) (TRef.of (T := ⟨S8x1024, .i32⟩) main_v10) (TRef.of (T := ⟨S8x1024, .i32⟩) main_call10_v2) maxsi,
    TRef.unary (TRef.of (T := ⟨S_, .i32⟩) main_c_39) (TRef.of (T := ⟨S_, .i32⟩) main_call10_v3) id,
    TRef.unary (TRef.of (T := ⟨S_, .i32⟩) main_call10_v3) (TRef.of (T := ⟨S8x1024, .i32⟩) main_call10_v4) (broadcastInDim S8x1024 ![] bcast_S_S8x1024),
    TRef.binary (TRef.of (T := ⟨S8x1024, .i32⟩) main_call10_v4) (TRef.of (T := ⟨S8x1024, .i32⟩) main_call10_v2) (TRef.of (T := ⟨S8x1024, .i32⟩) main_v118) minsi,
    binary main_v117 main_v118 main_v119 (addi : (⟨S8x1024, .i32⟩ : BufTy).Contents (Elt F) → (⟨S8x1024, .i32⟩ : BufTy).Contents (Elt F) → (⟨S8x1024, .i32⟩ : BufTy).Contents (Elt F)),
    unary main_v119 main_v120 (broadcastInDim S8x1x1024 ![0, 2] bcast_S8x1024_S8x1x1024_0_2 : (⟨S8x1024, .i32⟩ : BufTy).Contents (Elt F) → (⟨S8x1x1024, .i32⟩ : BufTy).Contents (Elt F)),
    TRef.nullary (TRef.of (T := ⟨S_, .i32⟩) main_call11_c) (constantI S_ 32 0#32),
    TRef.unary (TRef.of (T := ⟨S_, .i32⟩) main_call11_c) (TRef.of (T := ⟨S8x1x1024, .i32⟩) main_call11_v0) (broadcastInDim S8x1x1024 ![] bcast_S_S8x1x1024),
    TRef.binary (TRef.of (T := ⟨S8x1x1024, .i32⟩) main_v120) (TRef.of (T := ⟨S8x1x1024, .i32⟩) main_call11_v0) (TRef.of (T := ⟨S8x1x1024, .i1⟩) main_call11_v1) (cmpi .slt),
    TRef.nullary (TRef.of (T := ⟨S_, .i32⟩) main_call11_c_0) (constantI S_ 32 4096#32),
    TRef.unary (TRef.of (T := ⟨S_, .i32⟩) main_call11_c_0) (TRef.of (T := ⟨S8x1x1024, .i32⟩) main_call11_v2) (broadcastInDim S8x1x1024 ![] bcast_S_S8x1x1024),
    TRef.binary (TRef.of (T := ⟨S8x1x1024, .i32⟩) main_v120) (TRef.of (T := ⟨S8x1x1024, .i32⟩) main_call11_v2) (TRef.of (T := ⟨S8x1x1024, .i32⟩) main_call11_v3) addi,
    TRef.ternary (TRef.of (T := ⟨S8x1x1024, .i1⟩) main_call11_v1) (TRef.of (T := ⟨S8x1x1024, .i32⟩) main_call11_v3) (TRef.of (T := ⟨S8x1x1024, .i32⟩) main_v120) (TRef.of (T := ⟨S8x1x1024, .i32⟩) main_call11_v4) select,
    TRef.reshape (TRef.of (T := ⟨S8x1x1024, .i32⟩) main_call11_v4) (TRef.of (T := ⟨S8x1024x1, .i32⟩) main_call11_v5) rfl shapeCasts_S8x1x1024_S8x1024x1,
    TRef.nullary (TRef.of (T := ⟨S1, .i32⟩) main_call11_c_1) (constantI S1 32 4095#32),
    TRef.nullary (TRef.of (T := ⟨S_, .i32⟩) main_call11_c_2) (constantI S_ 32 0#32),
    TRef.unary (TRef.of (T := ⟨S_, .i32⟩) main_call11_c_2) (TRef.of (T := ⟨S8x1024x1, .i32⟩) main_call11_v6) (broadcastInDim S8x1024x1 ![] bcast_S_S8x1024x1),
    TRef.binary (TRef.of (T := ⟨S8x1024x1, .i32⟩) main_call11_v5) (TRef.of (T := ⟨S8x1024x1, .i32⟩) main_call11_v6) (TRef.of (T := ⟨S8x1024x1, .i1⟩) main_call11_v7) (cmpi .sge),
    TRef.unary (TRef.of (T := ⟨S1, .i32⟩) main_call11_c_1) (TRef.of (T := ⟨S1x1x1, .i32⟩) main_call11_v8) (broadcastInDim S1x1x1 ![2] bcast_S1_S1x1x1_2),
    TRef.unary (TRef.of (T := ⟨S1x1x1, .i32⟩) main_call11_v8) (TRef.of (T := ⟨S8x1024x1, .i32⟩) main_call11_v9) (broadcastInDim S8x1024x1 ![0, 1, 2] bcast_S1x1x1_S8x1024x1_0_1_2),
    TRef.binary (TRef.of (T := ⟨S8x1024x1, .i32⟩) main_call11_v5) (TRef.of (T := ⟨S8x1024x1, .i32⟩) main_call11_v9) (TRef.of (T := ⟨S8x1024x1, .i1⟩) main_call11_v10) (cmpi .sle),
    TRef.binary (TRef.of (T := ⟨S8x1024x1, .i1⟩) main_call11_v7) (TRef.of (T := ⟨S8x1024x1, .i1⟩) main_call11_v10) (TRef.of (T := ⟨S8x1024x1, .i1⟩) main_call11_v11) andi,
    TRef.nullary (TRef.of (T := ⟨S_, .i1⟩) main_call11_c_3) (constantI S_ 1 1#1),
    TRef.binary (TRef.of (T := ⟨S8x1024x1, .i1⟩) main_call11_v11) (TRef.of (T := ⟨S_, .i1⟩) main_call11_c_3) (TRef.of (T := ⟨S8x1024, .i1⟩) main_call11_v12) (fun x v => Host.reduce IntOp.andi x v reducesTo_S8x1024x1_S8x1024_d2 h_S_),
    TRef.binary (TRef.of (T := ⟨S8x768x4096, .f32⟩) main_v14) (TRef.of (T := ⟨S8x1024x1, .i32⟩) main_call11_v5) (TRef.of (T := ⟨S8x768x1024, .f32⟩) main_call11_v13) (fun x i => Host.gather gather_S8x768x4096_S8x1024x1_S8x768x1024_1_2_0_0_2_2_17681 x i),
    TRef.unary (TRef.of (T := ⟨S8x1024, .i1⟩) main_call11_v12) (TRef.of (T := ⟨S8x768x1024, .i1⟩) main_call11_v14) (broadcastInDim S8x768x1024 ![0, 2] bcast_S8x1024_S8x768x1024_0_2),
    TRef.nullary (TRef.of (T := ⟨S_, .f32⟩) main_call11_cst) (constant S_ .f32 0x7FC00000#32),
    TRef.unary (TRef.of (T := ⟨S_, .f32⟩) main_call11_cst) (TRef.of (T := ⟨S8x768x1024, .f32⟩) main_call11_v15) (broadcastInDim S8x768x1024 ![] bcast_S_S8x768x1024),
    TRef.ternary (TRef.of (T := ⟨S8x768x1024, .i1⟩) main_call11_v14) (TRef.of (T := ⟨S8x768x1024, .f32⟩) main_call11_v13) (TRef.of (T := ⟨S8x768x1024, .f32⟩) main_call11_v15) (TRef.of (T := ⟨S8x768x1024, .f32⟩) main_v121) select,
    unary main_v114 main_v122 (broadcastInDim S8x1x1024 ![0, 2] bcast_S8x1024_S8x1x1024_0_2 : (⟨S8x1024, .f32⟩ : BufTy).Contents (Elt F) → (⟨S8x1x1024, .f32⟩ : BufTy).Contents (Elt F)),
    unary main_v122 main_v123 (broadcastInDim S8x768x1024 ![0, 1, 2] bcast_S8x1x1024_S8x768x1024_0_1_2 : (⟨S8x1x1024, .f32⟩ : BufTy).Contents (Elt F) → (⟨S8x768x1024, .f32⟩ : BufTy).Contents (Elt F)),
    binary main_v121 main_v123 main_v124 (mulf : (⟨S8x768x1024, .f32⟩ : BufTy).Contents (Elt F) → (⟨S8x768x1024, .f32⟩ : BufTy).Contents (Elt F) → (⟨S8x768x1024, .f32⟩ : BufTy).Contents (Elt F)),
    binary main_v6 main_v7 main_v125 (mulf : (⟨S8x1024, .f32⟩ : BufTy).Contents (Elt F) → (⟨S8x1024, .f32⟩ : BufTy).Contents (Elt F) → (⟨S8x1024, .f32⟩ : BufTy).Contents (Elt F)),
    unary main_v125 main_v126 (broadcastInDim S8x1x1024 ![0, 2] bcast_S8x1024_S8x1x1024_0_2 : (⟨S8x1024, .f32⟩ : BufTy).Contents (Elt F) → (⟨S8x1x1024, .f32⟩ : BufTy).Contents (Elt F)),
    unary main_v126 main_v127 (broadcastInDim S8x768x1024 ![0, 1, 2] bcast_S8x1x1024_S8x768x1024_0_1_2 : (⟨S8x1x1024, .f32⟩ : BufTy).Contents (Elt F) → (⟨S8x768x1024, .f32⟩ : BufTy).Contents (Elt F)),
    binary main_v124 main_v127 main_v128 (mulf : (⟨S8x768x1024, .f32⟩ : BufTy).Contents (Elt F) → (⟨S8x768x1024, .f32⟩ : BufTy).Contents (Elt F) → (⟨S8x768x1024, .f32⟩ : BufTy).Contents (Elt F)),
    binary main_v102 main_v128 main_v129 (addf : (⟨S8x768x1024, .f32⟩ : BufTy).Contents (Elt F) → (⟨S8x768x1024, .f32⟩ : BufTy).Contents (Elt F) → (⟨S8x768x1024, .f32⟩ : BufTy).Contents (Elt F)),
    unary main_v129 main_v130 ((transpose S8x1024x768 [0, 2, 1] · transposes_S8x768x1024_S8x1024x768_0_2_1) : (⟨S8x768x1024, .f32⟩ : BufTy).Contents (Elt F) → (⟨S8x1024x768, .f32⟩ : BufTy).Contents (Elt F)),
    unary main_arg3 main_v131 ((extractStridedSlice S8x1024x1 ![0, 0, 0] · slices_S8x1024x2_S8x1024x1_0_0_0) : (⟨S8x1024x2, .f32⟩ : BufTy).Contents (Elt F) → (⟨S8x1024x1, .f32⟩ : BufTy).Contents (Elt F)),
    reshape main_v131 main_v132 rfl shapeCasts_S8x1024x1_S8x1024,
    unary main_arg3 main_v133 ((extractStridedSlice S8x1024x1 ![0, 0, 1] · slices_S8x1024x2_S8x1024x1_0_0_1) : (⟨S8x1024x2, .f32⟩ : BufTy).Contents (Elt F) → (⟨S8x1024x1, .f32⟩ : BufTy).Contents (Elt F)),
    reshape main_v133 main_v134 rfl shapeCasts_S8x1024x1_S8x1024,
    unary main_v132 main_v135 (Host.floor : (⟨S8x1024, .f32⟩ : BufTy).Contents (Elt F) → (⟨S8x1024, .f32⟩ : BufTy).Contents (Elt F)),
    unary main_v134 main_v136 (Host.floor : (⟨S8x1024, .f32⟩ : BufTy).Contents (Elt F) → (⟨S8x1024, .f32⟩ : BufTy).Contents (Elt F)),
    binary main_v132 main_v135 main_v137 (subf : (⟨S8x1024, .f32⟩ : BufTy).Contents (Elt F) → (⟨S8x1024, .f32⟩ : BufTy).Contents (Elt F) → (⟨S8x1024, .f32⟩ : BufTy).Contents (Elt F)) ]

/-- The references those operations write, in order. -/
abbrev ops2_W : List (Ref sig .tc) := [main_c_29, main_call7_v0, main_call7_v1, main_call7_v2, main_call7_v3, main_call7_v4, main_v89, main_v90, main_v91, main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v92, main_v93, main_v94, main_v95, main_cst_30, main_v96, main_v97, main_v98, main_v99, main_v100, main_v101, main_v102, main_c_31, main_v103, main_v104, main_c_32, main_v105, main_v106, main_v107, main_c_33, main_v108, main_v109, main_v110, main_c_34, main_v111, main_v112, main_v113, main_v114, main_c_35, main_c_36, main_call9_v0, main_call9_v1, main_call9_v2, main_call9_v3, main_call9_v4, main_v115, main_c_37, main_v116, main_v117, main_c_38, main_c_39, main_call10_v0, main_call10_v1, main_call10_v2, main_call10_v3, main_call10_v4, main_v118, main_v119, main_v120, main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v121, main_v122, main_v123, main_v124, main_v125, main_v126, main_v127, main_v128, main_v129, main_v130, main_v131, main_v132, main_v133, main_v134, main_v135, main_v136, main_v137]

set_option maxRecDepth 8192 in
set_option maxHeartbeats 4000000 in
/-- Every operation of the window touches TensorCore references only. -/
theorem ops2_sub : (ops2 : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., binary_bufs_sub .., unary_bufs_sub .., unary_bufs_sub .., binary_bufs_sub .., binary_bufs_sub .., unary_bufs_sub .., unary_bufs_sub .., reshape_bufs_sub .., unary_bufs_sub .., reshape_bufs_sub .., unary_bufs_sub .., unary_bufs_sub .., binary_bufs_sub ..⟩

end Cert.ReferenceIdeal.RV

end
-- ==== Proof.RefRunV2.lean ====
/-
  Window 2 of the reference program (operations 190 … 308): the window is the straight line of its operations, each of
  which determines its result, and running it takes the invariant before window 2 to the one before window 3.
-/
import proofs.«416857_j37855841747427_3_alg».proof.Proof.RefRunI
import proofs.«416857_j37855841747427_3_alg».proof.Proof.RefRunT2

noncomputable section

namespace Cert.ReferenceIdeal.RV

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
/-- The window is the straight line of its operations. -/
theorem main_part2_eq (c : Dev nD) : main_part2 (F := F) c = seq ops2 := rfl

set_option maxRecDepth 8192 in
set_option maxHeartbeats 4000000 in
/-- Every operation of the window determines its result. -/
theorem ops2_fresh : ∀ op ∈ (ops2 : List (HloOp τ sig (Elt F))), op.fresh = ∅ :=
  List.forall_iff_forall_mem.1 (by simp only [List.Forall]; repeat' constructor)

variable (x0 x1 : (⟨S8x768x64x64, .f32⟩ : BufTy).Contents (Elt F)) (x2 x3 : (⟨S8x1024x2, .f32⟩ : BufTy).Contents (Elt F))
  (x4 x5 : (⟨S8x1024, .i1⟩ : BufTy).Contents (Elt F))

set_option maxRecDepth 8192 in
set_option maxHeartbeats 4000000 in
/-- Running the window: a buffer the window writes is read off the operations' results, its operands from before the
    window at their stages by the invariant, and the composed term is its stage by unfolding the stages of the window's
    own operations, the typed references' transports being the identity; a buffer written earlier, or an argument, is left alone by every operation of the window. -/
theorem step2 (W : Valuation τ sig (Elt F)) (h : Inv2 x0 x1 x2 x3 x4 x5 W) : Inv3 x0 x1 x2 x3 x4 x5 (after ops2 W) := by
  obtain ⟨a0, a1, a2, a3, a4, a5, h6, h7, h8, h10, h13, h14, h73, h85, h88, hc28⟩ := h
  constructor <;> (simp only [ops2]; after_results_simp) <;>
    (try simp only [a0, a1, a2, a3, a4, a5, h6, h7, h8, h10, h13, h14, h73, h85, h88, hc28]) <;> (try simp only [TRef.ofBuf, TRef.toBuf, cast_eq]) <;> rfl

end Cert.ReferenceIdeal.RV

end
-- ==== Proof.RefRunT3.lean ====
import proofs.«416857_j37855841747427_3_alg».proof.Proof.Gen.ReferenceIdeal
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The operations of the window main_part3, in order (a called function's operations stand in its call's place). -/
abbrev ops3 : List (HloOp τ sig (Elt F)) :=
  [ binary main_v134 main_v136 main_v138 (subf : (⟨S8x1024, .f32⟩ : BufTy).Contents (Elt F) → (⟨S8x1024, .f32⟩ : BufTy).Contents (Elt F) → (⟨S8x1024, .f32⟩ : BufTy).Contents (Elt F)),
    unary main_v135 main_v139 (fptosi 32 : (⟨S8x1024, .f32⟩ : BufTy).Contents (Elt F) → (⟨S8x1024, .i32⟩ : BufTy).Contents (Elt F)),
    nullary main_c_40 (constantI S_ 32 1#32),
    unary main_c_40 main_v140 (broadcastInDim S8x1024 ![] bcast_S_S8x1024 : (⟨S_, .i32⟩ : BufTy).Contents (Elt F) → (⟨S8x1024, .i32⟩ : BufTy).Contents (Elt F)),
    binary main_v139 main_v140 main_v141 (addi : (⟨S8x1024, .i32⟩ : BufTy).Contents (Elt F) → (⟨S8x1024, .i32⟩ : BufTy).Contents (Elt F) → (⟨S8x1024, .i32⟩ : BufTy).Contents (Elt F)),
    unary main_v136 main_v142 (fptosi 32 : (⟨S8x1024, .f32⟩ : BufTy).Contents (Elt F) → (⟨S8x1024, .i32⟩ : BufTy).Contents (Elt F)),
    nullary main_c_41 (constantI S_ 32 1#32),
    unary main_c_41 main_v143 (broadcastInDim S8x1024 ![] bcast_S_S8x1024 : (⟨S_, .i32⟩ : BufTy).Contents (Elt F) → (⟨S8x1024, .i32⟩ : BufTy).Contents (Elt F)),
    binary main_v142 main_v143 main_v144 (addi : (⟨S8x1024, .i32⟩ : BufTy).Contents (Elt F) → (⟨S8x1024, .i32⟩ : BufTy).Contents (Elt F) → (⟨S8x1024, .i32⟩ : BufTy).Contents (Elt F)),
    reshape main_arg1 main_v145 rfl shapeCasts_S8x768x64x64_S8x768x4096,
    nullary main_c_42 (constantI S_ 32 0#32),
    unary main_c_42 main_v146 (broadcastInDim S8x1024 ![] bcast_S_S8x1024 : (⟨S_, .i32⟩ : BufTy).Contents (Elt F) → (⟨S8x1024, .i32⟩ : BufTy).Contents (Elt F)),
    binary main_v139 main_v146 main_v147 (cmpi .sge : (⟨S8x1024, .i32⟩ : BufTy).Contents (Elt F) → (⟨S8x1024, .i32⟩ : BufTy).Contents (Elt F) → (⟨S8x1024, .i1⟩ : BufTy).Contents (Elt F)),
    nullary main_c_43 (constantI S_ 32 64#32),
    unary main_c_43 main_v148 (broadcastInDim S8x1024 ![] bcast_S_S8x1024 : (⟨S_, .i32⟩ : BufTy).Contents (Elt F) → (⟨S8x1024, .i32⟩ : BufTy).Contents (Elt F)),
    binary main_v139 main_v148 main_v149 (cmpi .slt : (⟨S8x1024, .i32⟩ : BufTy).Contents (Elt F) → (⟨S8x1024, .i32⟩ : BufTy).Contents (Elt F) → (⟨S8x1024, .i1⟩ : BufTy).Contents (Elt F)),
    binary main_v147 main_v149 main_v150 (andi : (⟨S8x1024, .i1⟩ : BufTy).Contents (Elt F) → (⟨S8x1024, .i1⟩ : BufTy).Contents (Elt F) → (⟨S8x1024, .i1⟩ : BufTy).Contents (Elt F)),
    nullary main_c_44 (constantI S_ 32 0#32),
    unary main_c_44 main_v151 (broadcastInDim S8x1024 ![] bcast_S_S8x1024 : (⟨S_, .i32⟩ : BufTy).Contents (Elt F) → (⟨S8x1024, .i32⟩ : BufTy).Contents (Elt F)),
    binary main_v142 main_v151 main_v152 (cmpi .sge : (⟨S8x1024, .i32⟩ : BufTy).Contents (Elt F) → (⟨S8x1024, .i32⟩ : BufTy).Contents (Elt F) → (⟨S8x1024, .i1⟩ : BufTy).Contents (Elt F)),
    binary main_v150 main_v152 main_v153 (andi : (⟨S8x1024, .i1⟩ : BufTy).Contents (Elt F) → (⟨S8x1024, .i1⟩ : BufTy).Contents (Elt F) → (⟨S8x1024, .i1⟩ : BufTy).Contents (Elt F)),
    nullary main_c_45 (constantI S_ 32 64#32),
    unary main_c_45 main_v154 (broadcastInDim S8x1024 ![] bcast_S_S8x1024 : (⟨S_, .i32⟩ : BufTy).Contents (Elt F) → (⟨S8x1024, .i32⟩ : BufTy).Contents (Elt F)),
    binary main_v142 main_v154 main_v155 (cmpi .slt : (⟨S8x1024, .i32⟩ : BufTy).Contents (Elt F) → (⟨S8x1024, .i32⟩ : BufTy).Contents (Elt F) → (⟨S8x1024, .i1⟩ : BufTy).Contents (Elt F)),
    binary main_v153 main_v155 main_v156 (andi : (⟨S8x1024, .i1⟩ : BufTy).Contents (Elt F) → (⟨S8x1024, .i1⟩ : BufTy).Contents (Elt F) → (⟨S8x1024, .i1⟩ : BufTy).Contents (Elt F)),
    unary main_v156 main_v157 (uitofp .f32 : (⟨S8x1024, .i1⟩ : BufTy).Contents (Elt F) → (⟨S8x1024, .f32⟩ : BufTy).Contents (Elt F)),
    nullary main_c_46 (constantI S_ 32 0#32),
    nullary main_c_47 (constantI S_ 32 63#32),
    TRef.unary (TRef.of (T := ⟨S_, .i32⟩) main_c_46) (TRef.of (T := ⟨S_, .i32⟩) main_call12_v0) id,
    TRef.unary (TRef.of (T := ⟨S_, .i32⟩) main_call12_v0) (TRef.of (T := ⟨S8x1024, .i32⟩) main_call12_v1) (broadcastInDim S8x1024 ![] bcast_S_S8x1024),
    TRef.binary (TRef.of (T := ⟨S8x1024, .i32⟩) main_call12_v1) (TRef.of (T := ⟨S8x1024, .i32⟩) main_v142) (TRef.of (T := ⟨S8x1024, .i32⟩) main_call12_v2) maxsi,
    TRef.unary (TRef.of (T := ⟨S_, .i32⟩) main_c_47) (TRef.of (T := ⟨S_, .i32⟩) main_call12_v3) id,
    TRef.unary (TRef.of (T := ⟨S_, .i32⟩) main_call12_v3) (TRef.of (T := ⟨S8x1024, .i32⟩) main_call12_v4) (broadcastInDim S8x1024 ![] bcast_S_S8x1024),
    TRef.binary (TRef.of (T := ⟨S8x1024, .i32⟩) main_call12_v4) (TRef.of (T := ⟨S8x1024, .i32⟩) main_call12_v2) (TRef.of (T := ⟨S8x1024, .i32⟩) main_v158) minsi,
    nullary main_c_48 (constantI S_ 32 64#32),
    unary main_c_48 main_v159 (broadcastInDim S8x1024 ![] bcast_S_S8x1024 : (⟨S_, .i32⟩ : BufTy).Contents (Elt F) → (⟨S8x1024, .i32⟩ : BufTy).Contents (Elt F)),
    binary main_v158 main_v159 main_v160 (muli : (⟨S8x1024, .i32⟩ : BufTy).Contents (Elt F) → (⟨S8x1024, .i32⟩ : BufTy).Contents (Elt F) → (⟨S8x1024, .i32⟩ : BufTy).Contents (Elt F)),
    nullary main_c_49 (constantI S_ 32 0#32),
    nullary main_c_50 (constantI S_ 32 63#32),
    TRef.unary (TRef.of (T := ⟨S_, .i32⟩) main_c_49) (TRef.of (T := ⟨S_, .i32⟩) main_call13_v0) id,
    TRef.unary (TRef.of (T := ⟨S_, .i32⟩) main_call13_v0) (TRef.of (T := ⟨S8x1024, .i32⟩) main_call13_v1) (broadcastInDim S8x1024 ![] bcast_S_S8x1024),
    TRef.binary (TRef.of (T := ⟨S8x1024, .i32⟩) main_call13_v1) (TRef.of (T := ⟨S8x1024, .i32⟩) main_v139) (TRef.of (T := ⟨S8x1024, .i32⟩) main_call13_v2) maxsi,
    TRef.unary (TRef.of (T := ⟨S_, .i32⟩) main_c_50) (TRef.of (T := ⟨S_, .i32⟩) main_call13_v3) id,
    TRef.unary (TRef.of (T := ⟨S_, .i32⟩) main_call13_v3) (TRef.of (T := ⟨S8x1024, .i32⟩) main_call13_v4) (broadcastInDim S8x1024 ![] bcast_S_S8x1024),
    TRef.binary (TRef.of (T := ⟨S8x1024, .i32⟩) main_call13_v4) (TRef.of (T := ⟨S8x1024, .i32⟩) main_call13_v2) (TRef.of (T := ⟨S8x1024, .i32⟩) main_v161) minsi,
    binary main_v160 main_v161 main_v162 (addi : (⟨S8x1024, .i32⟩ : BufTy).Contents (Elt F) → (⟨S8x1024, .i32⟩ : BufTy).Contents (Elt F) → (⟨S8x1024, .i32⟩ : BufTy).Contents (Elt F)),
    unary main_v162 main_v163 (broadcastInDim S8x1x1024 ![0, 2] bcast_S8x1024_S8x1x1024_0_2 : (⟨S8x1024, .i32⟩ : BufTy).Contents (Elt F) → (⟨S8x1x1024, .i32⟩ : BufTy).Contents (Elt F)),
    TRef.nullary (TRef.of (T := ⟨S_, .i32⟩) main_call14_c) (constantI S_ 32 0#32),
    TRef.unary (TRef.of (T := ⟨S_, .i32⟩) main_call14_c) (TRef.of (T := ⟨S8x1x1024, .i32⟩) main_call14_v0) (broadcastInDim S8x1x1024 ![] bcast_S_S8x1x1024),
    TRef.binary (TRef.of (T := ⟨S8x1x1024, .i32⟩) main_v163) (TRef.of (T := ⟨S8x1x1024, .i32⟩) main_call14_v0) (TRef.of (T := ⟨S8x1x1024, .i1⟩) main_call14_v1) (cmpi .slt),
    TRef.nullary (TRef.of (T := ⟨S_, .i32⟩) main_call14_c_0) (constantI S_ 32 4096#32),
    TRef.unary (TRef.of (T := ⟨S_, .i32⟩) main_call14_c_0) (TRef.of (T := ⟨S8x1x1024, .i32⟩) main_call14_v2) (broadcastInDim S8x1x1024 ![] bcast_S_S8x1x1024),
    TRef.binary (TRef.of (T := ⟨S8x1x1024, .i32⟩) main_v163) (TRef.of (T := ⟨S8x1x1024, .i32⟩) main_call14_v2) (TRef.of (T := ⟨S8x1x1024, .i32⟩) main_call14_v3) addi,
    TRef.ternary (TRef.of (T := ⟨S8x1x1024, .i1⟩) main_call14_v1) (TRef.of (T := ⟨S8x1x1024, .i32⟩) main_call14_v3) (TRef.of (T := ⟨S8x1x1024, .i32⟩) main_v163) (TRef.of (T := ⟨S8x1x1024, .i32⟩) main_call14_v4) select,
    TRef.reshape (TRef.of (T := ⟨S8x1x1024, .i32⟩) main_call14_v4) (TRef.of (T := ⟨S8x1024x1, .i32⟩) main_call14_v5) rfl shapeCasts_S8x1x1024_S8x1024x1,
    TRef.nullary (TRef.of (T := ⟨S1, .i32⟩) main_call14_c_1) (constantI S1 32 4095#32),
    TRef.nullary (TRef.of (T := ⟨S_, .i32⟩) main_call14_c_2) (constantI S_ 32 0#32),
    TRef.unary (TRef.of (T := ⟨S_, .i32⟩) main_call14_c_2) (TRef.of (T := ⟨S8x1024x1, .i32⟩) main_call14_v6) (broadcastInDim S8x1024x1 ![] bcast_S_S8x1024x1),
    TRef.binary (TRef.of (T := ⟨S8x1024x1, .i32⟩) main_call14_v5) (TRef.of (T := ⟨S8x1024x1, .i32⟩) main_call14_v6) (TRef.of (T := ⟨S8x1024x1, .i1⟩) main_call14_v7) (cmpi .sge),
    TRef.unary (TRef.of (T := ⟨S1, .i32⟩) main_call14_c_1) (TRef.of (T := ⟨S1x1x1, .i32⟩) main_call14_v8) (broadcastInDim S1x1x1 ![2] bcast_S1_S1x1x1_2),
    TRef.unary (TRef.of (T := ⟨S1x1x1, .i32⟩) main_call14_v8) (TRef.of (T := ⟨S8x1024x1, .i32⟩) main_call14_v9) (broadcastInDim S8x1024x1 ![0, 1, 2] bcast_S1x1x1_S8x1024x1_0_1_2),
    TRef.binary (TRef.of (T := ⟨S8x1024x1, .i32⟩) main_call14_v5) (TRef.of (T := ⟨S8x1024x1, .i32⟩) main_call14_v9) (TRef.of (T := ⟨S8x1024x1, .i1⟩) main_call14_v10) (cmpi .sle),
    TRef.binary (TRef.of (T := ⟨S8x1024x1, .i1⟩) main_call14_v7) (TRef.of (T := ⟨S8x1024x1, .i1⟩) main_call14_v10) (TRef.of (T := ⟨S8x1024x1, .i1⟩) main_call14_v11) andi,
    TRef.nullary (TRef.of (T := ⟨S_, .i1⟩) main_call14_c_3) (constantI S_ 1 1#1),
    TRef.binary (TRef.of (T := ⟨S8x1024x1, .i1⟩) main_call14_v11) (TRef.of (T := ⟨S_, .i1⟩) main_call14_c_3) (TRef.of (T := ⟨S8x1024, .i1⟩) main_call14_v12) (fun x v => Host.reduce IntOp.andi x v reducesTo_S8x1024x1_S8x1024_d2 h_S_),
    TRef.binary (TRef.of (T := ⟨S8x768x4096, .f32⟩) main_v145) (TRef.of (T := ⟨S8x1024x1, .i32⟩) main_call14_v5) (TRef.of (T := ⟨S8x768x1024, .f32⟩) main_call14_v13) (fun x i => Host.gather gather_S8x768x4096_S8x1024x1_S8x768x1024_1_2_0_0_2_2_17681 x i),
    TRef.unary (TRef.of (T := ⟨S8x1024, .i1⟩) main_call14_v12) (TRef.of (T := ⟨S8x768x1024, .i1⟩) main_call14_v14) (broadcastInDim S8x768x1024 ![0, 2] bcast_S8x1024_S8x768x1024_0_2),
    TRef.nullary (TRef.of (T := ⟨S_, .f32⟩) main_call14_cst) (constant S_ .f32 0x7FC00000#32),
    TRef.unary (TRef.of (T := ⟨S_, .f32⟩) main_call14_cst) (TRef.of (T := ⟨S8x768x1024, .f32⟩) main_call14_v15) (broadcastInDim S8x768x1024 ![] bcast_S_S8x768x1024),
    TRef.ternary (TRef.of (T := ⟨S8x768x1024, .i1⟩) main_call14_v14) (TRef.of (T := ⟨S8x768x1024, .f32⟩) main_call14_v13) (TRef.of (T := ⟨S8x768x1024, .f32⟩) main_call14_v15) (TRef.of (T := ⟨S8x768x1024, .f32⟩) main_v164) select,
    unary main_v157 main_v165 (broadcastInDim S8x1x1024 ![0, 2] bcast_S8x1024_S8x1x1024_0_2 : (⟨S8x1024, .f32⟩ : BufTy).Contents (Elt F) → (⟨S8x1x1024, .f32⟩ : BufTy).Contents (Elt F)),
    unary main_v165 main_v166 (broadcastInDim S8x768x1024 ![0, 1, 2] bcast_S8x1x1024_S8x768x1024_0_1_2 : (⟨S8x1x1024, .f32⟩ : BufTy).Contents (Elt F) → (⟨S8x768x1024, .f32⟩ : BufTy).Contents (Elt F)),
    binary main_v164 main_v166 main_v167 (mulf : (⟨S8x768x1024, .f32⟩ : BufTy).Contents (Elt F) → (⟨S8x768x1024, .f32⟩ : BufTy).Contents (Elt F) → (⟨S8x768x1024, .f32⟩ : BufTy).Contents (Elt F)),
    nullary main_cst_51 (constant S_ .f32 0x3F800000#32),
    unary main_cst_51 main_v168 (broadcastInDim S8x1024 ![] bcast_S_S8x1024 : (⟨S_, .f32⟩ : BufTy).Contents (Elt F) → (⟨S8x1024, .f32⟩ : BufTy).Contents (Elt F)),
    binary main_v168 main_v137 main_v169 (subf : (⟨S8x1024, .f32⟩ : BufTy).Contents (Elt F) → (⟨S8x1024, .f32⟩ : BufTy).Contents (Elt F) → (⟨S8x1024, .f32⟩ : BufTy).Contents (Elt F)),
    nullary main_cst_52 (constant S_ .f32 0x3F800000#32),
    unary main_cst_52 main_v170 (broadcastInDim S8x1024 ![] bcast_S_S8x1024 : (⟨S_, .f32⟩ : BufTy).Contents (Elt F) → (⟨S8x1024, .f32⟩ : BufTy).Contents (Elt F)),
    binary main_v170 main_v138 main_v171 (subf : (⟨S8x1024, .f32⟩ : BufTy).Contents (Elt F) → (⟨S8x1024, .f32⟩ : BufTy).Contents (Elt F) → (⟨S8x1024, .f32⟩ : BufTy).Contents (Elt F)),
    binary main_v169 main_v171 main_v172 (mulf : (⟨S8x1024, .f32⟩ : BufTy).Contents (Elt F) → (⟨S8x1024, .f32⟩ : BufTy).Contents (Elt F) → (⟨S8x1024, .f32⟩ : BufTy).Contents (Elt F)),
    unary main_v172 main_v173 (broadcastInDim S8x1x1024 ![0, 2] bcast_S8x1024_S8x1x1024_0_2 : (⟨S8x1024, .f32⟩ : BufTy).Contents (Elt F) → (⟨S8x1x1024, .f32⟩ : BufTy).Contents (Elt F)),
    unary main_v173 main_v174 (broadcastInDim S8x768x1024 ![0, 1, 2] bcast_S8x1x1024_S8x768x1024_0_1_2 : (⟨S8x1x1024, .f32⟩ : BufTy).Contents (Elt F) → (⟨S8x768x1024, .f32⟩ : BufTy).Contents (Elt F)),
    binary main_v167 main_v174 main_v175 (mulf : (⟨S8x768x1024, .f32⟩ : BufTy).Contents (Elt F) → (⟨S8x768x1024, .f32⟩ : BufTy).Contents (Elt F) → (⟨S8x768x1024, .f32⟩ : BufTy).Contents (Elt F)),
    nullary main_c_53 (constantI S_ 32 0#32),
    unary main_c_53 main_v176 (broadcastInDim S8x1024 ![] bcast_S_S8x1024 : (⟨S_, .i32⟩ : BufTy).Contents (Elt F) → (⟨S8x1024, .i32⟩ : BufTy).Contents (Elt F)),
    binary main_v141 main_v176 main_v177 (cmpi .sge : (⟨S8x1024, .i32⟩ : BufTy).Contents (Elt F) → (⟨S8x1024, .i32⟩ : BufTy).Contents (Elt F) → (⟨S8x1024, .i1⟩ : BufTy).Contents (Elt F)),
    nullary main_c_54 (constantI S_ 32 64#32),
    unary main_c_54 main_v178 (broadcastInDim S8x1024 ![] bcast_S_S8x1024 : (⟨S_, .i32⟩ : BufTy).Contents (Elt F) → (⟨S8x1024, .i32⟩ : BufTy).Contents (Elt F)),
    binary main_v141 main_v178 main_v179 (cmpi .slt : (⟨S8x1024, .i32⟩ : BufTy).Contents (Elt F) → (⟨S8x1024, .i32⟩ : BufTy).Contents (Elt F) → (⟨S8x1024, .i1⟩ : BufTy).Contents (Elt F)),
    binary main_v177 main_v179 main_v180 (andi : (⟨S8x1024, .i1⟩ : BufTy).Contents (Elt F) → (⟨S8x1024, .i1⟩ : BufTy).Contents (Elt F) → (⟨S8x1024, .i1⟩ : BufTy).Contents (Elt F)),
    nullary main_c_55 (constantI S_ 32 0#32),
    unary main_c_55 main_v181 (broadcastInDim S8x1024 ![] bcast_S_S8x1024 : (⟨S_, .i32⟩ : BufTy).Contents (Elt F) → (⟨S8x1024, .i32⟩ : BufTy).Contents (Elt F)) ]

/-- The references those operations write, in order. -/
abbrev ops3_W : List (Ref sig .tc) := [main_v138, main_v139, main_c_40, main_v140, main_v141, main_v142, main_c_41, main_v143, main_v144, main_v145, main_c_42, main_v146, main_v147, main_c_43, main_v148, main_v149, main_v150, main_c_44, main_v151, main_v152, main_v153, main_c_45, main_v154, main_v155, main_v156, main_v157, main_c_46, main_c_47, main_call12_v0, main_call12_v1, main_call12_v2, main_call12_v3, main_call12_v4, main_v158, main_c_48, main_v159, main_v160, main_c_49, main_c_50, main_call13_v0, main_call13_v1, main_call13_v2, main_call13_v3, main_call13_v4, main_v161, main_v162, main_v163, main_call14_c, main_call14_v0, main_call14_v1, main_call14_c_0, main_call14_v2, main_call14_v3, main_call14_v4, main_call14_v5, main_call14_c_1, main_call14_c_2, main_call14_v6, main_call14_v7, main_call14_v8, main_call14_v9, main_call14_v10, main_call14_v11, main_call14_c_3, main_call14_v12, main_call14_v13, main_call14_v14, main_call14_cst, main_call14_v15, main_v164, main_v165, main_v166, main_v167, main_cst_51, main_v168, main_v169, main_cst_52, main_v170, main_v171, main_v172, main_v173, main_v174, main_v175, main_c_53, main_v176, main_v177, main_c_54, main_v178, main_v179, main_v180, main_c_55, main_v181]

set_option maxRecDepth 8192 in
set_option maxHeartbeats 4000000 in
/-- Every operation of the window touches TensorCore references only. -/
theorem ops3_sub : (ops3 : List (HloOp τ sig (Elt F))).Forall fun op => op.bufs ⊆ tcRefs τ sig :=
  ⟨binary_bufs_sub .., unary_bufs_sub .., nullary_bufs_sub .., unary_bufs_sub .., binary_bufs_sub .., unary_bufs_sub .., nullary_bufs_sub .., unary_bufs_sub .., binary_bufs_sub .., reshape_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub ..⟩

end Cert.ReferenceIdeal.RV

end
-- ==== Proof.RefRunV3.lean ====
/-
  Window 3 of the reference program (operations 309 … 400): the window is the straight line of its operations, each of
  which determines its result, and running it takes the invariant before window 3 to the one before window 4.
-/
import proofs.«416857_j37855841747427_3_alg».proof.Proof.RefRunI
import proofs.«416857_j37855841747427_3_alg».proof.Proof.RefRunT3

noncomputable section

namespace Cert.ReferenceIdeal.RV

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
/-- The window is the straight line of its operations. -/
theorem main_part3_eq (c : Dev nD) : main_part3 (F := F) c = seq ops3 := rfl

set_option maxRecDepth 8192 in
set_option maxHeartbeats 4000000 in
/-- Every operation of the window determines its result. -/
theorem ops3_fresh : ∀ op ∈ (ops3 : List (HloOp τ sig (Elt F))), op.fresh = ∅ :=
  List.forall_iff_forall_mem.1 (by simp only [List.Forall]; repeat' constructor)

variable (x0 x1 : (⟨S8x768x64x64, .f32⟩ : BufTy).Contents (Elt F)) (x2 x3 : (⟨S8x1024x2, .f32⟩ : BufTy).Contents (Elt F))
  (x4 x5 : (⟨S8x1024, .i1⟩ : BufTy).Contents (Elt F))

set_option maxRecDepth 8192 in
set_option maxHeartbeats 4000000 in
/-- Running the window: a buffer the window writes is read off the operations' results, its operands from before the
    window at their stages by the invariant, and the composed term is its stage by unfolding the stages of the window's
    own operations, the typed references' transports being the identity; a buffer written earlier, or an argument, is left alone by every operation of the window. -/
theorem step3 (W : Valuation τ sig (Elt F)) (h : Inv3 x0 x1 x2 x3 x4 x5 W) : Inv4 x0 x1 x2 x3 x4 x5 (after ops3 W) := by
  obtain ⟨a0, a1, a2, a3, a4, a5, h130, h134, h135, h136, h137⟩ := h
  constructor <;> (simp only [ops3]; after_results_simp) <;>
    (try simp only [a0, a1, a2, a3, a4, a5, h130, h134, h135, h136, h137]) <;> (try simp only [TRef.ofBuf, TRef.toBuf, cast_eq]) <;> rfl

end Cert.ReferenceIdeal.RV

end
-- ==== Proof.RefRunT4.lean ====
import proofs.«416857_j37855841747427_3_alg».proof.Proof.Gen.ReferenceIdeal
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The operations of the window main_part4, in order (a called function's operations stand in its call's place). -/
abbrev ops4 : List (HloOp τ sig (Elt F)) :=
  [ binary main_v142 main_v181 main_v182 (cmpi .sge : (⟨S8x1024, .i32⟩ : BufTy).Contents (Elt F) → (⟨S8x1024, .i32⟩ : BufTy).Contents (Elt F) → (⟨S8x1024, .i1⟩ : BufTy).Contents (Elt F)),
    binary main_v180 main_v182 main_v183 (andi : (⟨S8x1024, .i1⟩ : BufTy).Contents (Elt F) → (⟨S8x1024, .i1⟩ : BufTy).Contents (Elt F) → (⟨S8x1024, .i1⟩ : BufTy).Contents (Elt F)),
    nullary main_c_56 (constantI S_ 32 64#32),
    unary main_c_56 main_v184 (broadcastInDim S8x1024 ![] bcast_S_S8x1024 : (⟨S_, .i32⟩ : BufTy).Contents (Elt F) → (⟨S8x1024, .i32⟩ : BufTy).Contents (Elt F)),
    binary main_v142 main_v184 main_v185 (cmpi .slt : (⟨S8x1024, .i32⟩ : BufTy).Contents (Elt F) → (⟨S8x1024, .i32⟩ : BufTy).Contents (Elt F) → (⟨S8x1024, .i1⟩ : BufTy).Contents (Elt F)),
    binary main_v183 main_v185 main_v186 (andi : (⟨S8x1024, .i1⟩ : BufTy).Contents (Elt F) → (⟨S8x1024, .i1⟩ : BufTy).Contents (Elt F) → (⟨S8x1024, .i1⟩ : BufTy).Contents (Elt F)),
    unary main_v186 main_v187 (uitofp .f32 : (⟨S8x1024, .i1⟩ : BufTy).Contents (Elt F) → (⟨S8x1024, .f32⟩ : BufTy).Contents (Elt F)),
    nullary main_c_57 (constantI S_ 32 0#32),
    nullary main_c_58 (constantI S_ 32 63#32),
    TRef.unary (TRef.of (T := ⟨S_, .i32⟩) main_c_57) (TRef.of (T := ⟨S_, .i32⟩) main_call15_v0) id,
    TRef.unary (TRef.of (T := ⟨S_, .i32⟩) main_call15_v0) (TRef.of (T := ⟨S8x1024, .i32⟩) main_call15_v1) (broadcastInDim S8x1024 ![] bcast_S_S8x1024),
    TRef.binary (TRef.of (T := ⟨S8x1024, .i32⟩) main_call15_v1) (TRef.of (T := ⟨S8x1024, .i32⟩) main_v142) (TRef.of (T := ⟨S8x1024, .i32⟩) main_call15_v2) maxsi,
    TRef.unary (TRef.of (T := ⟨S_, .i32⟩) main_c_58) (TRef.of (T := ⟨S_, .i32⟩) main_call15_v3) id,
    TRef.unary (TRef.of (T := ⟨S_, .i32⟩) main_call15_v3) (TRef.of (T := ⟨S8x1024, .i32⟩) main_call15_v4) (broadcastInDim S8x1024 ![] bcast_S_S8x1024),
    TRef.binary (TRef.of (T := ⟨S8x1024, .i32⟩) main_call15_v4) (TRef.of (T := ⟨S8x1024, .i32⟩) main_call15_v2) (TRef.of (T := ⟨S8x1024, .i32⟩) main_v188) minsi,
    nullary main_c_59 (constantI S_ 32 64#32),
    unary main_c_59 main_v189 (broadcastInDim S8x1024 ![] bcast_S_S8x1024 : (⟨S_, .i32⟩ : BufTy).Contents (Elt F) → (⟨S8x1024, .i32⟩ : BufTy).Contents (Elt F)),
    binary main_v188 main_v189 main_v190 (muli : (⟨S8x1024, .i32⟩ : BufTy).Contents (Elt F) → (⟨S8x1024, .i32⟩ : BufTy).Contents (Elt F) → (⟨S8x1024, .i32⟩ : BufTy).Contents (Elt F)),
    nullary main_c_60 (constantI S_ 32 0#32),
    nullary main_c_61 (constantI S_ 32 63#32),
    TRef.unary (TRef.of (T := ⟨S_, .i32⟩) main_c_60) (TRef.of (T := ⟨S_, .i32⟩) main_call16_v0) id,
    TRef.unary (TRef.of (T := ⟨S_, .i32⟩) main_call16_v0) (TRef.of (T := ⟨S8x1024, .i32⟩) main_call16_v1) (broadcastInDim S8x1024 ![] bcast_S_S8x1024),
    TRef.binary (TRef.of (T := ⟨S8x1024, .i32⟩) main_call16_v1) (TRef.of (T := ⟨S8x1024, .i32⟩) main_v141) (TRef.of (T := ⟨S8x1024, .i32⟩) main_call16_v2) maxsi,
    TRef.unary (TRef.of (T := ⟨S_, .i32⟩) main_c_61) (TRef.of (T := ⟨S_, .i32⟩) main_call16_v3) id,
    TRef.unary (TRef.of (T := ⟨S_, .i32⟩) main_call16_v3) (TRef.of (T := ⟨S8x1024, .i32⟩) main_call16_v4) (broadcastInDim S8x1024 ![] bcast_S_S8x1024),
    TRef.binary (TRef.of (T := ⟨S8x1024, .i32⟩) main_call16_v4) (TRef.of (T := ⟨S8x1024, .i32⟩) main_call16_v2) (TRef.of (T := ⟨S8x1024, .i32⟩) main_v191) minsi,
    binary main_v190 main_v191 main_v192 (addi : (⟨S8x1024, .i32⟩ : BufTy).Contents (Elt F) → (⟨S8x1024, .i32⟩ : BufTy).Contents (Elt F) → (⟨S8x1024, .i32⟩ : BufTy).Contents (Elt F)),
    unary main_v192 main_v193 (broadcastInDim S8x1x1024 ![0, 2] bcast_S8x1024_S8x1x1024_0_2 : (⟨S8x1024, .i32⟩ : BufTy).Contents (Elt F) → (⟨S8x1x1024, .i32⟩ : BufTy).Contents (Elt F)),
    TRef.nullary (TRef.of (T := ⟨S_, .i32⟩) main_call17_c) (constantI S_ 32 0#32),
    TRef.unary (TRef.of (T := ⟨S_, .i32⟩) main_call17_c) (TRef.of (T := ⟨S8x1x1024, .i32⟩) main_call17_v0) (broadcastInDim S8x1x1024 ![] bcast_S_S8x1x1024),
    TRef.binary (TRef.of (T := ⟨S8x1x1024, .i32⟩) main_v193) (TRef.of (T := ⟨S8x1x1024, .i32⟩) main_call17_v0) (TRef.of (T := ⟨S8x1x1024, .i1⟩) main_call17_v1) (cmpi .slt),
    TRef.nullary (TRef.of (T := ⟨S_, .i32⟩) main_call17_c_0) (constantI S_ 32 4096#32),
    TRef.unary (TRef.of (T := ⟨S_, .i32⟩) main_call17_c_0) (TRef.of (T := ⟨S8x1x1024, .i32⟩) main_call17_v2) (broadcastInDim S8x1x1024 ![] bcast_S_S8x1x1024),
    TRef.binary (TRef.of (T := ⟨S8x1x1024, .i32⟩) main_v193) (TRef.of (T := ⟨S8x1x1024, .i32⟩) main_call17_v2) (TRef.of (T := ⟨S8x1x1024, .i32⟩) main_call17_v3) addi,
    TRef.ternary (TRef.of (T := ⟨S8x1x1024, .i1⟩) main_call17_v1) (TRef.of (T := ⟨S8x1x1024, .i32⟩) main_call17_v3) (TRef.of (T := ⟨S8x1x1024, .i32⟩) main_v193) (TRef.of (T := ⟨S8x1x1024, .i32⟩) main_call17_v4) select,
    TRef.reshape (TRef.of (T := ⟨S8x1x1024, .i32⟩) main_call17_v4) (TRef.of (T := ⟨S8x1024x1, .i32⟩) main_call17_v5) rfl shapeCasts_S8x1x1024_S8x1024x1,
    TRef.nullary (TRef.of (T := ⟨S1, .i32⟩) main_call17_c_1) (constantI S1 32 4095#32),
    TRef.nullary (TRef.of (T := ⟨S_, .i32⟩) main_call17_c_2) (constantI S_ 32 0#32),
    TRef.unary (TRef.of (T := ⟨S_, .i32⟩) main_call17_c_2) (TRef.of (T := ⟨S8x1024x1, .i32⟩) main_call17_v6) (broadcastInDim S8x1024x1 ![] bcast_S_S8x1024x1),
    TRef.binary (TRef.of (T := ⟨S8x1024x1, .i32⟩) main_call17_v5) (TRef.of (T := ⟨S8x1024x1, .i32⟩) main_call17_v6) (TRef.of (T := ⟨S8x1024x1, .i1⟩) main_call17_v7) (cmpi .sge),
    TRef.unary (TRef.of (T := ⟨S1, .i32⟩) main_call17_c_1) (TRef.of (T := ⟨S1x1x1, .i32⟩) main_call17_v8) (broadcastInDim S1x1x1 ![2] bcast_S1_S1x1x1_2),
    TRef.unary (TRef.of (T := ⟨S1x1x1, .i32⟩) main_call17_v8) (TRef.of (T := ⟨S8x1024x1, .i32⟩) main_call17_v9) (broadcastInDim S8x1024x1 ![0, 1, 2] bcast_S1x1x1_S8x1024x1_0_1_2),
    TRef.binary (TRef.of (T := ⟨S8x1024x1, .i32⟩) main_call17_v5) (TRef.of (T := ⟨S8x1024x1, .i32⟩) main_call17_v9) (TRef.of (T := ⟨S8x1024x1, .i1⟩) main_call17_v10) (cmpi .sle),
    TRef.binary (TRef.of (T := ⟨S8x1024x1, .i1⟩) main_call17_v7) (TRef.of (T := ⟨S8x1024x1, .i1⟩) main_call17_v10) (TRef.of (T := ⟨S8x1024x1, .i1⟩) main_call17_v11) andi,
    TRef.nullary (TRef.of (T := ⟨S_, .i1⟩) main_call17_c_3) (constantI S_ 1 1#1),
    TRef.binary (TRef.of (T := ⟨S8x1024x1, .i1⟩) main_call17_v11) (TRef.of (T := ⟨S_, .i1⟩) main_call17_c_3) (TRef.of (T := ⟨S8x1024, .i1⟩) main_call17_v12) (fun x v => Host.reduce IntOp.andi x v reducesTo_S8x1024x1_S8x1024_d2 h_S_),
    TRef.binary (TRef.of (T := ⟨S8x768x4096, .f32⟩) main_v145) (TRef.of (T := ⟨S8x1024x1, .i32⟩) main_call17_v5) (TRef.of (T := ⟨S8x768x1024, .f32⟩) main_call17_v13) (fun x i => Host.gather gather_S8x768x4096_S8x1024x1_S8x768x1024_1_2_0_0_2_2_17681 x i),
    TRef.unary (TRef.of (T := ⟨S8x1024, .i1⟩) main_call17_v12) (TRef.of (T := ⟨S8x768x1024, .i1⟩) main_call17_v14) (broadcastInDim S8x768x1024 ![0, 2] bcast_S8x1024_S8x768x1024_0_2),
    TRef.nullary (TRef.of (T := ⟨S_, .f32⟩) main_call17_cst) (constant S_ .f32 0x7FC00000#32),
    TRef.unary (TRef.of (T := ⟨S_, .f32⟩) main_call17_cst) (TRef.of (T := ⟨S8x768x1024, .f32⟩) main_call17_v15) (broadcastInDim S8x768x1024 ![] bcast_S_S8x768x1024),
    TRef.ternary (TRef.of (T := ⟨S8x768x1024, .i1⟩) main_call17_v14) (TRef.of (T := ⟨S8x768x1024, .f32⟩) main_call17_v13) (TRef.of (T := ⟨S8x768x1024, .f32⟩) main_call17_v15) (TRef.of (T := ⟨S8x768x1024, .f32⟩) main_v194) select,
    unary main_v187 main_v195 (broadcastInDim S8x1x1024 ![0, 2] bcast_S8x1024_S8x1x1024_0_2 : (⟨S8x1024, .f32⟩ : BufTy).Contents (Elt F) → (⟨S8x1x1024, .f32⟩ : BufTy).Contents (Elt F)),
    unary main_v195 main_v196 (broadcastInDim S8x768x1024 ![0, 1, 2] bcast_S8x1x1024_S8x768x1024_0_1_2 : (⟨S8x1x1024, .f32⟩ : BufTy).Contents (Elt F) → (⟨S8x768x1024, .f32⟩ : BufTy).Contents (Elt F)),
    binary main_v194 main_v196 main_v197 (mulf : (⟨S8x768x1024, .f32⟩ : BufTy).Contents (Elt F) → (⟨S8x768x1024, .f32⟩ : BufTy).Contents (Elt F) → (⟨S8x768x1024, .f32⟩ : BufTy).Contents (Elt F)),
    nullary main_cst_62 (constant S_ .f32 0x3F800000#32),
    unary main_cst_62 main_v198 (broadcastInDim S8x1024 ![] bcast_S_S8x1024 : (⟨S_, .f32⟩ : BufTy).Contents (Elt F) → (⟨S8x1024, .f32⟩ : BufTy).Contents (Elt F)),
    binary main_v198 main_v138 main_v199 (subf : (⟨S8x1024, .f32⟩ : BufTy).Contents (Elt F) → (⟨S8x1024, .f32⟩ : BufTy).Contents (Elt F) → (⟨S8x1024, .f32⟩ : BufTy).Contents (Elt F)),
    binary main_v137 main_v199 main_v200 (mulf : (⟨S8x1024, .f32⟩ : BufTy).Contents (Elt F) → (⟨S8x1024, .f32⟩ : BufTy).Contents (Elt F) → (⟨S8x1024, .f32⟩ : BufTy).Contents (Elt F)),
    unary main_v200 main_v201 (broadcastInDim S8x1x1024 ![0, 2] bcast_S8x1024_S8x1x1024_0_2 : (⟨S8x1024, .f32⟩ : BufTy).Contents (Elt F) → (⟨S8x1x1024, .f32⟩ : BufTy).Contents (Elt F)),
    unary main_v201 main_v202 (broadcastInDim S8x768x1024 ![0, 1, 2] bcast_S8x1x1024_S8x768x1024_0_1_2 : (⟨S8x1x1024, .f32⟩ : BufTy).Contents (Elt F) → (⟨S8x768x1024, .f32⟩ : BufTy).Contents (Elt F)),
    binary main_v197 main_v202 main_v203 (mulf : (⟨S8x768x1024, .f32⟩ : BufTy).Contents (Elt F) → (⟨S8x768x1024, .f32⟩ : BufTy).Contents (Elt F) → (⟨S8x768x1024, .f32⟩ : BufTy).Contents (Elt F)),
    binary main_v175 main_v203 main_v204 (addf : (⟨S8x768x1024, .f32⟩ : BufTy).Contents (Elt F) → (⟨S8x768x1024, .f32⟩ : BufTy).Contents (Elt F) → (⟨S8x768x1024, .f32⟩ : BufTy).Contents (Elt F)),
    nullary main_c_63 (constantI S_ 32 0#32),
    unary main_c_63 main_v205 (broadcastInDim S8x1024 ![] bcast_S_S8x1024 : (⟨S_, .i32⟩ : BufTy).Contents (Elt F) → (⟨S8x1024, .i32⟩ : BufTy).Contents (Elt F)),
    binary main_v139 main_v205 main_v206 (cmpi .sge : (⟨S8x1024, .i32⟩ : BufTy).Contents (Elt F) → (⟨S8x1024, .i32⟩ : BufTy).Contents (Elt F) → (⟨S8x1024, .i1⟩ : BufTy).Contents (Elt F)),
    nullary main_c_64 (constantI S_ 32 64#32),
    unary main_c_64 main_v207 (broadcastInDim S8x1024 ![] bcast_S_S8x1024 : (⟨S_, .i32⟩ : BufTy).Contents (Elt F) → (⟨S8x1024, .i32⟩ : BufTy).Contents (Elt F)),
    binary main_v139 main_v207 main_v208 (cmpi .slt : (⟨S8x1024, .i32⟩ : BufTy).Contents (Elt F) → (⟨S8x1024, .i32⟩ : BufTy).Contents (Elt F) → (⟨S8x1024, .i1⟩ : BufTy).Contents (Elt F)),
    binary main_v206 main_v208 main_v209 (andi : (⟨S8x1024, .i1⟩ : BufTy).Contents (Elt F) → (⟨S8x1024, .i1⟩ : BufTy).Contents (Elt F) → (⟨S8x1024, .i1⟩ : BufTy).Contents (Elt F)),
    nullary main_c_65 (constantI S_ 32 0#32),
    unary main_c_65 main_v210 (broadcastInDim S8x1024 ![] bcast_S_S8x1024 : (⟨S_, .i32⟩ : BufTy).Contents (Elt F) → (⟨S8x1024, .i32⟩ : BufTy).Contents (Elt F)),
    binary main_v144 main_v210 main_v211 (cmpi .sge : (⟨S8x1024, .i32⟩ : BufTy).Contents (Elt F) → (⟨S8x1024, .i32⟩ : BufTy).Contents (Elt F) → (⟨S8x1024, .i1⟩ : BufTy).Contents (Elt F)),
    binary main_v209 main_v211 main_v212 (andi : (⟨S8x1024, .i1⟩ : BufTy).Contents (Elt F) → (⟨S8x1024, .i1⟩ : BufTy).Contents (Elt F) → (⟨S8x1024, .i1⟩ : BufTy).Contents (Elt F)),
    nullary main_c_66 (constantI S_ 32 64#32),
    unary main_c_66 main_v213 (broadcastInDim S8x1024 ![] bcast_S_S8x1024 : (⟨S_, .i32⟩ : BufTy).Contents (Elt F) → (⟨S8x1024, .i32⟩ : BufTy).Contents (Elt F)),
    binary main_v144 main_v213 main_v214 (cmpi .slt : (⟨S8x1024, .i32⟩ : BufTy).Contents (Elt F) → (⟨S8x1024, .i32⟩ : BufTy).Contents (Elt F) → (⟨S8x1024, .i1⟩ : BufTy).Contents (Elt F)),
    binary main_v212 main_v214 main_v215 (andi : (⟨S8x1024, .i1⟩ : BufTy).Contents (Elt F) → (⟨S8x1024, .i1⟩ : BufTy).Contents (Elt F) → (⟨S8x1024, .i1⟩ : BufTy).Contents (Elt F)),
    unary main_v215 main_v216 (uitofp .f32 : (⟨S8x1024, .i1⟩ : BufTy).Contents (Elt F) → (⟨S8x1024, .f32⟩ : BufTy).Contents (Elt F)),
    nullary main_c_67 (constantI S_ 32 0#32),
    nullary main_c_68 (constantI S_ 32 63#32),
    TRef.unary (TRef.of (T := ⟨S_, .i32⟩) main_c_67) (TRef.of (T := ⟨S_, .i32⟩) main_call18_v0) id,
    TRef.unary (TRef.of (T := ⟨S_, .i32⟩) main_call18_v0) (TRef.of (T := ⟨S8x1024, .i32⟩) main_call18_v1) (broadcastInDim S8x1024 ![] bcast_S_S8x1024),
    TRef.binary (TRef.of (T := ⟨S8x1024, .i32⟩) main_call18_v1) (TRef.of (T := ⟨S8x1024, .i32⟩) main_v144) (TRef.of (T := ⟨S8x1024, .i32⟩) main_call18_v2) maxsi,
    TRef.unary (TRef.of (T := ⟨S_, .i32⟩) main_c_68) (TRef.of (T := ⟨S_, .i32⟩) main_call18_v3) id,
    TRef.unary (TRef.of (T := ⟨S_, .i32⟩) main_call18_v3) (TRef.of (T := ⟨S8x1024, .i32⟩) main_call18_v4) (broadcastInDim S8x1024 ![] bcast_S_S8x1024),
    TRef.binary (TRef.of (T := ⟨S8x1024, .i32⟩) main_call18_v4) (TRef.of (T := ⟨S8x1024, .i32⟩) main_call18_v2) (TRef.of (T := ⟨S8x1024, .i32⟩) main_v217) minsi,
    nullary main_c_69 (constantI S_ 32 64#32),
    unary main_c_69 main_v218 (broadcastInDim S8x1024 ![] bcast_S_S8x1024 : (⟨S_, .i32⟩ : BufTy).Contents (Elt F) → (⟨S8x1024, .i32⟩ : BufTy).Contents (Elt F)),
    binary main_v217 main_v218 main_v219 (muli : (⟨S8x1024, .i32⟩ : BufTy).Contents (Elt F) → (⟨S8x1024, .i32⟩ : BufTy).Contents (Elt F) → (⟨S8x1024, .i32⟩ : BufTy).Contents (Elt F)),
    nullary main_c_70 (constantI S_ 32 0#32),
    nullary main_c_71 (constantI S_ 32 63#32),
    TRef.unary (TRef.of (T := ⟨S_, .i32⟩) main_c_70) (TRef.of (T := ⟨S_, .i32⟩) main_call19_v0) id,
    TRef.unary (TRef.of (T := ⟨S_, .i32⟩) main_call19_v0) (TRef.of (T := ⟨S8x1024, .i32⟩) main_call19_v1) (broadcastInDim S8x1024 ![] bcast_S_S8x1024),
    TRef.binary (TRef.of (T := ⟨S8x1024, .i32⟩) main_call19_v1) (TRef.of (T := ⟨S8x1024, .i32⟩) main_v139) (TRef.of (T := ⟨S8x1024, .i32⟩) main_call19_v2) maxsi,
    TRef.unary (TRef.of (T := ⟨S_, .i32⟩) main_c_71) (TRef.of (T := ⟨S_, .i32⟩) main_call19_v3) id,
    TRef.unary (TRef.of (T := ⟨S_, .i32⟩) main_call19_v3) (TRef.of (T := ⟨S8x1024, .i32⟩) main_call19_v4) (broadcastInDim S8x1024 ![] bcast_S_S8x1024),
    TRef.binary (TRef.of (T := ⟨S8x1024, .i32⟩) main_call19_v4) (TRef.of (T := ⟨S8x1024, .i32⟩) main_call19_v2) (TRef.of (T := ⟨S8x1024, .i32⟩) main_v220) minsi,
    binary main_v219 main_v220 main_v221 (addi : (⟨S8x1024, .i32⟩ : BufTy).Contents (Elt F) → (⟨S8x1024, .i32⟩ : BufTy).Contents (Elt F) → (⟨S8x1024, .i32⟩ : BufTy).Contents (Elt F)),
    unary main_v221 main_v222 (broadcastInDim S8x1x1024 ![0, 2] bcast_S8x1024_S8x1x1024_0_2 : (⟨S8x1024, .i32⟩ : BufTy).Contents (Elt F) → (⟨S8x1x1024, .i32⟩ : BufTy).Contents (Elt F)),
    TRef.nullary (TRef.of (T := ⟨S_, .i32⟩) main_call20_c) (constantI S_ 32 0#32),
    TRef.unary (TRef.of (T := ⟨S_, .i32⟩) main_call20_c) (TRef.of (T := ⟨S8x1x1024, .i32⟩) main_call20_v0) (broadcastInDim S8x1x1024 ![] bcast_S_S8x1x1024),
    TRef.binary (TRef.of (T := ⟨S8x1x1024, .i32⟩) main_v222) (TRef.of (T := ⟨S8x1x1024, .i32⟩) main_call20_v0) (TRef.of (T := ⟨S8x1x1024, .i1⟩) main_call20_v1) (cmpi .slt),
    TRef.nullary (TRef.of (T := ⟨S_, .i32⟩) main_call20_c_0) (constantI S_ 32 4096#32),
    TRef.unary (TRef.of (T := ⟨S_, .i32⟩) main_call20_c_0) (TRef.of (T := ⟨S8x1x1024, .i32⟩) main_call20_v2) (broadcastInDim S8x1x1024 ![] bcast_S_S8x1x1024),
    TRef.binary (TRef.of (T := ⟨S8x1x1024, .i32⟩) main_v222) (TRef.of (T := ⟨S8x1x1024, .i32⟩) main_call20_v2) (TRef.of (T := ⟨S8x1x1024, .i32⟩) main_call20_v3) addi,
    TRef.ternary (TRef.of (T := ⟨S8x1x1024, .i1⟩) main_call20_v1) (TRef.of (T := ⟨S8x1x1024, .i32⟩) main_call20_v3) (TRef.of (T := ⟨S8x1x1024, .i32⟩) main_v222) (TRef.of (T := ⟨S8x1x1024, .i32⟩) main_call20_v4) select,
    TRef.reshape (TRef.of (T := ⟨S8x1x1024, .i32⟩) main_call20_v4) (TRef.of (T := ⟨S8x1024x1, .i32⟩) main_call20_v5) rfl shapeCasts_S8x1x1024_S8x1024x1,
    TRef.nullary (TRef.of (T := ⟨S1, .i32⟩) main_call20_c_1) (constantI S1 32 4095#32),
    TRef.nullary (TRef.of (T := ⟨S_, .i32⟩) main_call20_c_2) (constantI S_ 32 0#32),
    TRef.unary (TRef.of (T := ⟨S_, .i32⟩) main_call20_c_2) (TRef.of (T := ⟨S8x1024x1, .i32⟩) main_call20_v6) (broadcastInDim S8x1024x1 ![] bcast_S_S8x1024x1),
    TRef.binary (TRef.of (T := ⟨S8x1024x1, .i32⟩) main_call20_v5) (TRef.of (T := ⟨S8x1024x1, .i32⟩) main_call20_v6) (TRef.of (T := ⟨S8x1024x1, .i1⟩) main_call20_v7) (cmpi .sge),
    TRef.unary (TRef.of (T := ⟨S1, .i32⟩) main_call20_c_1) (TRef.of (T := ⟨S1x1x1, .i32⟩) main_call20_v8) (broadcastInDim S1x1x1 ![2] bcast_S1_S1x1x1_2),
    TRef.unary (TRef.of (T := ⟨S1x1x1, .i32⟩) main_call20_v8) (TRef.of (T := ⟨S8x1024x1, .i32⟩) main_call20_v9) (broadcastInDim S8x1024x1 ![0, 1, 2] bcast_S1x1x1_S8x1024x1_0_1_2),
    TRef.binary (TRef.of (T := ⟨S8x1024x1, .i32⟩) main_call20_v5) (TRef.of (T := ⟨S8x1024x1, .i32⟩) main_call20_v9) (TRef.of (T := ⟨S8x1024x1, .i1⟩) main_call20_v10) (cmpi .sle),
    TRef.binary (TRef.of (T := ⟨S8x1024x1, .i1⟩) main_call20_v7) (TRef.of (T := ⟨S8x1024x1, .i1⟩) main_call20_v10) (TRef.of (T := ⟨S8x1024x1, .i1⟩) main_call20_v11) andi,
    TRef.nullary (TRef.of (T := ⟨S_, .i1⟩) main_call20_c_3) (constantI S_ 1 1#1),
    TRef.binary (TRef.of (T := ⟨S8x1024x1, .i1⟩) main_call20_v11) (TRef.of (T := ⟨S_, .i1⟩) main_call20_c_3) (TRef.of (T := ⟨S8x1024, .i1⟩) main_call20_v12) (fun x v => Host.reduce IntOp.andi x v reducesTo_S8x1024x1_S8x1024_d2 h_S_),
    TRef.binary (TRef.of (T := ⟨S8x768x4096, .f32⟩) main_v145) (TRef.of (T := ⟨S8x1024x1, .i32⟩) main_call20_v5) (TRef.of (T := ⟨S8x768x1024, .f32⟩) main_call20_v13) (fun x i => Host.gather gather_S8x768x4096_S8x1024x1_S8x768x1024_1_2_0_0_2_2_17681 x i),
    TRef.unary (TRef.of (T := ⟨S8x1024, .i1⟩) main_call20_v12) (TRef.of (T := ⟨S8x768x1024, .i1⟩) main_call20_v14) (broadcastInDim S8x768x1024 ![0, 2] bcast_S8x1024_S8x768x1024_0_2),
    TRef.nullary (TRef.of (T := ⟨S_, .f32⟩) main_call20_cst) (constant S_ .f32 0x7FC00000#32),
    TRef.unary (TRef.of (T := ⟨S_, .f32⟩) main_call20_cst) (TRef.of (T := ⟨S8x768x1024, .f32⟩) main_call20_v15) (broadcastInDim S8x768x1024 ![] bcast_S_S8x768x1024),
    TRef.ternary (TRef.of (T := ⟨S8x768x1024, .i1⟩) main_call20_v14) (TRef.of (T := ⟨S8x768x1024, .f32⟩) main_call20_v13) (TRef.of (T := ⟨S8x768x1024, .f32⟩) main_call20_v15) (TRef.of (T := ⟨S8x768x1024, .f32⟩) main_v223) select,
    unary main_v216 main_v224 (broadcastInDim S8x1x1024 ![0, 2] bcast_S8x1024_S8x1x1024_0_2 : (⟨S8x1024, .f32⟩ : BufTy).Contents (Elt F) → (⟨S8x1x1024, .f32⟩ : BufTy).Contents (Elt F)),
    unary main_v224 main_v225 (broadcastInDim S8x768x1024 ![0, 1, 2] bcast_S8x1x1024_S8x768x1024_0_1_2 : (⟨S8x1x1024, .f32⟩ : BufTy).Contents (Elt F) → (⟨S8x768x1024, .f32⟩ : BufTy).Contents (Elt F)) ]

/-- The references those operations write, in order. -/
abbrev ops4_W : List (Ref sig .tc) := [main_v182, main_v183, main_c_56, main_v184, main_v185, main_v186, main_v187, main_c_57, main_c_58, main_call15_v0, main_call15_v1, main_call15_v2, main_call15_v3, main_call15_v4, main_v188, main_c_59, main_v189, main_v190, main_c_60, main_c_61, main_call16_v0, main_call16_v1, main_call16_v2, main_call16_v3, main_call16_v4, main_v191, main_v192, main_v193, main_call17_c, main_call17_v0, main_call17_v1, main_call17_c_0, main_call17_v2, main_call17_v3, main_call17_v4, main_call17_v5, main_call17_c_1, main_call17_c_2, main_call17_v6, main_call17_v7, main_call17_v8, main_call17_v9, main_call17_v10, main_call17_v11, main_call17_c_3, main_call17_v12, main_call17_v13, main_call17_v14, main_call17_cst, main_call17_v15, main_v194, main_v195, main_v196, main_v197, main_cst_62, main_v198, main_v199, main_v200, main_v201, main_v202, main_v203, main_v204, main_c_63, main_v205, main_v206, main_c_64, main_v207, main_v208, main_v209, main_c_65, main_v210, main_v211, main_v212, main_c_66, main_v213, main_v214, main_v215, main_v216, main_c_67, main_c_68, main_call18_v0, main_call18_v1, main_call18_v2, main_call18_v3, main_call18_v4, main_v217, main_c_69, main_v218, main_v219, main_c_70, main_c_71, main_call19_v0, main_call19_v1, main_call19_v2, main_call19_v3, main_call19_v4, main_v220, main_v221, main_v222, main_call20_c, main_call20_v0, main_call20_v1, main_call20_c_0, main_call20_v2, main_call20_v3, main_call20_v4, main_call20_v5, main_call20_c_1, main_call20_c_2, main_call20_v6, main_call20_v7, main_call20_v8, main_call20_v9, main_call20_v10, main_call20_v11, main_call20_c_3, main_call20_v12, main_call20_v13, main_call20_v14, main_call20_cst, main_call20_v15, main_v223, main_v224, main_v225]

set_option maxRecDepth 8192 in
set_option maxHeartbeats 4000000 in
/-- Every operation of the window touches TensorCore references only. -/
theorem ops4_sub : (ops4 : List (HloOp τ sig (Elt F))).Forall fun op => op.bufs ⊆ tcRefs τ sig :=
  ⟨binary_bufs_sub .., binary_bufs_sub .., nullary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub ..⟩

end Cert.ReferenceIdeal.RV

end
-- ==== Proof.RefRunV4.lean ====
/-
  Window 4 of the reference program (operations 401 … 524): the window is the straight line of its operations, each of
  which determines its result, and running it takes the invariant before window 4 to the one before window 5.
-/
import proofs.«416857_j37855841747427_3_alg».proof.Proof.RefRunI
import proofs.«416857_j37855841747427_3_alg».proof.Proof.RefRunT4

noncomputable section

namespace Cert.ReferenceIdeal.RV

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
/-- The window is the straight line of its operations. -/
theorem main_part4_eq (c : Dev nD) : main_part4 (F := F) c = seq ops4 := rfl

set_option maxRecDepth 8192 in
set_option maxHeartbeats 4000000 in
/-- Every operation of the window determines its result. -/
theorem ops4_fresh : ∀ op ∈ (ops4 : List (HloOp τ sig (Elt F))), op.fresh = ∅ :=
  List.forall_iff_forall_mem.1 (by simp only [List.Forall]; repeat' constructor)

variable (x0 x1 : (⟨S8x768x64x64, .f32⟩ : BufTy).Contents (Elt F)) (x2 x3 : (⟨S8x1024x2, .f32⟩ : BufTy).Contents (Elt F))
  (x4 x5 : (⟨S8x1024, .i1⟩ : BufTy).Contents (Elt F))

set_option maxRecDepth 8192 in
set_option maxHeartbeats 4000000 in
/-- Running the window: a buffer the window writes is read off the operations' results, its operands from before the
    window at their stages by the invariant, and the composed term is its stage by unfolding the stages of the window's
    own operations, the typed references' transports being the identity; a buffer written earlier, or an argument, is left alone by every operation of the window. -/
theorem step4 (W : Valuation τ sig (Elt F)) (h : Inv4 x0 x1 x2 x3 x4 x5 W) : Inv5 x0 x1 x2 x3 x4 x5 (after ops4 W) := by
  obtain ⟨a0, a1, a2, a3, a4, a5, h130, h137, h138, h139, h141, h142, h144, h145, h175, h180, h181⟩ := h
  constructor <;> (simp only [ops4]; after_results_simp) <;>
    (try simp only [a0, a1, a2, a3, a4, a5, h130, h137, h138, h139, h141, h142, h144, h145, h175, h180, h181]) <;> (try simp only [TRef.ofBuf, TRef.toBuf, cast_eq]) <;> rfl

end Cert.ReferenceIdeal.RV

end
-- ==== Proof.RefRunT5.lean ====
import proofs.«416857_j37855841747427_3_alg».proof.Proof.Gen.ReferenceIdeal
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The operations of the window main_part5, in order (a called function's operations stand in its call's place). -/
abbrev ops5 : List (HloOp τ sig (Elt F)) :=
  [ binary main_v223 main_v225 main_v226 (mulf : (⟨S8x768x1024, .f32⟩ : BufTy).Contents (Elt F) → (⟨S8x768x1024, .f32⟩ : BufTy).Contents (Elt F) → (⟨S8x768x1024, .f32⟩ : BufTy).Contents (Elt F)),
    nullary main_cst_72 (constant S_ .f32 0x3F800000#32),
    unary main_cst_72 main_v227 (broadcastInDim S8x1024 ![] bcast_S_S8x1024 : (⟨S_, .f32⟩ : BufTy).Contents (Elt F) → (⟨S8x1024, .f32⟩ : BufTy).Contents (Elt F)),
    binary main_v227 main_v137 main_v228 (subf : (⟨S8x1024, .f32⟩ : BufTy).Contents (Elt F) → (⟨S8x1024, .f32⟩ : BufTy).Contents (Elt F) → (⟨S8x1024, .f32⟩ : BufTy).Contents (Elt F)),
    binary main_v228 main_v138 main_v229 (mulf : (⟨S8x1024, .f32⟩ : BufTy).Contents (Elt F) → (⟨S8x1024, .f32⟩ : BufTy).Contents (Elt F) → (⟨S8x1024, .f32⟩ : BufTy).Contents (Elt F)),
    unary main_v229 main_v230 (broadcastInDim S8x1x1024 ![0, 2] bcast_S8x1024_S8x1x1024_0_2 : (⟨S8x1024, .f32⟩ : BufTy).Contents (Elt F) → (⟨S8x1x1024, .f32⟩ : BufTy).Contents (Elt F)),
    unary main_v230 main_v231 (broadcastInDim S8x768x1024 ![0, 1, 2] bcast_S8x1x1024_S8x768x1024_0_1_2 : (⟨S8x1x1024, .f32⟩ : BufTy).Contents (Elt F) → (⟨S8x768x1024, .f32⟩ : BufTy).Contents (Elt F)),
    binary main_v226 main_v231 main_v232 (mulf : (⟨S8x768x1024, .f32⟩ : BufTy).Contents (Elt F) → (⟨S8x768x1024, .f32⟩ : BufTy).Contents (Elt F) → (⟨S8x768x1024, .f32⟩ : BufTy).Contents (Elt F)),
    binary main_v204 main_v232 main_v233 (addf : (⟨S8x768x1024, .f32⟩ : BufTy).Contents (Elt F) → (⟨S8x768x1024, .f32⟩ : BufTy).Contents (Elt F) → (⟨S8x768x1024, .f32⟩ : BufTy).Contents (Elt F)),
    nullary main_c_73 (constantI S_ 32 0#32),
    unary main_c_73 main_v234 (broadcastInDim S8x1024 ![] bcast_S_S8x1024 : (⟨S_, .i32⟩ : BufTy).Contents (Elt F) → (⟨S8x1024, .i32⟩ : BufTy).Contents (Elt F)),
    binary main_v141 main_v234 main_v235 (cmpi .sge : (⟨S8x1024, .i32⟩ : BufTy).Contents (Elt F) → (⟨S8x1024, .i32⟩ : BufTy).Contents (Elt F) → (⟨S8x1024, .i1⟩ : BufTy).Contents (Elt F)),
    nullary main_c_74 (constantI S_ 32 64#32),
    unary main_c_74 main_v236 (broadcastInDim S8x1024 ![] bcast_S_S8x1024 : (⟨S_, .i32⟩ : BufTy).Contents (Elt F) → (⟨S8x1024, .i32⟩ : BufTy).Contents (Elt F)),
    binary main_v141 main_v236 main_v237 (cmpi .slt : (⟨S8x1024, .i32⟩ : BufTy).Contents (Elt F) → (⟨S8x1024, .i32⟩ : BufTy).Contents (Elt F) → (⟨S8x1024, .i1⟩ : BufTy).Contents (Elt F)),
    binary main_v235 main_v237 main_v238 (andi : (⟨S8x1024, .i1⟩ : BufTy).Contents (Elt F) → (⟨S8x1024, .i1⟩ : BufTy).Contents (Elt F) → (⟨S8x1024, .i1⟩ : BufTy).Contents (Elt F)),
    nullary main_c_75 (constantI S_ 32 0#32),
    unary main_c_75 main_v239 (broadcastInDim S8x1024 ![] bcast_S_S8x1024 : (⟨S_, .i32⟩ : BufTy).Contents (Elt F) → (⟨S8x1024, .i32⟩ : BufTy).Contents (Elt F)),
    binary main_v144 main_v239 main_v240 (cmpi .sge : (⟨S8x1024, .i32⟩ : BufTy).Contents (Elt F) → (⟨S8x1024, .i32⟩ : BufTy).Contents (Elt F) → (⟨S8x1024, .i1⟩ : BufTy).Contents (Elt F)),
    binary main_v238 main_v240 main_v241 (andi : (⟨S8x1024, .i1⟩ : BufTy).Contents (Elt F) → (⟨S8x1024, .i1⟩ : BufTy).Contents (Elt F) → (⟨S8x1024, .i1⟩ : BufTy).Contents (Elt F)),
    nullary main_c_76 (constantI S_ 32 64#32),
    unary main_c_76 main_v242 (broadcastInDim S8x1024 ![] bcast_S_S8x1024 : (⟨S_, .i32⟩ : BufTy).Contents (Elt F) → (⟨S8x1024, .i32⟩ : BufTy).Contents (Elt F)),
    binary main_v144 main_v242 main_v243 (cmpi .slt : (⟨S8x1024, .i32⟩ : BufTy).Contents (Elt F) → (⟨S8x1024, .i32⟩ : BufTy).Contents (Elt F) → (⟨S8x1024, .i1⟩ : BufTy).Contents (Elt F)),
    binary main_v241 main_v243 main_v244 (andi : (⟨S8x1024, .i1⟩ : BufTy).Contents (Elt F) → (⟨S8x1024, .i1⟩ : BufTy).Contents (Elt F) → (⟨S8x1024, .i1⟩ : BufTy).Contents (Elt F)),
    unary main_v244 main_v245 (uitofp .f32 : (⟨S8x1024, .i1⟩ : BufTy).Contents (Elt F) → (⟨S8x1024, .f32⟩ : BufTy).Contents (Elt F)),
    nullary main_c_77 (constantI S_ 32 0#32),
    nullary main_c_78 (constantI S_ 32 63#32),
    TRef.unary (TRef.of (T := ⟨S_, .i32⟩) main_c_77) (TRef.of (T := ⟨S_, .i32⟩) main_call21_v0) id,
    TRef.unary (TRef.of (T := ⟨S_, .i32⟩) main_call21_v0) (TRef.of (T := ⟨S8x1024, .i32⟩) main_call21_v1) (broadcastInDim S8x1024 ![] bcast_S_S8x1024),
    TRef.binary (TRef.of (T := ⟨S8x1024, .i32⟩) main_call21_v1) (TRef.of (T := ⟨S8x1024, .i32⟩) main_v144) (TRef.of (T := ⟨S8x1024, .i32⟩) main_call21_v2) maxsi,
    TRef.unary (TRef.of (T := ⟨S_, .i32⟩) main_c_78) (TRef.of (T := ⟨S_, .i32⟩) main_call21_v3) id,
    TRef.unary (TRef.of (T := ⟨S_, .i32⟩) main_call21_v3) (TRef.of (T := ⟨S8x1024, .i32⟩) main_call21_v4) (broadcastInDim S8x1024 ![] bcast_S_S8x1024),
    TRef.binary (TRef.of (T := ⟨S8x1024, .i32⟩) main_call21_v4) (TRef.of (T := ⟨S8x1024, .i32⟩) main_call21_v2) (TRef.of (T := ⟨S8x1024, .i32⟩) main_v246) minsi,
    nullary main_c_79 (constantI S_ 32 64#32),
    unary main_c_79 main_v247 (broadcastInDim S8x1024 ![] bcast_S_S8x1024 : (⟨S_, .i32⟩ : BufTy).Contents (Elt F) → (⟨S8x1024, .i32⟩ : BufTy).Contents (Elt F)),
    binary main_v246 main_v247 main_v248 (muli : (⟨S8x1024, .i32⟩ : BufTy).Contents (Elt F) → (⟨S8x1024, .i32⟩ : BufTy).Contents (Elt F) → (⟨S8x1024, .i32⟩ : BufTy).Contents (Elt F)),
    nullary main_c_80 (constantI S_ 32 0#32),
    nullary main_c_81 (constantI S_ 32 63#32),
    TRef.unary (TRef.of (T := ⟨S_, .i32⟩) main_c_80) (TRef.of (T := ⟨S_, .i32⟩) main_call22_v0) id,
    TRef.unary (TRef.of (T := ⟨S_, .i32⟩) main_call22_v0) (TRef.of (T := ⟨S8x1024, .i32⟩) main_call22_v1) (broadcastInDim S8x1024 ![] bcast_S_S8x1024),
    TRef.binary (TRef.of (T := ⟨S8x1024, .i32⟩) main_call22_v1) (TRef.of (T := ⟨S8x1024, .i32⟩) main_v141) (TRef.of (T := ⟨S8x1024, .i32⟩) main_call22_v2) maxsi,
    TRef.unary (TRef.of (T := ⟨S_, .i32⟩) main_c_81) (TRef.of (T := ⟨S_, .i32⟩) main_call22_v3) id,
    TRef.unary (TRef.of (T := ⟨S_, .i32⟩) main_call22_v3) (TRef.of (T := ⟨S8x1024, .i32⟩) main_call22_v4) (broadcastInDim S8x1024 ![] bcast_S_S8x1024),
    TRef.binary (TRef.of (T := ⟨S8x1024, .i32⟩) main_call22_v4) (TRef.of (T := ⟨S8x1024, .i32⟩) main_call22_v2) (TRef.of (T := ⟨S8x1024, .i32⟩) main_v249) minsi,
    binary main_v248 main_v249 main_v250 (addi : (⟨S8x1024, .i32⟩ : BufTy).Contents (Elt F) → (⟨S8x1024, .i32⟩ : BufTy).Contents (Elt F) → (⟨S8x1024, .i32⟩ : BufTy).Contents (Elt F)),
    unary main_v250 main_v251 (broadcastInDim S8x1x1024 ![0, 2] bcast_S8x1024_S8x1x1024_0_2 : (⟨S8x1024, .i32⟩ : BufTy).Contents (Elt F) → (⟨S8x1x1024, .i32⟩ : BufTy).Contents (Elt F)),
    TRef.nullary (TRef.of (T := ⟨S_, .i32⟩) main_call23_c) (constantI S_ 32 0#32),
    TRef.unary (TRef.of (T := ⟨S_, .i32⟩) main_call23_c) (TRef.of (T := ⟨S8x1x1024, .i32⟩) main_call23_v0) (broadcastInDim S8x1x1024 ![] bcast_S_S8x1x1024),
    TRef.binary (TRef.of (T := ⟨S8x1x1024, .i32⟩) main_v251) (TRef.of (T := ⟨S8x1x1024, .i32⟩) main_call23_v0) (TRef.of (T := ⟨S8x1x1024, .i1⟩) main_call23_v1) (cmpi .slt),
    TRef.nullary (TRef.of (T := ⟨S_, .i32⟩) main_call23_c_0) (constantI S_ 32 4096#32),
    TRef.unary (TRef.of (T := ⟨S_, .i32⟩) main_call23_c_0) (TRef.of (T := ⟨S8x1x1024, .i32⟩) main_call23_v2) (broadcastInDim S8x1x1024 ![] bcast_S_S8x1x1024),
    TRef.binary (TRef.of (T := ⟨S8x1x1024, .i32⟩) main_v251) (TRef.of (T := ⟨S8x1x1024, .i32⟩) main_call23_v2) (TRef.of (T := ⟨S8x1x1024, .i32⟩) main_call23_v3) addi,
    TRef.ternary (TRef.of (T := ⟨S8x1x1024, .i1⟩) main_call23_v1) (TRef.of (T := ⟨S8x1x1024, .i32⟩) main_call23_v3) (TRef.of (T := ⟨S8x1x1024, .i32⟩) main_v251) (TRef.of (T := ⟨S8x1x1024, .i32⟩) main_call23_v4) select,
    TRef.reshape (TRef.of (T := ⟨S8x1x1024, .i32⟩) main_call23_v4) (TRef.of (T := ⟨S8x1024x1, .i32⟩) main_call23_v5) rfl shapeCasts_S8x1x1024_S8x1024x1,
    TRef.nullary (TRef.of (T := ⟨S1, .i32⟩) main_call23_c_1) (constantI S1 32 4095#32),
    TRef.nullary (TRef.of (T := ⟨S_, .i32⟩) main_call23_c_2) (constantI S_ 32 0#32),
    TRef.unary (TRef.of (T := ⟨S_, .i32⟩) main_call23_c_2) (TRef.of (T := ⟨S8x1024x1, .i32⟩) main_call23_v6) (broadcastInDim S8x1024x1 ![] bcast_S_S8x1024x1),
    TRef.binary (TRef.of (T := ⟨S8x1024x1, .i32⟩) main_call23_v5) (TRef.of (T := ⟨S8x1024x1, .i32⟩) main_call23_v6) (TRef.of (T := ⟨S8x1024x1, .i1⟩) main_call23_v7) (cmpi .sge),
    TRef.unary (TRef.of (T := ⟨S1, .i32⟩) main_call23_c_1) (TRef.of (T := ⟨S1x1x1, .i32⟩) main_call23_v8) (broadcastInDim S1x1x1 ![2] bcast_S1_S1x1x1_2),
    TRef.unary (TRef.of (T := ⟨S1x1x1, .i32⟩) main_call23_v8) (TRef.of (T := ⟨S8x1024x1, .i32⟩) main_call23_v9) (broadcastInDim S8x1024x1 ![0, 1, 2] bcast_S1x1x1_S8x1024x1_0_1_2),
    TRef.binary (TRef.of (T := ⟨S8x1024x1, .i32⟩) main_call23_v5) (TRef.of (T := ⟨S8x1024x1, .i32⟩) main_call23_v9) (TRef.of (T := ⟨S8x1024x1, .i1⟩) main_call23_v10) (cmpi .sle),
    TRef.binary (TRef.of (T := ⟨S8x1024x1, .i1⟩) main_call23_v7) (TRef.of (T := ⟨S8x1024x1, .i1⟩) main_call23_v10) (TRef.of (T := ⟨S8x1024x1, .i1⟩) main_call23_v11) andi,
    TRef.nullary (TRef.of (T := ⟨S_, .i1⟩) main_call23_c_3) (constantI S_ 1 1#1),
    TRef.binary (TRef.of (T := ⟨S8x1024x1, .i1⟩) main_call23_v11) (TRef.of (T := ⟨S_, .i1⟩) main_call23_c_3) (TRef.of (T := ⟨S8x1024, .i1⟩) main_call23_v12) (fun x v => Host.reduce IntOp.andi x v reducesTo_S8x1024x1_S8x1024_d2 h_S_),
    TRef.binary (TRef.of (T := ⟨S8x768x4096, .f32⟩) main_v145) (TRef.of (T := ⟨S8x1024x1, .i32⟩) main_call23_v5) (TRef.of (T := ⟨S8x768x1024, .f32⟩) main_call23_v13) (fun x i => Host.gather gather_S8x768x4096_S8x1024x1_S8x768x1024_1_2_0_0_2_2_17681 x i),
    TRef.unary (TRef.of (T := ⟨S8x1024, .i1⟩) main_call23_v12) (TRef.of (T := ⟨S8x768x1024, .i1⟩) main_call23_v14) (broadcastInDim S8x768x1024 ![0, 2] bcast_S8x1024_S8x768x1024_0_2),
    TRef.nullary (TRef.of (T := ⟨S_, .f32⟩) main_call23_cst) (constant S_ .f32 0x7FC00000#32),
    TRef.unary (TRef.of (T := ⟨S_, .f32⟩) main_call23_cst) (TRef.of (T := ⟨S8x768x1024, .f32⟩) main_call23_v15) (broadcastInDim S8x768x1024 ![] bcast_S_S8x768x1024),
    TRef.ternary (TRef.of (T := ⟨S8x768x1024, .i1⟩) main_call23_v14) (TRef.of (T := ⟨S8x768x1024, .f32⟩) main_call23_v13) (TRef.of (T := ⟨S8x768x1024, .f32⟩) main_call23_v15) (TRef.of (T := ⟨S8x768x1024, .f32⟩) main_v252) select,
    unary main_v245 main_v253 (broadcastInDim S8x1x1024 ![0, 2] bcast_S8x1024_S8x1x1024_0_2 : (⟨S8x1024, .f32⟩ : BufTy).Contents (Elt F) → (⟨S8x1x1024, .f32⟩ : BufTy).Contents (Elt F)),
    unary main_v253 main_v254 (broadcastInDim S8x768x1024 ![0, 1, 2] bcast_S8x1x1024_S8x768x1024_0_1_2 : (⟨S8x1x1024, .f32⟩ : BufTy).Contents (Elt F) → (⟨S8x768x1024, .f32⟩ : BufTy).Contents (Elt F)),
    binary main_v252 main_v254 main_v255 (mulf : (⟨S8x768x1024, .f32⟩ : BufTy).Contents (Elt F) → (⟨S8x768x1024, .f32⟩ : BufTy).Contents (Elt F) → (⟨S8x768x1024, .f32⟩ : BufTy).Contents (Elt F)),
    binary main_v137 main_v138 main_v256 (mulf : (⟨S8x1024, .f32⟩ : BufTy).Contents (Elt F) → (⟨S8x1024, .f32⟩ : BufTy).Contents (Elt F) → (⟨S8x1024, .f32⟩ : BufTy).Contents (Elt F)),
    unary main_v256 main_v257 (broadcastInDim S8x1x1024 ![0, 2] bcast_S8x1024_S8x1x1024_0_2 : (⟨S8x1024, .f32⟩ : BufTy).Contents (Elt F) → (⟨S8x1x1024, .f32⟩ : BufTy).Contents (Elt F)),
    unary main_v257 main_v258 (broadcastInDim S8x768x1024 ![0, 1, 2] bcast_S8x1x1024_S8x768x1024_0_1_2 : (⟨S8x1x1024, .f32⟩ : BufTy).Contents (Elt F) → (⟨S8x768x1024, .f32⟩ : BufTy).Contents (Elt F)),
    binary main_v255 main_v258 main_v259 (mulf : (⟨S8x768x1024, .f32⟩ : BufTy).Contents (Elt F) → (⟨S8x768x1024, .f32⟩ : BufTy).Contents (Elt F) → (⟨S8x768x1024, .f32⟩ : BufTy).Contents (Elt F)),
    binary main_v233 main_v259 main_v260 (addf : (⟨S8x768x1024, .f32⟩ : BufTy).Contents (Elt F) → (⟨S8x768x1024, .f32⟩ : BufTy).Contents (Elt F) → (⟨S8x768x1024, .f32⟩ : BufTy).Contents (Elt F)),
    unary main_v260 main_v261 ((transpose S8x1024x768 [0, 2, 1] · transposes_S8x768x1024_S8x1024x768_0_2_1) : (⟨S8x768x1024, .f32⟩ : BufTy).Contents (Elt F) → (⟨S8x1024x768, .f32⟩ : BufTy).Contents (Elt F)),
    binary main_arg4 main_arg5 main_v262 (andi : (⟨S8x1024, .i1⟩ : BufTy).Contents (Elt F) → (⟨S8x1024, .i1⟩ : BufTy).Contents (Elt F) → (⟨S8x1024, .i1⟩ : BufTy).Contents (Elt F)),
    unary main_v262 main_v263 (uitofp .f32 : (⟨S8x1024, .i1⟩ : BufTy).Contents (Elt F) → (⟨S8x1024, .f32⟩ : BufTy).Contents (Elt F)),
    binary main_v130 main_v130 main_v264 (mulf : (⟨S8x1024x768, .f32⟩ : BufTy).Contents (Elt F) → (⟨S8x1024x768, .f32⟩ : BufTy).Contents (Elt F) → (⟨S8x1024x768, .f32⟩ : BufTy).Contents (Elt F)),
    nullary main_cst_82 (constant S_ .f32 0x00000000#32),
    binary main_v264 main_cst_82 main_v265 ((fun x v => Host.reduceAdd x v reducesTo_S8x1024x768_S8x1024_d2 h_S_) : (⟨S8x1024x768, .f32⟩ : BufTy).Contents (Elt F) → (⟨S_, .f32⟩ : BufTy).Contents (Elt F) → (⟨S8x1024, .f32⟩ : BufTy).Contents (Elt F)),
    unary main_v265 main_v266 (broadcastInDim S8x1024x1 ![0, 1] bcast_S8x1024_S8x1024x1_0_1 : (⟨S8x1024, .f32⟩ : BufTy).Contents (Elt F) → (⟨S8x1024x1, .f32⟩ : BufTy).Contents (Elt F)),
    unary main_v266 main_v267 (Host.sqrt : (⟨S8x1024x1, .f32⟩ : BufTy).Contents (Elt F) → (⟨S8x1024x1, .f32⟩ : BufTy).Contents (Elt F)),
    nullary main_cst_83 (constant S_ .f32 0x2B8CBCCC#32),
    unary main_cst_83 main_v268 (broadcastInDim S8x1024x1 ![] bcast_S_S8x1024x1 : (⟨S_, .f32⟩ : BufTy).Contents (Elt F) → (⟨S8x1024x1, .f32⟩ : BufTy).Contents (Elt F)),
    binary main_v267 main_v268 main_v269 (maximumf : (⟨S8x1024x1, .f32⟩ : BufTy).Contents (Elt F) → (⟨S8x1024x1, .f32⟩ : BufTy).Contents (Elt F) → (⟨S8x1024x1, .f32⟩ : BufTy).Contents (Elt F)),
    unary main_v269 main_v270 (broadcastInDim S8x1024x768 ![0, 1, 2] bcast_S8x1024x1_S8x1024x768_0_1_2 : (⟨S8x1024x1, .f32⟩ : BufTy).Contents (Elt F) → (⟨S8x1024x768, .f32⟩ : BufTy).Contents (Elt F)),
    binary main_v130 main_v270 main_v271 (Host.divf : (⟨S8x1024x768, .f32⟩ : BufTy).Contents (Elt F) → (⟨S8x1024x768, .f32⟩ : BufTy).Contents (Elt F) → (⟨S8x1024x768, .f32⟩ : BufTy).Contents (Elt F)),
    binary main_v261 main_v261 main_v272 (mulf : (⟨S8x1024x768, .f32⟩ : BufTy).Contents (Elt F) → (⟨S8x1024x768, .f32⟩ : BufTy).Contents (Elt F) → (⟨S8x1024x768, .f32⟩ : BufTy).Contents (Elt F)),
    nullary main_cst_84 (constant S_ .f32 0x00000000#32) ]

/-- The references those operations write, in order. -/
abbrev ops5_W : List (Ref sig .tc) := [main_v226, main_cst_72, main_v227, main_v228, main_v229, main_v230, main_v231, main_v232, main_v233, main_c_73, main_v234, main_v235, main_c_74, main_v236, main_v237, main_v238, main_c_75, main_v239, main_v240, main_v241, main_c_76, main_v242, main_v243, main_v244, main_v245, main_c_77, main_c_78, main_call21_v0, main_call21_v1, main_call21_v2, main_call21_v3, main_call21_v4, main_v246, main_c_79, main_v247, main_v248, main_c_80, main_c_81, main_call22_v0, main_call22_v1, main_call22_v2, main_call22_v3, main_call22_v4, main_v249, main_v250, main_v251, main_call23_c, main_call23_v0, main_call23_v1, main_call23_c_0, main_call23_v2, main_call23_v3, main_call23_v4, main_call23_v5, main_call23_c_1, main_call23_c_2, main_call23_v6, main_call23_v7, main_call23_v8, main_call23_v9, main_call23_v10, main_call23_v11, main_call23_c_3, main_call23_v12, main_call23_v13, main_call23_v14, main_call23_cst, main_call23_v15, main_v252, main_v253, main_v254, main_v255, main_v256, main_v257, main_v258, main_v259, main_v260, main_v261, main_v262, main_v263, main_v264, main_cst_82, main_v265, main_v266, main_v267, main_cst_83, main_v268, main_v269, main_v270, main_v271, main_v272, main_cst_84]

set_option maxRecDepth 8192 in
set_option maxHeartbeats 4000000 in
/-- Every operation of the window touches TensorCore references only. -/
theorem ops5_sub : (ops5 : List (HloOp τ sig (Elt F))).Forall fun op => op.bufs ⊆ tcRefs τ sig :=
  ⟨binary_bufs_sub .., nullary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., binary_bufs_sub .., unary_bufs_sub .., unary_bufs_sub .., binary_bufs_sub .., binary_bufs_sub .., unary_bufs_sub .., binary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub ..⟩

end Cert.ReferenceIdeal.RV

end
-- ==== Proof.RefRunV5.lean ====
/-
  Window 5 of the reference program (operations 525 … 616): the window is the straight line of its operations, each of
  which determines its result, and running it takes the invariant before window 5 to the one before window 6.
-/
import proofs.«416857_j37855841747427_3_alg».proof.Proof.RefRunI
import proofs.«416857_j37855841747427_3_alg».proof.Proof.RefRunT5

noncomputable section

namespace Cert.ReferenceIdeal.RV

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
/-- The window is the straight line of its operations. -/
theorem main_part5_eq (c : Dev nD) : main_part5 (F := F) c = seq ops5 := rfl

set_option maxRecDepth 8192 in
set_option maxHeartbeats 4000000 in
/-- Every operation of the window determines its result. -/
theorem ops5_fresh : ∀ op ∈ (ops5 : List (HloOp τ sig (Elt F))), op.fresh = ∅ :=
  List.forall_iff_forall_mem.1 (by simp only [List.Forall]; repeat' constructor)

variable (x0 x1 : (⟨S8x768x64x64, .f32⟩ : BufTy).Contents (Elt F)) (x2 x3 : (⟨S8x1024x2, .f32⟩ : BufTy).Contents (Elt F))
  (x4 x5 : (⟨S8x1024, .i1⟩ : BufTy).Contents (Elt F))

set_option maxRecDepth 8192 in
set_option maxHeartbeats 4000000 in
/-- Running the window: a buffer the window writes is read off the operations' results, its operands from before the
    window at their stages by the invariant, and the composed term is its stage by unfolding the stages of the window's
    own operations, the typed references' transports being the identity; a buffer written earlier, or an argument, is left alone by every operation of the window. -/
theorem step5 (W : Valuation τ sig (Elt F)) (h : Inv5 x0 x1 x2 x3 x4 x5 W) : Inv6 x0 x1 x2 x3 x4 x5 (after ops5 W) := by
  obtain ⟨a0, a1, a2, a3, a4, a5, h130, h137, h138, h141, h144, h145, h204, h223, h225⟩ := h
  constructor <;> (simp only [ops5]; after_results_simp) <;>
    (try simp only [a0, a1, a2, a3, a4, a5, h130, h137, h138, h141, h144, h145, h204, h223, h225]) <;> (try simp only [TRef.ofBuf, TRef.toBuf, cast_eq]) <;> rfl

end Cert.ReferenceIdeal.RV

end
-- ==== Proof.RefRunT6.lean ====
import proofs.«416857_j37855841747427_3_alg».proof.Proof.Gen.ReferenceIdeal
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The operations of the window main_part6, in order (a called function's operations stand in its call's place). -/
abbrev ops6 : List (HloOp τ sig (Elt F)) :=
  [ binary main_v272 main_cst_84 main_v273 ((fun x v => Host.reduceAdd x v reducesTo_S8x1024x768_S8x1024_d2 h_S_) : (⟨S8x1024x768, .f32⟩ : BufTy).Contents (Elt F) → (⟨S_, .f32⟩ : BufTy).Contents (Elt F) → (⟨S8x1024, .f32⟩ : BufTy).Contents (Elt F)),
    unary main_v273 main_v274 (broadcastInDim S8x1024x1 ![0, 1] bcast_S8x1024_S8x1024x1_0_1 : (⟨S8x1024, .f32⟩ : BufTy).Contents (Elt F) → (⟨S8x1024x1, .f32⟩ : BufTy).Contents (Elt F)),
    unary main_v274 main_v275 (Host.sqrt : (⟨S8x1024x1, .f32⟩ : BufTy).Contents (Elt F) → (⟨S8x1024x1, .f32⟩ : BufTy).Contents (Elt F)),
    nullary main_cst_85 (constant S_ .f32 0x2B8CBCCC#32),
    unary main_cst_85 main_v276 (broadcastInDim S8x1024x1 ![] bcast_S_S8x1024x1 : (⟨S_, .f32⟩ : BufTy).Contents (Elt F) → (⟨S8x1024x1, .f32⟩ : BufTy).Contents (Elt F)),
    binary main_v275 main_v276 main_v277 (maximumf : (⟨S8x1024x1, .f32⟩ : BufTy).Contents (Elt F) → (⟨S8x1024x1, .f32⟩ : BufTy).Contents (Elt F) → (⟨S8x1024x1, .f32⟩ : BufTy).Contents (Elt F)),
    unary main_v277 main_v278 (broadcastInDim S8x1024x768 ![0, 1, 2] bcast_S8x1024x1_S8x1024x768_0_1_2 : (⟨S8x1024x1, .f32⟩ : BufTy).Contents (Elt F) → (⟨S8x1024x768, .f32⟩ : BufTy).Contents (Elt F)),
    binary main_v261 main_v278 main_v279 (Host.divf : (⟨S8x1024x768, .f32⟩ : BufTy).Contents (Elt F) → (⟨S8x1024x768, .f32⟩ : BufTy).Contents (Elt F) → (⟨S8x1024x768, .f32⟩ : BufTy).Contents (Elt F)),
    binary main_v271 main_v279 main_v280 (subf : (⟨S8x1024x768, .f32⟩ : BufTy).Contents (Elt F) → (⟨S8x1024x768, .f32⟩ : BufTy).Contents (Elt F) → (⟨S8x1024x768, .f32⟩ : BufTy).Contents (Elt F)),
    binary main_v280 main_v280 main_v281 (mulf : (⟨S8x1024x768, .f32⟩ : BufTy).Contents (Elt F) → (⟨S8x1024x768, .f32⟩ : BufTy).Contents (Elt F) → (⟨S8x1024x768, .f32⟩ : BufTy).Contents (Elt F)),
    nullary main_cst_86 (constant S_ .f32 0x00000000#32),
    binary main_v281 main_cst_86 main_v282 ((fun x v => Host.reduceAdd x v reducesTo_S8x1024x768_S8x1024_d2 h_S_) : (⟨S8x1024x768, .f32⟩ : BufTy).Contents (Elt F) → (⟨S_, .f32⟩ : BufTy).Contents (Elt F) → (⟨S8x1024, .f32⟩ : BufTy).Contents (Elt F)),
    binary main_v282 main_v263 main_v283 (mulf : (⟨S8x1024, .f32⟩ : BufTy).Contents (Elt F) → (⟨S8x1024, .f32⟩ : BufTy).Contents (Elt F) → (⟨S8x1024, .f32⟩ : BufTy).Contents (Elt F)),
    nullary main_cst_87 (constant S_ .f32 0x00000000#32),
    binary main_v263 main_cst_87 main_v284 ((fun x v => Host.reduceAdd x v reducesTo_S8x1024_S_d0_1 h_S_) : (⟨S8x1024, .f32⟩ : BufTy).Contents (Elt F) → (⟨S_, .f32⟩ : BufTy).Contents (Elt F) → (⟨S_, .f32⟩ : BufTy).Contents (Elt F)),
    nullary main_cst_88 (constant S_ .f32 0x00000000#32),
    binary main_v284 main_cst_88 main_v285 (cmpf .oeq : (⟨S_, .f32⟩ : BufTy).Contents (Elt F) → (⟨S_, .f32⟩ : BufTy).Contents (Elt F) → (⟨S_, .i1⟩ : BufTy).Contents (Elt F)),
    nullary main_cst_89 (constant S_ .f32 0x00000000#32),
    binary main_v283 main_cst_89 main_v286 ((fun x v => Host.reduceAdd x v reducesTo_S8x1024_S_d0_1 h_S_) : (⟨S8x1024, .f32⟩ : BufTy).Contents (Elt F) → (⟨S_, .f32⟩ : BufTy).Contents (Elt F) → (⟨S_, .f32⟩ : BufTy).Contents (Elt F)),
    nullary main_cst_90 (constant S_ .f32 0x3F800000#32),
    binary main_v284 main_cst_90 main_v287 (maximumf : (⟨S_, .f32⟩ : BufTy).Contents (Elt F) → (⟨S_, .f32⟩ : BufTy).Contents (Elt F) → (⟨S_, .f32⟩ : BufTy).Contents (Elt F)),
    binary main_v286 main_v287 main_v288 (Host.divf : (⟨S_, .f32⟩ : BufTy).Contents (Elt F) → (⟨S_, .f32⟩ : BufTy).Contents (Elt F) → (⟨S_, .f32⟩ : BufTy).Contents (Elt F)),
    nullary main_cst_91 (constant S_ .f32 0x00000000#32),
    TRef.unary (TRef.of (T := ⟨S_, .f32⟩) main_cst_91) (TRef.of (T := ⟨S_, .f32⟩) main_call24_v0) id,
    TRef.ternary (TRef.of (T := ⟨S_, .i1⟩) main_v285) (TRef.of (T := ⟨S_, .f32⟩) main_call24_v0) (TRef.of (T := ⟨S_, .f32⟩) main_v288) (TRef.of (T := ⟨S_, .f32⟩) main_v289) select ]

/-- The references those operations write, in order. -/
abbrev ops6_W : List (Ref sig .tc) := [main_v273, main_v274, main_v275, main_cst_85, main_v276, main_v277, main_v278, main_v279, main_v280, main_v281, main_cst_86, main_v282, main_v283, main_cst_87, main_v284, main_cst_88, main_v285, main_cst_89, main_v286, main_cst_90, main_v287, main_v288, main_cst_91, main_call24_v0, main_v289]

set_option maxRecDepth 8192 in
set_option maxHeartbeats 4000000 in
/-- Every operation of the window touches TensorCore references only. -/
theorem ops6_sub : (ops6 : List (HloOp τ sig (Elt F))).Forall fun op => op.bufs ⊆ tcRefs τ sig :=
  ⟨binary_bufs_sub .., unary_bufs_sub .., unary_bufs_sub .., nullary_bufs_sub .., unary_bufs_sub .., binary_bufs_sub .., unary_bufs_sub .., binary_bufs_sub .., binary_bufs_sub .., binary_bufs_sub .., nullary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., unary_bufs_sub .., ternary_bufs_sub ..⟩

end Cert.ReferenceIdeal.RV

end
-- ==== Proof.RefRunV6.lean ====
/-
  Window 6 of the reference program (operations 617 … 641: the second array's normalisation, the masked squared
  distance, the valid count and the guarded mean): the window is the straight line of its operations, each of which
  determines its result, and running it takes the invariant before window 6 to the one at the end.
-/
import proofs.«416857_j37855841747427_3_alg».proof.Proof.RefRunI
import proofs.«416857_j37855841747427_3_alg».proof.Proof.RefRunT6

noncomputable section

namespace Cert.ReferenceIdeal.RV

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
/-- The window is the straight line of its operations. -/
theorem main_part6_eq (c : Dev nD) : main_part6 (F := F) c = seq ops6 := rfl

set_option maxRecDepth 8192 in
set_option maxHeartbeats 4000000 in
/-- Every operation of the window determines its result. -/
theorem ops6_fresh : ∀ op ∈ (ops6 : List (HloOp τ sig (Elt F))), op.fresh = ∅ :=
  List.forall_iff_forall_mem.1 (by simp only [List.Forall]; repeat' constructor)

variable (x0 x1 : (⟨S8x768x64x64, .f32⟩ : BufTy).Contents (Elt F)) (x2 x3 : (⟨S8x1024x2, .f32⟩ : BufTy).Contents (Elt F))
  (x4 x5 : (⟨S8x1024, .i1⟩ : BufTy).Contents (Elt F))

set_option maxRecDepth 8192 in
set_option maxHeartbeats 4000000 in
/-- Running the window: each buffer still read afterwards is read off the operations' results (its own operation's
    function at the operands' contents, any other operation leaving it alone), the operands written before the window
    are at their stages by the invariant, and the composed term is the buffer's stage by unfolding the stages of the
    window's own operations, the typed references' transports being the identity; an argument is left alone by every
    operation of the window. -/
theorem step6 (W : Valuation τ sig (Elt F)) (h : Inv6 x0 x1 x2 x3 x4 x5 W) : Inv7 x0 x1 x2 x3 x4 x5 (after ops6 W) := by
  obtain ⟨a0, a1, a2, a3, a4, a5, h261, h263, h271, h272, h84⟩ := h
  constructor <;> (simp only [ops6]; after_results_simp) <;>
    (try simp only [a0, a1, a2, a3, a4, a5, h261, h263, h271, h272, h84]) <;> (try simp only [TRef.ofBuf, TRef.toBuf, cast_eq]) <;> rfl

end Cert.ReferenceIdeal.RV

end
-- ==== Proof.RefRun.lean ====
/-
  The reference program's run: every weakly fair execution terminates with the result at the last stage of the
  operations' values and the arguments unchanged.
  @main is its seven windows in order, each window the straight line of its operations, so @main is the straight line
  of all of them; the line's final contents are the windows' contents one after the other, and the invariants of the
  windows' starts, each taken to the next by running its window, lead from the launch to the end.
-/
import proofs.«416857_j37855841747427_3_alg».proof.Proof.RefRunV0
import proofs.«416857_j37855841747427_3_alg».proof.Proof.RefRunV1
import proofs.«416857_j37855841747427_3_alg».proof.Proof.RefRunV2
import proofs.«416857_j37855841747427_3_alg».proof.Proof.RefRunV3
import proofs.«416857_j37855841747427_3_alg».proof.Proof.RefRunV4
import proofs.«416857_j37855841747427_3_alg».proof.Proof.RefRunV5
import proofs.«416857_j37855841747427_3_alg».proof.Proof.RefRunV6
import proofs.«416857_j37855841747427_3_alg».proof.Proof.RefRead
import proofs.«416857_j37855841747427_3_alg».proof.Proof.Spec
import Idealize.ShloMosaic.Lib.Pipeline.Frame

noncomputable section

namespace Cert.ReferenceIdeal.RV

open Cert.ReferenceIdeal Cert.ReferenceIdeal.ReadP Idealize.ShloMosaic Idealize.ShloMosaic.TcCoe Idealize.ShloMosaic.ValueIdx Idealize.SL.Sem Idealize.ShloMosaic.StableHlo

variable {F : FTy → Type} [FloatOps F]

/-- @main's 641 operations: the seven windows' in order. -/
abbrev ops : List (HloOp τ sig (Elt F)) := ops0 ++ (ops1 ++ (ops2 ++ (ops3 ++ (ops4 ++ (ops5 ++ ops6)))))

/-- @main is the straight line of its operations: it runs its windows in order, each the line of its own. -/
theorem main_eq (c : Dev nD) : main (F := F) c = seq ops := by
  simp only [ops, seq_append]
  rw [← main_part0_eq c, ← main_part1_eq c, ← main_part2_eq c, ← main_part3_eq c, ← main_part4_eq c, ← main_part5_eq c,
    ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub,
    List.forall_append.2 ⟨ops4_sub, List.forall_append.2 ⟨ops5_sub, ops6_sub⟩⟩⟩⟩⟩⟩

/-- Every operation determines its result: window by window. -/
theorem ops_fresh : ∀ op ∈ (ops : List (HloOp τ sig (Elt F))), op.fresh = ∅ :=
  List.forall_mem_append.2 ⟨ops0_fresh, List.forall_mem_append.2 ⟨ops1_fresh, List.forall_mem_append.2 ⟨ops2_fresh,
    List.forall_mem_append.2 ⟨ops3_fresh, List.forall_mem_append.2 ⟨ops4_fresh, List.forall_mem_append.2 ⟨ops5_fresh, ops6_fresh⟩⟩⟩⟩⟩⟩

/-- The contents after the whole line: the windows run one after the other. -/
theorem after_ops (V : Valuation τ sig (Elt F)) :
    after ops V = after ops6 (after ops5 (after ops4 (after ops3 (after ops2 (after ops1 (after ops0 V)))))) := by
  simp only [ops, StableHlo.after_append]

/-- From contents holding the arguments' values, the whole line ends with the result buffer at its last stage and
    the arguments as they were: the seven windows' steps in turn. -/
theorem inv_end (x0 x1 : (⟨S8x768x64x64, .f32⟩ : BufTy).Contents (Elt F)) (x2 x3 : (⟨S8x1024x2, .f32⟩ : BufTy).Contents (Elt F))
    (x4 x5 : (⟨S8x1024, .i1⟩ : BufTy).Contents (Elt F)) (V : Valuation τ sig (Elt F)) (h : Inv0 x0 x1 x2 x3 x4 x5 V) :
    Inv7 x0 x1 x2 x3 x4 x5 (after ops V) := by
  rw [after_ops]
  exact step6 x0 x1 x2 x3 x4 x5 _ (step5 x0 x1 x2 x3 x4 x5 _ (step4 x0 x1 x2 x3 x4 x5 _ (step3 x0 x1 x2 x3 x4 x5 _
    (step2 x0 x1 x2 x3 x4 x5 _ (step1 x0 x1 x2 x3 x4 x5 _ (step0 x0 x1 x2 x3 x4 x5 V h))))))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v289) = val_main_v289 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      have e := inv_end (F := F) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (launchContents m c) ⟨rfl, rfl, rfl, rfl, rfl, rfl⟩
      exact ⟨(h c main_v289).trans e.v289, (h c main_arg0).trans e.a0, (h c main_arg1).trans e.a1, (h c main_arg2).trans e.a2,
        (h c main_arg3).trans e.a3, (h c main_arg4).trans e.a4, (h c main_arg5).trans e.a5⟩)
    (run_seq scopedRefs_eq scopedSems_eq defs main (fun _ => ops) main_eq (fun _ => ops_sub) m ρ (fun _ => ops_fresh))

end Cert.ReferenceIdeal.RV

end
-- ==== Proof.RefSample.lean ====
/-
  The reference's sampled features: its four clipped gathers, masked and weighted, are the bilinear sample of the
  flattened image's row at the keypoint.

  Each corner's term is one function (`cornerV`) of the flattened image, the corner's two cell tables and its weight
  table: the image taken along the pixel axis at 64 · clip(yc) + clip(xc), times the inside flag, times the weight. The
  take is a gather with the batch on axis 0, the channel as the offset axis and the pixel axis collapsed, whose start index
  is read signed and clamped into [0, 4095], under a bounds mask and a negative-index wrap; both vanish because the pixel
  number is below 4096 (`Cert.Spec.pix_lt`). The four terms of the program are `cornerV` of their stages by unfolding.
-/
import proofs.«416857_j37855841747427_3_alg».proof.Proof.RefRead
import proofs.«416857_j37855841747427_3_alg».proof.Proof.Spec
import Idealize.ShloMosaic.PureOps.Reduce
import Idealize.ShloMosaic.Lib.StableHlo.Predicate

noncomputable section

namespace Cert.ReferenceIdeal.RV

open Cert.ReferenceIdeal Cert.ReferenceIdeal.ReadP Idealize.ShloMosaic Idealize.ShloMosaic.TcCoe Idealize.ShloMosaic.ValueIdx Idealize.SL.Sem Idealize.ShloMosaic.StableHlo

section Lemmas
open Cert.ReferenceIdeal.Gen

/-! ## The gather and the size-one reduction of the reference's `take_along_axis`, read at an index -/

abbrev gd := gather_S8x768x4096_S8x1024x1_S8x768x1024_1_2_0_0_2_2_17681

/-- The gather at (b, c, n): the operand at batch b, channel c, and the start index at (b, n, 0) read signed and
    clamped into [0, 4095]. Axis 0 is a batching axis, axis 1 the offset axis, axis 2 the collapsed, indexed one. -/
theorem gather_at {α : Type} (x : S8x768x4096.Idx → α) (idx : IVec S8x1024x1 32) (b : Fin 8) (ch : Fin 768) (n : Fin 1024) :
    Host.gather gd x idx (ix3 b ch n) = x (ix3 b ch ⟨min (idx (ix3 b n (0 : Fin 1))).toInt.toNat 4095, by omega⟩) := by
  unfold Host.gather
  congr 1
  funext a
  refine Fin.ext ?_
  match a with
  | ⟨0, _⟩ =>
    show gd.start (ix3 b ch n) idx 0 + gd.batchCoord (ix3 b ch n) 0 + gd.offCoord (ix3 b ch n) 0 = b.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, _⟩ =>
    show gd.start (ix3 b ch n) idx 1 + gd.batchCoord (ix3 b ch n) 1 + gd.offCoord (ix3 b ch n) 1 = ch.val
    rw [GatherDims.batchCoord_eq_zero _ _ _ (by decide), Nat.add_zero]
    have hs : gd.start (ix3 b ch n) idx 1 = 0 := by
      unfold GatherDims.start; rw [dif_neg (by decide)]
    rw [hs, Nat.zero_add]
    rfl
  | ⟨2, _⟩ =>
    show gd.start (ix3 b ch n) idx 2 + gd.batchCoord (ix3 b ch n) 2 + gd.offCoord (ix3 b ch n) 2 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gd.startIndexMap from List.mem_singleton.mpr rfl)]
    have hsi : gd.siIdx (ix3 b ch n) ⟨List.idxOf (2 : Fin 3) gd.startIndexMap,
        List.idxOf_lt_length_iff.2 (List.mem_singleton.mpr rfl)⟩ = ix3 b n (0 : Fin 1) := by
      funext c; refine Fin.ext ?_
      match c with
      | ⟨0, _⟩ => rfl
      | ⟨1, _⟩ => rfl
      | ⟨2, _⟩ => rfl
    rw [hsi]
    rfl

/-- A fold over the one-element index set is one application. -/
theorem fold_fin1 {α : Type} (f : α → α → α) [Std.Commutative f] [Std.Associative f] (init : α) (g : Fin 1 → α) :
    (Finset.univ : Finset (Fin 1)).fold f init g = f (g 0) init := by
  rw [Finset.univ_unique, Finset.fold_singleton]; rfl

/-- An AND-reduction along an axis of size one, from the initial bit, is the one element ANDed with it. -/
theorem reduce_at (m : IVec S8x1024x1 1) (init : S_.Idx → BitVec 1) (b : Fin 8) (n : Fin 1024) :
    Host.reduce IntOp.andi m init reducesTo_S8x1024x1_S8x1024_d2 h_S_ (ix2 b n)
      = IntOp.andi (m (ix3 b n (0 : Fin 1))) (init ix0) := by
  have h : S8x1024x1.Reduces [2] S8x1024 := by decide
  rw [Host.reduce_eq_fold_single IntOp.andi m init reducesTo_S8x1024x1_S8x1024_d2 h h_S_]
  have hl : h.lift (ix2 b n) (0 : Fin 1) = ix3 b n (0 : Fin 1) := by
    funext c; refine Fin.ext ?_
    match c with
    | ⟨0, _⟩ => rfl
    | ⟨1, _⟩ => rfl
    | ⟨2, _⟩ => rfl
  have hi : Shape.Idx.first h_S_ = (ix0 : S_.Idx) := funext fun a => a.elim0
  refine (fold_fin1 IntOp.andi _ _).trans ?_
  show IntOp.andi (m (h.lift (ix2 b n) (0 : Fin 1))) (init (Shape.Idx.first h_S_)) = _
  rw [hl, hi]

/-! ## The reference's `take_along_axis` as one function of the image and the pixel-number table -/

/-- The start indices: the pixel numbers laid along [8, 1, 1024], a negative one moved up by 4096, reshaped to
    [8, 1024, 1]. -/
def startIdx (p : IVec S8x1024 32) : IVec S8x1024x1 32 :=
  shapeCast S8x1024x1
    (select
      (cmpi .slt (broadcastInDim S8x1x1024 ![0, 2] bcast_S8x1024_S8x1x1024_0_2 p)
        (broadcastInDim S8x1x1024 ![] bcast_S_S8x1x1024 (constantI S_ 32 0#32)))
      (addi (broadcastInDim S8x1x1024 ![0, 2] bcast_S8x1024_S8x1x1024_0_2 p)
        (broadcastInDim S8x1x1024 ![] bcast_S_S8x1x1024 (constantI S_ 32 4096#32)))
      (broadcastInDim S8x1x1024 ![0, 2] bcast_S8x1024_S8x1x1024_0_2 p))
    shapeCasts_S8x1x1024_S8x1024x1

/-- The bounds mask: 0 ≤ index ≤ 4095, reduced by AND over the index vector's axis of size one. -/
def inBounds (q : IVec S8x1024x1 32) : IVec S8x1024 1 :=
  Host.reduce IntOp.andi
    (andi (cmpi .sge q (broadcastInDim S8x1024x1 ![] bcast_S_S8x1024x1 (constantI S_ 32 0#32)))
      (cmpi .sle q (broadcastInDim S8x1024x1 ![0, 1, 2] bcast_S1x1x1_S8x1024x1_0_1_2
        (broadcastInDim S1x1x1 ![2] bcast_S1_S1x1x1_2 (constantI S1 32 4095#32)))))
    (constantI S_ 1 1#1) reducesTo_S8x1024x1_S8x1024_d2 h_S_

/-- The gathered image where the index is in bounds, else the fill. -/
def takeAlong {α : Type} (x : S8x768x4096.Idx → α) (fill : S8x768x1024.Idx → α) (p : IVec S8x1024 32) :
    S8x768x1024.Idx → α :=
  select (broadcastInDim S8x768x1024 ![0, 2] bcast_S8x1024_S8x768x1024_0_2 (inBounds (startIdx p)))
    (Host.gather gd x (startIdx p)) fill

/-- The start index at (b, n, 0) is the pixel number at (b, n), moved up by 4096 when negative. -/
theorem startIdx_apply (p : IVec S8x1024 32) (b : Fin 8) (n : Fin 1024) :
    startIdx p (ix3 b n (0 : Fin 1))
      = Scalar.select (IntOp.cmpi .slt (p (ix2 b n)) 0#32) (IntOp.addi (p (ix2 b n)) 4096#32) (p (ix2 b n)) := by
  unfold startIdx
  rw [shapeCast_apply _ shapeCasts_S8x1x1024_S8x1024x1 (ix3 b n (0 : Fin 1)) (ix3 b (0 : Fin 1) n)
    (by rw [Shape.rowMajor_val_three, Shape.rowMajor_val_three]
        show (b.val * 1 + 0) * 1024 + n.val = (b.val * 1024 + n.val) * 1 + 0
        omega)]
  have hb : broadcastInDim S8x1x1024 ![0, 2] bcast_S8x1024_S8x1x1024_0_2 p (ix3 b (0 : Fin 1) n) = p (ix2 b n) :=
    broadcastInDim_apply _ bcast_S8x1024_S8x1x1024_0_2 p _ (ix2 b n) (fun a => match a with
      | ⟨0, _⟩ => by show b.val = if (8 : Nat) = 1 then 0 else b.val; rw [if_neg (by decide)]
      | ⟨1, _⟩ => by show n.val = if (1024 : Nat) = 1 then 0 else n.val; rw [if_neg (by decide)])
  show Scalar.select (IntOp.cmpi .slt (broadcastInDim S8x1x1024 ![0, 2] bcast_S8x1024_S8x1x1024_0_2 p (ix3 b (0 : Fin 1) n)) 0#32)
    (IntOp.addi (broadcastInDim S8x1x1024 ![0, 2] bcast_S8x1024_S8x1x1024_0_2 p (ix3 b (0 : Fin 1) n)) 4096#32)
    (broadcastInDim S8x1x1024 ![0, 2] bcast_S8x1024_S8x1x1024_0_2 p (ix3 b (0 : Fin 1) n)) = _
  rw [hb]

/-- The bounds mask at (b, n) is the two compares of the start index at (b, n, 0), ANDed with the initial 1. -/
theorem inBounds_apply (q : IVec S8x1024x1 32) (b : Fin 8) (n : Fin 1024) :
    inBounds q (ix2 b n)
      = IntOp.andi (IntOp.andi (IntOp.cmpi .sge (q (ix3 b n (0 : Fin 1))) 0#32) (IntOp.cmpi .sle (q (ix3 b n (0 : Fin 1))) 4095#32)) 1#1 := by
  unfold inBounds
  rw [reduce_at]
  rfl

/-- Where the pixel number at (b, n) is below 4096, the wrapper vanishes: the result at (b, c, n) is the image at that
    pixel. -/
theorem takeAlong_apply {α : Type} (x : S8x768x4096.Idx → α) (fill : S8x768x1024.Idx → α) (p : IVec S8x1024 32)
    (b : Fin 8) (ch : Fin 768) (n : Fin 1024) (hp : (p (ix2 b n)).toNat < 4096) :
    takeAlong x fill p (ix3 b ch n) = x (ix3 b ch ⟨(p (ix2 b n)).toNat, hp⟩) := by
  have h31 : (p (ix2 b n)).toNat < 2 ^ 31 := by omega
  have hs : startIdx p (ix3 b n (0 : Fin 1)) = p (ix2 b n) := by
    rw [startIdx_apply]
    have hc0 : IntOp.cmpi .slt (p (ix2 b n)) 0#32 = 0#1 := by
      apply eq_zero_of_ne_one; intro hc
      have h := (Predicate.slt_iff_toNat h31 (by decide)).mp hc
      exact absurd h (Nat.not_lt_zero _)
    rw [hc0, select_zero]
  have hm : broadcastInDim S8x768x1024 ![0, 2] bcast_S8x1024_S8x768x1024_0_2 (inBounds (startIdx p)) (ix3 b ch n) = 1#1 := by
    rw [broadcastInDim_apply _ bcast_S8x1024_S8x768x1024_0_2 _ _ (ix2 b n) (fun a => match a with
      | ⟨0, _⟩ => by show b.val = if (8 : Nat) = 1 then 0 else b.val; rw [if_neg (by decide)]
      | ⟨1, _⟩ => by show n.val = if (1024 : Nat) = 1 then 0 else n.val; rw [if_neg (by decide)])]
    rw [inBounds_apply, hs, (Predicate.sge_iff_toNat h31 (by decide)).mpr (Nat.zero_le _),
      (Predicate.sle_iff_toNat h31 (by decide)).mpr (by show _ ≤ 4095; omega)]
    rfl
  unfold takeAlong
  rw [select_apply, hm, select_one, gather_at]
  have hf : (⟨min (startIdx p (ix3 b n (0 : Fin 1))).toInt.toNat 4095, by omega⟩ : Fin 4096) = ⟨(p (ix2 b n)).toNat, hp⟩ := by
    refine Fin.ext ?_
    show min (startIdx p (ix3 b n (0 : Fin 1))).toInt.toNat 4095 = (p (ix2 b n)).toNat
    rw [hs, Predicate.toInt_eq_toNat_of_lt h31, Int.toNat_natCast]
    omega
  rw [hf]

/-! ## One corner's term as one function of the image, the corner's cell tables and its weight table -/

/-- A cell table clipped into [0, 63]. -/
def clipV (v : IVec S8x1024 32) : IVec S8x1024 32 :=
  minsi (broadcastInDim S8x1024 ![] bcast_S_S8x1024 (constantI S_ 32 63#32))
    (maxsi (broadcastInDim S8x1024 ![] bcast_S_S8x1024 (constantI S_ 32 0#32)) v)

/-- The corner's pixel numbers 64 · clip(yc) + clip(xc). -/
def pixV (xc yc : IVec S8x1024 32) : IVec S8x1024 32 :=
  addi (muli (clipV yc) (broadcastInDim S8x1024 ![] bcast_S_S8x1024 (constantI S_ 32 64#32))) (clipV xc)

/-- The corner's inside flags. -/
def insideV (xc yc : IVec S8x1024 32) : IVec S8x1024 1 :=
  andi (andi (andi (cmpi .sge xc (broadcastInDim S8x1024 ![] bcast_S_S8x1024 (constantI S_ 32 0#32)))
      (cmpi .slt xc (broadcastInDim S8x1024 ![] bcast_S_S8x1024 (constantI S_ 32 64#32))))
    (cmpi .sge yc (broadcastInDim S8x1024 ![] bcast_S_S8x1024 (constantI S_ 32 0#32))))
    (cmpi .slt yc (broadcastInDim S8x1024 ![] bcast_S_S8x1024 (constantI S_ 32 64#32)))

/-- A per-keypoint table laid along the channels: [8, 1024] → [8, 1, 1024] → [8, 768, 1024]. -/
def alongCh {α : Type} (y : S8x1024.Idx → α) : S8x768x1024.Idx → α :=
  broadcastInDim S8x768x1024 ![0, 1, 2] bcast_S8x1x1024_S8x768x1024_0_1_2
    (broadcastInDim S8x1x1024 ![0, 2] bcast_S8x1024_S8x1x1024_0_2 y)

theorem alongCh_apply {α : Type} (y : S8x1024.Idx → α) (b : Fin 8) (ch : Fin 768) (n : Fin 1024) :
    alongCh y (ix3 b ch n) = y (ix2 b n) := by
  unfold alongCh
  rw [broadcastInDim_apply _ bcast_S8x1x1024_S8x768x1024_0_1_2 _ _ (ix3 b (0 : Fin 1) n) (fun a => match a with
      | ⟨0, _⟩ => by show b.val = if (8 : Nat) = 1 then 0 else b.val; rw [if_neg (by decide)]
      | ⟨1, _⟩ => by show 0 = if (1 : Nat) = 1 then 0 else ch.val; rw [if_pos rfl]
      | ⟨2, _⟩ => by show n.val = if (1024 : Nat) = 1 then 0 else n.val; rw [if_neg (by decide)]),
    broadcastInDim_apply _ bcast_S8x1024_S8x1x1024_0_2 _ _ (ix2 b n) (fun a => match a with
      | ⟨0, _⟩ => by show b.val = if (8 : Nat) = 1 then 0 else b.val; rw [if_neg (by decide)]
      | ⟨1, _⟩ => by show n.val = if (1024 : Nat) = 1 then 0 else n.val; rw [if_neg (by decide)])]

/-- The fill of the gather wrapper (never selected). -/
def fillV : FVec Ideal S8x768x1024 .f32 :=
  broadcastInDim S8x768x1024 ![] bcast_S_S8x768x1024 (constant S_ .f32 0x7FC00000#32)

/-- The corner's term: the gathered image, times the inside flag as a float, times the weight. -/
def cornerV (img : FVec Ideal S8x768x4096 .f32) (xc yc : IVec S8x1024 32) (w : FVec Ideal S8x1024 .f32) :
    FVec Ideal S8x768x1024 .f32 :=
  mulf (mulf (takeAlong img fillV (pixV xc yc)) (alongCh (uitofp .f32 (insideV xc yc)))) (alongCh w)

/-- The corner's term at (b, c, n) is the specification's. -/
theorem cornerV_apply (img : FVec Ideal S8x768x4096 .f32) (xc yc : IVec S8x1024 32) (w : FVec Ideal S8x1024 .f32)
    (b : Fin 8) (ch : Fin 768) (n : Fin 1024) :
    cornerV img xc yc w (ix3 b ch n)
      = Cert.Spec.cornerAt (fun q => img (ix3 b ch q)) (Cert.Spec.pixFin (xc (ix2 b n)) (yc (ix2 b n)))
          (xc (ix2 b n)) (yc (ix2 b n)) (w (ix2 b n)) := by
  have hp : (pixV xc yc (ix2 b n)).toNat < 4096 := Cert.Spec.pix_lt (xc (ix2 b n)) (yc (ix2 b n))
  unfold cornerV
  rw [mulf_apply, mulf_apply, takeAlong_apply img fillV (pixV xc yc) b ch n hp, alongCh_apply, alongCh_apply]
  rfl

end Lemmas

/-- The first image: the sum of the four corner terms at (b, c, n). -/
theorem sample1 (x0 : (⟨S8x768x64x64, .f32⟩ : BufTy).Contents (Elt Ideal)) (x2 : (⟨S8x1024x2, .f32⟩ : BufTy).Contents (Elt Ideal))
    (b : Fin 8) (ch : Fin 768) (n : Fin 1024) :
    val_main_v129 (F := Ideal) x0 x2 (ix3 b ch n)
      = Cert.Spec.sampleAt (fun q => val_main_v14 (F := Ideal) x0 (ix3 b ch q)) (val_main_v1 (F := Ideal) x2 (ix2 b n)) (val_main_v3 (F := Ideal) x2 (ix2 b n)) := by
  have c1 : val_main_v44 (F := Ideal) x0 x2
      = cornerV (val_main_v14 (F := Ideal) x0) (val_main_v8 (F := Ideal) x2) (val_main_v11 (F := Ideal) x2) (val_main_v41 (F := Ideal) x2) := rfl
  have c2 : val_main_v72 (F := Ideal) x0 x2
      = cornerV (val_main_v14 (F := Ideal) x0) (val_main_v10 (F := Ideal) x2) (val_main_v11 (F := Ideal) x2) (val_main_v69 (F := Ideal) x2) := rfl
  have c3 : val_main_v101 (F := Ideal) x0 x2
      = cornerV (val_main_v14 (F := Ideal) x0) (val_main_v8 (F := Ideal) x2) (val_main_v13 (F := Ideal) x2) (val_main_v98 (F := Ideal) x2) := rfl
  have c4 : val_main_v128 (F := Ideal) x0 x2
      = cornerV (val_main_v14 (F := Ideal) x0) (val_main_v10 (F := Ideal) x2) (val_main_v13 (F := Ideal) x2) (val_main_v125 (F := Ideal) x2) := rfl
  rw [val_main_v129_apply, val_main_v102_apply, val_main_v73_apply, c1, c2, c3, c4,
    cornerV_apply, cornerV_apply, cornerV_apply, cornerV_apply, Ideal.addf_def, Ideal.addf_def, Ideal.addf_def]
  have e8 : val_main_v8 (F := Ideal) x2 (ix2 b n) = Cert.Spec.x0 (val_main_v1 (F := Ideal) x2 (ix2 b n)) := rfl
  have e10 : val_main_v10 (F := Ideal) x2 (ix2 b n) = Cert.Spec.x1 (val_main_v1 (F := Ideal) x2 (ix2 b n)) := rfl
  have e11 : val_main_v11 (F := Ideal) x2 (ix2 b n) = Cert.Spec.x0 (val_main_v3 (F := Ideal) x2 (ix2 b n)) := rfl
  have e13 : val_main_v13 (F := Ideal) x2 (ix2 b n) = Cert.Spec.x1 (val_main_v3 (F := Ideal) x2 (ix2 b n)) := rfl
  have e41 : val_main_v41 (F := Ideal) x2 (ix2 b n)
      = Cert.Spec.w00 (val_main_v1 (F := Ideal) x2 (ix2 b n)) (val_main_v3 (F := Ideal) x2 (ix2 b n)) := rfl
  have e69 : val_main_v69 (F := Ideal) x2 (ix2 b n)
      = Cert.Spec.w10 (val_main_v1 (F := Ideal) x2 (ix2 b n)) (val_main_v3 (F := Ideal) x2 (ix2 b n)) := rfl
  have e98 : val_main_v98 (F := Ideal) x2 (ix2 b n)
      = Cert.Spec.w01 (val_main_v1 (F := Ideal) x2 (ix2 b n)) (val_main_v3 (F := Ideal) x2 (ix2 b n)) := rfl
  have e125 : val_main_v125 (F := Ideal) x2 (ix2 b n)
      = Cert.Spec.w11 (val_main_v1 (F := Ideal) x2 (ix2 b n)) (val_main_v3 (F := Ideal) x2 (ix2 b n)) := rfl
  rw [e8, e10, e11, e13, e41, e69, e98, e125]
  rfl

/-- The second image. -/
theorem sample2 (x1 : (⟨S8x768x64x64, .f32⟩ : BufTy).Contents (Elt Ideal)) (x3 : (⟨S8x1024x2, .f32⟩ : BufTy).Contents (Elt Ideal))
    (b : Fin 8) (ch : Fin 768) (n : Fin 1024) :
    val_main_v260 (F := Ideal) x1 x3 (ix3 b ch n)
      = Cert.Spec.sampleAt (fun q => val_main_v145 (F := Ideal) x1 (ix3 b ch q)) (val_main_v132 (F := Ideal) x3 (ix2 b n)) (val_main_v134 (F := Ideal) x3 (ix2 b n)) := by
  have c1 : val_main_v175 (F := Ideal) x1 x3
      = cornerV (val_main_v145 (F := Ideal) x1) (val_main_v139 (F := Ideal) x3) (val_main_v142 (F := Ideal) x3) (val_main_v172 (F := Ideal) x3) := rfl
  have c2 : val_main_v203 (F := Ideal) x1 x3
      = cornerV (val_main_v145 (F := Ideal) x1) (val_main_v141 (F := Ideal) x3) (val_main_v142 (F := Ideal) x3) (val_main_v200 (F := Ideal) x3) := rfl
  have c3 : val_main_v232 (F := Ideal) x1 x3
      = cornerV (val_main_v145 (F := Ideal) x1) (val_main_v139 (F := Ideal) x3) (val_main_v144 (F := Ideal) x3) (val_main_v229 (F := Ideal) x3) := rfl
  have c4 : val_main_v259 (F := Ideal) x1 x3
      = cornerV (val_main_v145 (F := Ideal) x1) (val_main_v141 (F := Ideal) x3) (val_main_v144 (F := Ideal) x3) (val_main_v256 (F := Ideal) x3) := rfl
  rw [val_main_v260_apply, val_main_v233_apply, val_main_v204_apply, c1, c2, c3, c4,
    cornerV_apply, cornerV_apply, cornerV_apply, cornerV_apply, Ideal.addf_def, Ideal.addf_def, Ideal.addf_def]
  have e8 : val_main_v139 (F := Ideal) x3 (ix2 b n) = Cert.Spec.x0 (val_main_v132 (F := Ideal) x3 (ix2 b n)) := rfl
  have e10 : val_main_v141 (F := Ideal) x3 (ix2 b n) = Cert.Spec.x1 (val_main_v132 (F := Ideal) x3 (ix2 b n)) := rfl
  have e11 : val_main_v142 (F := Ideal) x3 (ix2 b n) = Cert.Spec.x0 (val_main_v134 (F := Ideal) x3 (ix2 b n)) := rfl
  have e13 : val_main_v144 (F := Ideal) x3 (ix2 b n) = Cert.Spec.x1 (val_main_v134 (F := Ideal) x3 (ix2 b n)) := rfl
  have e41 : val_main_v172 (F := Ideal) x3 (ix2 b n)
      = Cert.Spec.w00 (val_main_v132 (F := Ideal) x3 (ix2 b n)) (val_main_v134 (F := Ideal) x3 (ix2 b n)) := rfl
  have e69 : val_main_v200 (F := Ideal) x3 (ix2 b n)
      = Cert.Spec.w10 (val_main_v132 (F := Ideal) x3 (ix2 b n)) (val_main_v134 (F := Ideal) x3 (ix2 b n)) := rfl
  have e98 : val_main_v229 (F := Ideal) x3 (ix2 b n)
      = Cert.Spec.w01 (val_main_v132 (F := Ideal) x3 (ix2 b n)) (val_main_v134 (F := Ideal) x3 (ix2 b n)) := rfl
  have e125 : val_main_v256 (F := Ideal) x3 (ix2 b n)
      = Cert.Spec.w11 (val_main_v132 (F := Ideal) x3 (ix2 b n)) (val_main_v134 (F := Ideal) x3 (ix2 b n)) := rfl
  rw [e8, e10, e11, e13, e41, e69, e98, e125]
  rfl

end Cert.ReferenceIdeal.RV

end
-- ==== Proof.RefLoss.lean ====
/-
  The reference's loss as a function of its two sampled feature arrays and the two masks.

  Each array is transposed to [batch, keypoint, channel]; per keypoint the squares are summed over the channels, the
  square root is bounded below by ε and the feature is divided by it; the squared differences of the two normalised
  features are summed over the channels, multiplied by the validity flag and summed over all keypoints; the result is
  that total over max(count, 1), or the zero word where the count compares equal to the zero word. Every sum starts
  from the zero word, which is 0 on the extended reals, so each is the plain sum of the specification.
-/
import proofs.«416857_j37855841747427_3_alg».proof.Proof.RefRead
import proofs.«416857_j37855841747427_3_alg».proof.Proof.Spec

noncomputable section

namespace Cert.ReferenceIdeal.RV

open Cert.ReferenceIdeal Cert.ReferenceIdeal.ReadP Idealize.ShloMosaic Idealize.ShloMosaic.TcCoe Idealize.ShloMosaic.ValueIdx Idealize.SL.Sem Idealize.ShloMosaic.StableHlo

section
variable (x0 x1 : (⟨S8x768x64x64, .f32⟩ : BufTy).Contents (Elt Ideal)) (x2 x3 : (⟨S8x1024x2, .f32⟩ : BufTy).Contents (Elt Ideal))
    (x4 x5 : (⟨S8x1024, .i1⟩ : BufTy).Contents (Elt Ideal))

/-- The first image's sampled features, by batch element, channel and keypoint. -/
abbrev G1 : Fin 8 → Fin 768 → Fin 1024 → EReal := fun b ch n => val_main_v129 (F := Ideal) x0 x2 (ix3 b ch n)
/-- The second image's sampled features, by batch element, channel and keypoint. -/
abbrev G2 : Fin 8 → Fin 768 → Fin 1024 → EReal := fun b ch n => val_main_v260 (F := Ideal) x1 x3 (ix3 b ch n)

/-! ## The first image: transpose, sum of squares, normaliser, normalised feature -/

/-- The transposed array at (b, n, ch) is the sampled array at (b, ch, n). -/
theorem v130_at (b : Fin 8) (n : Fin 1024) (ch : Fin 768) :
    val_main_v130 (F := Ideal) x0 x2 (ix3 b n ch) = G1 x0 x2 b ch n := by
  rw [val_main_v130_apply]
  exact congrArg _ (funext fun a => by match a with | ⟨0, _⟩ => rfl | ⟨1, _⟩ => rfl | ⟨2, _⟩ => rfl)

/-- The channel sum starts from the zero word, which is 0, and runs over the squares of the keypoint's feature. -/
theorem v265_at (b : Fin 8) (n : Fin 1024) :
    val_main_v265 (F := Ideal) x0 x2 (ix2 b n) = Cert.Spec.sumSq (G1 x0 x2) b n := by
  rw [val_main_v265_apply, val_main_cst_82_apply, Ideal.ofBits_def, Ideal.ofBits_zero_f32, zero_add]
  unfold Cert.Spec.sumSq
  refine Finset.sum_congr rfl fun k _ => ?_
  have h : idx_main_v265 (ix2 b n) k = ix3 b n k :=
    funext fun a => by match a with | ⟨0, _⟩ => rfl | ⟨1, _⟩ => rfl | ⟨2, _⟩ => rfl
  rw [h, val_main_v264_apply, Ideal.mulf_def, v130_at]

/-- The normaliser: the larger of the square root of the sum of squares and ε. -/
theorem v269_at (b : Fin 8) (n : Fin 1024) (z : Fin 1) :
    val_main_v269 (F := Ideal) x0 x2 (ix3 b n z) = Cert.Spec.nrm (G1 x0 x2) b n := by
  rw [val_main_v269_apply, val_main_v267_apply, val_main_v266_apply, val_main_v268_apply, val_main_cst_83_apply,
    Ideal.maximumf_def, Ideal.hostUnary_sqrt_def, Ideal.ofBits_def]
  have h : idx_main_v266 (ix3 b n z) = ix2 b n := funext fun a => by match a with | ⟨0, _⟩ => rfl | ⟨1, _⟩ => rfl
  rw [h, v265_at]
  rfl

/-- The normalised feature. -/
theorem v271_at (b : Fin 8) (n : Fin 1024) (ch : Fin 768) :
    val_main_v271 (F := Ideal) x0 x2 (ix3 b n ch) = Ideal.div (G1 x0 x2 b ch n) (Cert.Spec.nrm (G1 x0 x2) b n) := by
  rw [val_main_v271_apply, Ideal.hostDivf_def, v130_at, val_main_v270_apply]
  have h : idx_main_v270 (ix3 b n ch) = ix3 b n (0 : Fin 1) :=
    funext fun a => by match a with | ⟨0, _⟩ => rfl | ⟨1, _⟩ => rfl | ⟨2, _⟩ => rfl
  rw [h, v269_at]

/-! ## The second image, operation by operation the same -/

theorem v261_at (b : Fin 8) (n : Fin 1024) (ch : Fin 768) :
    val_main_v261 (F := Ideal) x1 x3 (ix3 b n ch) = G2 x1 x3 b ch n := by
  rw [val_main_v261_apply]
  exact congrArg _ (funext fun a => by match a with | ⟨0, _⟩ => rfl | ⟨1, _⟩ => rfl | ⟨2, _⟩ => rfl)

theorem v273_at (b : Fin 8) (n : Fin 1024) :
    val_main_v273 (F := Ideal) x1 x3 (ix2 b n) = Cert.Spec.sumSq (G2 x1 x3) b n := by
  rw [val_main_v273_apply, val_main_cst_84_apply, Ideal.ofBits_def, Ideal.ofBits_zero_f32, zero_add]
  unfold Cert.Spec.sumSq
  refine Finset.sum_congr rfl fun k _ => ?_
  have h : idx_main_v273 (ix2 b n) k = ix3 b n k :=
    funext fun a => by match a with | ⟨0, _⟩ => rfl | ⟨1, _⟩ => rfl | ⟨2, _⟩ => rfl
  rw [h, val_main_v272_apply, Ideal.mulf_def, v261_at]

theorem v277_at (b : Fin 8) (n : Fin 1024) (z : Fin 1) :
    val_main_v277 (F := Ideal) x1 x3 (ix3 b n z) = Cert.Spec.nrm (G2 x1 x3) b n := by
  rw [val_main_v277_apply, val_main_v275_apply, val_main_v274_apply, val_main_v276_apply, val_main_cst_85_apply,
    Ideal.maximumf_def, Ideal.hostUnary_sqrt_def, Ideal.ofBits_def]
  have h : idx_main_v274 (ix3 b n z) = ix2 b n := funext fun a => by match a with | ⟨0, _⟩ => rfl | ⟨1, _⟩ => rfl
  rw [h, v273_at]
  rfl

theorem v279_at (b : Fin 8) (n : Fin 1024) (ch : Fin 768) :
    val_main_v279 (F := Ideal) x1 x3 (ix3 b n ch) = Ideal.div (G2 x1 x3 b ch n) (Cert.Spec.nrm (G2 x1 x3) b n) := by
  rw [val_main_v279_apply, Ideal.hostDivf_def, v261_at, val_main_v278_apply]
  have h : idx_main_v278 (ix3 b n ch) = ix3 b n (0 : Fin 1) :=
    funext fun a => by match a with | ⟨0, _⟩ => rfl | ⟨1, _⟩ => rfl | ⟨2, _⟩ => rfl
  rw [h, v277_at]

/-! ## The squared distance of a keypoint, masked -/

/-- The channel sum of the squared differences of the normalised features. -/
theorem v282_at (b : Fin 8) (n : Fin 1024) :
    val_main_v282 (F := Ideal) x0 x1 x2 x3 (ix2 b n) = Cert.Spec.dist (G1 x0 x2) (G2 x1 x3) b n := by
  rw [val_main_v282_apply, val_main_cst_86_apply, Ideal.ofBits_def, Ideal.ofBits_zero_f32, zero_add]
  unfold Cert.Spec.dist Cert.Spec.diff
  refine Finset.sum_congr rfl fun k _ => ?_
  have h : idx_main_v282 (ix2 b n) k = ix3 b n k :=
    funext fun a => by match a with | ⟨0, _⟩ => rfl | ⟨1, _⟩ => rfl | ⟨2, _⟩ => rfl
  rw [h, val_main_v281_apply, Ideal.mulf_def, val_main_v280_apply, Ideal.subf_def, v271_at, v279_at]

/-- The validity flag of a keypoint as 0 or 1. -/
theorem v263_at (b : Fin 8) (n : Fin 1024) :
    val_main_v263 (F := Ideal) x4 x5 (ix2 b n) = Cert.Spec.valid x4 x5 b n := rfl

/-- The masked squared distance. -/
theorem v283_at (b : Fin 8) (n : Fin 1024) :
    val_main_v283 (F := Ideal) x0 x1 x2 x3 x4 x5 (ix2 b n)
      = Cert.Spec.dist (G1 x0 x2) (G2 x1 x3) b n * Cert.Spec.valid x4 x5 b n := by
  rw [val_main_v283_apply, Ideal.mulf_def, v282_at, v263_at]

/-! ## The two totals over all keypoints and the result -/

/-- The number of valid keypoints. -/
theorem v284_at (i : S_.Idx) : val_main_v284 (F := Ideal) x4 x5 i = Cert.Spec.count x4 x5 := by
  rw [val_main_v284_apply, val_main_cst_87_apply, Ideal.ofBits_def, Ideal.ofBits_zero_f32, zero_add, sum_idx2]
  rfl

/-- The masked total of the squared distances. -/
theorem v286_at (i : S_.Idx) :
    val_main_v286 (F := Ideal) x0 x1 x2 x3 x4 x5 i = Cert.Spec.total (G1 x0 x2) (G2 x1 x3) x4 x5 := by
  rw [val_main_v286_apply, val_main_cst_89_apply, Ideal.ofBits_def, Ideal.ofBits_zero_f32, zero_add, sum_idx2]
  unfold Cert.Spec.total
  exact Finset.sum_congr rfl fun b _ => Finset.sum_congr rfl fun n _ => v283_at x0 x1 x2 x3 x4 x5 b n

end

/-- The result is the specification's loss of the two sampled arrays. -/
theorem lossR (x0 x1 : (⟨S8x768x64x64, .f32⟩ : BufTy).Contents (Elt Ideal)) (x2 x3 : (⟨S8x1024x2, .f32⟩ : BufTy).Contents (Elt Ideal))
    (x4 x5 : (⟨S8x1024, .i1⟩ : BufTy).Contents (Elt Ideal)) :
    val_main_v289 (F := Ideal) x0 x1 x2 x3 x4 x5
      = fun _ => Cert.Spec.loss (fun b ch n => val_main_v129 (F := Ideal) x0 x2 (ix3 b ch n)) (fun b ch n => val_main_v260 (F := Ideal) x1 x3 (ix3 b ch n)) x4 x5 := by
  funext i
  rw [val_main_v289_apply, val_main_v285_apply, val_main_v288_apply, val_main_v287_apply, val_main_call24_v0_apply,
    val_main_cst_88_apply, val_main_cst_90_apply, val_main_cst_91_apply, v284_at, v286_at,
    Ideal.cmpf_def, Ideal.hostDivf_def, Ideal.maximumf_def, Ideal.ofBits_def, Ideal.ofBits_def]
  rfl

end Cert.ReferenceIdeal.RV

end
-- ==== Proof.lean ====
/-
  The keypoint alignment loss: the Pallas program equals its jnp reference over the extended reals.

  Both programs sample two feature maps bilinearly at keypoints, normalise the samples along the channel axis, and
  average the squared distances over the keypoints valid in both masks. The kernel samples by a matrix product: a
  feature row against a column that holds, at each of the four corner pixels of the keypoint's cell, the corner's
  bilinear weight (zero where the corner falls outside the image); the reference gathers the four corner pixels and
  weights them. For finite features and finite keypoint coordinates every quantity is a real number, the product
  distributes over the four one-hot terms, and the two samples agree. From there on both programs compute the same
  sums in different orders and groupings, which agree in any additive commutative monoid.
-/
import proofs.«416857_j37855841747427_3_alg».proof.Defs
import proofs.«416857_j37855841747427_3_alg».proof.Proof.Gen.Kernel
import proofs.«416857_j37855841747427_3_alg».proof.Proof.Gen.Kernel.Skeleton
import proofs.«416857_j37855841747427_3_alg».proof.Proof.Gen.Kernel.Launch
import proofs.«416857_j37855841747427_3_alg».proof.Proof.Gen.Kernel.Points
import proofs.«416857_j37855841747427_3_alg».proof.Proof.Gen.Kernel.Frame
import proofs.«416857_j37855841747427_3_alg».proof.Proof.Gen.KernelIdeal
import proofs.«416857_j37855841747427_3_alg».proof.Proof.Gen.KernelIdeal.Skeleton
import proofs.«416857_j37855841747427_3_alg».proof.Proof.Gen.KernelIdeal.Launch
import proofs.«416857_j37855841747427_3_alg».proof.Proof.Gen.KernelIdeal.Points
import proofs.«416857_j37855841747427_3_alg».proof.Proof.Gen.KernelIdeal.Frame
import proofs.«416857_j37855841747427_3_alg».proof.Proof.Gen.ReferenceIdeal
import proofs.«416857_j37855841747427_3_alg».proof.Proof.Gen.Pre_finite_inputs
import proofs.«416857_j37855841747427_3_alg».proof.Proof.KChain
import proofs.«416857_j37855841747427_3_alg».proof.Proof.Finite
import proofs.«416857_j37855841747427_3_alg».proof.Proof.RefRun
import proofs.«416857_j37855841747427_3_alg».proof.Proof.RefSample
import proofs.«416857_j37855841747427_3_alg».proof.Proof.RefLoss
import Idealize.ShloMosaic.Adequacy
import Idealize.ShloMosaic.Init

noncomputable section

namespace Cert.Proof

open Idealize.ShloMosaic Idealize.ShloMosaic.TcCoe Idealize.ShloMosaic.ValueIdx Idealize.SL.Sem

/-- The three programs run to the end with their arguments unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RV.run (F := Ideal) m ρ)

/-- The idealization rewrote no operation. -/
theorem preserves : Cert.preserves_Kernel_KernelIdeal := trivial

/-- The reference's samples of an image are the kernel's: the same bilinear sample of the same flattened rows at the same
    keypoint coordinates. -/
theorem ref_sample1 (x0 : (⟨Cert.ReferenceIdeal.S8x768x64x64, .f32⟩ : BufTy).Contents (Elt Ideal))
    (x2 : (⟨Cert.ReferenceIdeal.S8x1024x2, .f32⟩ : BufTy).Contents (Elt Ideal)) :
    (fun (b : Fin 8) (ch : Fin 768) (n : Fin 1024) => Cert.ReferenceIdeal.ReadP.val_main_v129 (F := Ideal) x0 x2 (ix3 b ch n))
      = Cert.KernelIdeal.KV.sampled x0 x2 := by
  funext b ch n
  rw [Cert.ReferenceIdeal.RV.sample1]
  rfl

theorem ref_sample2 (x1 : (⟨Cert.ReferenceIdeal.S8x768x64x64, .f32⟩ : BufTy).Contents (Elt Ideal))
    (x3 : (⟨Cert.ReferenceIdeal.S8x1024x2, .f32⟩ : BufTy).Contents (Elt Ideal)) :
    (fun (b : Fin 8) (ch : Fin 768) (n : Fin 1024) => Cert.ReferenceIdeal.ReadP.val_main_v260 (F := Ideal) x1 x3 (ix3 b ch n))
      = Cert.KernelIdeal.KV.sampled x1 x3 := by
  funext b ch n
  rw [Cert.ReferenceIdeal.RV.sample2]
  rfl

/-- From memories agreeing on the arguments both programs end at the specification's loss of the two images' samples. -/
theorem algebraic : Cert.algebraic_KernelIdeal_ReferenceIdeal := by
  intro m ρ m' ρ' hpre hagree
  refine ⟨fun c => fun _ => Cert.Spec.loss
      (Cert.KernelIdeal.KV.sampled (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (Cert.KernelIdeal.KV.sampled (m ((c.tc : Thread Cert.KernelIdeal.nD Cert.KernelIdeal.τ).loc Cert.KernelIdeal.main_arg1))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩) (Cert.KernelIdeal.Gen.run_value m ρ)
    obtain ⟨h0, h1, h2, h3⟩ := Cert.Finite.reals_of_pre _ _ _ _ _ _ (hpre c)
    exact Cert.KernelIdeal.KV.result m ρ c h0 h1 h2 h3
  · refine (θ_run Cert.ReferenceIdeal.defs _ _).mono (fun r h c => ⟨(h c).1.trans ?_, (h c).2⟩)
      (Cert.ReferenceIdeal.RV.run (F := Ideal) m' ρ')
    rw [Cert.ReferenceIdeal.RV.lossR, ref_sample1, ref_sample2,
      (hagree c).1, (hagree c).2.1, (hagree c).2.2.1, (hagree c).2.2.2.1, (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
